-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S11x2 : Shape := ⟨2, ![11, 2]⟩
abbrev S20000x1 : Shape := ⟨2, ![20000, 1]⟩
abbrev S40000x2 : Shape := ⟨2, ![40000, 2]⟩
abbrev S50000x3 : Shape := ⟨2, ![50000, 3]⟩
abbrev S40000x4 : Shape := ⟨2, ![40000, 4]⟩
abbrev S20000x5 : Shape := ⟨2, ![20000, 5]⟩
abbrev S10000x6 : Shape := ⟨2, ![10000, 6]⟩
abbrev S5000x7 : Shape := ⟨2, ![5000, 7]⟩
abbrev S3000x8 : Shape := ⟨2, ![3000, 8]⟩
abbrev S1500x9 : Shape := ⟨2, ![1500, 9]⟩
abbrev S500x10 : Shape := ⟨2, ![500, 10]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S20000x1 : S_.BroadcastsInDim S20000x1 (![] : Fin 0 → Fin S20000x1.rank)
  reducesTo_S20000x1_S_d0_1 : S20000x1.ReducesTo [0, 1] S_
  bcast_S_S40000x2 : S_.BroadcastsInDim S40000x2 (![] : Fin 0 → Fin S40000x2.rank)
  reducesTo_S40000x2_S_d0_1 : S40000x2.ReducesTo [0, 1] S_
  bcast_S_S50000x3 : S_.BroadcastsInDim S50000x3 (![] : Fin 0 → Fin S50000x3.rank)
  reducesTo_S50000x3_S_d0_1 : S50000x3.ReducesTo [0, 1] S_
  bcast_S_S40000x4 : S_.BroadcastsInDim S40000x4 (![] : Fin 0 → Fin S40000x4.rank)
  reducesTo_S40000x4_S_d0_1 : S40000x4.ReducesTo [0, 1] S_
  bcast_S_S20000x5 : S_.BroadcastsInDim S20000x5 (![] : Fin 0 → Fin S20000x5.rank)
  reducesTo_S20000x5_S_d0_1 : S20000x5.ReducesTo [0, 1] S_
  bcast_S_S10000x6 : S_.BroadcastsInDim S10000x6 (![] : Fin 0 → Fin S10000x6.rank)
  reducesTo_S10000x6_S_d0_1 : S10000x6.ReducesTo [0, 1] S_
  bcast_S_S5000x7 : S_.BroadcastsInDim S5000x7 (![] : Fin 0 → Fin S5000x7.rank)
  reducesTo_S5000x7_S_d0_1 : S5000x7.ReducesTo [0, 1] S_
  bcast_S_S3000x8 : S_.BroadcastsInDim S3000x8 (![] : Fin 0 → Fin S3000x8.rank)
  reducesTo_S3000x8_S_d0_1 : S3000x8.ReducesTo [0, 1] S_
  bcast_S_S1500x9 : S_.BroadcastsInDim S1500x9 (![] : Fin 0 → Fin S1500x9.rank)
  reducesTo_S1500x9_S_d0_1 : S1500x9.ReducesTo [0, 1] S_
  bcast_S_S500x10 : S_.BroadcastsInDim S500x10 (![] : Fin 0 → Fin S500x10.rank)
  reducesTo_S500x10_S_d0_1 : S500x10.ReducesTo [0, 1] S_

variable [Facts]

def fn_part4 {F : FTy → Type} [FloatOps F] (main_arg11 : IVec S500x10 32) (main_v66 : IVec S_ 1) : IVec S_ 1 :=
  let main_c_27 : IVec S_ 32 := constantI S_ 32 0#32
  let main_v67 : IVec S500x10 32 := broadcastInDim S500x10 ![] bcast_S_S500x10 main_c_27
  let main_v68 : IVec S500x10 1 := cmpi .sge main_arg11 main_v67
  let main_c_28 : IVec S_ 32 := constantI S_ 32 200000#32
  let main_v69 : IVec S500x10 32 := broadcastInDim S500x10 ![] bcast_S_S500x10 main_c_28
  let main_v70 : IVec S500x10 1 := cmpi .slt main_arg11 main_v69
  let main_v71 : IVec S500x10 1 := andi main_v68 main_v70
  let main_c_29 : IVec S_ 1 := constantI S_ 1 1#1
  let main_v72 : IVec S_ 1 := (fun x v => Host.reduce IntOp.andi x v reducesTo_S500x10_S_d0_1 h_S_) main_v71 main_c_29
  let main_v73 : IVec S_ 1 := andi main_v66 main_v72
  main_v73

def fn_part3 {F : FTy → Type} [FloatOps F] (main_arg9 : IVec S3000x8 32) (main_arg10 : IVec S1500x9 32) (main_arg11 : IVec S500x10 32) (main_v45 : IVec S_ 1) (main_v47 : IVec S5000x7 1) (main_v49 : IVec S5000x7 1) : IVec S_ 1 :=
  let main_v50 : IVec S5000x7 1 := andi main_v47 main_v49
  let main_c_20 : IVec S_ 1 := constantI S_ 1 1#1
  let main_v51 : IVec S_ 1 := (fun x v => Host.reduce IntOp.andi x v reducesTo_S5000x7_S_d0_1 h_S_) main_v50 main_c_20
  let main_v52 : IVec S_ 1 := andi main_v45 main_v51
  let main_c_21 : IVec S_ 32 := constantI S_ 32 0#32
  let main_v53 : IVec S3000x8 32 := broadcastInDim S3000x8 ![] bcast_S_S3000x8 main_c_21
  let main_v54 : IVec S3000x8 1 := cmpi .sge main_arg9 main_v53
  let main_c_22 : IVec S_ 32 := constantI S_ 32 200000#32
  let main_v55 : IVec S3000x8 32 := broadcastInDim S3000x8 ![] bcast_S_S3000x8 main_c_22
  let main_v56 : IVec S3000x8 1 := cmpi .slt main_arg9 main_v55
  let main_v57 : IVec S3000x8 1 := andi main_v54 main_v56
  let main_c_23 : IVec S_ 1 := constantI S_ 1 1#1
  let main_v58 : IVec S_ 1 := (fun x v => Host.reduce IntOp.andi x v reducesTo_S3000x8_S_d0_1 h_S_) main_v57 main_c_23
  let main_v59 : IVec S_ 1 := andi main_v52 main_v58
  let main_c_24 : IVec S_ 32 := constantI S_ 32 0#32
  let main_v60 : IVec S1500x9 32 := broadcastInDim S1500x9 ![] bcast_S_S1500x9 main_c_24
  let main_v61 : IVec S1500x9 1 := cmpi .sge main_arg10 main_v60
  let main_c_25 : IVec S_ 32 := constantI S_ 32 200000#32
  let main_v62 : IVec S1500x9 32 := broadcastInDim S1500x9 ![] bcast_S_S1500x9 main_c_25
  let main_v63 : IVec S1500x9 1 := cmpi .slt main_arg10 main_v62
  let main_v64 : IVec S1500x9 1 := andi main_v61 main_v63
  let main_c_26 : IVec S_ 1 := constantI S_ 1 1#1
  let main_v65 : IVec S_ 1 := (fun x v => Host.reduce IntOp.andi x v reducesTo_S1500x9_S_d0_1 h_S_) main_v64 main_c_26
  let main_v66 : IVec S_ 1 := andi main_v59 main_v65
  fn_part4 (F := F) main_arg11 main_v66

def fn_part2 {F : FTy → Type} [FloatOps F] (main_arg6 : IVec S20000x5 32) (main_arg7 : IVec S10000x6 32) (main_arg8 : IVec S5000x7 32) (main_arg9 : IVec S3000x8 32) (main_arg10 : IVec S1500x9 32) (main_arg11 : IVec S500x10 32) (main_v31 : IVec S_ 1) (main_v32 : IVec S20000x5 32) : IVec S_ 1 :=
  let main_v33 : IVec S20000x5 1 := cmpi .sge main_arg6 main_v32
  let main_c_13 : IVec S_ 32 := constantI S_ 32 200000#32
  let main_v34 : IVec S20000x5 32 := broadcastInDim S20000x5 ![] bcast_S_S20000x5 main_c_13
  let main_v35 : IVec S20000x5 1 := cmpi .slt main_arg6 main_v34
  let main_v36 : IVec S20000x5 1 := andi main_v33 main_v35
  let main_c_14 : IVec S_ 1 := constantI S_ 1 1#1
  let main_v37 : IVec S_ 1 := (fun x v => Host.reduce IntOp.andi x v reducesTo_S20000x5_S_d0_1 h_S_) main_v36 main_c_14
  let main_v38 : IVec S_ 1 := andi main_v31 main_v37
  let main_c_15 : IVec S_ 32 := constantI S_ 32 0#32
  let main_v39 : IVec S10000x6 32 := broadcastInDim S10000x6 ![] bcast_S_S10000x6 main_c_15
  let main_v40 : IVec S10000x6 1 := cmpi .sge main_arg7 main_v39
  let main_c_16 : IVec S_ 32 := constantI S_ 32 200000#32
  let main_v41 : IVec S10000x6 32 := broadcastInDim S10000x6 ![] bcast_S_S10000x6 main_c_16
  let main_v42 : IVec S10000x6 1 := cmpi .slt main_arg7 main_v41
  let main_v43 : IVec S10000x6 1 := andi main_v40 main_v42
  let main_c_17 : IVec S_ 1 := constantI S_ 1 1#1
  let main_v44 : IVec S_ 1 := (fun x v => Host.reduce IntOp.andi x v reducesTo_S10000x6_S_d0_1 h_S_) main_v43 main_c_17
  let main_v45 : IVec S_ 1 := andi main_v38 main_v44
  let main_c_18 : IVec S_ 32 := constantI S_ 32 0#32
  let main_v46 : IVec S5000x7 32 := broadcastInDim S5000x7 ![] bcast_S_S5000x7 main_c_18
  let main_v47 : IVec S5000x7 1 := cmpi .sge main_arg8 main_v46
  let main_c_19 : IVec S_ 32 := constantI S_ 32 200000#32
  let main_v48 : IVec S5000x7 32 := broadcastInDim S5000x7 ![] bcast_S_S5000x7 main_c_19
  let main_v49 : IVec S5000x7 1 := cmpi .slt main_arg8 main_v48
  fn_part3 (F := F) main_arg9 main_arg10 main_arg11 main_v45 main_v47 main_v49

def fn_part1 {F : FTy → Type} [FloatOps F] (main_arg4 : IVec S50000x3 32) (main_arg5 : IVec S40000x4 32) (main_arg6 : IVec S20000x5 32) (main_arg7 : IVec S10000x6 32) (main_arg8 : IVec S5000x7 32) (main_arg9 : IVec S3000x8 32) (main_arg10 : IVec S1500x9 32) (main_arg11 : IVec S500x10 32) (main_v10 : IVec S_ 1) (main_v15 : IVec S40000x2 1) (main_c_5 : IVec S_ 1) : IVec S_ 1 :=
  let main_v16 : IVec S_ 1 := (fun x v => Host.reduce IntOp.andi x v reducesTo_S40000x2_S_d0_1 h_S_) main_v15 main_c_5
  let main_v17 : IVec S_ 1 := andi main_v10 main_v16
  let main_c_6 : IVec S_ 32 := constantI S_ 32 0#32
  let main_v18 : IVec S50000x3 32 := broadcastInDim S50000x3 ![] bcast_S_S50000x3 main_c_6
  let main_v19 : IVec S50000x3 1 := cmpi .sge main_arg4 main_v18
  let main_c_7 : IVec S_ 32 := constantI S_ 32 200000#32
  let main_v20 : IVec S50000x3 32 := broadcastInDim S50000x3 ![] bcast_S_S50000x3 main_c_7
  let main_v21 : IVec S50000x3 1 := cmpi .slt main_arg4 main_v20
  let main_v22 : IVec S50000x3 1 := andi main_v19 main_v21
  let main_c_8 : IVec S_ 1 := constantI S_ 1 1#1
  let main_v23 : IVec S_ 1 := (fun x v => Host.reduce IntOp.andi x v reducesTo_S50000x3_S_d0_1 h_S_) main_v22 main_c_8
  let main_v24 : IVec S_ 1 := andi main_v17 main_v23
  let main_c_9 : IVec S_ 32 := constantI S_ 32 0#32
  let main_v25 : IVec S40000x4 32 := broadcastInDim S40000x4 ![] bcast_S_S40000x4 main_c_9
  let main_v26 : IVec S40000x4 1 := cmpi .sge main_arg5 main_v25
  let main_c_10 : IVec S_ 32 := constantI S_ 32 200000#32
  let main_v27 : IVec S40000x4 32 := broadcastInDim S40000x4 ![] bcast_S_S40000x4 main_c_10
  let main_v28 : IVec S40000x4 1 := cmpi .slt main_arg5 main_v27
  let main_v29 : IVec S40000x4 1 := andi main_v26 main_v28
  let main_c_11 : IVec S_ 1 := constantI S_ 1 1#1
  let main_v30 : IVec S_ 1 := (fun x v => Host.reduce IntOp.andi x v reducesTo_S40000x4_S_d0_1 h_S_) main_v29 main_c_11
  let main_v31 : IVec S_ 1 := andi main_v24 main_v30
  let main_c_12 : IVec S_ 32 := constantI S_ 32 0#32
  let main_v32 : IVec S20000x5 32 := broadcastInDim S20000x5 ![] bcast_S_S20000x5 main_c_12
  fn_part2 (F := F) main_arg6 main_arg7 main_arg8 main_arg9 main_arg10 main_arg11 main_v31 main_v32

def fn {F : FTy → Type} [FloatOps F] (main_arg0 : FVec F S200000x128 .f32) (main_arg1 : IVec S11x2 32) (main_arg2 : IVec S20000x1 32) (main_arg3 : IVec S40000x2 32) (main_arg4 : IVec S50000x3 32) (main_arg5 : IVec S40000x4 32) (main_arg6 : IVec S20000x5 32) (main_arg7 : IVec S10000x6 32) (main_arg8 : IVec S5000x7 32) (main_arg9 : IVec S3000x8 32) (main_arg10 : IVec S1500x9 32) (main_arg11 : IVec S500x10 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_c_0 : IVec S_ 32 := constantI S_ 32 0#32
  let main_v4 : IVec S20000x1 32 := broadcastInDim S20000x1 ![] bcast_S_S20000x1 main_c_0
  let main_v5 : IVec S20000x1 1 := cmpi .sge main_arg2 main_v4
  let main_c_1 : IVec S_ 32 := constantI S_ 32 200000#32
  let main_v6 : IVec S20000x1 32 := broadcastInDim S20000x1 ![] bcast_S_S20000x1 main_c_1
  let main_v7 : IVec S20000x1 1 := cmpi .slt main_arg2 main_v6
  let main_v8 : IVec S20000x1 1 := andi main_v5 main_v7
  let main_c_2 : IVec S_ 1 := constantI S_ 1 1#1
  let main_v9 : IVec S_ 1 := (fun x v => Host.reduce IntOp.andi x v reducesTo_S20000x1_S_d0_1 h_S_) main_v8 main_c_2
  let main_v10 : IVec S_ 1 := andi main_v3 main_v9
  let main_c_3 : IVec S_ 32 := constantI S_ 32 0#32
  let main_v11 : IVec S40000x2 32 := broadcastInDim S40000x2 ![] bcast_S_S40000x2 main_c_3
  let main_v12 : IVec S40000x2 1 := cmpi .sge main_arg3 main_v11
  let main_c_4 : IVec S_ 32 := constantI S_ 32 200000#32
  let main_v13 : IVec S40000x2 32 := broadcastInDim S40000x2 ![] bcast_S_S40000x2 main_c_4
  let main_v14 : IVec S40000x2 1 := cmpi .slt main_arg3 main_v13
  let main_v15 : IVec S40000x2 1 := andi main_v12 main_v14
  let main_c_5 : IVec S_ 1 := constantI S_ 1 1#1
  fn_part1 (F := F) main_arg4 main_arg5 main_arg6 main_arg7 main_arg8 main_arg9 main_arg10 main_arg11 main_v10 main_v15 main_c_5
-- ==== Kernel.lean ====
abbrev S200000x128 : Shape := ⟨2, ![200000, 128]⟩
abbrev S11x2 : Shape := ⟨2, ![11, 2]⟩
abbrev S20000x1 : Shape := ⟨2, ![20000, 1]⟩
abbrev S40000x2 : Shape := ⟨2, ![40000, 2]⟩
abbrev S50000x3 : Shape := ⟨2, ![50000, 3]⟩
abbrev S40000x4 : Shape := ⟨2, ![40000, 4]⟩
abbrev S20000x5 : Shape := ⟨2, ![20000, 5]⟩
abbrev S10000x6 : Shape := ⟨2, ![10000, 6]⟩
abbrev S5000x7 : Shape := ⟨2, ![5000, 7]⟩
abbrev S3000x8 : Shape := ⟨2, ![3000, 8]⟩
abbrev S1500x9 : Shape := ⟨2, ![1500, 9]⟩
abbrev S500x10 : Shape := ⟨2, ![500, 10]⟩
abbrev S2000x128 : Shape := ⟨2, ![2000, 128]⟩
abbrev S_ : Shape := ⟨0, ![]⟩
abbrev S20000x1x1 : Shape := ⟨3, ![20000, 1, 1]⟩
abbrev S1 : Shape := ⟨1, ![1]⟩
abbrev S1x1x1 : Shape := ⟨3, ![1, 1, 1]⟩
abbrev S20000x1x128 : Shape := ⟨3, ![20000, 1, 128]⟩
abbrev S20000x128 : Shape := ⟨2, ![20000, 128]⟩
abbrev S40000x2x1 : Shape := ⟨3, ![40000, 2, 1]⟩
abbrev S40000x2x128 : Shape := ⟨3, ![40000, 2, 128]⟩
abbrev S2000x2x128 : Shape := ⟨3, ![2000, 2, 128]⟩
abbrev S50000x3x1 : Shape := ⟨3, ![50000, 3, 1]⟩
abbrev S50000x3x128 : Shape := ⟨3, ![50000, 3, 128]⟩
abbrev S2000x3x128 : Shape := ⟨3, ![2000, 3, 128]⟩
abbrev S40000x4x1 : Shape := ⟨3, ![40000, 4, 1]⟩
abbrev S40000x4x128 : Shape := ⟨3, ![40000, 4, 128]⟩
abbrev S2000x4x128 : Shape := ⟨3, ![2000, 4, 128]⟩
abbrev S20000x5x1 : Shape := ⟨3, ![20000, 5, 1]⟩
abbrev S20000x5x128 : Shape := ⟨3, ![20000, 5, 128]⟩
abbrev S2000x5x128 : Shape := ⟨3, ![2000, 5, 128]⟩
abbrev S10000x6x1 : Shape := ⟨3, ![10000, 6, 1]⟩
abbrev S10000x6x128 : Shape := ⟨3, ![10000, 6, 128]⟩
abbrev S2000x6x128 : Shape := ⟨3, ![2000, 6, 128]⟩
abbrev S5000x7x1 : Shape := ⟨3, ![5000, 7, 1]⟩
abbrev S5000x7x128 : Shape := ⟨3, ![5000, 7, 128]⟩
abbrev S1000x128 : Shape := ⟨2, ![1000, 128]⟩
abbrev S1000x7x128 : Shape := ⟨3, ![1000, 7, 128]⟩
abbrev S3000x8x1 : Shape := ⟨3, ![3000, 8, 1]⟩
abbrev S3000x8x128 : Shape := ⟨3, ![3000, 8, 128]⟩
abbrev S1000x8x128 : Shape := ⟨3, ![1000, 8, 128]⟩
abbrev S1500x9x1 : Shape := ⟨3, ![1500, 9, 1]⟩
abbrev S1500x9x128 : Shape := ⟨3, ![1500, 9, 128]⟩
abbrev S1500x128 : Shape := ⟨2, ![1500, 128]⟩
abbrev S500x10x1 : Shape := ⟨3, ![500, 10, 1]⟩
abbrev S500x10x128 : Shape := ⟨3, ![500, 10, 128]⟩
abbrev S500x128 : Shape := ⟨2, ![500, 128]⟩

abbrev nBuf : Space → Nat
  | .hbm => 262
  | .vmem => 74
  | .smem => 0
  | _ => 0

abbrev hbmTy0_0 (i : Nat) : BufTy := match i % 128 with
  | 0 => ⟨S200000x128, .f32⟩
  | 1 => ⟨S11x2, .i32⟩
  | 2 => ⟨S20000x1, .i32⟩
  | 3 => ⟨S40000x2, .i32⟩
  | 4 => ⟨S50000x3, .i32⟩
  | 5 => ⟨S40000x4, .i32⟩
  | 6 => ⟨S20000x5, .i32⟩
  | 7 => ⟨S10000x6, .i32⟩
  | 8 => ⟨S5000x7, .i32⟩
  | 9 => ⟨S3000x8, .i32⟩
  | 10 => ⟨S1500x9, .i32⟩
  | 11 => ⟨S500x10, .i32⟩
  | 12 => ⟨S200000x128, .f32⟩
  | 13 => ⟨S_, .i32⟩
  | 14 => ⟨S20000x1, .i32⟩
  | 15 => ⟨S20000x1, .i1⟩
  | 16 => ⟨S_, .i32⟩
  | 17 => ⟨S20000x1, .i32⟩
  | 18 => ⟨S20000x1, .i32⟩
  | 19 => ⟨S20000x1, .i32⟩
  | 20 => ⟨S20000x1x1, .i32⟩
  | 21 => ⟨S1, .i32⟩
  | 22 => ⟨S_, .i32⟩
  | 23 => ⟨S20000x1x1, .i32⟩
  | 24 => ⟨S20000x1x1, .i1⟩
  | 25 => ⟨S1x1x1, .i32⟩
  | 26 => ⟨S20000x1x1, .i32⟩
  | 27 => ⟨S20000x1x1, .i1⟩
  | 28 => ⟨S20000x1x1, .i1⟩
  | 29 => ⟨S_, .i1⟩
  | 30 => ⟨S20000x1, .i1⟩
  | 31 => ⟨S20000x1x128, .f32⟩
  | 32 => ⟨S20000x1x128, .i1⟩
  | 33 => ⟨S_, .f32⟩
  | 34 => ⟨S20000x1x128, .f32⟩
  | 35 => ⟨S20000x1x128, .f32⟩
  | 36 => ⟨S20000x128, .f32⟩
  | 37 => ⟨S200000x128, .f32⟩
  | 38 => ⟨S_, .i32⟩
  | 39 => ⟨S40000x2, .i32⟩
  | 40 => ⟨S40000x2, .i1⟩
  | 41 => ⟨S_, .i32⟩
  | 42 => ⟨S40000x2, .i32⟩
  | 43 => ⟨S40000x2, .i32⟩
  | 44 => ⟨S40000x2, .i32⟩
  | 45 => ⟨S40000x2x1, .i32⟩
  | 46 => ⟨S1, .i32⟩
  | 47 => ⟨S_, .i32⟩
  | 48 => ⟨S40000x2x1, .i32⟩
  | 49 => ⟨S40000x2x1, .i1⟩
  | 50 => ⟨S1x1x1, .i32⟩
  | 51 => ⟨S40000x2x1, .i32⟩
  | 52 => ⟨S40000x2x1, .i1⟩
  | 53 => ⟨S40000x2x1, .i1⟩
  | 54 => ⟨S_, .i1⟩
  | 55 => ⟨S40000x2, .i1⟩
  | 56 => ⟨S40000x2x128, .f32⟩
  | 57 => ⟨S40000x2x128, .i1⟩
  | 58 => ⟨S_, .f32⟩
  | 59 => ⟨S40000x2x128, .f32⟩
  | 60 => ⟨S40000x2x128, .f32⟩
  | 61 => ⟨S200000x128, .f32⟩
  | 62 => ⟨S_, .i32⟩
  | 63 => ⟨S50000x3, .i32⟩
  | 64 => ⟨S50000x3, .i1⟩
  | 65 => ⟨S_, .i32⟩
  | 66 => ⟨S50000x3, .i32⟩
  | 67 => ⟨S50000x3, .i32⟩
  | 68 => ⟨S50000x3, .i32⟩
  | 69 => ⟨S50000x3x1, .i32⟩
  | 70 => ⟨S1, .i32⟩
  | 71 => ⟨S_, .i32⟩
  | 72 => ⟨S50000x3x1, .i32⟩
  | 73 => ⟨S50000x3x1, .i1⟩
  | 74 => ⟨S1x1x1, .i32⟩
  | 75 => ⟨S50000x3x1, .i32⟩
  | 76 => ⟨S50000x3x1, .i1⟩
  | 77 => ⟨S50000x3x1, .i1⟩
  | 78 => ⟨S_, .i1⟩
  | 79 => ⟨S50000x3, .i1⟩
  | 80 => ⟨S50000x3x128, .f32⟩
  | 81 => ⟨S50000x3x128, .i1⟩
  | 82 => ⟨S_, .f32⟩
  | 83 => ⟨S50000x3x128, .f32⟩
  | 84 => ⟨S50000x3x128, .f32⟩
  | 85 => ⟨S200000x128, .f32⟩
  | 86 => ⟨S_, .i32⟩
  | 87 => ⟨S40000x4, .i32⟩
  | 88 => ⟨S40000x4, .i1⟩
  | 89 => ⟨S_, .i32⟩
  | 90 => ⟨S40000x4, .i32⟩
  | 91 => ⟨S40000x4, .i32⟩
  | 92 => ⟨S40000x4, .i32⟩
  | 93 => ⟨S40000x4x1, .i32⟩
  | 94 => ⟨S1, .i32⟩
  | 95 => ⟨S_, .i32⟩
  | 96 => ⟨S40000x4x1, .i32⟩
  | 97 => ⟨S40000x4x1, .i1⟩
  | 98 => ⟨S1x1x1, .i32⟩
  | 99 => ⟨S40000x4x1, .i32⟩
  | 100 => ⟨S40000x4x1, .i1⟩
  | 101 => ⟨S40000x4x1, .i1⟩
  | 102 => ⟨S_, .i1⟩
  | 103 => ⟨S40000x4, .i1⟩
  | 104 => ⟨S40000x4x128, .f32⟩
  | 105 => ⟨S40000x4x128, .i1⟩
  | 106 => ⟨S_, .f32⟩
  | 107 => ⟨S40000x4x128, .f32⟩
  | 108 => ⟨S40000x4x128, .f32⟩
  | 109 => ⟨S200000x128, .f32⟩
  | 110 => ⟨S_, .i32⟩
  | 111 => ⟨S20000x5, .i32⟩
  | 112 => ⟨S20000x5, .i1⟩
  | 113 => ⟨S_, .i32⟩
  | 114 => ⟨S20000x5, .i32⟩
  | 115 => ⟨S20000x5, .i32⟩
  | 116 => ⟨S20000x5, .i32⟩
  | 117 => ⟨S20000x5x1, .i32⟩
  | 118 => ⟨S1, .i32⟩
  | 119 => ⟨S_, .i32⟩
  | 120 => ⟨S20000x5x1, .i32⟩
  | 121 => ⟨S20000x5x1, .i1⟩
  | 122 => ⟨S1x1x1, .i32⟩
  | 123 => ⟨S20000x5x1, .i32⟩
  | 124 => ⟨S20000x5x1, .i1⟩
  | 125 => ⟨S20000x5x1, .i1⟩
  | 126 => ⟨S_, .i1⟩
  | 127 => ⟨S20000x5, .i1⟩
  | _ => ⟨S200000x128, .f32⟩

abbrev hbmTy0_1 (i : Nat) : BufTy := match i % 128 with
  | 0 => ⟨S20000x5x128, .f32⟩
  | 1 => ⟨S20000x5x128, .i1⟩
  | 2 => ⟨S_, .f32⟩
  | 3 => ⟨S20000x5x128, .f32⟩
  | 4 => ⟨S20000x5x128, .f32⟩
  | 5 => ⟨S200000x128, .f32⟩
  | 6 => ⟨S_, .i32⟩
  | 7 => ⟨S10000x6, .i32⟩
  | 8 => ⟨S10000x6, .i1⟩
  | 9 => ⟨S_, .i32⟩
  | 10 => ⟨S10000x6, .i32⟩
  | 11 => ⟨S10000x6, .i32⟩
  | 12 => ⟨S10000x6, .i32⟩
  | 13 => ⟨S10000x6x1, .i32⟩
  | 14 => ⟨S1, .i32⟩
  | 15 => ⟨S_, .i32⟩
  | 16 => ⟨S10000x6x1, .i32⟩
  | 17 => ⟨S10000x6x1, .i1⟩
  | 18 => ⟨S1x1x1, .i32⟩
  | 19 => ⟨S10000x6x1, .i32⟩
  | 20 => ⟨S10000x6x1, .i1⟩
  | 21 => ⟨S10000x6x1, .i1⟩
  | 22 => ⟨S_, .i1⟩
  | 23 => ⟨S10000x6, .i1⟩
  | 24 => ⟨S10000x6x128, .f32⟩
  | 25 => ⟨S10000x6x128, .i1⟩
  | 26 => ⟨S_, .f32⟩
  | 27 => ⟨S10000x6x128, .f32⟩
  | 28 => ⟨S10000x6x128, .f32⟩
  | 29 => ⟨S200000x128, .f32⟩
  | 30 => ⟨S_, .i32⟩
  | 31 => ⟨S5000x7, .i32⟩
  | 32 => ⟨S5000x7, .i1⟩
  | 33 => ⟨S_, .i32⟩
  | 34 => ⟨S5000x7, .i32⟩
  | 35 => ⟨S5000x7, .i32⟩
  | 36 => ⟨S5000x7, .i32⟩
  | 37 => ⟨S5000x7x1, .i32⟩
  | 38 => ⟨S1, .i32⟩
  | 39 => ⟨S_, .i32⟩
  | 40 => ⟨S5000x7x1, .i32⟩
  | 41 => ⟨S5000x7x1, .i1⟩
  | 42 => ⟨S1x1x1, .i32⟩
  | 43 => ⟨S5000x7x1, .i32⟩
  | 44 => ⟨S5000x7x1, .i1⟩
  | 45 => ⟨S5000x7x1, .i1⟩
  | 46 => ⟨S_, .i1⟩
  | 47 => ⟨S5000x7, .i1⟩
  | 48 => ⟨S5000x7x128, .f32⟩
  | 49 => ⟨S5000x7x128, .i1⟩
  | 50 => ⟨S_, .f32⟩
  | 51 => ⟨S5000x7x128, .f32⟩
  | 52 => ⟨S5000x7x128, .f32⟩
  | 53 => ⟨S200000x128, .f32⟩
  | 54 => ⟨S_, .i32⟩
  | 55 => ⟨S3000x8, .i32⟩
  | 56 => ⟨S3000x8, .i1⟩
  | 57 => ⟨S_, .i32⟩
  | 58 => ⟨S3000x8, .i32⟩
  | 59 => ⟨S3000x8, .i32⟩
  | 60 => ⟨S3000x8, .i32⟩
  | 61 => ⟨S3000x8x1, .i32⟩
  | 62 => ⟨S1, .i32⟩
  | 63 => ⟨S_, .i32⟩
  | 64 => ⟨S3000x8x1, .i32⟩
  | 65 => ⟨S3000x8x1, .i1⟩
  | 66 => ⟨S1x1x1, .i32⟩
  | 67 => ⟨S3000x8x1, .i32⟩
  | 68 => ⟨S3000x8x1, .i1⟩
  | 69 => ⟨S3000x8x1, .i1⟩
  | 70 => ⟨S_, .i1⟩
  | 71 => ⟨S3000x8, .i1⟩
  | 72 => ⟨S3000x8x128, .f32⟩
  | 73 => ⟨S3000x8x128, .i1⟩
  | 74 => ⟨S_, .f32⟩
  | 75 => ⟨S3000x8x128, .f32⟩
  | 76 => ⟨S3000x8x128, .f32⟩
  | 77 => ⟨S200000x128, .f32⟩
  | 78 => ⟨S_, .i32⟩
  | 79 => ⟨S1500x9, .i32⟩
  | 80 => ⟨S1500x9, .i1⟩
  | 81 => ⟨S_, .i32⟩
  | 82 => ⟨S1500x9, .i32⟩
  | 83 => ⟨S1500x9, .i32⟩
  | 84 => ⟨S1500x9, .i32⟩
  | 85 => ⟨S1500x9x1, .i32⟩
  | 86 => ⟨S1, .i32⟩
  | 87 => ⟨S_, .i32⟩
  | 88 => ⟨S1500x9x1, .i32⟩
  | 89 => ⟨S1500x9x1, .i1⟩
  | 90 => ⟨S1x1x1, .i32⟩
  | 91 => ⟨S1500x9x1, .i32⟩
  | 92 => ⟨S1500x9x1, .i1⟩
  | 93 => ⟨S1500x9x1, .i1⟩
  | 94 => ⟨S_, .i1⟩
  | 95 => ⟨S1500x9, .i1⟩
  | 96 => ⟨S1500x9x128, .f32⟩
  | 97 => ⟨S1500x9x128, .i1⟩
  | 98 => ⟨S_, .f32⟩
  | 99 => ⟨S1500x9x128, .f32⟩
  | 100 => ⟨S1500x9x128, .f32⟩
  | 101 => ⟨S1500x128, .f32⟩
  | 102 => ⟨S1500x128, .f32⟩
  | 103 => ⟨S_, .i32⟩
  | 104 => ⟨S1, .i32⟩
  | 105 => ⟨S200000x128, .f32⟩
  | 106 => ⟨S_, .i32⟩
  | 107 => ⟨S500x10, .i32⟩
  | 108 => ⟨S500x10, .i1⟩
  | 109 => ⟨S_, .i32⟩
  | 110 => ⟨S500x10, .i32⟩
  | 111 => ⟨S500x10, .i32⟩
  | 112 => ⟨S500x10, .i32⟩
  | 113 => ⟨S500x10x1, .i32⟩
  | 114 => ⟨S1, .i32⟩
  | 115 => ⟨S_, .i32⟩
  | 116 => ⟨S500x10x1, .i32⟩
  | 117 => ⟨S500x10x1, .i1⟩
  | 118 => ⟨S1x1x1, .i32⟩
  | 119 => ⟨S500x10x1, .i32⟩
  | 120 => ⟨S500x10x1, .i1⟩
  | 121 => ⟨S500x10x1, .i1⟩
  | 122 => ⟨S_, .i1⟩
  | 123 => ⟨S500x10, .i1⟩
  | 124 => ⟨S500x10x128, .f32⟩
  | 125 => ⟨S500x10x128, .i1⟩
  | 126 => ⟨S_, .f32⟩
  | 127 => ⟨S500x10x128, .f32⟩
  | _ => ⟨S200000x128, .f32⟩

abbrev hbmTy0_2 (i : Nat) : BufTy := match i % 128 with
  | 0 => ⟨S500x10x128, .f32⟩
  | 1 => ⟨S500x128, .f32⟩
  | 2 => ⟨S500x128, .f32⟩
  | 3 => ⟨S_, .i32⟩
  | 4 => ⟨S1, .i32⟩
  | 5 => ⟨S200000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x2x128, .f32⟩
  | .local _ .vmem, ⟨15, _⟩ => ⟨S2000x2x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x3x128, .f32⟩
  | .local _ .vmem, ⟨23, _⟩ => ⟨S2000x3x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x4x128, .f32⟩
  | .local _ .vmem, ⟨31, _⟩ => ⟨S2000x4x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x5x128, .f32⟩
  | .local _ .vmem, ⟨39, _⟩ => ⟨S2000x5x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x6x128, .f32⟩
  | .local _ .vmem, ⟨47, _⟩ => ⟨S2000x6x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S1000x128, .f32⟩
  | .local _ .vmem, ⟨53, _⟩ => ⟨S1000x128, .f32⟩
  | .local _ .vmem, ⟨54, _⟩ => ⟨S1000x7x128, .f32⟩
  | .local _ .vmem, ⟨55, _⟩ => ⟨S1000x7x128, .f32⟩
  | .local _ .vmem, ⟨56, _⟩ => ⟨S1000x128, .f32⟩
  | .local _ .vmem, ⟨57, _⟩ => ⟨S1000x128, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S1000x128, .f32⟩
  | .local _ .vmem, ⟨62, _⟩ => ⟨S1000x8x128, .f32⟩
  | .local _ .vmem, ⟨63, _⟩ => ⟨S1000x8x128, .f32⟩
  | .local _ .vmem, ⟨64, _⟩ => ⟨S1000x128, .f32⟩
  | .local _ .vmem, ⟨65, _⟩ => ⟨S1000x128, .f32⟩
  | .local _ .vmem, ⟨66, _⟩ => ⟨S1000x128, .f32⟩
  | .local _ .vmem, ⟨67, _⟩ => ⟨S1000x128, .f32⟩
  | .local _ .vmem, ⟨68, _⟩ => ⟨S1500x128, .f32⟩
  | .local _ .vmem, ⟨69, _⟩ => ⟨S1500x9x128, .f32⟩
  | .local _ .vmem, ⟨70, _⟩ => ⟨S1500x128, .f32⟩
  | .local _ .vmem, ⟨71, _⟩ => ⟨S500x128, .f32⟩
  | .local _ .vmem, ⟨72, _⟩ => ⟨S500x10x128, .f32⟩
  | .local _ .vmem, ⟨73, _⟩ => ⟨S500x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v4 : Ref sig .tc := ⟨.hbm, 60, rfl⟩
abbrev main_v5 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v6 : Ref sig .tc := ⟨.hbm, 84, rfl⟩
abbrev main_v7 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v8 : Ref sig .tc := ⟨.hbm, 108, rfl⟩
abbrev main_v9 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v10 : Ref sig .tc := ⟨.hbm, 132, rfl⟩
abbrev main_v11 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_call5_cst : Ref sig .tc := ⟨.hbm, 154, rfl⟩
abbrev main_call5_v15 : Ref sig .tc := ⟨.hbm, 155, rfl⟩
abbrev main_v12 : Ref sig .tc := ⟨.hbm, 156, rfl⟩
abbrev main_v13 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_call6_cst : Ref sig .tc := ⟨.hbm, 178, rfl⟩
abbrev main_call6_v15 : Ref sig .tc := ⟨.hbm, 179, rfl⟩
abbrev main_v14 : Ref sig .tc := ⟨.hbm, 180, rfl⟩
abbrev main_v15 : Ref sig .tc := ⟨.hbm, 181, rfl⟩
abbrev main_call7_c : Ref sig .tc := ⟨.hbm, 182, rfl⟩
abbrev main_call7_v0 : Ref sig .tc := ⟨.hbm, 183, rfl⟩
abbrev main_call7_v1 : Ref sig .tc := ⟨.hbm, 184, rfl⟩
abbrev main_call7_c_0 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_v5 : Ref sig .tc := ⟨.hbm, 189, rfl⟩
abbrev main_call7_c_1 : Ref sig .tc := ⟨.hbm, 190, rfl⟩
abbrev main_call7_c_2 : Ref sig .tc := ⟨.hbm, 191, rfl⟩
abbrev main_call7_v6 : Ref sig .tc := ⟨.hbm, 192, rfl⟩
abbrev main_call7_v7 : Ref sig .tc := ⟨.hbm, 193, rfl⟩
abbrev main_call7_v8 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_3 : Ref sig .tc := ⟨.hbm, 198, rfl⟩
abbrev main_call7_v12 : Ref sig .tc := ⟨.hbm, 199, rfl⟩
abbrev main_call7_v13 : Ref sig .tc := ⟨.hbm, 200, rfl⟩
abbrev main_call7_v14 : Ref sig .tc := ⟨.hbm, 201, rfl⟩
abbrev main_call7_cst : Ref sig .tc := ⟨.hbm, 202, rfl⟩
abbrev main_call7_v15 : Ref sig .tc := ⟨.hbm, 203, rfl⟩
abbrev main_v16 : Ref sig .tc := ⟨.hbm, 204, rfl⟩
abbrev main_v17 : Ref sig .tc := ⟨.hbm, 205, rfl⟩
abbrev main_call8_c : Ref sig .tc := ⟨.hbm, 206, rfl⟩
abbrev main_call8_v0 : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_c_1 : Ref sig .tc := ⟨.hbm, 214, rfl⟩
abbrev main_call8_c_2 : Ref sig .tc := ⟨.hbm, 215, rfl⟩
abbrev main_call8_v6 : Ref sig .tc := ⟨.hbm, 216, rfl⟩
abbrev main_call8_v7 : Ref sig .tc := ⟨.hbm, 217, rfl⟩
abbrev main_call8_v8 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_3 : Ref sig .tc := ⟨.hbm, 222, rfl⟩
abbrev main_call8_v12 : Ref sig .tc := ⟨.hbm, 223, rfl⟩
abbrev main_call8_v13 : Ref sig .tc := ⟨.hbm, 224, rfl⟩
abbrev main_call8_v14 : Ref sig .tc := ⟨.hbm, 225, rfl⟩
abbrev main_call8_cst : Ref sig .tc := ⟨.hbm, 226, rfl⟩
abbrev main_call8_v15 : Ref sig .tc := ⟨.hbm, 227, rfl⟩
abbrev main_v18 : Ref sig .tc := ⟨.hbm, 228, rfl⟩
abbrev main_v19 : Ref sig .tc := ⟨.hbm, 229, rfl⟩
abbrev main_v20 : Ref sig .tc := ⟨.hbm, 230, rfl⟩
abbrev main_c : Ref sig .tc := ⟨.hbm, 231, rfl⟩
abbrev main_v21 : Ref sig .tc := ⟨.hbm, 232, rfl⟩
abbrev main_v22 : Ref sig .tc := ⟨.hbm, 233, rfl⟩
abbrev main_call9_c : Ref sig .tc := ⟨.hbm, 234, rfl⟩
abbrev main_call9_v0 : Ref sig .tc := ⟨.hbm, 235, rfl⟩
abbrev main_call9_v1 : Ref sig .tc := ⟨.hbm, 236, rfl⟩
abbrev main_call9_c_0 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_call9_v5 : Ref sig .tc := ⟨.hbm, 241, rfl⟩
abbrev main_call9_c_1 : Ref sig .tc := ⟨.hbm, 242, rfl⟩
abbrev main_call9_c_2 : Ref sig .tc := ⟨.hbm, 243, rfl⟩
abbrev main_call9_v6 : Ref sig .tc := ⟨.hbm, 244, rfl⟩
abbrev main_call9_v7 : Ref sig .tc := ⟨.hbm, 245, rfl⟩
abbrev main_call9_v8 : Ref sig .tc := ⟨.hbm, 246, rfl⟩
abbrev main_call9_v9 : Ref sig .tc := ⟨.hbm, 247, rfl⟩
abbrev main_call9_v10 : Ref sig .tc := ⟨.hbm, 248, rfl⟩
abbrev main_call9_v11 : Ref sig .tc := ⟨.hbm, 249, rfl⟩
abbrev main_call9_c_3 : Ref sig .tc := ⟨.hbm, 250, rfl⟩
abbrev main_call9_v12 : Ref sig .tc := ⟨.hbm, 251, rfl⟩
abbrev main_call9_v13 : Ref sig .tc := ⟨.hbm, 252, rfl⟩
abbrev main_call9_v14 : Ref sig .tc := ⟨.hbm, 253, rfl⟩
abbrev main_call9_cst : Ref sig .tc := ⟨.hbm, 254, rfl⟩
abbrev main_call9_v15 : Ref sig .tc := ⟨.hbm, 255, rfl⟩
abbrev main_v23 : Ref sig .tc := ⟨.hbm, 256, rfl⟩
abbrev main_v24 : Ref sig .tc := ⟨.hbm, 257, rfl⟩
abbrev main_v25 : Ref sig .tc := ⟨.hbm, 258, rfl⟩
abbrev main_c_0 : Ref sig .tc := ⟨.hbm, 259, rfl⟩
abbrev main_v26 : Ref sig .tc := ⟨.hbm, 260, rfl⟩
abbrev main_v27 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc8_stg3_0 : Ref sig .tc := ⟨.vmem, 66, rfl⟩
abbrev cc8_stg3_1 : Ref sig .tc := ⟨.vmem, 67, rfl⟩
abbrev cc9_stg0_0 : Ref sig .tc := ⟨.vmem, 68, rfl⟩
abbrev cc9_stg1_0 : Ref sig .tc := ⟨.vmem, 69, rfl⟩
abbrev cc9_stg2_0 : Ref sig .tc := ⟨.vmem, 70, rfl⟩
abbrev cc10_stg0_0 : Ref sig .tc := ⟨.vmem, 71, rfl⟩
abbrev cc10_stg1_0 : Ref sig .tc := ⟨.vmem, 72, rfl⟩
abbrev cc10_stg2_0 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem2_1 : DmaSem sig := 65
abbrev cc8_sem3_0 : DmaSem sig := 66
abbrev cc8_sem3_1 : DmaSem sig := 67
abbrev cc9_sem0_0 : DmaSem sig := 68
abbrev cc9_sem1_0 : DmaSem sig := 69
abbrev cc9_sem2_0 : DmaSem sig := 70
abbrev cc10_sem0_0 : DmaSem sig := 71
abbrev cc10_sem1_0 : DmaSem sig := 72
abbrev cc10_sem2_0 : DmaSem sig := 73

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x2x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c35_i32 : BitVec 32 := 35#32
  let v0 : BitVec 32 := Scalar.addi arg0 c35_i32
  let c0_i32 : BitVec 32 := 0#32
  let c0_i32_0 : BitVec 32 := 0#32
  ![v0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c35_i32 : BitVec 32 := 35#32
  let v0 : BitVec 32 := Scalar.addi arg0 c35_i32
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c35_i32 : BitVec 32 := 35#32
  let v0 : BitVec 32 := Scalar.addi arg0 c35_i32
  let c0_i32 : BitVec 32 := 0#32
  let c0_i32_0 : BitVec 32 := 0#32
  ![v0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x3x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c60_i32 : BitVec 32 := 60#32
  let v0 : BitVec 32 := Scalar.addi arg0 c60_i32
  let c0_i32 : BitVec 32 := 0#32
  let c0_i32_0 : BitVec 32 := 0#32
  ![v0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c60_i32 : BitVec 32 := 60#32
  let v0 : BitVec 32 := Scalar.addi arg0 c60_i32
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let c60_i32 : BitVec 32 := 60#32
  let v0 : BitVec 32 := Scalar.addi arg0 c60_i32
  let c0_i32 : BitVec 32 := 0#32
  let c0_i32_0 : BitVec 32 := 0#32
  ![v0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x4x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c80_i32 : BitVec 32 := 80#32
  let v0 : BitVec 32 := Scalar.addi arg0 c80_i32
  let c0_i32 : BitVec 32 := 0#32
  let c0_i32_0 : BitVec 32 := 0#32
  ![v0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c80_i32 : BitVec 32 := 80#32
  let v0 : BitVec 32 := Scalar.addi arg0 c80_i32
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let c80_i32 : BitVec 32 := 80#32
  let v0 : BitVec 32 := Scalar.addi arg0 c80_i32
  let c0_i32 : BitVec 32 := 0#32
  let c0_i32_0 : BitVec 32 := 0#32
  ![v0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x5x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c90_i32 : BitVec 32 := 90#32
  let v0 : BitVec 32 := Scalar.addi arg0 c90_i32
  let c0_i32 : BitVec 32 := 0#32
  let c0_i32_0 : BitVec 32 := 0#32
  ![v0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c90_i32 : BitVec 32 := 90#32
  let v0 : BitVec 32 := Scalar.addi arg0 c90_i32
  let c0_i32 : BitVec 32 := 0#32
  let c0_i32_0 : BitVec 32 := 0#32
  ![v0.toNat, c0_i32.toNat]

def cc6_transform_3 (i : grid6.Coords) : Fin 2 → Nat :=
  let arg0 : BitVec 32 := BitVec.ofNat 32 (i 0).val
  let c90_i32 : BitVec 32 := 90#32
  let v0 : BitVec 32 := Scalar.addi arg0 c90_i32
  let c0_i32 : BitVec 32 := 0#32
  let c0_i32_0 : BitVec 32 := 0#32
  ![v0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x6x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c190_i32 : BitVec 32 := 190#32
  let v0 : BitVec 32 := Scalar.addi arg0 c190_i32
  let c0_i32 : BitVec 32 := 0#32
  let c0_i32_0 : BitVec 32 := 0#32
  ![v0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c190_i32 : BitVec 32 := 190#32
  let v0 : BitVec 32 := Scalar.addi arg0 c190_i32
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c190_i32 : BitVec 32 := 190#32
  let v0 : BitVec 32 := Scalar.addi arg0 c190_i32
  let c0_i32 : BitVec 32 := 0#32
  let c0_i32_0 : BitVec 32 := 0#32
  ![v0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x7x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![3], ![false]⟩

def cc8_transform_0 (i : grid8.Coords) : Fin 2 → Nat :=
  let arg0 : BitVec 32 := BitVec.ofNat 32 (i 0).val
  let c195_i32 : BitVec 32 := 195#32
  let v0 : BitVec 32 := Scalar.addi arg0 c195_i32
  let c0_i32 : BitVec 32 := 0#32
  let c0_i32_0 : BitVec 32 := 0#32
  ![v0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c195_i32 : BitVec 32 := 195#32
  let v0 : BitVec 32 := Scalar.addi arg0 c195_i32
  let c0_i32 : BitVec 32 := 0#32
  let c0_i32_0 : BitVec 32 := 0#32
  ![v0.toNat, c0_i32.toNat]

def cc8_transform_3 (i : grid8.Coords) : Fin 2 → Nat :=
  let arg0 : BitVec 32 := BitVec.ofNat 32 (i 0).val
  let c195_i32 : BitVec 32 := 195#32
  let v0 : BitVec 32 := Scalar.addi arg0 c195_i32
  let c0_i32 : BitVec 32 := 0#32
  let c0_i32_0 : BitVec 32 := 0#32
  ![v0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x8x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S1500x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1500x9x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S1500x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S500x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S500x10x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S500x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

class Facts₀ : Prop where
  inb_S2000x128_S2000x128_0_0 : ∀ a, (![0, 0] : Fin 2 → Nat) a + S2000x128.size a ≤ S2000x128.size a
  h_S2000x128 : 0 < S2000x128.numel
  bcast_S_S20000x1 : S_.BroadcastsInDim S20000x1 (![] : Fin 0 → Fin S20000x1.rank)
  bcast_S20000x1_S20000x1x1_0_1 : S20000x1.BroadcastsInDim S20000x1x1 (![0, 1] : Fin 2 → Fin S20000x1x1.rank)
  bcast_S_S20000x1x1 : S_.BroadcastsInDim S20000x1x1 (![] : Fin 0 → Fin S20000x1x1.rank)
  bcast_S1_S1x1x1_2 : S1.BroadcastsInDim S1x1x1 (![2] : Fin 1 → Fin S1x1x1.rank)
  bcast_S1x1x1_S20000x1x1_0_1_2 : S1x1x1.BroadcastsInDim S20000x1x1 (![0, 1, 2] : Fin 3 → Fin S20000x1x1.rank)
  reducesTo_S20000x1x1_S20000x1_d2 : S20000x1x1.ReducesTo [2] S20000x1
  h_S_ : 0 < S_.numel
  bcast_S20000x1_S20000x1x128_0_1 : S20000x1.BroadcastsInDim S20000x1x128 (![0, 1] : Fin 2 → Fin S20000x1x128.rank)
  bcast_S_S20000x1x128 : S_.BroadcastsInDim S20000x1x128 (![] : Fin 0 → Fin S20000x1x128.rank)
  shapeCasts_S20000x1x128_S20000x128 : S20000x1x128.ShapeCasts S20000x128
  shapeCasts_S2000x128_S2000x128 : S2000x128.ShapeCasts S2000x128
  bcast_S_S40000x2 : S_.BroadcastsInDim S40000x2 (![] : Fin 0 → Fin S40000x2.rank)
  bcast_S40000x2_S40000x2x1_0_1 : S40000x2.BroadcastsInDim S40000x2x1 (![0, 1] : Fin 2 → Fin S40000x2x1.rank)
  bcast_S_S40000x2x1 : S_.BroadcastsInDim S40000x2x1 (![] : Fin 0 → Fin S40000x2x1.rank)
  bcast_S1x1x1_S40000x2x1_0_1_2 : S1x1x1.BroadcastsInDim S40000x2x1 (![0, 1, 2] : Fin 3 → Fin S40000x2x1.rank)
  reducesTo_S40000x2x1_S40000x2_d2 : S40000x2x1.ReducesTo [2] S40000x2
  bcast_S40000x2_S40000x2x128_0_1 : S40000x2.BroadcastsInDim S40000x2x128 (![0, 1] : Fin 2 → Fin S40000x2x128.rank)
  bcast_S_S40000x2x128 : S_.BroadcastsInDim S40000x2x128 (![] : Fin 0 → Fin S40000x2x128.rank)
  inb_S2000x2x128_S2000x2x128_0_0_0 : ∀ a, (![0, 0, 0] : Fin 3 → Nat) a + S2000x2x128.size a ≤ S2000x2x128.size a
  h_S2000x2x128 : 0 < S2000x2x128.numel
  shapeCasts_S2000x2x128_S2000x2x128 : S2000x2x128.ShapeCasts S2000x2x128
  reduces_S2000x2x128_S2000x128 : S2000x2x128.Reduces [1] S2000x128
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  bcast_S_S50000x3x1 : S_.BroadcastsInDim S50000x3x1 (![] : Fin 0 → Fin S50000x3x1.rank)
  bcast_S1x1x1_S50000x3x1_0_1_2 : S1x1x1.BroadcastsInDim S50000x3x1 (![0, 1, 2] : Fin 3 → Fin S50000x3x1.rank)
  reducesTo_S50000x3x1_S50000x3_d2 : S50000x3x1.ReducesTo [2] S50000x3
  bcast_S50000x3_S50000x3x128_0_1 : S50000x3.BroadcastsInDim S50000x3x128 (![0, 1] : Fin 2 → Fin S50000x3x128.rank)
  bcast_S_S50000x3x128 : S_.BroadcastsInDim S50000x3x128 (![] : Fin 0 → Fin S50000x3x128.rank)
  inb_S2000x3x128_S2000x3x128_0_0_0 : ∀ a, (![0, 0, 0] : Fin 3 → Nat) a + S2000x3x128.size a ≤ S2000x3x128.size a
  h_S2000x3x128 : 0 < S2000x3x128.numel
  shapeCasts_S2000x3x128_S2000x3x128 : S2000x3x128.ShapeCasts S2000x3x128
  reduces_S2000x3x128_S2000x128 : S2000x3x128.Reduces [1] S2000x128
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  bcast_S_S40000x4x1 : S_.BroadcastsInDim S40000x4x1 (![] : Fin 0 → Fin S40000x4x1.rank)
  bcast_S1x1x1_S40000x4x1_0_1_2 : S1x1x1.BroadcastsInDim S40000x4x1 (![0, 1, 2] : Fin 3 → Fin S40000x4x1.rank)
  reducesTo_S40000x4x1_S40000x4_d2 : S40000x4x1.ReducesTo [2] S40000x4
  bcast_S40000x4_S40000x4x128_0_1 : S40000x4.BroadcastsInDim S40000x4x128 (![0, 1] : Fin 2 → Fin S40000x4x128.rank)
  bcast_S_S40000x4x128 : S_.BroadcastsInDim S40000x4x128 (![] : Fin 0 → Fin S40000x4x128.rank)
  inb_S2000x4x128_S2000x4x128_0_0_0 : ∀ a, (![0, 0, 0] : Fin 3 → Nat) a + S2000x4x128.size a ≤ S2000x4x128.size a
  h_S2000x4x128 : 0 < S2000x4x128.numel
  shapeCasts_S2000x4x128_S2000x4x128 : S2000x4x128.ShapeCasts S2000x4x128
  reduces_S2000x4x128_S2000x128 : S2000x4x128.Reduces [1] S2000x128
  bcast_S_S20000x5 : S_.BroadcastsInDim S20000x5 (![] : Fin 0 → Fin S20000x5.rank)
  bcast_S20000x5_S20000x5x1_0_1 : S20000x5.BroadcastsInDim S20000x5x1 (![0, 1] : Fin 2 → Fin S20000x5x1.rank)
  bcast_S_S20000x5x1 : S_.BroadcastsInDim S20000x5x1 (![] : Fin 0 → Fin S20000x5x1.rank)
  bcast_S1x1x1_S20000x5x1_0_1_2 : S1x1x1.BroadcastsInDim S20000x5x1 (![0, 1, 2] : Fin 3 → Fin S20000x5x1.rank)
  reducesTo_S20000x5x1_S20000x5_d2 : S20000x5x1.ReducesTo [2] S20000x5
  bcast_S20000x5_S20000x5x128_0_1 : S20000x5.BroadcastsInDim S20000x5x128 (![0, 1] : Fin 2 → Fin S20000x5x128.rank)
  bcast_S_S20000x5x128 : S_.BroadcastsInDim S20000x5x128 (![] : Fin 0 → Fin S20000x5x128.rank)
  inb_S2000x5x128_S2000x5x128_0_0_0 : ∀ a, (![0, 0, 0] : Fin 3 → Nat) a + S2000x5x128.size a ≤ S2000x5x128.size a
  h_S2000x5x128 : 0 < S2000x5x128.numel
  shapeCasts_S2000x5x128_S2000x5x128 : S2000x5x128.ShapeCasts S2000x5x128
  reduces_S2000x5x128_S2000x128 : S2000x5x128.Reduces [1] S2000x128
  bcast_S_S10000x6 : S_.BroadcastsInDim S10000x6 (![] : Fin 0 → Fin S10000x6.rank)
  bcast_S10000x6_S10000x6x1_0_1 : S10000x6.BroadcastsInDim S10000x6x1 (![0, 1] : Fin 2 → Fin S10000x6x1.rank)
  bcast_S_S10000x6x1 : S_.BroadcastsInDim S10000x6x1 (![] : Fin 0 → Fin S10000x6x1.rank)
  bcast_S1x1x1_S10000x6x1_0_1_2 : S1x1x1.BroadcastsInDim S10000x6x1 (![0, 1, 2] : Fin 3 → Fin S10000x6x1.rank)
  reducesTo_S10000x6x1_S10000x6_d2 : S10000x6x1.ReducesTo [2] S10000x6
  bcast_S10000x6_S10000x6x128_0_1 : S10000x6.BroadcastsInDim S10000x6x128 (![0, 1] : Fin 2 → Fin S10000x6x128.rank)
  bcast_S_S10000x6x128 : S_.BroadcastsInDim S10000x6x128 (![] : Fin 0 → Fin S10000x6x128.rank)
  inb_S2000x6x128_S2000x6x128_0_0_0 : ∀ a, (![0, 0, 0] : Fin 3 → Nat) a + S2000x6x128.size a ≤ S2000x6x128.size a
  h_S2000x6x128 : 0 < S2000x6x128.numel
  shapeCasts_S2000x6x128_S2000x6x128 : S2000x6x128.ShapeCasts S2000x6x128
  reduces_S2000x6x128_S2000x128 : S2000x6x128.Reduces [1] S2000x128
  bcast_S_S5000x7 : S_.BroadcastsInDim S5000x7 (![] : Fin 0 → Fin S5000x7.rank)
  bcast_S5000x7_S5000x7x1_0_1 : S5000x7.BroadcastsInDim S5000x7x1 (![0, 1] : Fin 2 → Fin S5000x7x1.rank)
  bcast_S_S5000x7x1 : S_.BroadcastsInDim S5000x7x1 (![] : Fin 0 → Fin S5000x7x1.rank)
  bcast_S1x1x1_S5000x7x1_0_1_2 : S1x1x1.BroadcastsInDim S5000x7x1 (![0, 1, 2] : Fin 3 → Fin S5000x7x1.rank)
  reducesTo_S5000x7x1_S5000x7_d2 : S5000x7x1.ReducesTo [2] S5000x7
  bcast_S5000x7_S5000x7x128_0_1 : S5000x7.BroadcastsInDim S5000x7x128 (![0, 1] : Fin 2 → Fin S5000x7x128.rank)
  bcast_S_S5000x7x128 : S_.BroadcastsInDim S5000x7x128 (![] : Fin 0 → Fin S5000x7x128.rank)
  inb_S1000x7x128_S1000x7x128_0_0_0 : ∀ a, (![0, 0, 0] : Fin 3 → Nat) a + S1000x7x128.size a ≤ S1000x7x128.size a
  h_S1000x7x128 : 0 < S1000x7x128.numel
  shapeCasts_S1000x7x128_S1000x7x128 : S1000x7x128.ShapeCasts S1000x7x128
  reduces_S1000x7x128_S1000x128 : S1000x7x128.Reduces [1] S1000x128
  inb_S1000x128_S1000x128_0_0 : ∀ a, (![0, 0] : Fin 2 → Nat) a + S1000x128.size a ≤ S1000x128.size a
  h_S1000x128 : 0 < S1000x128.numel
  bcast_S_S3000x8 : S_.BroadcastsInDim S3000x8 (![] : Fin 0 → Fin S3000x8.rank)
  bcast_S3000x8_S3000x8x1_0_1 : S3000x8.BroadcastsInDim S3000x8x1 (![0, 1] : Fin 2 → Fin S3000x8x1.rank)
  bcast_S_S3000x8x1 : S_.BroadcastsInDim S3000x8x1 (![] : Fin 0 → Fin S3000x8x1.rank)
  bcast_S1x1x1_S3000x8x1_0_1_2 : S1x1x1.BroadcastsInDim S3000x8x1 (![0, 1, 2] : Fin 3 → Fin S3000x8x1.rank)
  reducesTo_S3000x8x1_S3000x8_d2 : S3000x8x1.ReducesTo [2] S3000x8
  bcast_S3000x8_S3000x8x128_0_1 : S3000x8.BroadcastsInDim S3000x8x128 (![0, 1] : Fin 2 → Fin S3000x8x128.rank)
  bcast_S_S3000x8x128 : S_.BroadcastsInDim S3000x8x128 (![] : Fin 0 → Fin S3000x8x128.rank)
  inb_S1000x8x128_S1000x8x128_0_0_0 : ∀ a, (![0, 0, 0] : Fin 3 → Nat) a + S1000x8x128.size a ≤ S1000x8x128.size a
  h_S1000x8x128 : 0 < S1000x8x128.numel
  shapeCasts_S1000x8x128_S1000x8x128 : S1000x8x128.ShapeCasts S1000x8x128
  reduces_S1000x8x128_S1000x128 : S1000x8x128.Reduces [1] S1000x128
  bcast_S_S1500x9 : S_.BroadcastsInDim S1500x9 (![] : Fin 0 → Fin S1500x9.rank)
  bcast_S1500x9_S1500x9x1_0_1 : S1500x9.BroadcastsInDim S1500x9x1 (![0, 1] : Fin 2 → Fin S1500x9x1.rank)
  bcast_S_S1500x9x1 : S_.BroadcastsInDim S1500x9x1 (![] : Fin 0 → Fin S1500x9x1.rank)
  bcast_S1x1x1_S1500x9x1_0_1_2 : S1x1x1.BroadcastsInDim S1500x9x1 (![0, 1, 2] : Fin 3 → Fin S1500x9x1.rank)
  reducesTo_S1500x9x1_S1500x9_d2 : S1500x9x1.ReducesTo [2] S1500x9
  bcast_S1500x9_S1500x9x128_0_1 : S1500x9.BroadcastsInDim S1500x9x128 (![0, 1] : Fin 2 → Fin S1500x9x128.rank)
  bcast_S_S1500x9x128 : S_.BroadcastsInDim S1500x9x128 (![] : Fin 0 → Fin S1500x9x128.rank)
  slices_S200000x128_S1500x128_198000_0 : S200000x128.Slices ![198000, 0] S1500x128
  inb_S1500x9x128_S1500x9x128_0_0_0 : ∀ a, (![0, 0, 0] : Fin 3 → Nat) a + S1500x9x128.size a ≤ S1500x9x128.size a
  h_S1500x9x128 : 0 < S1500x9x128.numel
  shapeCasts_S1500x9x128_S1500x9x128 : S1500x9x128.ShapeCasts S1500x9x128
  reduces_S1500x9x128_S1500x128 : S1500x9x128.Reduces [1] S1500x128
  inb_S1500x128_S1500x128_0_0 : ∀ a, (![0, 0] : Fin 2 → Nat) a + S1500x128.size a ≤ S1500x128.size a
  h_S1500x128 : 0 < S1500x128.numel
  shapeCasts_S1500x128_S1500x128 : S1500x128.ShapeCasts S1500x128
  bcast_S_S1 : S_.BroadcastsInDim S1 (![] : Fin 0 → Fin S1.rank)
  bcast_S_S500x10 : S_.BroadcastsInDim S500x10 (![] : Fin 0 → Fin S500x10.rank)
  bcast_S500x10_S500x10x1_0_1 : S500x10.BroadcastsInDim S500x10x1 (![0, 1] : Fin 2 → Fin S500x10x1.rank)
  bcast_S_S500x10x1 : S_.BroadcastsInDim S500x10x1 (![] : Fin 0 → Fin S500x10x1.rank)
  bcast_S1x1x1_S500x10x1_0_1_2 : S1x1x1.BroadcastsInDim S500x10x1 (![0, 1, 2] : Fin 3 → Fin S500x10x1.rank)
  reducesTo_S500x10x1_S500x10_d2 : S500x10x1.ReducesTo [2] S500x10
  bcast_S500x10_S500x10x128_0_1 : S500x10.BroadcastsInDim S500x10x128 (![0, 1] : Fin 2 → Fin S500x10x128.rank)
  bcast_S_S500x10x128 : S_.BroadcastsInDim S500x10x128 (![] : Fin 0 → Fin S500x10x128.rank)
  slices_S200000x128_S500x128_199500_0 : S200000x128.Slices ![199500, 0] S500x128
  inb_S500x10x128_S500x10x128_0_0_0 : ∀ a, (![0, 0, 0] : Fin 3 → Nat) a + S500x10x128.size a ≤ S500x10x128.size a
  h_S500x10x128 : 0 < S500x10x128.numel
  shapeCasts_S500x10x128_S500x10x128 : S500x10x128.ShapeCasts S500x10x128
  reduces_S500x10x128_S500x128 : S500x10x128.Reduces [1] S500x128
  inb_S500x128_S500x128_0_0 : ∀ a, (![0, 0] : Fin 2 → Nat) a + S500x128.size a ≤ S500x128.size a
  h_S500x128 : 0 < S500x128.numel
  shapeCasts_S500x128_S500x128 : S500x128.ShapeCasts S500x128
  gather_S200000x128_S20000x1x1_S20000x1x128_2_0_n_n_0_2_1128_wf : GatherDims.WF S200000x128 S20000x1x1 S20000x1x128 [2] [0] [] [0] [] 2 ![1, 128]
  gather_S200000x128_S40000x2x1_S40000x2x128_2_0_n_n_0_2_1128_wf : GatherDims.WF S200000x128 S40000x2x1 S40000x2x128 [2] [0] [] [0] [] 2 ![1, 128]
  gather_S200000x128_S50000x3x1_S50000x3x128_2_0_n_n_0_2_1128_wf : GatherDims.WF S200000x128 S50000x3x1 S50000x3x128 [2] [0] [] [0] [] 2 ![1, 128]
  gather_S200000x128_S40000x4x1_S40000x4x128_2_0_n_n_0_2_1128_wf : GatherDims.WF S200000x128 S40000x4x1 S40000x4x128 [2] [0] [] [0] [] 2 ![1, 128]
  gather_S200000x128_S20000x5x1_S20000x5x128_2_0_n_n_0_2_1128_wf : GatherDims.WF S200000x128 S20000x5x1 S20000x5x128 [2] [0] [] [0] [] 2 ![1, 128]
  gather_S200000x128_S10000x6x1_S10000x6x128_2_0_n_n_0_2_1128_wf : GatherDims.WF S200000x128 S10000x6x1 S10000x6x128 [2] [0] [] [0] [] 2 ![1, 128]
  gather_S200000x128_S5000x7x1_S5000x7x128_2_0_n_n_0_2_1128_wf : GatherDims.WF S200000x128 S5000x7x1 S5000x7x128 [2] [0] [] [0] [] 2 ![1, 128]
  gather_S200000x128_S3000x8x1_S3000x8x128_2_0_n_n_0_2_1128_wf : GatherDims.WF S200000x128 S3000x8x1 S3000x8x128 [2] [0] [] [0] [] 2 ![1, 128]
  gather_S200000x128_S1500x9x1_S1500x9x128_2_0_n_n_0_2_1128_wf : GatherDims.WF S200000x128 S1500x9x1 S1500x9x128 [2] [0] [] [0] [] 2 ![1, 128]
  scatter_S200000x128_S1_S1500x128_01_n_0_0_wf : ScatterDims.WF S200000x128 S1 S1500x128 [0, 1] [] [0] 0
  gather_S200000x128_S500x10x1_S500x10x128_2_0_n_n_0_2_1128_wf : GatherDims.WF S200000x128 S500x10x1 S500x10x128 [2] [0] [] [0] [] 2 ![1, 128]
  scatter_S200000x128_S1_S500x128_01_n_0_0_wf : ScatterDims.WF S200000x128 S1 S500x128 [0, 1] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .f32 = 32 ∨ (Rect.block (s := S200000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S200000x128.size a
  hwx1_2 : ∀ i : grid1.Coords, EltTy.bits .f32 = 32 ∨ (Rect.block (s := S200000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S200000x128.size a
  hwx1_3 : ∀ i : grid1.Coords, EltTy.bits .f32 = 32 ∨ (Rect.block (s := S200000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x2x128.size a ≤ S40000x2x128.size a
  hwx2_1 : ∀ i : grid2.Coords, EltTy.bits .f32 = 32 ∨ (Rect.block (s := S40000x2x128) S2000x2x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S200000x128.size a
  hwx2_2 : ∀ i : grid2.Coords, EltTy.bits .f32 = 32 ∨ (Rect.block (s := S200000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x3x128.size a ≤ S50000x3x128.size a
  hwx3_1 : ∀ i : grid3.Coords, EltTy.bits .f32 = 32 ∨ (Rect.block (s := S50000x3x128) S2000x3x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S200000x128.size a
  hwx3_2 : ∀ i : grid3.Coords, EltTy.bits .f32 = 32 ∨ (Rect.block (s := S200000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S200000x128.size a
  hwx3_3 : ∀ i : grid3.Coords, EltTy.bits .f32 = 32 ∨ (Rect.block (s := S200000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .f32 = 32 ∨ (Rect.block (s := S200000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x4x128.size a ≤ S40000x4x128.size a
  hwx4_1 : ∀ i : grid4.Coords, EltTy.bits .f32 = 32 ∨ (Rect.block (s := S40000x4x128) S2000x4x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S200000x128.size a
  hwx4_2 : ∀ i : grid4.Coords, EltTy.bits .f32 = 32 ∨ (Rect.block (s := S200000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S200000x128.size a
  hwx4_3 : ∀ i : grid4.Coords, EltTy.bits .f32 = 32 ∨ (Rect.block (s := S200000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S200000x128.size a
  hwx5_0 : ∀ i : grid5.Coords, EltTy.bits .f32 = 32 ∨ (Rect.block (s := S200000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x5x128.size a ≤ S20000x5x128.size a
  hwx5_1 : ∀ i : grid5.Coords, EltTy.bits .f32 = 32 ∨ (Rect.block (s := S20000x5x128) S2000x5x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S200000x128.size a
  hwx5_2 : ∀ i : grid5.Coords, EltTy.bits .f32 = 32 ∨ (Rect.block (s := S200000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S200000x128.size a
  hwx5_3 : ∀ i : grid5.Coords, EltTy.bits .f32 = 32 ∨ (Rect.block (s := S200000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S200000x128.size a
  hwx6_0 : ∀ i : grid6.Coords, EltTy.bits .f32 = 32 ∨ (Rect.block (s := S200000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x6x128.size a ≤ S10000x6x128.size a
  hwx6_1 : ∀ i : grid6.Coords, EltTy.bits .f32 = 32 ∨ (Rect.block (s := S10000x6x128) S2000x6x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S200000x128.size a
  hwx6_2 : ∀ i : grid6.Coords, EltTy.bits .f32 = 32 ∨ (Rect.block (s := S200000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S200000x128.size a
  hwx6_3 : ∀ i : grid6.Coords, EltTy.bits .f32 = 32 ∨ (Rect.block (s := S200000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S200000x128.size a
  hwx7_0 : ∀ i : grid7.Coords, EltTy.bits .f32 = 32 ∨ (Rect.block (s := S200000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x7x128.size a ≤ S5000x7x128.size a
  hwx7_1 : ∀ i : grid7.Coords, EltTy.bits .f32 = 32 ∨ (Rect.block (s := S5000x7x128) S1000x7x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x128.size a ≤ S200000x128.size a
  hwx7_2 : ∀ i : grid7.Coords, EltTy.bits .f32 = 32 ∨ (Rect.block (s := S200000x128) S1000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x128.size a ≤ S200000x128.size a
  hwx7_3 : ∀ i : grid7.Coords, EltTy.bits .f32 = 32 ∨ (Rect.block (s := S200000x128) S1000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S200000x128.size a
  hwx8_0 : ∀ i : grid8.Coords, EltTy.bits .f32 = 32 ∨ (Rect.block (s := S200000x128) S1000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x8x128.size a ≤ S3000x8x128.size a
  hwx8_1 : ∀ i : grid8.Coords, EltTy.bits .f32 = 32 ∨ (Rect.block (s := S3000x8x128) S1000x8x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x128.size a ≤ S200000x128.size a
  hwx8_2 : ∀ i : grid8.Coords, EltTy.bits .f32 = 32 ∨ (Rect.block (s := S200000x128) S1000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1000x128.size a ≤ S200000x128.size a
  hwx8_3 : ∀ i : grid8.Coords, EltTy.bits .f32 = 32 ∨ (Rect.block (s := S200000x128) S1000x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S1500x128.size a ≤ S1500x128.size a
  hwx9_0 : ∀ i : grid9.Coords, EltTy.bits .f32 = 32 ∨ (Rect.block (s := S1500x128) S1500x128.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S1500x9x128.size a ≤ S1500x9x128.size a
  hwx9_1 : ∀ i : grid9.Coords, EltTy.bits .f32 = 32 ∨ (Rect.block (s := S1500x9x128) S1500x9x128.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S1500x128.size a ≤ S1500x128.size a
  hwx9_2 : ∀ i : grid9.Coords, EltTy.bits .f32 = 32 ∨ (Rect.block (s := S1500x128) S1500x128.size (cc9_transform_2 i) (hinb9_2 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S500x128.size a ≤ S500x128.size a
  hwx10_0 : ∀ i : grid10.Coords, EltTy.bits .f32 = 32 ∨ (Rect.block (s := S500x128) S500x128.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S500x10x128.size a ≤ S500x10x128.size a
  hwx10_1 : ∀ i : grid10.Coords, EltTy.bits .f32 = 32 ∨ (Rect.block (s := S500x10x128) S500x10x128.size (cc10_transform_1 i) (hinb10_1 i)).WholeWords (EltTy.packing .f32)
  hstage10_2 : ∀ j, (stage10_2 j).IsWhole
  nbuf10_2 : grid10.bufCount reads10_2 false = 1
  hreads10_2 : ∀ i i' : grid10.Coords, (∀ a, reads10_2 a = true → i a = i' a) → cc10_transform_2 i = cc10_transform_2 i'
  hinb10_2 : ∀ (i : grid10.Coords) a, (cc10_transform_2 i a + 1) * S500x128.size a ≤ S500x128.size a
  hwx10_2 : ∀ i : grid10.Coords, EltTy.bits .f32 = 32 ∨ (Rect.block (s := S500x128) S500x128.size (cc10_transform_2 i) (hinb10_2 i)).WholeWords (EltTy.packing .f32)

variable [Facts₀]

def gather_S200000x128_S20000x1x1_S20000x1x128_2_0_n_n_0_2_1128 : GatherDims S200000x128 S20000x1x1 S20000x1x128 where
  offsetDims := [2]
  collapsedSliceDims := [0]
  operandBatchingDims := []
  startIndicesBatchingDims := []
  startIndexMap := [0]
  indexVectorDim := 2
  sliceSizes := ![1, 128]
  wf := gather_S200000x128_S20000x1x1_S20000x1x128_2_0_n_n_0_2_1128_wf
def gather_S200000x128_S40000x2x1_S40000x2x128_2_0_n_n_0_2_1128 : GatherDims S200000x128 S40000x2x1 S40000x2x128 where
  offsetDims := [2]
  collapsedSliceDims := [0]
  operandBatchingDims := []
  startIndicesBatchingDims := []
  startIndexMap := [0]
  indexVectorDim := 2
  sliceSizes := ![1, 128]
  wf := gather_S200000x128_S40000x2x1_S40000x2x128_2_0_n_n_0_2_1128_wf
def gather_S200000x128_S50000x3x1_S50000x3x128_2_0_n_n_0_2_1128 : GatherDims S200000x128 S50000x3x1 S50000x3x128 where
  offsetDims := [2]
  collapsedSliceDims := [0]
  operandBatchingDims := []
  startIndicesBatchingDims := []
  startIndexMap := [0]
  indexVectorDim := 2
  sliceSizes := ![1, 128]
  wf := gather_S200000x128_S50000x3x1_S50000x3x128_2_0_n_n_0_2_1128_wf
def gather_S200000x128_S40000x4x1_S40000x4x128_2_0_n_n_0_2_1128 : GatherDims S200000x128 S40000x4x1 S40000x4x128 where
  offsetDims := [2]
  collapsedSliceDims := [0]
  operandBatchingDims := []
  startIndicesBatchingDims := []
  startIndexMap := [0]
  indexVectorDim := 2
  sliceSizes := ![1, 128]
  wf := gather_S200000x128_S40000x4x1_S40000x4x128_2_0_n_n_0_2_1128_wf
def gather_S200000x128_S20000x5x1_S20000x5x128_2_0_n_n_0_2_1128 : GatherDims S200000x128 S20000x5x1 S20000x5x128 where
  offsetDims := [2]
  collapsedSliceDims := [0]
  operandBatchingDims := []
  startIndicesBatchingDims := []
  startIndexMap := [0]
  indexVectorDim := 2
  sliceSizes := ![1, 128]
  wf := gather_S200000x128_S20000x5x1_S20000x5x128_2_0_n_n_0_2_1128_wf
def gather_S200000x128_S10000x6x1_S10000x6x128_2_0_n_n_0_2_1128 : GatherDims S200000x128 S10000x6x1 S10000x6x128 where
  offsetDims := [2]
  collapsedSliceDims := [0]
  operandBatchingDims := []
  startIndicesBatchingDims := []
  startIndexMap := [0]
  indexVectorDim := 2
  sliceSizes := ![1, 128]
  wf := gather_S200000x128_S10000x6x1_S10000x6x128_2_0_n_n_0_2_1128_wf
def gather_S200000x128_S5000x7x1_S5000x7x128_2_0_n_n_0_2_1128 : GatherDims S200000x128 S5000x7x1 S5000x7x128 where
  offsetDims := [2]
  collapsedSliceDims := [0]
  operandBatchingDims := []
  startIndicesBatchingDims := []
  startIndexMap := [0]
  indexVectorDim := 2
  sliceSizes := ![1, 128]
  wf := gather_S200000x128_S5000x7x1_S5000x7x128_2_0_n_n_0_2_1128_wf
def gather_S200000x128_S3000x8x1_S3000x8x128_2_0_n_n_0_2_1128 : GatherDims S200000x128 S3000x8x1 S3000x8x128 where
  offsetDims := [2]
  collapsedSliceDims := [0]
  operandBatchingDims := []
  startIndicesBatchingDims := []
  startIndexMap := [0]
  indexVectorDim := 2
  sliceSizes := ![1, 128]
  wf := gather_S200000x128_S3000x8x1_S3000x8x128_2_0_n_n_0_2_1128_wf
def gather_S200000x128_S1500x9x1_S1500x9x128_2_0_n_n_0_2_1128 : GatherDims S200000x128 S1500x9x1 S1500x9x128 where
  offsetDims := [2]
  collapsedSliceDims := [0]
  operandBatchingDims := []
  startIndicesBatchingDims := []
  startIndexMap := [0]
  indexVectorDim := 2
  sliceSizes := ![1, 128]
  wf := gather_S200000x128_S1500x9x1_S1500x9x128_2_0_n_n_0_2_1128_wf
def scatter_S200000x128_S1_S1500x128_01_n_0_0 : ScatterDims S200000x128 S1 S1500x128 where
  updateWindowDims := [0, 1]
  insertedWindowDims := []
  scatterDimsToOperandDims := [0]
  indexVectorDim := 0
  wf := scatter_S200000x128_S1_S1500x128_01_n_0_0_wf
def gather_S200000x128_S500x10x1_S500x10x128_2_0_n_n_0_2_1128 : GatherDims S200000x128 S500x10x1 S500x10x128 where
  offsetDims := [2]
  collapsedSliceDims := [0]
  operandBatchingDims := []
  startIndicesBatchingDims := []
  startIndexMap := [0]
  indexVectorDim := 2
  sliceSizes := ![1, 128]
  wf := gather_S200000x128_S500x10x1_S500x10x128_2_0_n_n_0_2_1128_wf
def scatter_S200000x128_S1_S500x128_01_n_0_0 : ScatterDims S200000x128 S1 S500x128 where
  updateWindowDims := [0, 1]
  insertedWindowDims := []
  scatterDimsToOperandDims := [0]
  indexVectorDim := 0
  wf := scatter_S200000x128_S1_S500x128_01_n_0_0_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2000x2x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S2000x3x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S2000x4x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v9) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S2000x5x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v11) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S2000x6x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v13) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg0) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S1000x7x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S1000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v15) S1000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg0) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v16) S1000x8x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v15) S1000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v17) S1000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v19) S1500x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v18) S1500x9x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v20) S1500x128.size cc9_transform_2 reads9_2 true false 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v24) S500x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v23) S500x10x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v25) S500x128.size cc10_transform_2 reads10_2 true false 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where
  halias1_3 : Pipeline.Aliased win1 2 3
  halias2_3 : Pipeline.Aliased win2 2 3
  halias3_3 : Pipeline.Aliased win3 2 3
  halias4_3 : Pipeline.Aliased win4 2 3
  halias5_3 : Pipeline.Aliased win5 2 3
  halias6_3 : Pipeline.Aliased win6 2 3
  halias7_3 : Pipeline.Aliased win7 2 3
  halias8_3 : Pipeline.Aliased win8 2 3

variable [Facts]
-- ==== ReferenceIdeal.lean ====
abbrev S200000x128 : Shape := ⟨2, ![200000, 128]⟩
abbrev S11x2 : Shape := ⟨2, ![11, 2]⟩
abbrev S20000x1 : Shape := ⟨2, ![20000, 1]⟩
abbrev S40000x2 : Shape := ⟨2, ![40000, 2]⟩
abbrev S50000x3 : Shape := ⟨2, ![50000, 3]⟩
abbrev S40000x4 : Shape := ⟨2, ![40000, 4]⟩
abbrev S20000x5 : Shape := ⟨2, ![20000, 5]⟩
abbrev S10000x6 : Shape := ⟨2, ![10000, 6]⟩
abbrev S5000x7 : Shape := ⟨2, ![5000, 7]⟩
abbrev S3000x8 : Shape := ⟨2, ![3000, 8]⟩
abbrev S1500x9 : Shape := ⟨2, ![1500, 9]⟩
abbrev S500x10 : Shape := ⟨2, ![500, 10]⟩
abbrev S10000x128 : Shape := ⟨2, ![10000, 128]⟩
abbrev S20000x128 : Shape := ⟨2, ![20000, 128]⟩
abbrev S_ : Shape := ⟨0, ![]⟩
abbrev S20000x1x1 : Shape := ⟨3, ![20000, 1, 1]⟩
abbrev S20000x1x128 : Shape := ⟨3, ![20000, 1, 128]⟩
abbrev S40000x128 : Shape := ⟨2, ![40000, 128]⟩
abbrev S40000x2x1 : Shape := ⟨3, ![40000, 2, 1]⟩
abbrev S40000x2x128 : Shape := ⟨3, ![40000, 2, 128]⟩
abbrev S50000x128 : Shape := ⟨2, ![50000, 128]⟩
abbrev S50000x3x1 : Shape := ⟨3, ![50000, 3, 1]⟩
abbrev S50000x3x128 : Shape := ⟨3, ![50000, 3, 128]⟩
abbrev S40000x4x1 : Shape := ⟨3, ![40000, 4, 1]⟩
abbrev S40000x4x128 : Shape := ⟨3, ![40000, 4, 128]⟩
abbrev S20000x5x1 : Shape := ⟨3, ![20000, 5, 1]⟩
abbrev S20000x5x128 : Shape := ⟨3, ![20000, 5, 128]⟩
abbrev S10000x6x1 : Shape := ⟨3, ![10000, 6, 1]⟩
abbrev S10000x6x128 : Shape := ⟨3, ![10000, 6, 128]⟩
abbrev S5000x128 : Shape := ⟨2, ![5000, 128]⟩
abbrev S5000x7x1 : Shape := ⟨3, ![5000, 7, 1]⟩
abbrev S5000x7x128 : Shape := ⟨3, ![5000, 7, 128]⟩
abbrev S3000x128 : Shape := ⟨2, ![3000, 128]⟩
abbrev S3000x8x1 : Shape := ⟨3, ![3000, 8, 1]⟩
abbrev S3000x8x128 : Shape := ⟨3, ![3000, 8, 128]⟩
abbrev S1500x128 : Shape := ⟨2, ![1500, 128]⟩
abbrev S1500x9x1 : Shape := ⟨3, ![1500, 9, 1]⟩
abbrev S1500x9x128 : Shape := ⟨3, ![1500, 9, 128]⟩
abbrev S500x128 : Shape := ⟨2, ![500, 128]⟩
abbrev S500x10x1 : Shape := ⟨3, ![500, 10, 1]⟩
abbrev S500x10x128 : Shape := ⟨3, ![500, 10, 128]⟩

abbrev nBuf : Space → Nat
  | .hbm => 144
  | .vmem => 0
  | .smem => 0
  | _ => 0

abbrev hbmTy0_0 (i : Nat) : BufTy := match i % 128 with
  | 0 => ⟨S200000x128, .f32⟩
  | 1 => ⟨S11x2, .i32⟩
  | 2 => ⟨S20000x1, .i32⟩
  | 3 => ⟨S40000x2, .i32⟩
  | 4 => ⟨S50000x3, .i32⟩
  | 5 => ⟨S40000x4, .i32⟩
  | 6 => ⟨S20000x5, .i32⟩
  | 7 => ⟨S10000x6, .i32⟩
  | 8 => ⟨S5000x7, .i32⟩
  | 9 => ⟨S3000x8, .i32⟩
  | 10 => ⟨S1500x9, .i32⟩
  | 11 => ⟨S500x10, .i32⟩
  | 12 => ⟨S10000x128, .f32⟩
  | 13 => ⟨S20000x128, .f32⟩
  | 14 => ⟨S_, .i32⟩
  | 15 => ⟨S20000x1, .i32⟩
  | 16 => ⟨S20000x1, .i1⟩
  | 17 => ⟨S_, .i32⟩
  | 18 => ⟨S20000x1, .i32⟩
  | 19 => ⟨S20000x1, .i32⟩
  | 20 => ⟨S20000x1, .i32⟩
  | 21 => ⟨S20000x1x1, .i32⟩
  | 22 => ⟨S20000x1x128, .f32⟩
  | 23 => ⟨S_, .f32⟩
  | 24 => ⟨S20000x128, .f32⟩
  | 25 => ⟨S20000x128, .f32⟩
  | 26 => ⟨S40000x128, .f32⟩
  | 27 => ⟨S_, .i32⟩
  | 28 => ⟨S40000x2, .i32⟩
  | 29 => ⟨S40000x2, .i1⟩
  | 30 => ⟨S_, .i32⟩
  | 31 => ⟨S40000x2, .i32⟩
  | 32 => ⟨S40000x2, .i32⟩
  | 33 => ⟨S40000x2, .i32⟩
  | 34 => ⟨S40000x2x1, .i32⟩
  | 35 => ⟨S40000x2x128, .f32⟩
  | 36 => ⟨S_, .f32⟩
  | 37 => ⟨S40000x128, .f32⟩
  | 38 => ⟨S40000x128, .f32⟩
  | 39 => ⟨S50000x128, .f32⟩
  | 40 => ⟨S_, .i32⟩
  | 41 => ⟨S50000x3, .i32⟩
  | 42 => ⟨S50000x3, .i1⟩
  | 43 => ⟨S_, .i32⟩
  | 44 => ⟨S50000x3, .i32⟩
  | 45 => ⟨S50000x3, .i32⟩
  | 46 => ⟨S50000x3, .i32⟩
  | 47 => ⟨S50000x3x1, .i32⟩
  | 48 => ⟨S50000x3x128, .f32⟩
  | 49 => ⟨S_, .f32⟩
  | 50 => ⟨S50000x128, .f32⟩
  | 51 => ⟨S50000x128, .f32⟩
  | 52 => ⟨S40000x128, .f32⟩
  | 53 => ⟨S_, .i32⟩
  | 54 => ⟨S40000x4, .i32⟩
  | 55 => ⟨S40000x4, .i1⟩
  | 56 => ⟨S_, .i32⟩
  | 57 => ⟨S40000x4, .i32⟩
  | 58 => ⟨S40000x4, .i32⟩
  | 59 => ⟨S40000x4, .i32⟩
  | 60 => ⟨S40000x4x1, .i32⟩
  | 61 => ⟨S40000x4x128, .f32⟩
  | 62 => ⟨S_, .f32⟩
  | 63 => ⟨S40000x128, .f32⟩
  | 64 => ⟨S40000x128, .f32⟩
  | 65 => ⟨S20000x128, .f32⟩
  | 66 => ⟨S_, .i32⟩
  | 67 => ⟨S20000x5, .i32⟩
  | 68 => ⟨S20000x5, .i1⟩
  | 69 => ⟨S_, .i32⟩
  | 70 => ⟨S20000x5, .i32⟩
  | 71 => ⟨S20000x5, .i32⟩
  | 72 => ⟨S20000x5, .i32⟩
  | 73 => ⟨S20000x5x1, .i32⟩
  | 74 => ⟨S20000x5x128, .f32⟩
  | 75 => ⟨S_, .f32⟩
  | 76 => ⟨S20000x128, .f32⟩
  | 77 => ⟨S20000x128, .f32⟩
  | 78 => ⟨S10000x128, .f32⟩
  | 79 => ⟨S_, .i32⟩
  | 80 => ⟨S10000x6, .i32⟩
  | 81 => ⟨S10000x6, .i1⟩
  | 82 => ⟨S_, .i32⟩
  | 83 => ⟨S10000x6, .i32⟩
  | 84 => ⟨S10000x6, .i32⟩
  | 85 => ⟨S10000x6, .i32⟩
  | 86 => ⟨S10000x6x1, .i32⟩
  | 87 => ⟨S10000x6x128, .f32⟩
  | 88 => ⟨S_, .f32⟩
  | 89 => ⟨S10000x128, .f32⟩
  | 90 => ⟨S10000x128, .f32⟩
  | 91 => ⟨S5000x128, .f32⟩
  | 92 => ⟨S_, .i32⟩
  | 93 => ⟨S5000x7, .i32⟩
  | 94 => ⟨S5000x7, .i1⟩
  | 95 => ⟨S_, .i32⟩
  | 96 => ⟨S5000x7, .i32⟩
  | 97 => ⟨S5000x7, .i32⟩
  | 98 => ⟨S5000x7, .i32⟩
  | 99 => ⟨S5000x7x1, .i32⟩
  | 100 => ⟨S5000x7x128, .f32⟩
  | 101 => ⟨S_, .f32⟩
  | 102 => ⟨S5000x128, .f32⟩
  | 103 => ⟨S5000x128, .f32⟩
  | 104 => ⟨S3000x128, .f32⟩
  | 105 => ⟨S_, .i32⟩
  | 106 => ⟨S3000x8, .i32⟩
  | 107 => ⟨S3000x8, .i1⟩
  | 108 => ⟨S_, .i32⟩
  | 109 => ⟨S3000x8, .i32⟩
  | 110 => ⟨S3000x8, .i32⟩
  | 111 => ⟨S3000x8, .i32⟩
  | 112 => ⟨S3000x8x1, .i32⟩
  | 113 => ⟨S3000x8x128, .f32⟩
  | 114 => ⟨S_, .f32⟩
  | 115 => ⟨S3000x128, .f32⟩
  | 116 => ⟨S3000x128, .f32⟩
  | 117 => ⟨S1500x128, .f32⟩
  | 118 => ⟨S_, .i32⟩
  | 119 => ⟨S1500x9, .i32⟩
  | 120 => ⟨S1500x9, .i1⟩
  | 121 => ⟨S_, .i32⟩
  | 122 => ⟨S1500x9, .i32⟩
  | 123 => ⟨S1500x9, .i32⟩
  | 124 => ⟨S1500x9, .i32⟩
  | 125 => ⟨S1500x9x1, .i32⟩
  | 126 => ⟨S1500x9x128, .f32⟩
  | 127 => ⟨S_, .f32⟩
  | _ => ⟨S200000x128, .f32⟩

abbrev hbmTy0_1 (i : Nat) : BufTy := match i % 128 with
  | 0 => ⟨S1500x128, .f32⟩
  | 1 => ⟨S1500x128, .f32⟩
  | 2 => ⟨S500x128, .f32⟩
  | 3 => ⟨S_, .i32⟩
  | 4 => ⟨S500x10, .i32⟩
  | 5 => ⟨S500x10, .i1⟩
  | 6 => ⟨S_, .i32⟩
  | 7 => ⟨S500x10, .i32⟩
  | 8 => ⟨S500x10, .i32⟩
  | 9 => ⟨S500x10, .i32⟩
  | 10 => ⟨S500x10x1, .i32⟩
  | 11 => ⟨S500x10x128, .f32⟩
  | 12 => ⟨S_, .f32⟩
  | 13 => ⟨S500x128, .f32⟩
  | 14 => ⟨S500x128, .f32⟩
  | 15 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_19 : Ref sig .tc := ⟨.hbm, 105, rfl⟩
abbrev main_v72 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_22 : Ref sig .tc := ⟨.hbm, 118, rfl⟩
abbrev main_v82 : Ref sig .tc := ⟨.hbm, 119, rfl⟩
abbrev main_v83 : Ref sig .tc := ⟨.hbm, 120, rfl⟩
abbrev main_c_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_25 : Ref sig .tc := ⟨.hbm, 131, rfl⟩
abbrev main_v92 : Ref sig .tc := ⟨.hbm, 132, rfl⟩
abbrev main_v93 : Ref sig .tc := ⟨.hbm, 133, rfl⟩
abbrev main_c_26 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_27 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]

class Facts₀ : Prop where
  slices_S200000x128_S10000x128_0_0 : S200000x128.Slices ![0, 0] S10000x128
  slices_S200000x128_S20000x128_10000_0 : S200000x128.Slices ![10000, 0] S20000x128
  bcast_S_S20000x1 : S_.BroadcastsInDim S20000x1 (![] : Fin 0 → Fin S20000x1.rank)
  bcast_S20000x1_S20000x1x1_0_1 : S20000x1.BroadcastsInDim S20000x1x1 (![0, 1] : Fin 2 → Fin S20000x1x1.rank)
  reducesTo_S20000x1x128_S20000x128_d1 : S20000x1x128.ReducesTo [1] S20000x128
  h_S_ : 0 < S_.numel
  slices_S200000x128_S40000x128_30000_0 : S200000x128.Slices ![30000, 0] S40000x128
  bcast_S_S40000x2 : S_.BroadcastsInDim S40000x2 (![] : Fin 0 → Fin S40000x2.rank)
  bcast_S40000x2_S40000x2x1_0_1 : S40000x2.BroadcastsInDim S40000x2x1 (![0, 1] : Fin 2 → Fin S40000x2x1.rank)
  reducesTo_S40000x2x128_S40000x128_d1 : S40000x2x128.ReducesTo [1] S40000x128
  slices_S200000x128_S50000x128_70000_0 : S200000x128.Slices ![70000, 0] S50000x128
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  reducesTo_S50000x3x128_S50000x128_d1 : S50000x3x128.ReducesTo [1] S50000x128
  slices_S200000x128_S40000x128_120000_0 : S200000x128.Slices ![120000, 0] S40000x128
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  reducesTo_S40000x4x128_S40000x128_d1 : S40000x4x128.ReducesTo [1] S40000x128
  slices_S200000x128_S20000x128_160000_0 : S200000x128.Slices ![160000, 0] S20000x128
  bcast_S_S20000x5 : S_.BroadcastsInDim S20000x5 (![] : Fin 0 → Fin S20000x5.rank)
  bcast_S20000x5_S20000x5x1_0_1 : S20000x5.BroadcastsInDim S20000x5x1 (![0, 1] : Fin 2 → Fin S20000x5x1.rank)
  reducesTo_S20000x5x128_S20000x128_d1 : S20000x5x128.ReducesTo [1] S20000x128
  slices_S200000x128_S10000x128_180000_0 : S200000x128.Slices ![180000, 0] S10000x128
  bcast_S_S10000x6 : S_.BroadcastsInDim S10000x6 (![] : Fin 0 → Fin S10000x6.rank)
  bcast_S10000x6_S10000x6x1_0_1 : S10000x6.BroadcastsInDim S10000x6x1 (![0, 1] : Fin 2 → Fin S10000x6x1.rank)
  reducesTo_S10000x6x128_S10000x128_d1 : S10000x6x128.ReducesTo [1] S10000x128
  slices_S200000x128_S5000x128_190000_0 : S200000x128.Slices ![190000, 0] S5000x128
  bcast_S_S5000x7 : S_.BroadcastsInDim S5000x7 (![] : Fin 0 → Fin S5000x7.rank)
  bcast_S5000x7_S5000x7x1_0_1 : S5000x7.BroadcastsInDim S5000x7x1 (![0, 1] : Fin 2 → Fin S5000x7x1.rank)
  reducesTo_S5000x7x128_S5000x128_d1 : S5000x7x128.ReducesTo [1] S5000x128
  slices_S200000x128_S3000x128_195000_0 : S200000x128.Slices ![195000, 0] S3000x128
  bcast_S_S3000x8 : S_.BroadcastsInDim S3000x8 (![] : Fin 0 → Fin S3000x8.rank)
  bcast_S3000x8_S3000x8x1_0_1 : S3000x8.BroadcastsInDim S3000x8x1 (![0, 1] : Fin 2 → Fin S3000x8x1.rank)
  reducesTo_S3000x8x128_S3000x128_d1 : S3000x8x128.ReducesTo [1] S3000x128
  slices_S200000x128_S1500x128_198000_0 : S200000x128.Slices ![198000, 0] S1500x128
  bcast_S_S1500x9 : S_.BroadcastsInDim S1500x9 (![] : Fin 0 → Fin S1500x9.rank)
  bcast_S1500x9_S1500x9x1_0_1 : S1500x9.BroadcastsInDim S1500x9x1 (![0, 1] : Fin 2 → Fin S1500x9x1.rank)
  reducesTo_S1500x9x128_S1500x128_d1 : S1500x9x128.ReducesTo [1] S1500x128
  slices_S200000x128_S500x128_199500_0 : S200000x128.Slices ![199500, 0] S500x128
  bcast_S_S500x10 : S_.BroadcastsInDim S500x10 (![] : Fin 0 → Fin S500x10.rank)
  bcast_S500x10_S500x10x1_0_1 : S500x10.BroadcastsInDim S500x10x1 (![0, 1] : Fin 2 → Fin S500x10x1.rank)
  reducesTo_S500x10x128_S500x128_d1 : S500x10x128.ReducesTo [1] S500x128
  concatenates_S10000x128_S20000x128_S40000x128_S50000x128_S40000x128_S20000x128_S10000x128_S5000x128_S3000x128_S1500x128_S500x128_S200000x128_d0 : Shape.Concatenates [S10000x128, S20000x128, S40000x128, S50000x128, S40000x128, S20000x128, S10000x128, S5000x128, S3000x128, S1500x128, S500x128] S200000x128 0
  gather_S200000x128_S20000x1x1_S20000x1x128_2_0_n_n_0_2_1128_wf : GatherDims.WF S200000x128 S20000x1x1 S20000x1x128 [2] [0] [] [0] [] 2 ![1, 128]
  gather_S200000x128_S40000x2x1_S40000x2x128_2_0_n_n_0_2_1128_wf : GatherDims.WF S200000x128 S40000x2x1 S40000x2x128 [2] [0] [] [0] [] 2 ![1, 128]
  gather_S200000x128_S50000x3x1_S50000x3x128_2_0_n_n_0_2_1128_wf : GatherDims.WF S200000x128 S50000x3x1 S50000x3x128 [2] [0] [] [0] [] 2 ![1, 128]
  gather_S200000x128_S40000x4x1_S40000x4x128_2_0_n_n_0_2_1128_wf : GatherDims.WF S200000x128 S40000x4x1 S40000x4x128 [2] [0] [] [0] [] 2 ![1, 128]
  gather_S200000x128_S20000x5x1_S20000x5x128_2_0_n_n_0_2_1128_wf : GatherDims.WF S200000x128 S20000x5x1 S20000x5x128 [2] [0] [] [0] [] 2 ![1, 128]
  gather_S200000x128_S10000x6x1_S10000x6x128_2_0_n_n_0_2_1128_wf : GatherDims.WF S200000x128 S10000x6x1 S10000x6x128 [2] [0] [] [0] [] 2 ![1, 128]
  gather_S200000x128_S5000x7x1_S5000x7x128_2_0_n_n_0_2_1128_wf : GatherDims.WF S200000x128 S5000x7x1 S5000x7x128 [2] [0] [] [0] [] 2 ![1, 128]
  gather_S200000x128_S3000x8x1_S3000x8x128_2_0_n_n_0_2_1128_wf : GatherDims.WF S200000x128 S3000x8x1 S3000x8x128 [2] [0] [] [0] [] 2 ![1, 128]
  gather_S200000x128_S1500x9x1_S1500x9x128_2_0_n_n_0_2_1128_wf : GatherDims.WF S200000x128 S1500x9x1 S1500x9x128 [2] [0] [] [0] [] 2 ![1, 128]
  gather_S200000x128_S500x10x1_S500x10x128_2_0_n_n_0_2_1128_wf : GatherDims.WF S200000x128 S500x10x1 S500x10x128 [2] [0] [] [0] [] 2 ![1, 128]

variable [Facts₀]

def gather_S200000x128_S20000x1x1_S20000x1x128_2_0_n_n_0_2_1128 : GatherDims S200000x128 S20000x1x1 S20000x1x128 where
  offsetDims := [2]
  collapsedSliceDims := [0]
  operandBatchingDims := []
  startIndicesBatchingDims := []
  startIndexMap := [0]
  indexVectorDim := 2
  sliceSizes := ![1, 128]
  wf := gather_S200000x128_S20000x1x1_S20000x1x128_2_0_n_n_0_2_1128_wf
def gather_S200000x128_S40000x2x1_S40000x2x128_2_0_n_n_0_2_1128 : GatherDims S200000x128 S40000x2x1 S40000x2x128 where
  offsetDims := [2]
  collapsedSliceDims := [0]
  operandBatchingDims := []
  startIndicesBatchingDims := []
  startIndexMap := [0]
  indexVectorDim := 2
  sliceSizes := ![1, 128]
  wf := gather_S200000x128_S40000x2x1_S40000x2x128_2_0_n_n_0_2_1128_wf
def gather_S200000x128_S50000x3x1_S50000x3x128_2_0_n_n_0_2_1128 : GatherDims S200000x128 S50000x3x1 S50000x3x128 where
  offsetDims := [2]
  collapsedSliceDims := [0]
  operandBatchingDims := []
  startIndicesBatchingDims := []
  startIndexMap := [0]
  indexVectorDim := 2
  sliceSizes := ![1, 128]
  wf := gather_S200000x128_S50000x3x1_S50000x3x128_2_0_n_n_0_2_1128_wf
def gather_S200000x128_S40000x4x1_S40000x4x128_2_0_n_n_0_2_1128 : GatherDims S200000x128 S40000x4x1 S40000x4x128 where
  offsetDims := [2]
  collapsedSliceDims := [0]
  operandBatchingDims := []
  startIndicesBatchingDims := []
  startIndexMap := [0]
  indexVectorDim := 2
  sliceSizes := ![1, 128]
  wf := gather_S200000x128_S40000x4x1_S40000x4x128_2_0_n_n_0_2_1128_wf
def gather_S200000x128_S20000x5x1_S20000x5x128_2_0_n_n_0_2_1128 : GatherDims S200000x128 S20000x5x1 S20000x5x128 where
  offsetDims := [2]
  collapsedSliceDims := [0]
  operandBatchingDims := []
  startIndicesBatchingDims := []
  startIndexMap := [0]
  indexVectorDim := 2
  sliceSizes := ![1, 128]
  wf := gather_S200000x128_S20000x5x1_S20000x5x128_2_0_n_n_0_2_1128_wf
def gather_S200000x128_S10000x6x1_S10000x6x128_2_0_n_n_0_2_1128 : GatherDims S200000x128 S10000x6x1 S10000x6x128 where
  offsetDims := [2]
  collapsedSliceDims := [0]
  operandBatchingDims := []
  startIndicesBatchingDims := []
  startIndexMap := [0]
  indexVectorDim := 2
  sliceSizes := ![1, 128]
  wf := gather_S200000x128_S10000x6x1_S10000x6x128_2_0_n_n_0_2_1128_wf
def gather_S200000x128_S5000x7x1_S5000x7x128_2_0_n_n_0_2_1128 : GatherDims S200000x128 S5000x7x1 S5000x7x128 where
  offsetDims := [2]
  collapsedSliceDims := [0]
  operandBatchingDims := []
  startIndicesBatchingDims := []
  startIndexMap := [0]
  indexVectorDim := 2
  sliceSizes := ![1, 128]
  wf := gather_S200000x128_S5000x7x1_S5000x7x128_2_0_n_n_0_2_1128_wf
def gather_S200000x128_S3000x8x1_S3000x8x128_2_0_n_n_0_2_1128 : GatherDims S200000x128 S3000x8x1 S3000x8x128 where
  offsetDims := [2]
  collapsedSliceDims := [0]
  operandBatchingDims := []
  startIndicesBatchingDims := []
  startIndexMap := [0]
  indexVectorDim := 2
  sliceSizes := ![1, 128]
  wf := gather_S200000x128_S3000x8x1_S3000x8x128_2_0_n_n_0_2_1128_wf
def gather_S200000x128_S1500x9x1_S1500x9x128_2_0_n_n_0_2_1128 : GatherDims S200000x128 S1500x9x1 S1500x9x128 where
  offsetDims := [2]
  collapsedSliceDims := [0]
  operandBatchingDims := []
  startIndicesBatchingDims := []
  startIndexMap := [0]
  indexVectorDim := 2
  sliceSizes := ![1, 128]
  wf := gather_S200000x128_S1500x9x1_S1500x9x128_2_0_n_n_0_2_1128_wf
def gather_S200000x128_S500x10x1_S500x10x128_2_0_n_n_0_2_1128 : GatherDims S200000x128 S500x10x1 S500x10x128 where
  offsetDims := [2]
  collapsedSliceDims := [0]
  operandBatchingDims := []
  startIndicesBatchingDims := []
  startIndexMap := [0]
  indexVectorDim := 2
  sliceSizes := ![1, 128]
  wf := gather_S200000x128_S500x10x1_S500x10x128_2_0_n_n_0_2_1128_wf

class Facts : Prop extends Facts₀ where

variable [Facts]
-- ==== Proof.Spec.lean ====
/-
  Degree-bucketed max pooling, as one function of the feature table and the gathered neighbour rows.
  Rows of degree d occupy the contiguous range [start d, start d + count d) of the 200000 x 128 table.  A row of
  degree 0 is kept; a row of degree d >= 1 ends, feature by feature, at the maximum of its own entry and the
  entries of its d gathered neighbour rows.  The maximum over the neighbours is taken as a fold of `max` from the
  value of the word of minus infinity, which is the least extended real, so it is the plain maximum.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The feature table's shape. -/
abbrev Tab : Shape := ⟨2, ![200000, 128]⟩

/-- The value every neighbour fold starts from: the word of minus infinity read as an extended real. -/
abbrev negInf : Ideal .f32 := Ideal.ofBits .f32 0xFF800000#32

/-- That word is the least extended real. -/
theorem negInf_eq_bot : negInf = (⊥ : EReal) := by
  simp [negInf, Ideal.ofBits, Ideal.ieee]

/-- The maximum, at feature `f`, over the `d` neighbour rows gathered for row `r` of a bucket of `c` rows. -/
def rowMax {c d : Nat} (g : FVec Ideal ⟨3, ![c, d, 128]⟩ .f32) (r : Fin c) (f : Fin 128) : Ideal .f32 :=
  (Finset.univ : Finset (Fin d)).fold max negInf (fun k => g (ix3 r k f))

/-- With one neighbour the fold is that neighbour's entry. -/
theorem rowMax_one {c : Nat} (g : FVec Ideal ⟨3, ![c, 1, 128]⟩ .f32) (r : Fin c) (f : Fin 128) :
    rowMax g r f = g (ix3 r 0 f) := by
  unfold rowMax
  rw [show (Finset.univ : Finset (Fin 1)) = {0} from rfl, Finset.fold_singleton, negInf_eq_bot]
  exact max_bot_right _

/-- The pooled table: row by row, by the bucket the row lies in. -/
def spec (A : FVec Ideal Tab .f32) (g1 : FVec Ideal ⟨3, ![20000, 1, 128]⟩ .f32) (g2 : FVec Ideal ⟨3, ![40000, 2, 128]⟩ .f32) (g3 : FVec Ideal ⟨3, ![50000, 3, 128]⟩ .f32) (g4 : FVec Ideal ⟨3, ![40000, 4, 128]⟩ .f32) (g5 : FVec Ideal ⟨3, ![20000, 5, 128]⟩ .f32) (g6 : FVec Ideal ⟨3, ![10000, 6, 128]⟩ .f32) (g7 : FVec Ideal ⟨3, ![5000, 7, 128]⟩ .f32) (g8 : FVec Ideal ⟨3, ![3000, 8, 128]⟩ .f32) (g9 : FVec Ideal ⟨3, ![1500, 9, 128]⟩ .f32) (g10 : FVec Ideal ⟨3, ![500, 10, 128]⟩ .f32) : FVec Ideal Tab .f32 := fun i =>
  if h0 : (i 0).val < 10000 then A i
  else if h1 : (i 0).val < 30000 then max (A i) (rowMax g1 ⟨(i 0).val - 10000, by omega⟩ (i 1))
  else if h2 : (i 0).val < 70000 then max (A i) (rowMax g2 ⟨(i 0).val - 30000, by omega⟩ (i 1))
  else if h3 : (i 0).val < 120000 then max (A i) (rowMax g3 ⟨(i 0).val - 70000, by omega⟩ (i 1))
  else if h4 : (i 0).val < 160000 then max (A i) (rowMax g4 ⟨(i 0).val - 120000, by omega⟩ (i 1))
  else if h5 : (i 0).val < 180000 then max (A i) (rowMax g5 ⟨(i 0).val - 160000, by omega⟩ (i 1))
  else if h6 : (i 0).val < 190000 then max (A i) (rowMax g6 ⟨(i 0).val - 180000, by omega⟩ (i 1))
  else if h7 : (i 0).val < 195000 then max (A i) (rowMax g7 ⟨(i 0).val - 190000, by omega⟩ (i 1))
  else if h8 : (i 0).val < 198000 then max (A i) (rowMax g8 ⟨(i 0).val - 195000, by omega⟩ (i 1))
  else if h9 : (i 0).val < 199500 then max (A i) (rowMax g9 ⟨(i 0).val - 198000, by omega⟩ (i 1))
  else max (A i) (rowMax g10 ⟨(i 0).val - 199500, by have := idx2_lt0 i; omega⟩ (i 1))

variable (A : FVec Ideal Tab .f32) (g1 : FVec Ideal ⟨3, ![20000, 1, 128]⟩ .f32) (g2 : FVec Ideal ⟨3, ![40000, 2, 128]⟩ .f32) (g3 : FVec Ideal ⟨3, ![50000, 3, 128]⟩ .f32) (g4 : FVec Ideal ⟨3, ![40000, 4, 128]⟩ .f32) (g5 : FVec Ideal ⟨3, ![20000, 5, 128]⟩ .f32) (g6 : FVec Ideal ⟨3, ![10000, 6, 128]⟩ .f32) (g7 : FVec Ideal ⟨3, ![5000, 7, 128]⟩ .f32) (g8 : FVec Ideal ⟨3, ![3000, 8, 128]⟩ .f32) (g9 : FVec Ideal ⟨3, ![1500, 9, 128]⟩ .f32) (g10 : FVec Ideal ⟨3, ![500, 10, 128]⟩ .f32)

/-- A row of degree 0 is kept. -/
theorem spec_deg0 (r : Fin 10000) (f : Fin 128) :
    spec A g1 g2 g3 g4 g5 g6 g7 g8 g9 g10 (ix2 ⟨r.val, by omega⟩ f) = A (ix2 ⟨r.val, by omega⟩ f) := by
  have hr := r.isLt
  unfold spec
  rw [dif_pos (show ((ix2 (⟨r.val, by omega⟩ : Fin 200000) f : Tab.Idx) 0).val < 10000 from hr)]

/-- Row `r` of the degree-1 bucket: the maximum of its own entry and its 1 gathered neighbour. -/
theorem spec_deg1 (r : Fin 20000) (f : Fin 128) :
    spec A g1 g2 g3 g4 g5 g6 g7 g8 g9 g10 (ix2 ⟨10000 + r.val, by omega⟩ f)
      = max (A (ix2 ⟨10000 + r.val, by omega⟩ f)) (rowMax g1 r f) := by
  have hr := r.isLt
  unfold spec
  rw [dif_neg (show ¬ ((ix2 (⟨10000 + r.val, by omega⟩ : Fin 200000) f : Tab.Idx) 0).val < 10000 from by show ¬ (10000 + r.val < 10000); omega)]
  rw [dif_pos (show ((ix2 (⟨10000 + r.val, by omega⟩ : Fin 200000) f : Tab.Idx) 0).val < 30000 from by show 10000 + r.val < 30000; omega)]
  have e : (⟨((ix2 (⟨10000 + r.val, by omega⟩ : Fin 200000) f : Tab.Idx) 0).val - 10000, by show 10000 + r.val - 10000 < 20000; omega⟩ : Fin 20000) = r :=
    Fin.ext (by show 10000 + r.val - 10000 = r.val; omega)
  rw [e]

/-- Row `r` of the degree-2 bucket: the maximum of its own entry and its 2 gathered neighbours. -/
theorem spec_deg2 (r : Fin 40000) (f : Fin 128) :
    spec A g1 g2 g3 g4 g5 g6 g7 g8 g9 g10 (ix2 ⟨30000 + r.val, by omega⟩ f)
      = max (A (ix2 ⟨30000 + r.val, by omega⟩ f)) (rowMax g2 r f) := by
  have hr := r.isLt
  unfold spec
  rw [dif_neg (show ¬ ((ix2 (⟨30000 + r.val, by omega⟩ : Fin 200000) f : Tab.Idx) 0).val < 10000 from by show ¬ (30000 + r.val < 10000); omega)]
  rw [dif_neg (show ¬ ((ix2 (⟨30000 + r.val, by omega⟩ : Fin 200000) f : Tab.Idx) 0).val < 30000 from by show ¬ (30000 + r.val < 30000); omega)]
  rw [dif_pos (show ((ix2 (⟨30000 + r.val, by omega⟩ : Fin 200000) f : Tab.Idx) 0).val < 70000 from by show 30000 + r.val < 70000; omega)]
  have e : (⟨((ix2 (⟨30000 + r.val, by omega⟩ : Fin 200000) f : Tab.Idx) 0).val - 30000, by show 30000 + r.val - 30000 < 40000; omega⟩ : Fin 40000) = r :=
    Fin.ext (by show 30000 + r.val - 30000 = r.val; omega)
  rw [e]

/-- Row `r` of the degree-3 bucket: the maximum of its own entry and its 3 gathered neighbours. -/
theorem spec_deg3 (r : Fin 50000) (f : Fin 128) :
    spec A g1 g2 g3 g4 g5 g6 g7 g8 g9 g10 (ix2 ⟨70000 + r.val, by omega⟩ f)
      = max (A (ix2 ⟨70000 + r.val, by omega⟩ f)) (rowMax g3 r f) := by
  have hr := r.isLt
  unfold spec
  rw [dif_neg (show ¬ ((ix2 (⟨70000 + r.val, by omega⟩ : Fin 200000) f : Tab.Idx) 0).val < 10000 from by show ¬ (70000 + r.val < 10000); omega)]
  rw [dif_neg (show ¬ ((ix2 (⟨70000 + r.val, by omega⟩ : Fin 200000) f : Tab.Idx) 0).val < 30000 from by show ¬ (70000 + r.val < 30000); omega)]
  rw [dif_neg (show ¬ ((ix2 (⟨70000 + r.val, by omega⟩ : Fin 200000) f : Tab.Idx) 0).val < 70000 from by show ¬ (70000 + r.val < 70000); omega)]
  rw [dif_pos (show ((ix2 (⟨70000 + r.val, by omega⟩ : Fin 200000) f : Tab.Idx) 0).val < 120000 from by show 70000 + r.val < 120000; omega)]
  have e : (⟨((ix2 (⟨70000 + r.val, by omega⟩ : Fin 200000) f : Tab.Idx) 0).val - 70000, by show 70000 + r.val - 70000 < 50000; omega⟩ : Fin 50000) = r :=
    Fin.ext (by show 70000 + r.val - 70000 = r.val; omega)
  rw [e]

/-- Row `r` of the degree-4 bucket: the maximum of its own entry and its 4 gathered neighbours. -/
theorem spec_deg4 (r : Fin 40000) (f : Fin 128) :
    spec A g1 g2 g3 g4 g5 g6 g7 g8 g9 g10 (ix2 ⟨120000 + r.val, by omega⟩ f)
      = max (A (ix2 ⟨120000 + r.val, by omega⟩ f)) (rowMax g4 r f) := by
  have hr := r.isLt
  unfold spec
  rw [dif_neg (show ¬ ((ix2 (⟨120000 + r.val, by omega⟩ : Fin 200000) f : Tab.Idx) 0).val < 10000 from by show ¬ (120000 + r.val < 10000); omega)]
  rw [dif_neg (show ¬ ((ix2 (⟨120000 + r.val, by omega⟩ : Fin 200000) f : Tab.Idx) 0).val < 30000 from by show ¬ (120000 + r.val < 30000); omega)]
  rw [dif_neg (show ¬ ((ix2 (⟨120000 + r.val, by omega⟩ : Fin 200000) f : Tab.Idx) 0).val < 70000 from by show ¬ (120000 + r.val < 70000); omega)]
  rw [dif_neg (show ¬ ((ix2 (⟨120000 + r.val, by omega⟩ : Fin 200000) f : Tab.Idx) 0).val < 120000 from by show ¬ (120000 + r.val < 120000); omega)]
  rw [dif_pos (show ((ix2 (⟨120000 + r.val, by omega⟩ : Fin 200000) f : Tab.Idx) 0).val < 160000 from by show 120000 + r.val < 160000; omega)]
  have e : (⟨((ix2 (⟨120000 + r.val, by omega⟩ : Fin 200000) f : Tab.Idx) 0).val - 120000, by show 120000 + r.val - 120000 < 40000; omega⟩ : Fin 40000) = r :=
    Fin.ext (by show 120000 + r.val - 120000 = r.val; omega)
  rw [e]

/-- Row `r` of the degree-5 bucket: the maximum of its own entry and its 5 gathered neighbours. -/
theorem spec_deg5 (r : Fin 20000) (f : Fin 128) :
    spec A g1 g2 g3 g4 g5 g6 g7 g8 g9 g10 (ix2 ⟨160000 + r.val, by omega⟩ f)
      = max (A (ix2 ⟨160000 + r.val, by omega⟩ f)) (rowMax g5 r f) := by
  have hr := r.isLt
  unfold spec
  rw [dif_neg (show ¬ ((ix2 (⟨160000 + r.val, by omega⟩ : Fin 200000) f : Tab.Idx) 0).val < 10000 from by show ¬ (160000 + r.val < 10000); omega)]
  rw [dif_neg (show ¬ ((ix2 (⟨160000 + r.val, by omega⟩ : Fin 200000) f : Tab.Idx) 0).val < 30000 from by show ¬ (160000 + r.val < 30000); omega)]
  rw [dif_neg (show ¬ ((ix2 (⟨160000 + r.val, by omega⟩ : Fin 200000) f : Tab.Idx) 0).val < 70000 from by show ¬ (160000 + r.val < 70000); omega)]
  rw [dif_neg (show ¬ ((ix2 (⟨160000 + r.val, by omega⟩ : Fin 200000) f : Tab.Idx) 0).val < 120000 from by show ¬ (160000 + r.val < 120000); omega)]
  rw [dif_neg (show ¬ ((ix2 (⟨160000 + r.val, by omega⟩ : Fin 200000) f : Tab.Idx) 0).val < 160000 from by show ¬ (160000 + r.val < 160000); omega)]
  rw [dif_pos (show ((ix2 (⟨160000 + r.val, by omega⟩ : Fin 200000) f : Tab.Idx) 0).val < 180000 from by show 160000 + r.val < 180000; omega)]
  have e : (⟨((ix2 (⟨160000 + r.val, by omega⟩ : Fin 200000) f : Tab.Idx) 0).val - 160000, by show 160000 + r.val - 160000 < 20000; omega⟩ : Fin 20000) = r :=
    Fin.ext (by show 160000 + r.val - 160000 = r.val; omega)
  rw [e]

/-- Row `r` of the degree-6 bucket: the maximum of its own entry and its 6 gathered neighbours. -/
theorem spec_deg6 (r : Fin 10000) (f : Fin 128) :
    spec A g1 g2 g3 g4 g5 g6 g7 g8 g9 g10 (ix2 ⟨180000 + r.val, by omega⟩ f)
      = max (A (ix2 ⟨180000 + r.val, by omega⟩ f)) (rowMax g6 r f) := by
  have hr := r.isLt
  unfold spec
  rw [dif_neg (show ¬ ((ix2 (⟨180000 + r.val, by omega⟩ : Fin 200000) f : Tab.Idx) 0).val < 10000 from by show ¬ (180000 + r.val < 10000); omega)]
  rw [dif_neg (show ¬ ((ix2 (⟨180000 + r.val, by omega⟩ : Fin 200000) f : Tab.Idx) 0).val < 30000 from by show ¬ (180000 + r.val < 30000); omega)]
  rw [dif_neg (show ¬ ((ix2 (⟨180000 + r.val, by omega⟩ : Fin 200000) f : Tab.Idx) 0).val < 70000 from by show ¬ (180000 + r.val < 70000); omega)]
  rw [dif_neg (show ¬ ((ix2 (⟨180000 + r.val, by omega⟩ : Fin 200000) f : Tab.Idx) 0).val < 120000 from by show ¬ (180000 + r.val < 120000); omega)]
  rw [dif_neg (show ¬ ((ix2 (⟨180000 + r.val, by omega⟩ : Fin 200000) f : Tab.Idx) 0).val < 160000 from by show ¬ (180000 + r.val < 160000); omega)]
  rw [dif_neg (show ¬ ((ix2 (⟨180000 + r.val, by omega⟩ : Fin 200000) f : Tab.Idx) 0).val < 180000 from by show ¬ (180000 + r.val < 180000); omega)]
  rw [dif_pos (show ((ix2 (⟨180000 + r.val, by omega⟩ : Fin 200000) f : Tab.Idx) 0).val < 190000 from by show 180000 + r.val < 190000; omega)]
  have e : (⟨((ix2 (⟨180000 + r.val, by omega⟩ : Fin 200000) f : Tab.Idx) 0).val - 180000, by show 180000 + r.val - 180000 < 10000; omega⟩ : Fin 10000) = r :=
    Fin.ext (by show 180000 + r.val - 180000 = r.val; omega)
  rw [e]

/-- Row `r` of the degree-7 bucket: the maximum of its own entry and its 7 gathered neighbours. -/
theorem spec_deg7 (r : Fin 5000) (f : Fin 128) :
    spec A g1 g2 g3 g4 g5 g6 g7 g8 g9 g10 (ix2 ⟨190000 + r.val, by omega⟩ f)
      = max (A (ix2 ⟨190000 + r.val, by omega⟩ f)) (rowMax g7 r f) := by
  have hr := r.isLt
  unfold spec
  rw [dif_neg (show ¬ ((ix2 (⟨190000 + r.val, by omega⟩ : Fin 200000) f : Tab.Idx) 0).val < 10000 from by show ¬ (190000 + r.val < 10000); omega)]
  rw [dif_neg (show ¬ ((ix2 (⟨190000 + r.val, by omega⟩ : Fin 200000) f : Tab.Idx) 0).val < 30000 from by show ¬ (190000 + r.val < 30000); omega)]
  rw [dif_neg (show ¬ ((ix2 (⟨190000 + r.val, by omega⟩ : Fin 200000) f : Tab.Idx) 0).val < 70000 from by show ¬ (190000 + r.val < 70000); omega)]
  rw [dif_neg (show ¬ ((ix2 (⟨190000 + r.val, by omega⟩ : Fin 200000) f : Tab.Idx) 0).val < 120000 from by show ¬ (190000 + r.val < 120000); omega)]
  rw [dif_neg (show ¬ ((ix2 (⟨190000 + r.val, by omega⟩ : Fin 200000) f : Tab.Idx) 0).val < 160000 from by show ¬ (190000 + r.val < 160000); omega)]
  rw [dif_neg (show ¬ ((ix2 (⟨190000 + r.val, by omega⟩ : Fin 200000) f : Tab.Idx) 0).val < 180000 from by show ¬ (190000 + r.val < 180000); omega)]
  rw [dif_neg (show ¬ ((ix2 (⟨190000 + r.val, by omega⟩ : Fin 200000) f : Tab.Idx) 0).val < 190000 from by show ¬ (190000 + r.val < 190000); omega)]
  rw [dif_pos (show ((ix2 (⟨190000 + r.val, by omega⟩ : Fin 200000) f : Tab.Idx) 0).val < 195000 from by show 190000 + r.val < 195000; omega)]
  have e : (⟨((ix2 (⟨190000 + r.val, by omega⟩ : Fin 200000) f : Tab.Idx) 0).val - 190000, by show 190000 + r.val - 190000 < 5000; omega⟩ : Fin 5000) = r :=
    Fin.ext (by show 190000 + r.val - 190000 = r.val; omega)
  rw [e]

/-- Row `r` of the degree-8 bucket: the maximum of its own entry and its 8 gathered neighbours. -/
theorem spec_deg8 (r : Fin 3000) (f : Fin 128) :
    spec A g1 g2 g3 g4 g5 g6 g7 g8 g9 g10 (ix2 ⟨195000 + r.val, by omega⟩ f)
      = max (A (ix2 ⟨195000 + r.val, by omega⟩ f)) (rowMax g8 r f) := by
  have hr := r.isLt
  unfold spec
  rw [dif_neg (show ¬ ((ix2 (⟨195000 + r.val, by omega⟩ : Fin 200000) f : Tab.Idx) 0).val < 10000 from by show ¬ (195000 + r.val < 10000); omega)]
  rw [dif_neg (show ¬ ((ix2 (⟨195000 + r.val, by omega⟩ : Fin 200000) f : Tab.Idx) 0).val < 30000 from by show ¬ (195000 + r.val < 30000); omega)]
  rw [dif_neg (show ¬ ((ix2 (⟨195000 + r.val, by omega⟩ : Fin 200000) f : Tab.Idx) 0).val < 70000 from by show ¬ (195000 + r.val < 70000); omega)]
  rw [dif_neg (show ¬ ((ix2 (⟨195000 + r.val, by omega⟩ : Fin 200000) f : Tab.Idx) 0).val < 120000 from by show ¬ (195000 + r.val < 120000); omega)]
  rw [dif_neg (show ¬ ((ix2 (⟨195000 + r.val, by omega⟩ : Fin 200000) f : Tab.Idx) 0).val < 160000 from by show ¬ (195000 + r.val < 160000); omega)]
  rw [dif_neg (show ¬ ((ix2 (⟨195000 + r.val, by omega⟩ : Fin 200000) f : Tab.Idx) 0).val < 180000 from by show ¬ (195000 + r.val < 180000); omega)]
  rw [dif_neg (show ¬ ((ix2 (⟨195000 + r.val, by omega⟩ : Fin 200000) f : Tab.Idx) 0).val < 190000 from by show ¬ (195000 + r.val < 190000); omega)]
  rw [dif_neg (show ¬ ((ix2 (⟨195000 + r.val, by omega⟩ : Fin 200000) f : Tab.Idx) 0).val < 195000 from by show ¬ (195000 + r.val < 195000); omega)]
  rw [dif_pos (show ((ix2 (⟨195000 + r.val, by omega⟩ : Fin 200000) f : Tab.Idx) 0).val < 198000 from by show 195000 + r.val < 198000; omega)]
  have e : (⟨((ix2 (⟨195000 + r.val, by omega⟩ : Fin 200000) f : Tab.Idx) 0).val - 195000, by show 195000 + r.val - 195000 < 3000; omega⟩ : Fin 3000) = r :=
    Fin.ext (by show 195000 + r.val - 195000 = r.val; omega)
  rw [e]

/-- Row `r` of the degree-9 bucket: the maximum of its own entry and its 9 gathered neighbours. -/
theorem spec_deg9 (r : Fin 1500) (f : Fin 128) :
    spec A g1 g2 g3 g4 g5 g6 g7 g8 g9 g10 (ix2 ⟨198000 + r.val, by omega⟩ f)
      = max (A (ix2 ⟨198000 + r.val, by omega⟩ f)) (rowMax g9 r f) := by
  have hr := r.isLt
  unfold spec
  rw [dif_neg (show ¬ ((ix2 (⟨198000 + r.val, by omega⟩ : Fin 200000) f : Tab.Idx) 0).val < 10000 from by show ¬ (198000 + r.val < 10000); omega)]
  rw [dif_neg (show ¬ ((ix2 (⟨198000 + r.val, by omega⟩ : Fin 200000) f : Tab.Idx) 0).val < 30000 from by show ¬ (198000 + r.val < 30000); omega)]
  rw [dif_neg (show ¬ ((ix2 (⟨198000 + r.val, by omega⟩ : Fin 200000) f : Tab.Idx) 0).val < 70000 from by show ¬ (198000 + r.val < 70000); omega)]
  rw [dif_neg (show ¬ ((ix2 (⟨198000 + r.val, by omega⟩ : Fin 200000) f : Tab.Idx) 0).val < 120000 from by show ¬ (198000 + r.val < 120000); omega)]
  rw [dif_neg (show ¬ ((ix2 (⟨198000 + r.val, by omega⟩ : Fin 200000) f : Tab.Idx) 0).val < 160000 from by show ¬ (198000 + r.val < 160000); omega)]
  rw [dif_neg (show ¬ ((ix2 (⟨198000 + r.val, by omega⟩ : Fin 200000) f : Tab.Idx) 0).val < 180000 from by show ¬ (198000 + r.val < 180000); omega)]
  rw [dif_neg (show ¬ ((ix2 (⟨198000 + r.val, by omega⟩ : Fin 200000) f : Tab.Idx) 0).val < 190000 from by show ¬ (198000 + r.val < 190000); omega)]
  rw [dif_neg (show ¬ ((ix2 (⟨198000 + r.val, by omega⟩ : Fin 200000) f : Tab.Idx) 0).val < 195000 from by show ¬ (198000 + r.val < 195000); omega)]
  rw [dif_neg (show ¬ ((ix2 (⟨198000 + r.val, by omega⟩ : Fin 200000) f : Tab.Idx) 0).val < 198000 from by show ¬ (198000 + r.val < 198000); omega)]
  rw [dif_pos (show ((ix2 (⟨198000 + r.val, by omega⟩ : Fin 200000) f : Tab.Idx) 0).val < 199500 from by show 198000 + r.val < 199500; omega)]
  have e : (⟨((ix2 (⟨198000 + r.val, by omega⟩ : Fin 200000) f : Tab.Idx) 0).val - 198000, by show 198000 + r.val - 198000 < 1500; omega⟩ : Fin 1500) = r :=
    Fin.ext (by show 198000 + r.val - 198000 = r.val; omega)
  rw [e]

/-- Row `r` of the degree-10 bucket: the maximum of its own entry and its 10 gathered neighbours. -/
theorem spec_deg10 (r : Fin 500) (f : Fin 128) :
    spec A g1 g2 g3 g4 g5 g6 g7 g8 g9 g10 (ix2 ⟨199500 + r.val, by omega⟩ f)
      = max (A (ix2 ⟨199500 + r.val, by omega⟩ f)) (rowMax g10 r f) := by
  have hr := r.isLt
  unfold spec
  rw [dif_neg (show ¬ ((ix2 (⟨199500 + r.val, by omega⟩ : Fin 200000) f : Tab.Idx) 0).val < 10000 from by show ¬ (199500 + r.val < 10000); omega)]
  rw [dif_neg (show ¬ ((ix2 (⟨199500 + r.val, by omega⟩ : Fin 200000) f : Tab.Idx) 0).val < 30000 from by show ¬ (199500 + r.val < 30000); omega)]
  rw [dif_neg (show ¬ ((ix2 (⟨199500 + r.val, by omega⟩ : Fin 200000) f : Tab.Idx) 0).val < 70000 from by show ¬ (199500 + r.val < 70000); omega)]
  rw [dif_neg (show ¬ ((ix2 (⟨199500 + r.val, by omega⟩ : Fin 200000) f : Tab.Idx) 0).val < 120000 from by show ¬ (199500 + r.val < 120000); omega)]
  rw [dif_neg (show ¬ ((ix2 (⟨199500 + r.val, by omega⟩ : Fin 200000) f : Tab.Idx) 0).val < 160000 from by show ¬ (199500 + r.val < 160000); omega)]
  rw [dif_neg (show ¬ ((ix2 (⟨199500 + r.val, by omega⟩ : Fin 200000) f : Tab.Idx) 0).val < 180000 from by show ¬ (199500 + r.val < 180000); omega)]
  rw [dif_neg (show ¬ ((ix2 (⟨199500 + r.val, by omega⟩ : Fin 200000) f : Tab.Idx) 0).val < 190000 from by show ¬ (199500 + r.val < 190000); omega)]
  rw [dif_neg (show ¬ ((ix2 (⟨199500 + r.val, by omega⟩ : Fin 200000) f : Tab.Idx) 0).val < 195000 from by show ¬ (199500 + r.val < 195000); omega)]
  rw [dif_neg (show ¬ ((ix2 (⟨199500 + r.val, by omega⟩ : Fin 200000) f : Tab.Idx) 0).val < 198000 from by show ¬ (199500 + r.val < 198000); omega)]
  rw [dif_neg (show ¬ ((ix2 (⟨199500 + r.val, by omega⟩ : Fin 200000) f : Tab.Idx) 0).val < 199500 from by show ¬ (199500 + r.val < 199500); omega)]
  have e : (⟨((ix2 (⟨199500 + r.val, by omega⟩ : Fin 200000) f : Tab.Idx) 0).val - 199500, by show 199500 + r.val - 199500 < 500; omega⟩ : Fin 500) = r :=
    Fin.ext (by show 199500 + r.val - 199500 = r.val; omega)
  rw [e]

end Cert.Pool

end
-- ==== Proof.Region0.lean ====
/-
  Region 0 of the kernel program, as a value: the output window's array after the last grid point holds the feature table's rows on the
  rows of the degree-0 bucket and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region0

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The output array's contents at entry. -/
abbrev prevArr (c : Dev nD) : FVec Ideal S200000x128 .f32 := V c main_v0

/-- The array every grid point writes a block of: the table on the first 10000 rows, the entry contents elsewhere. -/
def G (c : Dev nD) : FVec Ideal S200000x128 .f32 := fun i =>
  if (i 0).val < 10000 then selfArr V c i else prevArr V c i

/-- On a row of the bucket. -/
theorem G_in (c : Dev nD) (i : S200000x128.Idx) (h : (i 0).val < 10000) : G V c i = selfArr V c i := by
  unfold G
  exact if_pos h

/-- Off the bucket. -/
theorem G_out (c : Dev nD) (i : S200000x128.Idx) (h : 10000 ≤ (i 0).val) : G V c i = prevArr V c i := by
  unfold G
  exact if_neg (Nat.not_lt.2 h)

/-! ## From the five blocks to the array -/

/-- The zero offsets of the body's whole-buffer accesses are the constant zero. -/
theorem zeros2 : (![0, 0] : Fin 2 → Nat) = fun _ => 0 := funext fun a => by fin_cases a <;> rfl

/-- The printed index maps, decided over the five grid points: the table's window moves with the output's, whose block
    row stays below five and whose block column is zero. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 4 ∧ win0_1.index t (1 : Fin 2) = 0 :=
  (by decide +kernel : ∀ t : Fin grid0.N, _)

/-- Each of the five block rows is some grid point's. -/
theorem idx_onto : ∀ q : Fin 5, ∃ t : Fin cfg0.N, win0_1.index t = ![q.val, 0] :=
  (by decide +kernel : ∀ q : Fin 5, ∃ t : Fin grid0.N, win0_1.index t = ![q.val, 0])

/-- What a grid point writes back is its block of `G`: the body stores the table's block it loaded, and the block lies in
    the first 10000 rows. -/
theorem flushed_eq (c : Dev nD) (t : Fin cfg0.N) :
    (dat0 V c).flushed 1 t = ((cfg0.win 1).blk t).view.read (Elt Ideal) (G V c) := by
  show (cfg0.win 1).cut (grid0.coords t) ((dat0 V c).after 1 t) = _
  rw [after0_1]
  unfold out0_1
  rw [View.canon_unit_zero zeros2]
  simp only [View.ld_unit_zero (S := S2000x128) zeros2]
  obtain ⟨e0, e1, e2, e3⟩ := idx_facts t
  funext j
  show selfArr V c (((cfg0.win 0).blk t).view.emb j) = G V c (((cfg0.win 1).blk t).view.emb j)
  have hj0 : (j 0).val < 2000 := (j 0).isLt
  have hj1 : (j 1).val < 128 := (j 1).isLt
  have hemb : ((cfg0.win 0).blk t).view.emb j = ((cfg0.win 1).blk t).view.emb j := by
    funext a; apply Fin.ext
    match a with
    | ⟨0, _⟩ => show win0_0.index t (0 : Fin 2) * 2000 + 1 * (j 0).val = win0_1.index t (0 : Fin 2) * 2000 + 1 * (j 0).val; omega
    | ⟨1, _⟩ => show win0_0.index t (1 : Fin 2) * 128 + 1 * (j 1).val = win0_1.index t (1 : Fin 2) * 128 + 1 * (j 1).val; omega
  have hrow : ((((cfg0.win 1).blk t).view.emb j) 0).val < 10000 := by
    show win0_1.index t (0 : Fin 2) * 2000 + 1 * (j 0).val < 10000; omega
  rw [hemb, G_in V c _ hrow]

/-- An index of the array is in a grid point's block iff each coordinate is in the block's range on its axis. -/
theorem mem_blk (t : Fin cfg0.N) (i : S200000x128.Idx) :
    i ∈ ((cfg0.win 1).blk t).view.set ↔ ∀ a : Fin 2, win0_1.index t a * S2000x128.size a ≤ (i a).val
      ∧ (i a).val < win0_1.index t a * S2000x128.size a + S2000x128.size a := by
  show i ∈ ((View.whole main_v0).slice (win0_1.rect t)).set ↔ _
  rw [View.set_slice_whole, Rect.mem_set_unit]
  exact Iff.rfl

/-- THE COVERED INDICES: in some grid point's block iff on one of the first 10000 rows. -/
theorem covered_iff (i : S200000x128.Idx) :
    (∃ t : Fin cfg0.N, (cfg0.win 1).flush t = true ∧ i ∈ ((cfg0.win 1).blk t).view.set) ↔ (i 0).val < 10000 := by
  constructor
  · rintro ⟨t, -, hi⟩
    rw [mem_blk] at hi
    have b0 : win0_1.index t (0 : Fin 2) * 2000 ≤ (i 0).val ∧ (i 0).val < win0_1.index t (0 : Fin 2) * 2000 + 2000 := hi 0
    obtain ⟨e0, e1, e2, e3⟩ := idx_facts t
    omega
  · intro h
    have hi1 : (i 1).val < 128 := idx2_lt1 i
    obtain ⟨t, ht⟩ := idx_onto ⟨(i 0).val / 2000, by omega⟩
    have q0 : win0_1.index t (0 : Fin 2) = (i 0).val / 2000 := congrFun ht 0
    have q1 : win0_1.index t (1 : Fin 2) = 0 := congrFun ht 1
    refine ⟨t, flush0_1 t, ?_⟩
    rw [mem_blk]
    intro a
    match a with
    | ⟨0, _⟩ => show win0_1.index t (0 : Fin 2) * 2000 ≤ (i 0).val ∧ (i 0).val < win0_1.index t (0 : Fin 2) * 2000 + 2000; omega
    | ⟨1, _⟩ => show win0_1.index t (1 : Fin 2) * 128 ≤ (i 1).val ∧ (i 1).val < win0_1.index t (1 : Fin 2) * 128 + 128; omega

/-- THE ARRAY after the region. -/
theorem arr_eq (c : Dev nD) : (dat0 V c).arrAt 1 cfg0.N = G V c := by
  funext i
  rw [(dat0 V c).arrAt_eq_piecewise 1 (G V c) (fun t _ => flushed_eq V c t) i, A_eq0]
  by_cases h : (i 0).val < 10000
  · exact if_pos ((covered_iff i).2 h)
  · rw [if_neg (fun hc => h ((covered_iff i).1 hc))]
    exact (G_out V c i (Nat.not_lt.1 h)).symm

end Cert.KernelIdeal.Region0
end
-- ==== Proof.Keeps.lean ====
/-
  The kernel program's segments and the buffers they leave alone.  A stretch of host operations changes only the
  buffers its operations write; a kernel region changes only its output window's array and keeps its input windows'
  arrays.  Chained back to the launch, every argument array read at a segment boundary is the launch memory's.
-/
import proofs.«430485_j17085379904194_3_alg».proof.Proof.Gen.KernelIdeal.Frame

set_option maxRecDepth 16384

noncomputable section

namespace Cert.KernelIdeal.Keeps

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem keep1_main_arg0 (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem keep1_main_arg2 (c : Dev nD) : W1 m ρ c (Proc.devRef .tc main_arg2) = W0 m ρ c (Proc.devRef .tc main_arg2) :=
  W1_of_ne m ρ c main_arg2 (by decide)
theorem keep1_main_arg3 (c : Dev nD) : W1 m ρ c (Proc.devRef .tc main_arg3) = W0 m ρ c (Proc.devRef .tc main_arg3) :=
  W1_of_ne m ρ c main_arg3 (by decide)
theorem keep1_main_arg4 (c : Dev nD) : W1 m ρ c (Proc.devRef .tc main_arg4) = W0 m ρ c (Proc.devRef .tc main_arg4) :=
  W1_of_ne m ρ c main_arg4 (by decide)
theorem keep1_main_arg5 (c : Dev nD) : W1 m ρ c (Proc.devRef .tc main_arg5) = W0 m ρ c (Proc.devRef .tc main_arg5) :=
  W1_of_ne m ρ c main_arg5 (by decide)
theorem keep1_main_arg6 (c : Dev nD) : W1 m ρ c (Proc.devRef .tc main_arg6) = W0 m ρ c (Proc.devRef .tc main_arg6) :=
  W1_of_ne m ρ c main_arg6 (by decide)
theorem keep1_main_arg7 (c : Dev nD) : W1 m ρ c (Proc.devRef .tc main_arg7) = W0 m ρ c (Proc.devRef .tc main_arg7) :=
  W1_of_ne m ρ c main_arg7 (by decide)
theorem keep1_main_arg8 (c : Dev nD) : W1 m ρ c (Proc.devRef .tc main_arg8) = W0 m ρ c (Proc.devRef .tc main_arg8) :=
  W1_of_ne m ρ c main_arg8 (by decide)
theorem keep1_main_arg9 (c : Dev nD) : W1 m ρ c (Proc.devRef .tc main_arg9) = W0 m ρ c (Proc.devRef .tc main_arg9) :=
  W1_of_ne m ρ c main_arg9 (by decide)
theorem keep1_main_arg10 (c : Dev nD) : W1 m ρ c (Proc.devRef .tc main_arg10) = W0 m ρ c (Proc.devRef .tc main_arg10) :=
  W1_of_ne m ρ c main_arg10 (by decide)
theorem keep1_main_arg11 (c : Dev nD) : W1 m ρ c (Proc.devRef .tc main_arg11) = W0 m ρ c (Proc.devRef .tc main_arg11) :=
  W1_of_ne m ρ c main_arg11 (by decide)
theorem keep2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg3 (c : Dev nD) : W2 m ρ c (Proc.devRef .tc main_arg3) = W1 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg5 (c : Dev nD) : W2 m ρ c (Proc.devRef .tc main_arg5) = W1 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg6 (c : Dev nD) : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg7 (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg8 (c : Dev nD) : W2 m ρ c (Proc.devRef .tc main_arg8) = W1 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg9 (c : Dev nD) : W2 m ρ c (Proc.devRef .tc main_arg9) = W1 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg10 (c : Dev nD) : W2 m ρ c (Proc.devRef .tc main_arg10) = W1 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_arg11 (c : Dev nD) : W2 m ρ c (Proc.devRef .tc main_arg11) = W1 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_main_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_main_arg11 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_main_arg0 (c : Dev nD) : W4 m ρ c (Proc.devRef .tc main_arg0) = W3 m ρ c (Proc.devRef .tc main_arg0) :=
  (W4_arr m ρ c 0).trans (((dat1 (V3 m ρ) c).arrAt_in 0 rfl _).trans (A_eq1 (V3 m ρ) c 0))
theorem keep4_main_arg3 (c : Dev nD) : W4 m ρ c (Proc.devRef .tc main_arg3) = W3 m ρ c (Proc.devRef .tc main_arg3) :=
  W4_of_ne m ρ c main_arg3 (by decide)
theorem keep4_main_arg4 (c : Dev nD) : W4 m ρ c (Proc.devRef .tc main_arg4) = W3 m ρ c (Proc.devRef .tc main_arg4) :=
  W4_of_ne m ρ c main_arg4 (by decide)
theorem keep4_main_arg5 (c : Dev nD) : W4 m ρ c (Proc.devRef .tc main_arg5) = W3 m ρ c (Proc.devRef .tc main_arg5) :=
  W4_of_ne m ρ c main_arg5 (by decide)
theorem keep4_main_arg6 (c : Dev nD) : W4 m ρ c (Proc.devRef .tc main_arg6) = W3 m ρ c (Proc.devRef .tc main_arg6) :=
  W4_of_ne m ρ c main_arg6 (by decide)
theorem keep4_main_arg7 (c : Dev nD) : W4 m ρ c (Proc.devRef .tc main_arg7) = W3 m ρ c (Proc.devRef .tc main_arg7) :=
  W4_of_ne m ρ c main_arg7 (by decide)
theorem keep4_main_arg8 (c : Dev nD) : W4 m ρ c (Proc.devRef .tc main_arg8) = W3 m ρ c (Proc.devRef .tc main_arg8) :=
  W4_of_ne m ρ c main_arg8 (by decide)
theorem keep4_main_arg9 (c : Dev nD) : W4 m ρ c (Proc.devRef .tc main_arg9) = W3 m ρ c (Proc.devRef .tc main_arg9) :=
  W4_of_ne m ρ c main_arg9 (by decide)
theorem keep4_main_arg10 (c : Dev nD) : W4 m ρ c (Proc.devRef .tc main_arg10) = W3 m ρ c (Proc.devRef .tc main_arg10) :=
  W4_of_ne m ρ c main_arg10 (by decide)
theorem keep4_main_arg11 (c : Dev nD) : W4 m ρ c (Proc.devRef .tc main_arg11) = W3 m ρ c (Proc.devRef .tc main_arg11) :=
  W4_of_ne m ρ c main_arg11 (by decide)
theorem keep5_main_arg0 (c : Dev nD) : W5 m ρ c (Proc.devRef .tc main_arg0) = W4 m ρ c (Proc.devRef .tc main_arg0) :=
  StableHlo.after_of_forall_not_mem (b := Proc.devRef .tc main_arg0) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_main_v3 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg0 (c : Dev nD) : W6 m ρ c (Proc.devRef .tc main_arg0) = W5 m ρ c (Proc.devRef .tc main_arg0) :=
  StableHlo.after_of_forall_not_mem (b := Proc.devRef .tc main_arg0) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg4 (c : Dev nD) : W6 m ρ c (Proc.devRef .tc main_arg4) = W5 m ρ c (Proc.devRef .tc main_arg4) :=
  StableHlo.after_of_forall_not_mem (b := Proc.devRef .tc main_arg4) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg5 (c : Dev nD) : W6 m ρ c (Proc.devRef .tc main_arg5) = W5 m ρ c (Proc.devRef .tc main_arg5) :=
  StableHlo.after_of_forall_not_mem (b := Proc.devRef .tc main_arg5) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg7 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg8 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg9 (c : Dev nD) : W6 m ρ c (Proc.devRef .tc main_arg9) = W5 m ρ c (Proc.devRef .tc main_arg9) :=
  StableHlo.after_of_forall_not_mem (b := Proc.devRef .tc main_arg9) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg10 (c : Dev nD) : W6 m ρ c (Proc.devRef .tc main_arg10) = W5 m ρ c (Proc.devRef .tc main_arg10) :=
  StableHlo.after_of_forall_not_mem (b := Proc.devRef .tc main_arg10) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg11 (c : Dev nD) : W6 m ρ c (Proc.devRef .tc main_arg11) = W5 m ρ c (Proc.devRef .tc main_arg11) :=
  StableHlo.after_of_forall_not_mem (b := Proc.devRef .tc main_arg11) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_v4 (c : Dev nD) : W6 m ρ c (Proc.devRef .tc main_v4) = W5 m ρ c (Proc.devRef .tc main_v4) :=
  StableHlo.after_of_forall_not_mem (b := Proc.devRef .tc main_v4) _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_main_arg0 (c : Dev nD) : W7 m ρ c (Proc.devRef .tc main_arg0) = W6 m ρ c (Proc.devRef .tc main_arg0) :=
  (W7_arr m ρ c 0).trans (((dat2 (V6 m ρ) c).arrAt_in 0 rfl _).trans (A_eq2 (V6 m ρ) c 0))
theorem keep7_main_arg4 (c : Dev nD) : W7 m ρ c (Proc.devRef .tc main_arg4) = W6 m ρ c (Proc.devRef .tc main_arg4) :=
  W7_of_ne m ρ c main_arg4 (by decide)
theorem keep7_main_arg5 (c : Dev nD) : W7 m ρ c (Proc.devRef .tc main_arg5) = W6 m ρ c (Proc.devRef .tc main_arg5) :=
  W7_of_ne m ρ c main_arg5 (by decide)
theorem keep7_main_arg6 (c : Dev nD) : W7 m ρ c (Proc.devRef .tc main_arg6) = W6 m ρ c (Proc.devRef .tc main_arg6) :=
  W7_of_ne m ρ c main_arg6 (by decide)
theorem keep7_main_arg7 (c : Dev nD) : W7 m ρ c (Proc.devRef .tc main_arg7) = W6 m ρ c (Proc.devRef .tc main_arg7) :=
  W7_of_ne m ρ c main_arg7 (by decide)
theorem keep7_main_arg8 (c : Dev nD) : W7 m ρ c (Proc.devRef .tc main_arg8) = W6 m ρ c (Proc.devRef .tc main_arg8) :=
  W7_of_ne m ρ c main_arg8 (by decide)
theorem keep7_main_arg9 (c : Dev nD) : W7 m ρ c (Proc.devRef .tc main_arg9) = W6 m ρ c (Proc.devRef .tc main_arg9) :=
  W7_of_ne m ρ c main_arg9 (by decide)
theorem keep7_main_arg10 (c : Dev nD) : W7 m ρ c (Proc.devRef .tc main_arg10) = W6 m ρ c (Proc.devRef .tc main_arg10) :=
  W7_of_ne m ρ c main_arg10 (by decide)
theorem keep7_main_arg11 (c : Dev nD) : W7 m ρ c (Proc.devRef .tc main_arg11) = W6 m ρ c (Proc.devRef .tc main_arg11) :=
  W7_of_ne m ρ c main_arg11 (by decide)
theorem keep8_main_arg0 (c : Dev nD) : W8 m ρ c (Proc.devRef .tc main_arg0) = W7 m ρ c (Proc.devRef .tc main_arg0) :=
  StableHlo.after_of_forall_not_mem (b := Proc.devRef .tc main_arg0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg5 (c : Dev nD) : W8 m ρ c (Proc.devRef .tc main_arg5) = W7 m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg6 (c : Dev nD) : W8 m ρ c (Proc.devRef .tc main_arg6) = W7 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg7 (c : Dev nD) : W8 m ρ c (Proc.devRef .tc main_arg7) = W7 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg8 (c : Dev nD) : W8 m ρ c (Proc.devRef .tc main_arg8) = W7 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg9 (c : Dev nD) : W8 m ρ c (Proc.devRef .tc main_arg9) = W7 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg10 (c : Dev nD) : W8 m ρ c (Proc.devRef .tc main_arg10) = W7 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg11 (c : Dev nD) : W8 m ρ c (Proc.devRef .tc main_arg11) = W7 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v5 (c : Dev nD) : W8 m ρ c (Proc.devRef .tc main_v5) = W7 m ρ c (Proc.devRef .tc main_v5) :=
  StableHlo.after_of_forall_not_mem (b := Proc.devRef .tc main_v5) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg0 (c : Dev nD) : W9 m ρ c (Proc.devRef .tc main_arg0) = W8 m ρ c (Proc.devRef .tc main_arg0) :=
  StableHlo.after_of_forall_not_mem (b := Proc.devRef .tc main_arg0) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg5 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg10 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_arg11 (c : Dev nD) : W9 m ρ c (Proc.devRef .tc main_arg11) = W8 m ρ c (Proc.devRef .tc main_arg11) :=
  StableHlo.after_of_forall_not_mem (b := Proc.devRef .tc main_arg11) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_main_v6 (c : Dev nD) : W9 m ρ c (Proc.devRef .tc main_v6) = W8 m ρ c (Proc.devRef .tc main_v6) :=
  StableHlo.after_of_forall_not_mem (b := Proc.devRef .tc main_v6) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_arg0 (c : Dev nD) : W10 m ρ c (Proc.devRef .tc main_arg0) = W9 m ρ c (Proc.devRef .tc main_arg0) :=
  (W10_arr m ρ c 0).trans (((dat3 (V9 m ρ) c).arrAt_in 0 rfl _).trans (A_eq3 (V9 m ρ) c 0))
theorem keep10_main_arg5 (c : Dev nD) : W10 m ρ c (Proc.devRef .tc main_arg5) = W9 m ρ c (Proc.devRef .tc main_arg5) :=
  W10_of_ne m ρ c main_arg5 (by decide)
theorem keep10_main_arg6 (c : Dev nD) : W10 m ρ c (Proc.devRef .tc main_arg6) = W9 m ρ c (Proc.devRef .tc main_arg6) :=
  W10_of_ne m ρ c main_arg6 (by decide)
theorem keep10_main_arg7 (c : Dev nD) : W10 m ρ c (Proc.devRef .tc main_arg7) = W9 m ρ c (Proc.devRef .tc main_arg7) :=
  W10_of_ne m ρ c main_arg7 (by decide)
theorem keep10_main_arg8 (c : Dev nD) : W10 m ρ c (Proc.devRef .tc main_arg8) = W9 m ρ c (Proc.devRef .tc main_arg8) :=
  W10_of_ne m ρ c main_arg8 (by decide)
theorem keep10_main_arg9 (c : Dev nD) : W10 m ρ c (Proc.devRef .tc main_arg9) = W9 m ρ c (Proc.devRef .tc main_arg9) :=
  W10_of_ne m ρ c main_arg9 (by decide)
theorem keep10_main_arg10 (c : Dev nD) : W10 m ρ c (Proc.devRef .tc main_arg10) = W9 m ρ c (Proc.devRef .tc main_arg10) :=
  W10_of_ne m ρ c main_arg10 (by decide)
theorem keep10_main_arg11 (c : Dev nD) : W10 m ρ c (Proc.devRef .tc main_arg11) = W9 m ρ c (Proc.devRef .tc main_arg11) :=
  W10_of_ne m ρ c main_arg11 (by decide)
theorem keep11_main_arg0 (c : Dev nD) : W11 m ρ c (Proc.devRef .tc main_arg0) = W10 m ρ c (Proc.devRef .tc main_arg0) :=
  StableHlo.after_of_forall_not_mem (b := Proc.devRef .tc main_arg0) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg6 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg7 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg8 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg9 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg10 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_arg11 (c : Dev nD) : W11 m ρ c (Proc.devRef .tc main_arg11) = W10 m ρ c (Proc.devRef .tc main_arg11) :=
  StableHlo.after_of_forall_not_mem (b := Proc.devRef .tc main_arg11) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_main_v7 (c : Dev nD) : W11 m ρ c (Proc.devRef .tc main_v7) = W10 m ρ c (Proc.devRef .tc main_v7) :=
  StableHlo.after_of_forall_not_mem (b := Proc.devRef .tc main_v7) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg0 (c : Dev nD) : W12 m ρ c (Proc.devRef .tc main_arg0) = W11 m ρ c (Proc.devRef .tc main_arg0) :=
  StableHlo.after_of_forall_not_mem (b := Proc.devRef .tc main_arg0) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg6 (c : Dev nD) : W12 m ρ c (Proc.devRef .tc main_arg6) = W11 m ρ c (Proc.devRef .tc main_arg6) :=
  StableHlo.after_of_forall_not_mem (b := Proc.devRef .tc main_arg6) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg7 (c : Dev nD) : W12 m ρ c (Proc.devRef .tc main_arg7) = W11 m ρ c (Proc.devRef .tc main_arg7) :=
  StableHlo.after_of_forall_not_mem (b := Proc.devRef .tc main_arg7) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg8 (c : Dev nD) : W12 m ρ c (Proc.devRef .tc main_arg8) = W11 m ρ c (Proc.devRef .tc main_arg8) :=
  StableHlo.after_of_forall_not_mem (b := Proc.devRef .tc main_arg8) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg9 (c : Dev nD) : W12 m ρ c (Proc.devRef .tc main_arg9) = W11 m ρ c (Proc.devRef .tc main_arg9) :=
  StableHlo.after_of_forall_not_mem (b := Proc.devRef .tc main_arg9) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg10 (c : Dev nD) : W12 m ρ c (Proc.devRef .tc main_arg10) = W11 m ρ c (Proc.devRef .tc main_arg10) :=
  StableHlo.after_of_forall_not_mem (b := Proc.devRef .tc main_arg10) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_arg11 (c : Dev nD) : W12 m ρ c (Proc.devRef .tc main_arg11) = W11 m ρ c (Proc.devRef .tc main_arg11) :=
  StableHlo.after_of_forall_not_mem (b := Proc.devRef .tc main_arg11) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep12_main_v8 (c : Dev nD) : W12 m ρ c (Proc.devRef .tc main_v8) = W11 m ρ c (Proc.devRef .tc main_v8) :=
  StableHlo.after_of_forall_not_mem (b := Proc.devRef .tc main_v8) _ _ (List.forall_iff_forall_mem.mp (by
    simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_main_arg0 (c : Dev nD) : W13 m ρ c (Proc.devRef .tc main_arg0) = W12 m ρ c (Proc.devRef .tc main_arg0) :=
  (W13_arr m ρ c 0).trans (((dat4 (V12 m ρ) c).arrAt_in 0 rfl _).trans (A_eq4 (V12 m ρ) c 0))
theorem keep13_main_arg6 (c : Dev nD) : W13 m ρ c (Proc.devRef .tc main_arg6) = W12 m ρ c (Proc.devRef .tc main_arg6) :=
  W13_of_ne m ρ c main_arg6 (by decide)
theorem keep13_main_arg7 (c : Dev nD) : W13 m ρ c (Proc.devRef .tc main_arg7) = W12 m ρ c (Proc.devRef .tc main_arg7) :=
  W13_of_ne m ρ c main_arg7 (by decide)
theorem keep13_main_arg8 (c : Dev nD) : W13 m ρ c (Proc.devRef .tc main_arg8) = W12 m ρ c (Proc.devRef .tc main_arg8) :=
  W13_of_ne m ρ c main_arg8 (by decide)
theorem keep13_main_arg9 (c : Dev nD) : W13 m ρ c (Proc.devRef .tc main_arg9) = W12 m ρ c (Proc.devRef .tc main_arg9) :=
  W13_of_ne m ρ c main_arg9 (by decide)
theorem keep13_main_arg10 (c : Dev nD) : W13 m ρ c (Proc.devRef .tc main_arg10) = W12 m ρ c (Proc.devRef .tc main_arg10) :=
  W13_of_ne m ρ c main_arg10 (by decide)
theorem keep13_main_arg11 (c : Dev nD) : W13 m ρ c (Proc.devRef .tc main_arg11) = W12 m ρ c (Proc.devRef .tc main_arg11) :=
  W13_of_ne m ρ c main_arg11 (by decide)
theorem keep14_main_arg0 (c : Dev nD) : W14 m ρ c (Proc.devRef .tc main_arg0) = W13 m ρ c (Proc.devRef .tc main_arg0) :=
  StableHlo.after_of_forall_not_mem (b := Proc.devRef .tc main_arg0) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_arg7 (c : Dev nD) : W14 m ρ c (Proc.devRef .tc main_arg7) = W13 m ρ c (Proc.devRef .tc main_arg7) :=
  StableHlo.after_of_forall_not_mem (b := Proc.devRef .tc main_arg7) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_arg8 (c : Dev nD) : W14 m ρ c (Proc.devRef .tc main_arg8) = W13 m ρ c (Proc.devRef .tc main_arg8) :=
  StableHlo.after_of_forall_not_mem (b := Proc.devRef .tc main_arg8) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_arg9 (c : Dev nD) : W14 m ρ c (Proc.devRef .tc main_arg9) = W13 m ρ c (Proc.devRef .tc main_arg9) :=
  StableHlo.after_of_forall_not_mem (b := Proc.devRef .tc main_arg9) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_arg10 (c : Dev nD) : W14 m ρ c (Proc.devRef .tc main_arg10) = W13 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_arg11 (c : Dev nD) : W14 m ρ c (Proc.devRef .tc main_arg11) = W13 m ρ c (Proc.devRef .tc main_arg11) :=
  StableHlo.after_of_forall_not_mem (b := Proc.devRef .tc main_arg11) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep14_main_v9 (c : Dev nD) : W14 m ρ c (Proc.devRef .tc main_v9) = W13 m ρ c (Proc.devRef .tc main_v9) :=
  StableHlo.after_of_forall_not_mem (b := Proc.devRef .tc main_v9) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg0 (c : Dev nD) : W15 m ρ c (Proc.devRef .tc main_arg0) = W14 m ρ c (Proc.devRef .tc main_arg0) :=
  StableHlo.after_of_forall_not_mem (b := Proc.devRef .tc main_arg0) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg7 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg8 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg9 (c : Dev nD) : W15 m ρ c (Proc.devRef .tc main_arg9) = W14 m ρ c (Proc.devRef .tc main_arg9) :=
  StableHlo.after_of_forall_not_mem (b := Proc.devRef .tc main_arg9) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg10 (c : Dev nD) : W15 m ρ c (Proc.devRef .tc main_arg10) = W14 m ρ c (Proc.devRef .tc main_arg10) :=
  StableHlo.after_of_forall_not_mem (b := Proc.devRef .tc main_arg10) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_arg11 (c : Dev nD) : W15 m ρ c (Proc.devRef .tc main_arg11) = W14 m ρ c (Proc.devRef .tc main_arg11) :=
  StableHlo.after_of_forall_not_mem (b := Proc.devRef .tc main_arg11) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_main_v10 (c : Dev nD) : W15 m ρ c (Proc.devRef .tc main_v10) = W14 m ρ c (Proc.devRef .tc main_v10) :=
  StableHlo.after_of_forall_not_mem (b := Proc.devRef .tc main_v10) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep16_main_arg0 (c : Dev nD) : W16 m ρ c (Proc.devRef .tc main_arg0) = W15 m ρ c (Proc.devRef .tc main_arg0) :=
  (W16_arr m ρ c 0).trans (((dat5 (V15 m ρ) c).arrAt_in 0 rfl _).trans (A_eq5 (V15 m ρ) c 0))
theorem keep16_main_arg7 (c : Dev nD) : W16 m ρ c (Proc.devRef .tc main_arg7) = W15 m ρ c (Proc.devRef .tc main_arg7) :=
  W16_of_ne m ρ c main_arg7 (by decide)
theorem keep16_main_arg8 (c : Dev nD) : W16 m ρ c (Proc.devRef .tc main_arg8) = W15 m ρ c (Proc.devRef .tc main_arg8) :=
  W16_of_ne m ρ c main_arg8 (by decide)
theorem keep16_main_arg9 (c : Dev nD) : W16 m ρ c (Proc.devRef .tc main_arg9) = W15 m ρ c (Proc.devRef .tc main_arg9) :=
  W16_of_ne m ρ c main_arg9 (by decide)
theorem keep16_main_arg10 (c : Dev nD) : W16 m ρ c (Proc.devRef .tc main_arg10) = W15 m ρ c (Proc.devRef .tc main_arg10) :=
  W16_of_ne m ρ c main_arg10 (by decide)
theorem keep16_main_arg11 (c : Dev nD) : W16 m ρ c (Proc.devRef .tc main_arg11) = W15 m ρ c (Proc.devRef .tc main_arg11) :=
  W16_of_ne m ρ c main_arg11 (by decide)
theorem keep17_main_arg0 (c : Dev nD) : W17 m ρ c (Proc.devRef .tc main_arg0) = W16 m ρ c (Proc.devRef .tc main_arg0) :=
  StableHlo.after_of_forall_not_mem (b := Proc.devRef .tc main_arg0) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_main_arg8 (c : Dev nD) : W17 m ρ c (Proc.devRef .tc main_arg8) = W16 m ρ c (Proc.devRef .tc main_arg8) :=
  StableHlo.after_of_forall_not_mem (b := Proc.devRef .tc main_arg8) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_main_arg9 (c : Dev nD) : W17 m ρ c (Proc.devRef .tc main_arg9) = W16 m ρ c (Proc.devRef .tc main_arg9) :=
  StableHlo.after_of_forall_not_mem (b := Proc.devRef .tc main_arg9) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_main_arg10 (c : Dev nD) : W17 m ρ c (Proc.devRef .tc main_arg10) = W16 m ρ c (Proc.devRef .tc main_arg10) :=
  StableHlo.after_of_forall_not_mem (b := Proc.devRef .tc main_arg10) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_main_arg11 (c : Dev nD) : W17 m ρ c (Proc.devRef .tc main_arg11) = W16 m ρ c (Proc.devRef .tc main_arg11) :=
  StableHlo.after_of_forall_not_mem (b := Proc.devRef .tc main_arg11) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_main_v11 (c : Dev nD) : W17 m ρ c (Proc.devRef .tc main_v11) = W16 m ρ c (Proc.devRef .tc main_v11) :=
  StableHlo.after_of_forall_not_mem (b := Proc.devRef .tc main_v11) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_arg0 (c : Dev nD) : W18 m ρ c (Proc.devRef .tc main_arg0) = W17 m ρ c (Proc.devRef .tc main_arg0) :=
  StableHlo.after_of_forall_not_mem (b := Proc.devRef .tc main_arg0) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_arg8 (c : Dev nD) : W18 m ρ c (Proc.devRef .tc main_arg8) = W17 m ρ c (Proc.devRef .tc main_arg8) :=
  StableHlo.after_of_forall_not_mem (b := Proc.devRef .tc main_arg8) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_arg9 (c : Dev nD) : W18 m ρ c (Proc.devRef .tc main_arg9) = W17 m ρ c (Proc.devRef .tc main_arg9) :=
  StableHlo.after_of_forall_not_mem (b := Proc.devRef .tc main_arg9) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_arg10 (c : Dev nD) : W18 m ρ c (Proc.devRef .tc main_arg10) = W17 m ρ c (Proc.devRef .tc main_arg10) :=
  StableHlo.after_of_forall_not_mem (b := Proc.devRef .tc main_arg10) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_arg11 (c : Dev nD) : W18 m ρ c (Proc.devRef .tc main_arg11) = W17 m ρ c (Proc.devRef .tc main_arg11) :=
  StableHlo.after_of_forall_not_mem (b := Proc.devRef .tc main_arg11) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep18_main_v12 (c : Dev nD) : W18 m ρ c (Proc.devRef .tc main_v12) = W17 m ρ c (Proc.devRef .tc main_v12) :=
  StableHlo.after_of_forall_not_mem (b := Proc.devRef .tc main_v12) _ _ (List.forall_iff_forall_mem.mp (by
    simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_main_arg0 (c : Dev nD) : W19 m ρ c (Proc.devRef .tc main_arg0) = W18 m ρ c (Proc.devRef .tc main_arg0) :=
  (W19_arr m ρ c 0).trans (((dat6 (V18 m ρ) c).arrAt_in 0 rfl _).trans (A_eq6 (V18 m ρ) c 0))
theorem keep19_main_arg8 (c : Dev nD) : W19 m ρ c (Proc.devRef .tc main_arg8) = W18 m ρ c (Proc.devRef .tc main_arg8) :=
  W19_of_ne m ρ c main_arg8 (by decide)
theorem keep19_main_arg9 (c : Dev nD) : W19 m ρ c (Proc.devRef .tc main_arg9) = W18 m ρ c (Proc.devRef .tc main_arg9) :=
  W19_of_ne m ρ c main_arg9 (by decide)
theorem keep19_main_arg10 (c : Dev nD) : W19 m ρ c (Proc.devRef .tc main_arg10) = W18 m ρ c (Proc.devRef .tc main_arg10) :=
  W19_of_ne m ρ c main_arg10 (by decide)
theorem keep19_main_arg11 (c : Dev nD) : W19 m ρ c (Proc.devRef .tc main_arg11) = W18 m ρ c (Proc.devRef .tc main_arg11) :=
  W19_of_ne m ρ c main_arg11 (by decide)
theorem keep20_main_arg0 (c : Dev nD) : W20 m ρ c (Proc.devRef .tc main_arg0) = W19 m ρ c (Proc.devRef .tc main_arg0) :=
  StableHlo.after_of_forall_not_mem (b := Proc.devRef .tc main_arg0) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep20_main_arg9 (c : Dev nD) : W20 m ρ c (Proc.devRef .tc main_arg9) = W19 m ρ c (Proc.devRef .tc main_arg9) :=
  StableHlo.after_of_forall_not_mem (b := Proc.devRef .tc main_arg9) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep20_main_arg10 (c : Dev nD) : W20 m ρ c (Proc.devRef .tc main_arg10) = W19 m ρ c (Proc.devRef .tc main_arg10) :=
  StableHlo.after_of_forall_not_mem (b := Proc.devRef .tc main_arg10) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep20_main_arg11 (c : Dev nD) : W20 m ρ c (Proc.devRef .tc main_arg11) = W19 m ρ c (Proc.devRef .tc main_arg11) :=
  StableHlo.after_of_forall_not_mem (b := Proc.devRef .tc main_arg11) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep20_main_v13 (c : Dev nD) : W20 m ρ c (Proc.devRef .tc main_v13) = W19 m ρ c (Proc.devRef .tc main_v13) :=
  StableHlo.after_of_forall_not_mem (b := Proc.devRef .tc main_v13) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_main_arg0 (c : Dev nD) : W21 m ρ c (Proc.devRef .tc main_arg0) = W20 m ρ c (Proc.devRef .tc main_arg0) :=
  StableHlo.after_of_forall_not_mem (b := Proc.devRef .tc main_arg0) _ _ (List.forall_iff_forall_mem.mp (by
    simp only [hostOps7_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_main_arg9 (c : Dev nD) : W21 m ρ c (Proc.devRef .tc main_arg9) = W20 m ρ c (Proc.devRef .tc main_arg9) :=
  StableHlo.after_of_forall_not_mem (b := Proc.devRef .tc main_arg9) _ _ (List.forall_iff_forall_mem.mp (by
    simp only [hostOps7_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_main_arg10 (c : Dev nD) : W21 m ρ c (Proc.devRef .tc main_arg10) = W20 m ρ c (Proc.devRef .tc main_arg10) :=
  StableHlo.after_of_forall_not_mem (b := Proc.devRef .tc main_arg10) _ _ (List.forall_iff_forall_mem.mp (by
    simp only [hostOps7_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_main_arg11 (c : Dev nD) : W21 m ρ c (Proc.devRef .tc main_arg11) = W20 m ρ c (Proc.devRef .tc main_arg11) :=
  StableHlo.after_of_forall_not_mem (b := Proc.devRef .tc main_arg11) _ _ (List.forall_iff_forall_mem.mp (by
    simp only [hostOps7_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_main_v14 (c : Dev nD) : W21 m ρ c (Proc.devRef .tc main_v14) = W20 m ρ c (Proc.devRef .tc main_v14) :=
  StableHlo.after_of_forall_not_mem (b := Proc.devRef .tc main_v14) _ _ (List.forall_iff_forall_mem.mp (by
    simp only [hostOps7_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep22_main_arg0 (c : Dev nD) : W22 m ρ c (Proc.devRef .tc main_arg0) = W21 m ρ c (Proc.devRef .tc main_arg0) :=
  (W22_arr m ρ c 0).trans (((dat7 (V21 m ρ) c).arrAt_in 0 rfl _).trans (A_eq7 (V21 m ρ) c 0))
theorem keep22_main_arg9 (c : Dev nD) : W22 m ρ c (Proc.devRef .tc main_arg9) = W21 m ρ c (Proc.devRef .tc main_arg9) :=
  W22_of_ne m ρ c main_arg9 (by decide)
theorem keep22_main_arg10 (c : Dev nD) : W22 m ρ c (Proc.devRef .tc main_arg10) = W21 m ρ c (Proc.devRef .tc main_arg10) :=
  W22_of_ne m ρ c main_arg10 (by decide)
theorem keep22_main_arg11 (c : Dev nD) : W22 m ρ c (Proc.devRef .tc main_arg11) = W21 m ρ c (Proc.devRef .tc main_arg11) :=
  W22_of_ne m ρ c main_arg11 (by decide)
theorem keep23_main_arg0 (c : Dev nD) : W23 m ρ c (Proc.devRef .tc main_arg0) = W22 m ρ c (Proc.devRef .tc main_arg0) :=
  StableHlo.after_of_forall_not_mem (b := Proc.devRef .tc main_arg0) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_main_arg10 (c : Dev nD) : W23 m ρ c (Proc.devRef .tc main_arg10) = W22 m ρ c (Proc.devRef .tc main_arg10) :=
  StableHlo.after_of_forall_not_mem (b := Proc.devRef .tc main_arg10) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_main_arg11 (c : Dev nD) : W23 m ρ c (Proc.devRef .tc main_arg11) = W22 m ρ c (Proc.devRef .tc main_arg11) :=
  StableHlo.after_of_forall_not_mem (b := Proc.devRef .tc main_arg11) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_main_v15 (c : Dev nD) : W23 m ρ c (Proc.devRef .tc main_v15) = W22 m ρ c (Proc.devRef .tc main_v15) :=
  StableHlo.after_of_forall_not_mem (b := Proc.devRef .tc main_v15) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep24_main_arg0 (c : Dev nD) : W24 m ρ c (Proc.devRef .tc main_arg0) = W23 m ρ c (Proc.devRef .tc main_arg0) :=
  StableHlo.after_of_forall_not_mem (b := Proc.devRef .tc main_arg0) _ _ (List.forall_iff_forall_mem.mp (by
    simp only [hostOps8_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep24_main_arg10 (c : Dev nD) : W24 m ρ c (Proc.devRef .tc main_arg10) = W23 m ρ c (Proc.devRef .tc main_arg10) :=
  StableHlo.after_of_forall_not_mem (b := Proc.devRef .tc main_arg10) _ _ (List.forall_iff_forall_mem.mp (by
    simp only [hostOps8_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep24_main_arg11 (c : Dev nD) : W24 m ρ c (Proc.devRef .tc main_arg11) = W23 m ρ c (Proc.devRef .tc main_arg11) :=
  StableHlo.after_of_forall_not_mem (b := Proc.devRef .tc main_arg11) _ _ (List.forall_iff_forall_mem.mp (by
    simp only [hostOps8_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep24_main_v16 (c : Dev nD) : W24 m ρ c (Proc.devRef .tc main_v16) = W23 m ρ c (Proc.devRef .tc main_v16) :=
  StableHlo.after_of_forall_not_mem (b := Proc.devRef .tc main_v16) _ _ (List.forall_iff_forall_mem.mp (by
    simp only [hostOps8_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep25_main_arg0 (c : Dev nD) : W25 m ρ c (Proc.devRef .tc main_arg0) = W24 m ρ c (Proc.devRef .tc main_arg0) :=
  (W25_arr m ρ c 0).trans (((dat8 (V24 m ρ) c).arrAt_in 0 rfl _).trans (A_eq8 (V24 m ρ) c 0))
theorem keep25_main_arg10 (c : Dev nD) : W25 m ρ c (Proc.devRef .tc main_arg10) = W24 m ρ c (Proc.devRef .tc main_arg10) :=
  W25_of_ne m ρ c main_arg10 (by decide)
theorem keep25_main_arg11 (c : Dev nD) : W25 m ρ c (Proc.devRef .tc main_arg11) = W24 m ρ c (Proc.devRef .tc main_arg11) :=
  W25_of_ne m ρ c main_arg11 (by decide)
theorem keep26_main_arg0 (c : Dev nD) : W26 m ρ c (Proc.devRef .tc main_arg0) = W25 m ρ c (Proc.devRef .tc main_arg0) :=
  StableHlo.after_of_forall_not_mem (b := Proc.devRef .tc main_arg0) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep26_main_arg11 (c : Dev nD) : W26 m ρ c (Proc.devRef .tc main_arg11) = W25 m ρ c (Proc.devRef .tc main_arg11) :=
  StableHlo.after_of_forall_not_mem (b := Proc.devRef .tc main_arg11) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep26_main_v17 (c : Dev nD) : W26 m ρ c (Proc.devRef .tc main_v17) = W25 m ρ c (Proc.devRef .tc main_v17) :=
  StableHlo.after_of_forall_not_mem (b := Proc.devRef .tc main_v17) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_main_arg0 (c : Dev nD) : W27 m ρ c (Proc.devRef .tc main_arg0) = W26 m ρ c (Proc.devRef .tc main_arg0) :=
  StableHlo.after_of_forall_not_mem (b := Proc.devRef .tc main_arg0) _ _ (List.forall_iff_forall_mem.mp (by
    simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_main_arg11 (c : Dev nD) : W27 m ρ c (Proc.devRef .tc main_arg11) = W26 m ρ c (Proc.devRef .tc main_arg11) :=
  StableHlo.after_of_forall_not_mem (b := Proc.devRef .tc main_arg11) _ _ (List.forall_iff_forall_mem.mp (by
    simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_main_v17 (c : Dev nD) : W27 m ρ c (Proc.devRef .tc main_v17) = W26 m ρ c (Proc.devRef .tc main_v17) :=
  StableHlo.after_of_forall_not_mem (b := Proc.devRef .tc main_v17) _ _ (List.forall_iff_forall_mem.mp (by
    simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_main_v18 (c : Dev nD) : W27 m ρ c (Proc.devRef .tc main_v18) = W26 m ρ c (Proc.devRef .tc main_v18) :=
  StableHlo.after_of_forall_not_mem (b := Proc.devRef .tc main_v18) _ _ (List.forall_iff_forall_mem.mp (by
    simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep28_main_arg0 (c : Dev nD) : W28 m ρ c (Proc.devRef .tc main_arg0) = W27 m ρ c (Proc.devRef .tc main_arg0) :=
  W28_of_ne m ρ c main_arg0 (by decide)
theorem keep28_main_arg11 (c : Dev nD) : W28 m ρ c (Proc.devRef .tc main_arg11) = W27 m ρ c (Proc.devRef .tc main_arg11) :=
  W28_of_ne m ρ c main_arg11 (by decide)
theorem keep28_main_v17 (c : Dev nD) : W28 m ρ c (Proc.devRef .tc main_v17) = W27 m ρ c (Proc.devRef .tc main_v17) :=
  W28_of_ne m ρ c main_v17 (by decide)
theorem keep29_main_arg0 (c : Dev nD) : W29 m ρ c (Proc.devRef .tc main_arg0) = W28 m ρ c (Proc.devRef .tc main_arg0) :=
  StableHlo.after_of_forall_not_mem (b := Proc.devRef .tc main_arg0) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_main_arg11 (c : Dev nD) : W29 m ρ c (Proc.devRef .tc main_arg11) = W28 m ρ c (Proc.devRef .tc main_arg11) :=
  StableHlo.after_of_forall_not_mem (b := Proc.devRef .tc main_arg11) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep30_main_arg0 (c : Dev nD) : W30 m ρ c (Proc.devRef .tc main_arg0) = W29 m ρ c (Proc.devRef .tc main_arg0) :=
  StableHlo.after_of_forall_not_mem (b := Proc.devRef .tc main_arg0) _ _ (List.forall_iff_forall_mem.mp (by
    simp only [hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep30_main_v22 (c : Dev nD) : W30 m ρ c (Proc.devRef .tc main_v22) = W29 m ρ c (Proc.devRef .tc main_v22) :=
  StableHlo.after_of_forall_not_mem (b := Proc.devRef .tc main_v22) _ _ (List.forall_iff_forall_mem.mp (by
    simp only [hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_main_v22 (c : Dev nD) : W31 m ρ c (Proc.devRef .tc main_v22) = W30 m ρ c (Proc.devRef .tc main_v22) :=
  StableHlo.after_of_forall_not_mem (b := Proc.devRef .tc main_v22) _ _ (List.forall_iff_forall_mem.mp (by
    simp only [hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_main_v23 (c : Dev nD) : W31 m ρ c (Proc.devRef .tc main_v23) = W30 m ρ c (Proc.devRef .tc main_v23) :=
  StableHlo.after_of_forall_not_mem (b := Proc.devRef .tc main_v23) _ _ (List.forall_iff_forall_mem.mp (by
    simp only [hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep32_main_v22 (c : Dev nD) : W32 m ρ c (Proc.devRef .tc main_v22) = W31 m ρ c (Proc.devRef .tc main_v22) :=
  W32_of_ne m ρ c main_v22 (by decide)

/-! ## The argument arrays at the boundaries where the program reads them -/

theorem at1_main_arg0 (c : Dev nD) : W1 m ρ c (Proc.devRef .tc main_arg0) = m ((c : Thread nD τ).loc main_arg0) :=
  (keep1_main_arg0 m ρ c).trans rfl
theorem at2_main_arg0 (c : Dev nD) : W2 m ρ c (Proc.devRef .tc main_arg0) = m ((c : Thread nD τ).loc main_arg0) :=
  (keep2_main_arg0 m ρ c).trans (at1_main_arg0 m ρ c)
theorem at3_main_arg0 (c : Dev nD) : W3 m ρ c (Proc.devRef .tc main_arg0) = m ((c : Thread nD τ).loc main_arg0) :=
  (keep3_main_arg0 m ρ c).trans (at2_main_arg0 m ρ c)
theorem at4_main_arg0 (c : Dev nD) : W4 m ρ c (Proc.devRef .tc main_arg0) = m ((c : Thread nD τ).loc main_arg0) :=
  (keep4_main_arg0 m ρ c).trans (at3_main_arg0 m ρ c)
theorem at5_main_arg0 (c : Dev nD) : W5 m ρ c (Proc.devRef .tc main_arg0) = m ((c : Thread nD τ).loc main_arg0) :=
  (keep5_main_arg0 m ρ c).trans (at4_main_arg0 m ρ c)
theorem at6_main_arg0 (c : Dev nD) : W6 m ρ c (Proc.devRef .tc main_arg0) = m ((c : Thread nD τ).loc main_arg0) :=
  (keep6_main_arg0 m ρ c).trans (at5_main_arg0 m ρ c)
theorem at7_main_arg0 (c : Dev nD) : W7 m ρ c (Proc.devRef .tc main_arg0) = m ((c : Thread nD τ).loc main_arg0) :=
  (keep7_main_arg0 m ρ c).trans (at6_main_arg0 m ρ c)
theorem at8_main_arg0 (c : Dev nD) : W8 m ρ c (Proc.devRef .tc main_arg0) = m ((c : Thread nD τ).loc main_arg0) :=
  (keep8_main_arg0 m ρ c).trans (at7_main_arg0 m ρ c)
theorem at9_main_arg0 (c : Dev nD) : W9 m ρ c (Proc.devRef .tc main_arg0) = m ((c : Thread nD τ).loc main_arg0) :=
  (keep9_main_arg0 m ρ c).trans (at8_main_arg0 m ρ c)
theorem at10_main_arg0 (c : Dev nD) : W10 m ρ c (Proc.devRef .tc main_arg0) = m ((c : Thread nD τ).loc main_arg0) :=
  (keep10_main_arg0 m ρ c).trans (at9_main_arg0 m ρ c)
theorem at11_main_arg0 (c : Dev nD) : W11 m ρ c (Proc.devRef .tc main_arg0) = m ((c : Thread nD τ).loc main_arg0) :=
  (keep11_main_arg0 m ρ c).trans (at10_main_arg0 m ρ c)
theorem at12_main_arg0 (c : Dev nD) : W12 m ρ c (Proc.devRef .tc main_arg0) = m ((c : Thread nD τ).loc main_arg0) :=
  (keep12_main_arg0 m ρ c).trans (at11_main_arg0 m ρ c)
theorem at13_main_arg0 (c : Dev nD) : W13 m ρ c (Proc.devRef .tc main_arg0) = m ((c : Thread nD τ).loc main_arg0) :=
  (keep13_main_arg0 m ρ c).trans (at12_main_arg0 m ρ c)
theorem at14_main_arg0 (c : Dev nD) : W14 m ρ c (Proc.devRef .tc main_arg0) = m ((c : Thread nD τ).loc main_arg0) :=
  (keep14_main_arg0 m ρ c).trans (at13_main_arg0 m ρ c)
theorem at15_main_arg0 (c : Dev nD) : W15 m ρ c (Proc.devRef .tc main_arg0) = m ((c : Thread nD τ).loc main_arg0) :=
  (keep15_main_arg0 m ρ c).trans (at14_main_arg0 m ρ c)
theorem at16_main_arg0 (c : Dev nD) : W16 m ρ c (Proc.devRef .tc main_arg0) = m ((c : Thread nD τ).loc main_arg0) :=
  (keep16_main_arg0 m ρ c).trans (at15_main_arg0 m ρ c)
theorem at17_main_arg0 (c : Dev nD) : W17 m ρ c (Proc.devRef .tc main_arg0) = m ((c : Thread nD τ).loc main_arg0) :=
  (keep17_main_arg0 m ρ c).trans (at16_main_arg0 m ρ c)
theorem at18_main_arg0 (c : Dev nD) : W18 m ρ c (Proc.devRef .tc main_arg0) = m ((c : Thread nD τ).loc main_arg0) :=
  (keep18_main_arg0 m ρ c).trans (at17_main_arg0 m ρ c)
theorem at19_main_arg0 (c : Dev nD) : W19 m ρ c (Proc.devRef .tc main_arg0) = m ((c : Thread nD τ).loc main_arg0) :=
  (keep19_main_arg0 m ρ c).trans (at18_main_arg0 m ρ c)
theorem at20_main_arg0 (c : Dev nD) : W20 m ρ c (Proc.devRef .tc main_arg0) = m ((c : Thread nD τ).loc main_arg0) :=
  (keep20_main_arg0 m ρ c).trans (at19_main_arg0 m ρ c)
theorem at21_main_arg0 (c : Dev nD) : W21 m ρ c (Proc.devRef .tc main_arg0) = m ((c : Thread nD τ).loc main_arg0) :=
  (keep21_main_arg0 m ρ c).trans (at20_main_arg0 m ρ c)
theorem at22_main_arg0 (c : Dev nD) : W22 m ρ c (Proc.devRef .tc main_arg0) = m ((c : Thread nD τ).loc main_arg0) :=
  (keep22_main_arg0 m ρ c).trans (at21_main_arg0 m ρ c)
theorem at23_main_arg0 (c : Dev nD) : W23 m ρ c (Proc.devRef .tc main_arg0) = m ((c : Thread nD τ).loc main_arg0) :=
  (keep23_main_arg0 m ρ c).trans (at22_main_arg0 m ρ c)
theorem at24_main_arg0 (c : Dev nD) : W24 m ρ c (Proc.devRef .tc main_arg0) = m ((c : Thread nD τ).loc main_arg0) :=
  (keep24_main_arg0 m ρ c).trans (at23_main_arg0 m ρ c)
theorem at25_main_arg0 (c : Dev nD) : W25 m ρ c (Proc.devRef .tc main_arg0) = m ((c : Thread nD τ).loc main_arg0) :=
  (keep25_main_arg0 m ρ c).trans (at24_main_arg0 m ρ c)
theorem at26_main_arg0 (c : Dev nD) : W26 m ρ c (Proc.devRef .tc main_arg0) = m ((c : Thread nD τ).loc main_arg0) :=
  (keep26_main_arg0 m ρ c).trans (at25_main_arg0 m ρ c)
theorem at27_main_arg0 (c : Dev nD) : W27 m ρ c (Proc.devRef .tc main_arg0) = m ((c : Thread nD τ).loc main_arg0) :=
  (keep27_main_arg0 m ρ c).trans (at26_main_arg0 m ρ c)
theorem at28_main_arg0 (c : Dev nD) : W28 m ρ c (Proc.devRef .tc main_arg0) = m ((c : Thread nD τ).loc main_arg0) :=
  (keep28_main_arg0 m ρ c).trans (at27_main_arg0 m ρ c)
theorem at29_main_arg0 (c : Dev nD) : W29 m ρ c (Proc.devRef .tc main_arg0) = m ((c : Thread nD τ).loc main_arg0) :=
  (keep29_main_arg0 m ρ c).trans (at28_main_arg0 m ρ c)
theorem at30_main_arg0 (c : Dev nD) : W30 m ρ c (Proc.devRef .tc main_arg0) = m ((c : Thread nD τ).loc main_arg0) :=
  (keep30_main_arg0 m ρ c).trans (at29_main_arg0 m ρ c)
theorem at1_main_arg2 (c : Dev nD) : W1 m ρ c (Proc.devRef .tc main_arg2) = m ((c : Thread nD τ).loc main_arg2) :=
  (keep1_main_arg2 m ρ c).trans rfl
theorem at1_main_arg3 (c : Dev nD) : W1 m ρ c (Proc.devRef .tc main_arg3) = m ((c : Thread nD τ).loc main_arg3) :=
  (keep1_main_arg3 m ρ c).trans rfl
theorem at2_main_arg3 (c : Dev nD) : W2 m ρ c (Proc.devRef .tc main_arg3) = m ((c : Thread nD τ).loc main_arg3) :=
  (keep2_main_arg3 m ρ c).trans (at1_main_arg3 m ρ c)
theorem at3_main_arg3 (c : Dev nD) : W3 m ρ c (Proc.devRef .tc main_arg3) = m ((c : Thread nD τ).loc main_arg3) :=
  (keep3_main_arg3 m ρ c).trans (at2_main_arg3 m ρ c)
theorem at4_main_arg3 (c : Dev nD) : W4 m ρ c (Proc.devRef .tc main_arg3) = m ((c : Thread nD τ).loc main_arg3) :=
  (keep4_main_arg3 m ρ c).trans (at3_main_arg3 m ρ c)
theorem at1_main_arg4 (c : Dev nD) : W1 m ρ c (Proc.devRef .tc main_arg4) = m ((c : Thread nD τ).loc main_arg4) :=
  (keep1_main_arg4 m ρ c).trans rfl
theorem at2_main_arg4 (c : Dev nD) : W2 m ρ c (Proc.devRef .tc main_arg4) = m ((c : Thread nD τ).loc main_arg4) :=
  (keep2_main_arg4 m ρ c).trans (at1_main_arg4 m ρ c)
theorem at3_main_arg4 (c : Dev nD) : W3 m ρ c (Proc.devRef .tc main_arg4) = m ((c : Thread nD τ).loc main_arg4) :=
  (keep3_main_arg4 m ρ c).trans (at2_main_arg4 m ρ c)
theorem at4_main_arg4 (c : Dev nD) : W4 m ρ c (Proc.devRef .tc main_arg4) = m ((c : Thread nD τ).loc main_arg4) :=
  (keep4_main_arg4 m ρ c).trans (at3_main_arg4 m ρ c)
theorem at5_main_arg4 (c : Dev nD) : W5 m ρ c (Proc.devRef .tc main_arg4) = m ((c : Thread nD τ).loc main_arg4) :=
  (keep5_main_arg4 m ρ c).trans (at4_main_arg4 m ρ c)
theorem at6_main_arg4 (c : Dev nD) : W6 m ρ c (Proc.devRef .tc main_arg4) = m ((c : Thread nD τ).loc main_arg4) :=
  (keep6_main_arg4 m ρ c).trans (at5_main_arg4 m ρ c)
theorem at7_main_arg4 (c : Dev nD) : W7 m ρ c (Proc.devRef .tc main_arg4) = m ((c : Thread nD τ).loc main_arg4) :=
  (keep7_main_arg4 m ρ c).trans (at6_main_arg4 m ρ c)
theorem at1_main_arg5 (c : Dev nD) : W1 m ρ c (Proc.devRef .tc main_arg5) = m ((c : Thread nD τ).loc main_arg5) :=
  (keep1_main_arg5 m ρ c).trans rfl
theorem at2_main_arg5 (c : Dev nD) : W2 m ρ c (Proc.devRef .tc main_arg5) = m ((c : Thread nD τ).loc main_arg5) :=
  (keep2_main_arg5 m ρ c).trans (at1_main_arg5 m ρ c)
theorem at3_main_arg5 (c : Dev nD) : W3 m ρ c (Proc.devRef .tc main_arg5) = m ((c : Thread nD τ).loc main_arg5) :=
  (keep3_main_arg5 m ρ c).trans (at2_main_arg5 m ρ c)
theorem at4_main_arg5 (c : Dev nD) : W4 m ρ c (Proc.devRef .tc main_arg5) = m ((c : Thread nD τ).loc main_arg5) :=
  (keep4_main_arg5 m ρ c).trans (at3_main_arg5 m ρ c)
theorem at5_main_arg5 (c : Dev nD) : W5 m ρ c (Proc.devRef .tc main_arg5) = m ((c : Thread nD τ).loc main_arg5) :=
  (keep5_main_arg5 m ρ c).trans (at4_main_arg5 m ρ c)
theorem at6_main_arg5 (c : Dev nD) : W6 m ρ c (Proc.devRef .tc main_arg5) = m ((c : Thread nD τ).loc main_arg5) :=
  (keep6_main_arg5 m ρ c).trans (at5_main_arg5 m ρ c)
theorem at7_main_arg5 (c : Dev nD) : W7 m ρ c (Proc.devRef .tc main_arg5) = m ((c : Thread nD τ).loc main_arg5) :=
  (keep7_main_arg5 m ρ c).trans (at6_main_arg5 m ρ c)
theorem at8_main_arg5 (c : Dev nD) : W8 m ρ c (Proc.devRef .tc main_arg5) = m ((c : Thread nD τ).loc main_arg5) :=
  (keep8_main_arg5 m ρ c).trans (at7_main_arg5 m ρ c)
theorem at9_main_arg5 (c : Dev nD) : W9 m ρ c (Proc.devRef .tc main_arg5) = m ((c : Thread nD τ).loc main_arg5) :=
  (keep9_main_arg5 m ρ c).trans (at8_main_arg5 m ρ c)
theorem at10_main_arg5 (c : Dev nD) : W10 m ρ c (Proc.devRef .tc main_arg5) = m ((c : Thread nD τ).loc main_arg5) :=
  (keep10_main_arg5 m ρ c).trans (at9_main_arg5 m ρ c)
theorem at1_main_arg6 (c : Dev nD) : W1 m ρ c (Proc.devRef .tc main_arg6) = m ((c : Thread nD τ).loc main_arg6) :=
  (keep1_main_arg6 m ρ c).trans rfl
theorem at2_main_arg6 (c : Dev nD) : W2 m ρ c (Proc.devRef .tc main_arg6) = m ((c : Thread nD τ).loc main_arg6) :=
  (keep2_main_arg6 m ρ c).trans (at1_main_arg6 m ρ c)
theorem at3_main_arg6 (c : Dev nD) : W3 m ρ c (Proc.devRef .tc main_arg6) = m ((c : Thread nD τ).loc main_arg6) :=
  (keep3_main_arg6 m ρ c).trans (at2_main_arg6 m ρ c)
theorem at4_main_arg6 (c : Dev nD) : W4 m ρ c (Proc.devRef .tc main_arg6) = m ((c : Thread nD τ).loc main_arg6) :=
  (keep4_main_arg6 m ρ c).trans (at3_main_arg6 m ρ c)
theorem at5_main_arg6 (c : Dev nD) : W5 m ρ c (Proc.devRef .tc main_arg6) = m ((c : Thread nD τ).loc main_arg6) :=
  (keep5_main_arg6 m ρ c).trans (at4_main_arg6 m ρ c)
theorem at6_main_arg6 (c : Dev nD) : W6 m ρ c (Proc.devRef .tc main_arg6) = m ((c : Thread nD τ).loc main_arg6) :=
  (keep6_main_arg6 m ρ c).trans (at5_main_arg6 m ρ c)
theorem at7_main_arg6 (c : Dev nD) : W7 m ρ c (Proc.devRef .tc main_arg6) = m ((c : Thread nD τ).loc main_arg6) :=
  (keep7_main_arg6 m ρ c).trans (at6_main_arg6 m ρ c)
theorem at8_main_arg6 (c : Dev nD) : W8 m ρ c (Proc.devRef .tc main_arg6) = m ((c : Thread nD τ).loc main_arg6) :=
  (keep8_main_arg6 m ρ c).trans (at7_main_arg6 m ρ c)
theorem at9_main_arg6 (c : Dev nD) : W9 m ρ c (Proc.devRef .tc main_arg6) = m ((c : Thread nD τ).loc main_arg6) :=
  (keep9_main_arg6 m ρ c).trans (at8_main_arg6 m ρ c)
theorem at10_main_arg6 (c : Dev nD) : W10 m ρ c (Proc.devRef .tc main_arg6) = m ((c : Thread nD τ).loc main_arg6) :=
  (keep10_main_arg6 m ρ c).trans (at9_main_arg6 m ρ c)
theorem at11_main_arg6 (c : Dev nD) : W11 m ρ c (Proc.devRef .tc main_arg6) = m ((c : Thread nD τ).loc main_arg6) :=
  (keep11_main_arg6 m ρ c).trans (at10_main_arg6 m ρ c)
theorem at12_main_arg6 (c : Dev nD) : W12 m ρ c (Proc.devRef .tc main_arg6) = m ((c : Thread nD τ).loc main_arg6) :=
  (keep12_main_arg6 m ρ c).trans (at11_main_arg6 m ρ c)
theorem at13_main_arg6 (c : Dev nD) : W13 m ρ c (Proc.devRef .tc main_arg6) = m ((c : Thread nD τ).loc main_arg6) :=
  (keep13_main_arg6 m ρ c).trans (at12_main_arg6 m ρ c)
theorem at1_main_arg7 (c : Dev nD) : W1 m ρ c (Proc.devRef .tc main_arg7) = m ((c : Thread nD τ).loc main_arg7) :=
  (keep1_main_arg7 m ρ c).trans rfl
theorem at2_main_arg7 (c : Dev nD) : W2 m ρ c (Proc.devRef .tc main_arg7) = m ((c : Thread nD τ).loc main_arg7) :=
  (keep2_main_arg7 m ρ c).trans (at1_main_arg7 m ρ c)
theorem at3_main_arg7 (c : Dev nD) : W3 m ρ c (Proc.devRef .tc main_arg7) = m ((c : Thread nD τ).loc main_arg7) :=
  (keep3_main_arg7 m ρ c).trans (at2_main_arg7 m ρ c)
theorem at4_main_arg7 (c : Dev nD) : W4 m ρ c (Proc.devRef .tc main_arg7) = m ((c : Thread nD τ).loc main_arg7) :=
  (keep4_main_arg7 m ρ c).trans (at3_main_arg7 m ρ c)
theorem at5_main_arg7 (c : Dev nD) : W5 m ρ c (Proc.devRef .tc main_arg7) = m ((c : Thread nD τ).loc main_arg7) :=
  (keep5_main_arg7 m ρ c).trans (at4_main_arg7 m ρ c)
theorem at6_main_arg7 (c : Dev nD) : W6 m ρ c (Proc.devRef .tc main_arg7) = m ((c : Thread nD τ).loc main_arg7) :=
  (keep6_main_arg7 m ρ c).trans (at5_main_arg7 m ρ c)
theorem at7_main_arg7 (c : Dev nD) : W7 m ρ c (Proc.devRef .tc main_arg7) = m ((c : Thread nD τ).loc main_arg7) :=
  (keep7_main_arg7 m ρ c).trans (at6_main_arg7 m ρ c)
theorem at8_main_arg7 (c : Dev nD) : W8 m ρ c (Proc.devRef .tc main_arg7) = m ((c : Thread nD τ).loc main_arg7) :=
  (keep8_main_arg7 m ρ c).trans (at7_main_arg7 m ρ c)
theorem at9_main_arg7 (c : Dev nD) : W9 m ρ c (Proc.devRef .tc main_arg7) = m ((c : Thread nD τ).loc main_arg7) :=
  (keep9_main_arg7 m ρ c).trans (at8_main_arg7 m ρ c)
theorem at10_main_arg7 (c : Dev nD) : W10 m ρ c (Proc.devRef .tc main_arg7) = m ((c : Thread nD τ).loc main_arg7) :=
  (keep10_main_arg7 m ρ c).trans (at9_main_arg7 m ρ c)
theorem at11_main_arg7 (c : Dev nD) : W11 m ρ c (Proc.devRef .tc main_arg7) = m ((c : Thread nD τ).loc main_arg7) :=
  (keep11_main_arg7 m ρ c).trans (at10_main_arg7 m ρ c)
theorem at12_main_arg7 (c : Dev nD) : W12 m ρ c (Proc.devRef .tc main_arg7) = m ((c : Thread nD τ).loc main_arg7) :=
  (keep12_main_arg7 m ρ c).trans (at11_main_arg7 m ρ c)
theorem at13_main_arg7 (c : Dev nD) : W13 m ρ c (Proc.devRef .tc main_arg7) = m ((c : Thread nD τ).loc main_arg7) :=
  (keep13_main_arg7 m ρ c).trans (at12_main_arg7 m ρ c)
theorem at14_main_arg7 (c : Dev nD) : W14 m ρ c (Proc.devRef .tc main_arg7) = m ((c : Thread nD τ).loc main_arg7) :=
  (keep14_main_arg7 m ρ c).trans (at13_main_arg7 m ρ c)
theorem at15_main_arg7 (c : Dev nD) : W15 m ρ c (Proc.devRef .tc main_arg7) = m ((c : Thread nD τ).loc main_arg7) :=
  (keep15_main_arg7 m ρ c).trans (at14_main_arg7 m ρ c)
theorem at16_main_arg7 (c : Dev nD) : W16 m ρ c (Proc.devRef .tc main_arg7) = m ((c : Thread nD τ).loc main_arg7) :=
  (keep16_main_arg7 m ρ c).trans (at15_main_arg7 m ρ c)
theorem at1_main_arg8 (c : Dev nD) : W1 m ρ c (Proc.devRef .tc main_arg8) = m ((c : Thread nD τ).loc main_arg8) :=
  (keep1_main_arg8 m ρ c).trans rfl
theorem at2_main_arg8 (c : Dev nD) : W2 m ρ c (Proc.devRef .tc main_arg8) = m ((c : Thread nD τ).loc main_arg8) :=
  (keep2_main_arg8 m ρ c).trans (at1_main_arg8 m ρ c)
theorem at3_main_arg8 (c : Dev nD) : W3 m ρ c (Proc.devRef .tc main_arg8) = m ((c : Thread nD τ).loc main_arg8) :=
  (keep3_main_arg8 m ρ c).trans (at2_main_arg8 m ρ c)
theorem at4_main_arg8 (c : Dev nD) : W4 m ρ c (Proc.devRef .tc main_arg8) = m ((c : Thread nD τ).loc main_arg8) :=
  (keep4_main_arg8 m ρ c).trans (at3_main_arg8 m ρ c)
theorem at5_main_arg8 (c : Dev nD) : W5 m ρ c (Proc.devRef .tc main_arg8) = m ((c : Thread nD τ).loc main_arg8) :=
  (keep5_main_arg8 m ρ c).trans (at4_main_arg8 m ρ c)
theorem at6_main_arg8 (c : Dev nD) : W6 m ρ c (Proc.devRef .tc main_arg8) = m ((c : Thread nD τ).loc main_arg8) :=
  (keep6_main_arg8 m ρ c).trans (at5_main_arg8 m ρ c)
theorem at7_main_arg8 (c : Dev nD) : W7 m ρ c (Proc.devRef .tc main_arg8) = m ((c : Thread nD τ).loc main_arg8) :=
  (keep7_main_arg8 m ρ c).trans (at6_main_arg8 m ρ c)
theorem at8_main_arg8 (c : Dev nD) : W8 m ρ c (Proc.devRef .tc main_arg8) = m ((c : Thread nD τ).loc main_arg8) :=
  (keep8_main_arg8 m ρ c).trans (at7_main_arg8 m ρ c)
theorem at9_main_arg8 (c : Dev nD) : W9 m ρ c (Proc.devRef .tc main_arg8) = m ((c : Thread nD τ).loc main_arg8) :=
  (keep9_main_arg8 m ρ c).trans (at8_main_arg8 m ρ c)
theorem at10_main_arg8 (c : Dev nD) : W10 m ρ c (Proc.devRef .tc main_arg8) = m ((c : Thread nD τ).loc main_arg8) :=
  (keep10_main_arg8 m ρ c).trans (at9_main_arg8 m ρ c)
theorem at11_main_arg8 (c : Dev nD) : W11 m ρ c (Proc.devRef .tc main_arg8) = m ((c : Thread nD τ).loc main_arg8) :=
  (keep11_main_arg8 m ρ c).trans (at10_main_arg8 m ρ c)
theorem at12_main_arg8 (c : Dev nD) : W12 m ρ c (Proc.devRef .tc main_arg8) = m ((c : Thread nD τ).loc main_arg8) :=
  (keep12_main_arg8 m ρ c).trans (at11_main_arg8 m ρ c)
theorem at13_main_arg8 (c : Dev nD) : W13 m ρ c (Proc.devRef .tc main_arg8) = m ((c : Thread nD τ).loc main_arg8) :=
  (keep13_main_arg8 m ρ c).trans (at12_main_arg8 m ρ c)
theorem at14_main_arg8 (c : Dev nD) : W14 m ρ c (Proc.devRef .tc main_arg8) = m ((c : Thread nD τ).loc main_arg8) :=
  (keep14_main_arg8 m ρ c).trans (at13_main_arg8 m ρ c)
theorem at15_main_arg8 (c : Dev nD) : W15 m ρ c (Proc.devRef .tc main_arg8) = m ((c : Thread nD τ).loc main_arg8) :=
  (keep15_main_arg8 m ρ c).trans (at14_main_arg8 m ρ c)
theorem at16_main_arg8 (c : Dev nD) : W16 m ρ c (Proc.devRef .tc main_arg8) = m ((c : Thread nD τ).loc main_arg8) :=
  (keep16_main_arg8 m ρ c).trans (at15_main_arg8 m ρ c)
theorem at17_main_arg8 (c : Dev nD) : W17 m ρ c (Proc.devRef .tc main_arg8) = m ((c : Thread nD τ).loc main_arg8) :=
  (keep17_main_arg8 m ρ c).trans (at16_main_arg8 m ρ c)
theorem at18_main_arg8 (c : Dev nD) : W18 m ρ c (Proc.devRef .tc main_arg8) = m ((c : Thread nD τ).loc main_arg8) :=
  (keep18_main_arg8 m ρ c).trans (at17_main_arg8 m ρ c)
theorem at19_main_arg8 (c : Dev nD) : W19 m ρ c (Proc.devRef .tc main_arg8) = m ((c : Thread nD τ).loc main_arg8) :=
  (keep19_main_arg8 m ρ c).trans (at18_main_arg8 m ρ c)
theorem at1_main_arg9 (c : Dev nD) : W1 m ρ c (Proc.devRef .tc main_arg9) = m ((c : Thread nD τ).loc main_arg9) :=
  (keep1_main_arg9 m ρ c).trans rfl
theorem at2_main_arg9 (c : Dev nD) : W2 m ρ c (Proc.devRef .tc main_arg9) = m ((c : Thread nD τ).loc main_arg9) :=
  (keep2_main_arg9 m ρ c).trans (at1_main_arg9 m ρ c)
theorem at3_main_arg9 (c : Dev nD) : W3 m ρ c (Proc.devRef .tc main_arg9) = m ((c : Thread nD τ).loc main_arg9) :=
  (keep3_main_arg9 m ρ c).trans (at2_main_arg9 m ρ c)
theorem at4_main_arg9 (c : Dev nD) : W4 m ρ c (Proc.devRef .tc main_arg9) = m ((c : Thread nD τ).loc main_arg9) :=
  (keep4_main_arg9 m ρ c).trans (at3_main_arg9 m ρ c)
theorem at5_main_arg9 (c : Dev nD) : W5 m ρ c (Proc.devRef .tc main_arg9) = m ((c : Thread nD τ).loc main_arg9) :=
  (keep5_main_arg9 m ρ c).trans (at4_main_arg9 m ρ c)
theorem at6_main_arg9 (c : Dev nD) : W6 m ρ c (Proc.devRef .tc main_arg9) = m ((c : Thread nD τ).loc main_arg9) :=
  (keep6_main_arg9 m ρ c).trans (at5_main_arg9 m ρ c)
theorem at7_main_arg9 (c : Dev nD) : W7 m ρ c (Proc.devRef .tc main_arg9) = m ((c : Thread nD τ).loc main_arg9) :=
  (keep7_main_arg9 m ρ c).trans (at6_main_arg9 m ρ c)
theorem at8_main_arg9 (c : Dev nD) : W8 m ρ c (Proc.devRef .tc main_arg9) = m ((c : Thread nD τ).loc main_arg9) :=
  (keep8_main_arg9 m ρ c).trans (at7_main_arg9 m ρ c)
theorem at9_main_arg9 (c : Dev nD) : W9 m ρ c (Proc.devRef .tc main_arg9) = m ((c : Thread nD τ).loc main_arg9) :=
  (keep9_main_arg9 m ρ c).trans (at8_main_arg9 m ρ c)
theorem at10_main_arg9 (c : Dev nD) : W10 m ρ c (Proc.devRef .tc main_arg9) = m ((c : Thread nD τ).loc main_arg9) :=
  (keep10_main_arg9 m ρ c).trans (at9_main_arg9 m ρ c)
theorem at11_main_arg9 (c : Dev nD) : W11 m ρ c (Proc.devRef .tc main_arg9) = m ((c : Thread nD τ).loc main_arg9) :=
  (keep11_main_arg9 m ρ c).trans (at10_main_arg9 m ρ c)
theorem at12_main_arg9 (c : Dev nD) : W12 m ρ c (Proc.devRef .tc main_arg9) = m ((c : Thread nD τ).loc main_arg9) :=
  (keep12_main_arg9 m ρ c).trans (at11_main_arg9 m ρ c)
theorem at13_main_arg9 (c : Dev nD) : W13 m ρ c (Proc.devRef .tc main_arg9) = m ((c : Thread nD τ).loc main_arg9) :=
  (keep13_main_arg9 m ρ c).trans (at12_main_arg9 m ρ c)
theorem at14_main_arg9 (c : Dev nD) : W14 m ρ c (Proc.devRef .tc main_arg9) = m ((c : Thread nD τ).loc main_arg9) :=
  (keep14_main_arg9 m ρ c).trans (at13_main_arg9 m ρ c)
theorem at15_main_arg9 (c : Dev nD) : W15 m ρ c (Proc.devRef .tc main_arg9) = m ((c : Thread nD τ).loc main_arg9) :=
  (keep15_main_arg9 m ρ c).trans (at14_main_arg9 m ρ c)
theorem at16_main_arg9 (c : Dev nD) : W16 m ρ c (Proc.devRef .tc main_arg9) = m ((c : Thread nD τ).loc main_arg9) :=
  (keep16_main_arg9 m ρ c).trans (at15_main_arg9 m ρ c)
theorem at17_main_arg9 (c : Dev nD) : W17 m ρ c (Proc.devRef .tc main_arg9) = m ((c : Thread nD τ).loc main_arg9) :=
  (keep17_main_arg9 m ρ c).trans (at16_main_arg9 m ρ c)
theorem at18_main_arg9 (c : Dev nD) : W18 m ρ c (Proc.devRef .tc main_arg9) = m ((c : Thread nD τ).loc main_arg9) :=
  (keep18_main_arg9 m ρ c).trans (at17_main_arg9 m ρ c)
theorem at19_main_arg9 (c : Dev nD) : W19 m ρ c (Proc.devRef .tc main_arg9) = m ((c : Thread nD τ).loc main_arg9) :=
  (keep19_main_arg9 m ρ c).trans (at18_main_arg9 m ρ c)
theorem at20_main_arg9 (c : Dev nD) : W20 m ρ c (Proc.devRef .tc main_arg9) = m ((c : Thread nD τ).loc main_arg9) :=
  (keep20_main_arg9 m ρ c).trans (at19_main_arg9 m ρ c)
theorem at21_main_arg9 (c : Dev nD) : W21 m ρ c (Proc.devRef .tc main_arg9) = m ((c : Thread nD τ).loc main_arg9) :=
  (keep21_main_arg9 m ρ c).trans (at20_main_arg9 m ρ c)
theorem at22_main_arg9 (c : Dev nD) : W22 m ρ c (Proc.devRef .tc main_arg9) = m ((c : Thread nD τ).loc main_arg9) :=
  (keep22_main_arg9 m ρ c).trans (at21_main_arg9 m ρ c)
theorem at1_main_arg10 (c : Dev nD) : W1 m ρ c (Proc.devRef .tc main_arg10) = m ((c : Thread nD τ).loc main_arg10) :=
  (keep1_main_arg10 m ρ c).trans rfl
theorem at2_main_arg10 (c : Dev nD) : W2 m ρ c (Proc.devRef .tc main_arg10) = m ((c : Thread nD τ).loc main_arg10) :=
  (keep2_main_arg10 m ρ c).trans (at1_main_arg10 m ρ c)
theorem at3_main_arg10 (c : Dev nD) : W3 m ρ c (Proc.devRef .tc main_arg10) = m ((c : Thread nD τ).loc main_arg10) :=
  (keep3_main_arg10 m ρ c).trans (at2_main_arg10 m ρ c)
theorem at4_main_arg10 (c : Dev nD) : W4 m ρ c (Proc.devRef .tc main_arg10) = m ((c : Thread nD τ).loc main_arg10) :=
  (keep4_main_arg10 m ρ c).trans (at3_main_arg10 m ρ c)
theorem at5_main_arg10 (c : Dev nD) : W5 m ρ c (Proc.devRef .tc main_arg10) = m ((c : Thread nD τ).loc main_arg10) :=
  (keep5_main_arg10 m ρ c).trans (at4_main_arg10 m ρ c)
theorem at6_main_arg10 (c : Dev nD) : W6 m ρ c (Proc.devRef .tc main_arg10) = m ((c : Thread nD τ).loc main_arg10) :=
  (keep6_main_arg10 m ρ c).trans (at5_main_arg10 m ρ c)
theorem at7_main_arg10 (c : Dev nD) : W7 m ρ c (Proc.devRef .tc main_arg10) = m ((c : Thread nD τ).loc main_arg10) :=
  (keep7_main_arg10 m ρ c).trans (at6_main_arg10 m ρ c)
theorem at8_main_arg10 (c : Dev nD) : W8 m ρ c (Proc.devRef .tc main_arg10) = m ((c : Thread nD τ).loc main_arg10) :=
  (keep8_main_arg10 m ρ c).trans (at7_main_arg10 m ρ c)
theorem at9_main_arg10 (c : Dev nD) : W9 m ρ c (Proc.devRef .tc main_arg10) = m ((c : Thread nD τ).loc main_arg10) :=
  (keep9_main_arg10 m ρ c).trans (at8_main_arg10 m ρ c)
theorem at10_main_arg10 (c : Dev nD) : W10 m ρ c (Proc.devRef .tc main_arg10) = m ((c : Thread nD τ).loc main_arg10) :=
  (keep10_main_arg10 m ρ c).trans (at9_main_arg10 m ρ c)
theorem at11_main_arg10 (c : Dev nD) : W11 m ρ c (Proc.devRef .tc main_arg10) = m ((c : Thread nD τ).loc main_arg10) :=
  (keep11_main_arg10 m ρ c).trans (at10_main_arg10 m ρ c)
theorem at12_main_arg10 (c : Dev nD) : W12 m ρ c (Proc.devRef .tc main_arg10) = m ((c : Thread nD τ).loc main_arg10) :=
  (keep12_main_arg10 m ρ c).trans (at11_main_arg10 m ρ c)
theorem at13_main_arg10 (c : Dev nD) : W13 m ρ c (Proc.devRef .tc main_arg10) = m ((c : Thread nD τ).loc main_arg10) :=
  (keep13_main_arg10 m ρ c).trans (at12_main_arg10 m ρ c)
theorem at14_main_arg10 (c : Dev nD) : W14 m ρ c (Proc.devRef .tc main_arg10) = m ((c : Thread nD τ).loc main_arg10) :=
  (keep14_main_arg10 m ρ c).trans (at13_main_arg10 m ρ c)
theorem at15_main_arg10 (c : Dev nD) : W15 m ρ c (Proc.devRef .tc main_arg10) = m ((c : Thread nD τ).loc main_arg10) :=
  (keep15_main_arg10 m ρ c).trans (at14_main_arg10 m ρ c)
theorem at16_main_arg10 (c : Dev nD) : W16 m ρ c (Proc.devRef .tc main_arg10) = m ((c : Thread nD τ).loc main_arg10) :=
  (keep16_main_arg10 m ρ c).trans (at15_main_arg10 m ρ c)
theorem at17_main_arg10 (c : Dev nD) : W17 m ρ c (Proc.devRef .tc main_arg10) = m ((c : Thread nD τ).loc main_arg10) :=
  (keep17_main_arg10 m ρ c).trans (at16_main_arg10 m ρ c)
theorem at18_main_arg10 (c : Dev nD) : W18 m ρ c (Proc.devRef .tc main_arg10) = m ((c : Thread nD τ).loc main_arg10) :=
  (keep18_main_arg10 m ρ c).trans (at17_main_arg10 m ρ c)
theorem at19_main_arg10 (c : Dev nD) : W19 m ρ c (Proc.devRef .tc main_arg10) = m ((c : Thread nD τ).loc main_arg10) :=
  (keep19_main_arg10 m ρ c).trans (at18_main_arg10 m ρ c)
theorem at20_main_arg10 (c : Dev nD) : W20 m ρ c (Proc.devRef .tc main_arg10) = m ((c : Thread nD τ).loc main_arg10) :=
  (keep20_main_arg10 m ρ c).trans (at19_main_arg10 m ρ c)
theorem at21_main_arg10 (c : Dev nD) : W21 m ρ c (Proc.devRef .tc main_arg10) = m ((c : Thread nD τ).loc main_arg10) :=
  (keep21_main_arg10 m ρ c).trans (at20_main_arg10 m ρ c)
theorem at22_main_arg10 (c : Dev nD) : W22 m ρ c (Proc.devRef .tc main_arg10) = m ((c : Thread nD τ).loc main_arg10) :=
  (keep22_main_arg10 m ρ c).trans (at21_main_arg10 m ρ c)
theorem at23_main_arg10 (c : Dev nD) : W23 m ρ c (Proc.devRef .tc main_arg10) = m ((c : Thread nD τ).loc main_arg10) :=
  (keep23_main_arg10 m ρ c).trans (at22_main_arg10 m ρ c)
theorem at24_main_arg10 (c : Dev nD) : W24 m ρ c (Proc.devRef .tc main_arg10) = m ((c : Thread nD τ).loc main_arg10) :=
  (keep24_main_arg10 m ρ c).trans (at23_main_arg10 m ρ c)
theorem at25_main_arg10 (c : Dev nD) : W25 m ρ c (Proc.devRef .tc main_arg10) = m ((c : Thread nD τ).loc main_arg10) :=
  (keep25_main_arg10 m ρ c).trans (at24_main_arg10 m ρ c)
theorem at1_main_arg11 (c : Dev nD) : W1 m ρ c (Proc.devRef .tc main_arg11) = m ((c : Thread nD τ).loc main_arg11) :=
  (keep1_main_arg11 m ρ c).trans rfl
theorem at2_main_arg11 (c : Dev nD) : W2 m ρ c (Proc.devRef .tc main_arg11) = m ((c : Thread nD τ).loc main_arg11) :=
  (keep2_main_arg11 m ρ c).trans (at1_main_arg11 m ρ c)
theorem at3_main_arg11 (c : Dev nD) : W3 m ρ c (Proc.devRef .tc main_arg11) = m ((c : Thread nD τ).loc main_arg11) :=
  (keep3_main_arg11 m ρ c).trans (at2_main_arg11 m ρ c)
theorem at4_main_arg11 (c : Dev nD) : W4 m ρ c (Proc.devRef .tc main_arg11) = m ((c : Thread nD τ).loc main_arg11) :=
  (keep4_main_arg11 m ρ c).trans (at3_main_arg11 m ρ c)
theorem at5_main_arg11 (c : Dev nD) : W5 m ρ c (Proc.devRef .tc main_arg11) = m ((c : Thread nD τ).loc main_arg11) :=
  (keep5_main_arg11 m ρ c).trans (at4_main_arg11 m ρ c)
theorem at6_main_arg11 (c : Dev nD) : W6 m ρ c (Proc.devRef .tc main_arg11) = m ((c : Thread nD τ).loc main_arg11) :=
  (keep6_main_arg11 m ρ c).trans (at5_main_arg11 m ρ c)
theorem at7_main_arg11 (c : Dev nD) : W7 m ρ c (Proc.devRef .tc main_arg11) = m ((c : Thread nD τ).loc main_arg11) :=
  (keep7_main_arg11 m ρ c).trans (at6_main_arg11 m ρ c)
theorem at8_main_arg11 (c : Dev nD) : W8 m ρ c (Proc.devRef .tc main_arg11) = m ((c : Thread nD τ).loc main_arg11) :=
  (keep8_main_arg11 m ρ c).trans (at7_main_arg11 m ρ c)
theorem at9_main_arg11 (c : Dev nD) : W9 m ρ c (Proc.devRef .tc main_arg11) = m ((c : Thread nD τ).loc main_arg11) :=
  (keep9_main_arg11 m ρ c).trans (at8_main_arg11 m ρ c)
theorem at10_main_arg11 (c : Dev nD) : W10 m ρ c (Proc.devRef .tc main_arg11) = m ((c : Thread nD τ).loc main_arg11) :=
  (keep10_main_arg11 m ρ c).trans (at9_main_arg11 m ρ c)
theorem at11_main_arg11 (c : Dev nD) : W11 m ρ c (Proc.devRef .tc main_arg11) = m ((c : Thread nD τ).loc main_arg11) :=
  (keep11_main_arg11 m ρ c).trans (at10_main_arg11 m ρ c)
theorem at12_main_arg11 (c : Dev nD) : W12 m ρ c (Proc.devRef .tc main_arg11) = m ((c : Thread nD τ).loc main_arg11) :=
  (keep12_main_arg11 m ρ c).trans (at11_main_arg11 m ρ c)
theorem at13_main_arg11 (c : Dev nD) : W13 m ρ c (Proc.devRef .tc main_arg11) = m ((c : Thread nD τ).loc main_arg11) :=
  (keep13_main_arg11 m ρ c).trans (at12_main_arg11 m ρ c)
theorem at14_main_arg11 (c : Dev nD) : W14 m ρ c (Proc.devRef .tc main_arg11) = m ((c : Thread nD τ).loc main_arg11) :=
  (keep14_main_arg11 m ρ c).trans (at13_main_arg11 m ρ c)
theorem at15_main_arg11 (c : Dev nD) : W15 m ρ c (Proc.devRef .tc main_arg11) = m ((c : Thread nD τ).loc main_arg11) :=
  (keep15_main_arg11 m ρ c).trans (at14_main_arg11 m ρ c)
theorem at16_main_arg11 (c : Dev nD) : W16 m ρ c (Proc.devRef .tc main_arg11) = m ((c : Thread nD τ).loc main_arg11) :=
  (keep16_main_arg11 m ρ c).trans (at15_main_arg11 m ρ c)
theorem at17_main_arg11 (c : Dev nD) : W17 m ρ c (Proc.devRef .tc main_arg11) = m ((c : Thread nD τ).loc main_arg11) :=
  (keep17_main_arg11 m ρ c).trans (at16_main_arg11 m ρ c)
theorem at18_main_arg11 (c : Dev nD) : W18 m ρ c (Proc.devRef .tc main_arg11) = m ((c : Thread nD τ).loc main_arg11) :=
  (keep18_main_arg11 m ρ c).trans (at17_main_arg11 m ρ c)
theorem at19_main_arg11 (c : Dev nD) : W19 m ρ c (Proc.devRef .tc main_arg11) = m ((c : Thread nD τ).loc main_arg11) :=
  (keep19_main_arg11 m ρ c).trans (at18_main_arg11 m ρ c)
theorem at20_main_arg11 (c : Dev nD) : W20 m ρ c (Proc.devRef .tc main_arg11) = m ((c : Thread nD τ).loc main_arg11) :=
  (keep20_main_arg11 m ρ c).trans (at19_main_arg11 m ρ c)
theorem at21_main_arg11 (c : Dev nD) : W21 m ρ c (Proc.devRef .tc main_arg11) = m ((c : Thread nD τ).loc main_arg11) :=
  (keep21_main_arg11 m ρ c).trans (at20_main_arg11 m ρ c)
theorem at22_main_arg11 (c : Dev nD) : W22 m ρ c (Proc.devRef .tc main_arg11) = m ((c : Thread nD τ).loc main_arg11) :=
  (keep22_main_arg11 m ρ c).trans (at21_main_arg11 m ρ c)
theorem at23_main_arg11 (c : Dev nD) : W23 m ρ c (Proc.devRef .tc main_arg11) = m ((c : Thread nD τ).loc main_arg11) :=
  (keep23_main_arg11 m ρ c).trans (at22_main_arg11 m ρ c)
theorem at24_main_arg11 (c : Dev nD) : W24 m ρ c (Proc.devRef .tc main_arg11) = m ((c : Thread nD τ).loc main_arg11) :=
  (keep24_main_arg11 m ρ c).trans (at23_main_arg11 m ρ c)
theorem at25_main_arg11 (c : Dev nD) : W25 m ρ c (Proc.devRef .tc main_arg11) = m ((c : Thread nD τ).loc main_arg11) :=
  (keep25_main_arg11 m ρ c).trans (at24_main_arg11 m ρ c)
theorem at26_main_arg11 (c : Dev nD) : W26 m ρ c (Proc.devRef .tc main_arg11) = m ((c : Thread nD τ).loc main_arg11) :=
  (keep26_main_arg11 m ρ c).trans (at25_main_arg11 m ρ c)
theorem at27_main_arg11 (c : Dev nD) : W27 m ρ c (Proc.devRef .tc main_arg11) = m ((c : Thread nD τ).loc main_arg11) :=
  (keep27_main_arg11 m ρ c).trans (at26_main_arg11 m ρ c)
theorem at28_main_arg11 (c : Dev nD) : W28 m ρ c (Proc.devRef .tc main_arg11) = m ((c : Thread nD τ).loc main_arg11) :=
  (keep28_main_arg11 m ρ c).trans (at27_main_arg11 m ρ c)
theorem at29_main_arg11 (c : Dev nD) : W29 m ρ c (Proc.devRef .tc main_arg11) = m ((c : Thread nD τ).loc main_arg11) :=
  (keep29_main_arg11 m ρ c).trans (at28_main_arg11 m ρ c)

end Cert.KernelIdeal.Keeps

end
-- ==== Proof.LibIndexRange.lean ====
/-
  Index words in the range [0, 200000), read through the host operations that test and wrap them.

  An array `adj` of 32-bit words, of two extents `c` and `d`, is read signed.

  * `fill_select_eq`. The wrapped word is `adj + 200000` where `adj` is negative and `adj` elsewhere. Give it a
    trailing axis of extent one, test `0 ≤ w` and `w ≤ 199999` there, reduce the conjunction by `and` over that
    axis from the word 1, stretch the resulting mask over a third axis of extent 128 and select by it between two
    arrays `G` and `X`. When every entry of `adj` already lies in [0, 200000) the wrapped word is the entry itself,
    both tests hold at every position, the mask is 1 everywhere, and the selection is `G`.

  * `range_of_all`. Conversely, when the conjunction of the tests `adj ≥ 0` and `adj < 200000`, reduced by `and` over
    both axes from the word 1, is the word 1, every entry of `adj` lies in [0, 200000).

  Both rest on one fact about a fold by `and` of one-bit words from 1: it is 1 exactly when every word folded is 1.
-/
import Idealize.ShloMosaic.PureOps
import Idealize.ShloMosaic.Lib.ValueIdx
import Idealize.ShloMosaic.Lib.StableHlo.Predicate
import Idealize.ShloMosaic.Lib.ReduceAll

namespace Cert.Lib.IndexRange

open Idealize.ShloMosaic Idealize.ShloMosaic.ValueIdx

/-! ## The three constants, read signed -/

theorem toInt_zero : (0#32 : BitVec 32).toInt = 0 := by decide
theorem toInt_bound : (200000#32 : BitVec 32).toInt = 200000 := by decide
theorem toInt_last : (199999#32 : BitVec 32).toInt = 199999 := by decide

/-! ## A fold by `and` from 1 over words that are all 1 is 1 -/

/-- The left fold by `and`, from 1, of a family of one-bit words that are all 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from an initial word 1 of an array whose every entry is 1 is 1 at every result index,
    whatever the axes reduced. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_one x hx _

/-! ## The wrapped word -/

/-- The wrapped index array with a trailing axis of extent one: `adj + 200000` where `adj` is negative, `adj`
    elsewhere. -/
abbrev wrap3 {c d : Nat}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (adj : IVec ⟨2, ![c, d]⟩ 32) : IVec ⟨3, ![c, d, 1]⟩ 32 :=
  broadcastInDim ⟨3, ![c, d, 1]⟩ ![0, 1] hb3
    (select (cmpi .slt adj (broadcastInDim ⟨2, ![c, d]⟩ ![] hb2 (constantI ⟨0, ![]⟩ 32 0#32)))
            (addi adj (broadcastInDim ⟨2, ![c, d]⟩ ![] hb2 (constantI ⟨0, ![]⟩ 32 200000#32))) adj)

/-- A word that is not negative is not below zero, so the wrap leaves it alone. -/
theorem wrap_word {a : BitVec 32} (ha : (0 : Int) ≤ a.toInt) (b : BitVec 32) :
    Scalar.select (IntOp.cmpi .slt a 0#32) b a = a := by
  have hz : IntOp.cmpi .slt a 0#32 = 0#1 :=
    eq_zero_of_ne_one fun h1 => by
      have := IntOp.cmpi_slt.1 h1
      rw [toInt_zero] at this
      omega
  rw [hz, select_zero]

/-- Every entry of the wrapped array is an entry of `adj` when `adj` has no negative entry. -/
theorem wrap3_apply {c d : Nat}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (adj : IVec ⟨2, ![c, d]⟩ 32) (hadj : ∀ i, (0 : Int) ≤ (adj i).toInt)
    (j : (⟨3, ![c, d, 1]⟩ : Shape).Idx) : ∃ k, wrap3 hb2 hb3 adj j = adj k :=
  ⟨_, wrap_word (hadj _) _⟩

/-! ## In range, the mask is 1 everywhere and the selection is its first array -/

theorem fill_select_eq {c d : Nat} {α : Type}
    (hb2 : (⟨0, ![]⟩ : Shape).BroadcastsInDim ⟨2, ![c, d]⟩ (![] : Fin 0 → Fin 2))
    (hb3 : (⟨2, ![c, d]⟩ : Shape).BroadcastsInDim ⟨3, ![c, d, 1]⟩ ![0, 1])
    (hb0 : (⟨0, ![]⟩ : Shape).BroadcastsInDim ⟨3, ![c, d, 1]⟩ (![] : Fin 0 → Fin 3))
    (hb1 : (⟨1, ![1]⟩ : Shape).BroadcastsInDim ⟨3, ![1, 1, 1]⟩ ![2])
    (hb111 : (⟨3, ![1, 1, 1]⟩ : Shape).BroadcastsInDim ⟨3, ![c, d, 1]⟩ ![0, 1, 2])
    (hred : (⟨3, ![c, d, 1]⟩ : Shape).ReducesTo [2] ⟨2, ![c, d]⟩) (h0 : 0 < (⟨0, ![]⟩ : Shape).numel)
    (hbm : (⟨2, ![c, d]⟩ : Shape).BroadcastsInDim ⟨3, ![c, d, 128]⟩ ![0, 1])
    (adj : IVec ⟨2, ![c, d]⟩ 32)
    (hadj : ∀ i, (0 : Int) ≤ (adj i).toInt ∧ (adj i).toInt < 200000)
    (G X : (⟨3, ![c, d, 128]⟩ : Shape).Idx → α) :
    select (broadcastInDim ⟨3, ![c, d, 128]⟩ ![0, 1] hbm
        (Host.reduce IntOp.andi
          (andi
            (cmpi .sge (wrap3 hb2 hb3 adj) (broadcastInDim ⟨3, ![c, d, 1]⟩ ![] hb0 (constantI ⟨0, ![]⟩ 32 0#32)))
            (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
          (constantI ⟨0, ![]⟩ 1 1#1) hred h0)) G X = G := by
  funext i
  rw [select_apply]
  -- the mask at `i` is the reduction at the index `i` names, and the reduction is 1 at every index
  have hm : ∀ j, Host.reduce IntOp.andi
      (andi
        (cmpi .sge (wrap3 hb2 hb3 adj) (broadcastInDim ⟨3, ![c, d, 1]⟩ ![] hb0 (constantI ⟨0, ![]⟩ 32 0#32)))
        (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
      (constantI ⟨0, ![]⟩ 1 1#1) hred h0 j = 1#1 := by
    intro j
    refine reduce_andi_of_all _ _ hred h0 (fun p => ?_) rfl j
    -- at a position `p` both constants read through their broadcasts, and the wrapped word is an entry of `adj`
    show IntOp.andi (IntOp.cmpi .sge (wrap3 hb2 hb3 adj p) 0#32) (IntOp.cmpi .sle (wrap3 hb2 hb3 adj p) 199999#32) = 1#1
    obtain ⟨k, hk⟩ := wrap3_apply hb2 hb3 adj (fun i => (hadj i).1) p
    rw [hk]
    refine IntOp.andi_eq_one.2 ⟨IntOp.cmpi_sge.2 ?_, IntOp.cmpi_sle.2 ?_⟩
    · rw [toInt_zero]; exact (hadj k).1
    · rw [toInt_last]; have := (hadj k).2; omega
  have hb : broadcastInDim ⟨3, ![c, d, 128]⟩ ![0, 1] hbm
      (Host.reduce IntOp.andi
        (andi
          (cmpi .sge (wrap3 hb2 hb3 adj) (broadcastInDim ⟨3, ![c, d, 1]⟩ ![] hb0 (constantI ⟨0, ![]⟩ 32 0#32)))
          (cmpi .sle (wrap3 hb2 hb3 adj) (broadcastInDim ⟨3, ![c, d, 1]⟩ ![0, 1, 2] hb111 (broadcastInDim ⟨3, ![1, 1, 1]⟩ ![2] hb1 (constantI ⟨1, ![1]⟩ 32 199999#32)))))
        (constantI ⟨0, ![]⟩ 1 1#1) hred h0) i = 1#1 := hm _
  rw [hb, select_one]

/-! ## The range test reduced over both axes being 1 puts every entry in range -/

theorem range_of_all {c d : Nat}
    (hb2 : (⟨0, ![]⟩ : Shape).BroadcastsInDim ⟨2, ![c, d]⟩ (![] : Fin 0 → Fin 2))
    (hall : (⟨2, ![c, d]⟩ : Shape).ReducesTo [0, 1] ⟨0, ![]⟩) (h0 : 0 < (⟨0, ![]⟩ : Shape).numel)
    (adj : IVec ⟨2, ![c, d]⟩ 32)
    (h : Host.reduce IntOp.andi
        (andi (cmpi .sge adj (broadcastInDim ⟨2, ![c, d]⟩ ![] hb2 (constantI ⟨0, ![]⟩ 32 0#32)))
              (cmpi .slt adj (broadcastInDim ⟨2, ![c, d]⟩ ![] hb2 (constantI ⟨0, ![]⟩ 32 200000#32))))
        (constantI ⟨0, ![]⟩ 1 1#1) hall h0 ValueIdx.ix0 = 1#1) :
    ∀ i, (0 : Int) ≤ (adj i).toInt ∧ (adj i).toInt < 200000 := by
  intro i
  haveI : Subsingleton (⟨0, ![]⟩ : Shape).Idx := ⟨fun a b => funext fun e => e.elim0⟩
  have hi := Host.reduce_andi_all _ _ hall h0 ValueIdx.ix0 h i
  -- the entry of the tested array at `i`: both constants read through their broadcasts
  have hi' : IntOp.andi (IntOp.cmpi .sge (adj i) 0#32) (IntOp.cmpi .slt (adj i) 200000#32) = 1#1 := hi
  obtain ⟨hge, hlt⟩ := IntOp.andi_eq_one.1 hi'
  have h1 := IntOp.cmpi_sge.1 hge
  have h2 := IntOp.cmpi_slt.1 hlt
  rw [toInt_zero] at h1
  rw [toInt_bound] at h2
  exact ⟨h1, h2⟩

end Cert.Lib.IndexRange
-- ==== Proof.ThreadDefs.lean ====
/-
  Names for what the kernel program starts from: the feature table and the ten neighbour index tables at launch,
  the table's rows gathered at each bucket's indices, the pooled table the program is to end with, and the
  hypothesis that every neighbour index names a row of the table.
-/
import proofs.«430485_j17085379904194_3_alg».proof.Proof.Gen.KernelIdeal.Frame
import proofs.«430485_j17085379904194_3_alg».proof.Proof.LibIndexRange
import proofs.«430485_j17085379904194_3_alg».proof.Proof.Spec
import Idealize.ShloMosaic.PureOps.Ideal

noncomputable section

namespace Cert.KernelIdeal.Thread

open Cert.KernelIdeal Cert.KernelIdeal.Gen Cert.Pool Cert.Lib.IndexRange
open Idealize.ShloMosaic Idealize.ShloMosaic.TcCoe Idealize.SL.Sem

variable (m : (ℓ : Loc nD τ sig) → Buf (Elt Ideal) ℓ)

/-- The feature table at launch. -/
abbrev tab (c : Dev nD) : FVec Ideal S200000x128 .f32 := m ((c : Thread nD τ).loc main_arg0)

/-- The degree-1 bucket's neighbour indices at launch. -/
abbrev adj1 (c : Dev nD) : IVec S20000x1 32 := m ((c : Thread nD τ).loc main_arg2)
/-- The degree-2 bucket's neighbour indices at launch. -/
abbrev adj2 (c : Dev nD) : IVec S40000x2 32 := m ((c : Thread nD τ).loc main_arg3)
/-- The degree-3 bucket's neighbour indices at launch. -/
abbrev adj3 (c : Dev nD) : IVec S50000x3 32 := m ((c : Thread nD τ).loc main_arg4)
/-- The degree-4 bucket's neighbour indices at launch. -/
abbrev adj4 (c : Dev nD) : IVec S40000x4 32 := m ((c : Thread nD τ).loc main_arg5)
/-- The degree-5 bucket's neighbour indices at launch. -/
abbrev adj5 (c : Dev nD) : IVec S20000x5 32 := m ((c : Thread nD τ).loc main_arg6)
/-- The degree-6 bucket's neighbour indices at launch. -/
abbrev adj6 (c : Dev nD) : IVec S10000x6 32 := m ((c : Thread nD τ).loc main_arg7)
/-- The degree-7 bucket's neighbour indices at launch. -/
abbrev adj7 (c : Dev nD) : IVec S5000x7 32 := m ((c : Thread nD τ).loc main_arg8)
/-- The degree-8 bucket's neighbour indices at launch. -/
abbrev adj8 (c : Dev nD) : IVec S3000x8 32 := m ((c : Thread nD τ).loc main_arg9)
/-- The degree-9 bucket's neighbour indices at launch. -/
abbrev adj9 (c : Dev nD) : IVec S1500x9 32 := m ((c : Thread nD τ).loc main_arg10)
/-- The degree-10 bucket's neighbour indices at launch. -/
abbrev adj10 (c : Dev nD) : IVec S500x10 32 := m ((c : Thread nD τ).loc main_arg11)

/-- The feature table's rows gathered at the degree-1 bucket's neighbour indices. -/
abbrev gk1 (c : Dev nD) : FVec Ideal S20000x1x128 .f32 :=
  Host.gather gather_S200000x128_S20000x1x1_S20000x1x128_2_0_n_n_0_2_1128 (tab m c)
    (wrap3 bcast_S_S20000x1 bcast_S20000x1_S20000x1x1_0_1 (adj1 m c))
/-- The feature table's rows gathered at the degree-2 bucket's neighbour indices. -/
abbrev gk2 (c : Dev nD) : FVec Ideal S40000x2x128 .f32 :=
  Host.gather gather_S200000x128_S40000x2x1_S40000x2x128_2_0_n_n_0_2_1128 (tab m c)
    (wrap3 bcast_S_S40000x2 bcast_S40000x2_S40000x2x1_0_1 (adj2 m c))
/-- The feature table's rows gathered at the degree-3 bucket's neighbour indices. -/
abbrev gk3 (c : Dev nD) : FVec Ideal S50000x3x128 .f32 :=
  Host.gather gather_S200000x128_S50000x3x1_S50000x3x128_2_0_n_n_0_2_1128 (tab m c)
    (wrap3 bcast_S_S50000x3 bcast_S50000x3_S50000x3x1_0_1 (adj3 m c))
/-- The feature table's rows gathered at the degree-4 bucket's neighbour indices. -/
abbrev gk4 (c : Dev nD) : FVec Ideal S40000x4x128 .f32 :=
  Host.gather gather_S200000x128_S40000x4x1_S40000x4x128_2_0_n_n_0_2_1128 (tab m c)
    (wrap3 bcast_S_S40000x4 bcast_S40000x4_S40000x4x1_0_1 (adj4 m c))
/-- The feature table's rows gathered at the degree-5 bucket's neighbour indices. -/
abbrev gk5 (c : Dev nD) : FVec Ideal S20000x5x128 .f32 :=
  Host.gather gather_S200000x128_S20000x5x1_S20000x5x128_2_0_n_n_0_2_1128 (tab m c)
    (wrap3 bcast_S_S20000x5 bcast_S20000x5_S20000x5x1_0_1 (adj5 m c))
/-- The feature table's rows gathered at the degree-6 bucket's neighbour indices. -/
abbrev gk6 (c : Dev nD) : FVec Ideal S10000x6x128 .f32 :=
  Host.gather gather_S200000x128_S10000x6x1_S10000x6x128_2_0_n_n_0_2_1128 (tab m c)
    (wrap3 bcast_S_S10000x6 bcast_S10000x6_S10000x6x1_0_1 (adj6 m c))
/-- The feature table's rows gathered at the degree-7 bucket's neighbour indices. -/
abbrev gk7 (c : Dev nD) : FVec Ideal S5000x7x128 .f32 :=
  Host.gather gather_S200000x128_S5000x7x1_S5000x7x128_2_0_n_n_0_2_1128 (tab m c)
    (wrap3 bcast_S_S5000x7 bcast_S5000x7_S5000x7x1_0_1 (adj7 m c))
/-- The feature table's rows gathered at the degree-8 bucket's neighbour indices. -/
abbrev gk8 (c : Dev nD) : FVec Ideal S3000x8x128 .f32 :=
  Host.gather gather_S200000x128_S3000x8x1_S3000x8x128_2_0_n_n_0_2_1128 (tab m c)
    (wrap3 bcast_S_S3000x8 bcast_S3000x8_S3000x8x1_0_1 (adj8 m c))
/-- The feature table's rows gathered at the degree-9 bucket's neighbour indices. -/
abbrev gk9 (c : Dev nD) : FVec Ideal S1500x9x128 .f32 :=
  Host.gather gather_S200000x128_S1500x9x1_S1500x9x128_2_0_n_n_0_2_1128 (tab m c)
    (wrap3 bcast_S_S1500x9 bcast_S1500x9_S1500x9x1_0_1 (adj9 m c))
/-- The feature table's rows gathered at the degree-10 bucket's neighbour indices. -/
abbrev gk10 (c : Dev nD) : FVec Ideal S500x10x128 .f32 :=
  Host.gather gather_S200000x128_S500x10x1_S500x10x128_2_0_n_n_0_2_1128 (tab m c)
    (wrap3 bcast_S_S500x10 bcast_S500x10_S500x10x1_0_1 (adj10 m c))

/-- The pooled table. -/
abbrev pooledTab (c : Dev nD) : FVec Ideal S200000x128 .f32 := spec (tab m c) (gk1 m c) (gk2 m c) (gk3 m c) (gk4 m c) (gk5 m c) (gk6 m c) (gk7 m c) (gk8 m c) (gk9 m c) (gk10 m c)

/-- Every neighbour index of a bucket names a row of the feature table. -/
abbrev InRange {s : Shape} (a : IVec s 32) : Prop := ∀ i, (0 : Int) ≤ (a i).toInt ∧ (a i).toInt < 200000

end Cert.KernelIdeal.Thread

end
-- ==== Proof.Step0.lean ====
/-
  Region 0 of the kernel program in the run: it is entered at the launch memory, so after it the first output
  buffer holds the feature table's rows on the rows of the degree-0 bucket.
-/
import proofs.«430485_j17085379904194_3_alg».proof.Proof.Region0
import proofs.«430485_j17085379904194_3_alg».proof.Proof.Keeps
import proofs.«430485_j17085379904194_3_alg».proof.Proof.ThreadDefs
import Idealize.ShloMosaic.Lib.StableHlo.Run
import Idealize.ShloMosaic.Lib.Pipeline.Value

set_option maxRecDepth 16384

noncomputable section

namespace Cert.KernelIdeal.Thread

open Cert.KernelIdeal Cert.KernelIdeal.Gen Cert.KernelIdeal.Keeps Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The output buffer after the region is the region's array. -/
theorem out0_eq (c : Dev nD) :
    (W1 m ρ c (Proc.devRef .tc main_v0) : FVec Ideal S200000x128 .f32) = Region0.G (V0 m ρ) c :=
  (W1_arr m ρ c 1).trans (Region0.arr_eq (V0 m ρ) c)

/-- ON THE BUCKET'S ROWS the output buffer holds the table's rows. -/
theorem rel0_in (c : Dev nD) (i : S200000x128.Idx) (hi : (i 0).val < 10000) :
    (W1 m ρ c (Proc.devRef .tc main_v0) : FVec Ideal S200000x128 .f32) i = tab m c i := by
  rw [out0_eq m ρ c, Region0.G_in _ _ _ hi]

end Cert.KernelIdeal.Thread

end
-- ==== Proof.Region1.lean ====
/-
  Region 1 of the kernel program, as a value: the output window's array after the last grid point holds, on the rows of the degree-1 bucket,
  the maximum of the row's own features and of its one gathered neighbour row, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region1

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour row of each bucket row (one neighbour: a two-axis array). -/
abbrev nbrArr (c : Dev nD) : FVec Ideal S20000x128 .f32 := V c main_v2
/-- The output array's contents at entry. -/
abbrev prevArr (c : Dev nD) : FVec Ideal S200000x128 .f32 := V c main_v3

/-- The array every grid point writes a block of: pooled on the bucket's rows, the entry contents elsewhere. -/
def G (c : Dev nD) : FVec Ideal S200000x128 .f32 := fun i =>
  if h : 10000 ≤ (i 0).val ∧ (i 0).val < 30000 then
    max (selfArr V c i) (nbrArr V c (ix2 ⟨(i 0).val - 10000, by omega⟩ (i 1)))
  else prevArr V c i

/-- On a row of the bucket. -/
theorem G_in (c : Dev nD) (r : Fin 20000) (f : Fin 128) :
    G V c (ix2 ⟨10000 + r.val, by omega⟩ f)
      = max (selfArr V c (ix2 ⟨10000 + r.val, by omega⟩ f)) (nbrArr V c (ix2 r f)) := by
  have hr := r.isLt
  unfold G
  rw [dif_pos (show 10000 ≤ ((ix2 (⟨10000 + r.val, by omega⟩ : Fin 200000) f : S200000x128.Idx) 0).val
      ∧ ((ix2 (⟨10000 + r.val, by omega⟩ : Fin 200000) f : S200000x128.Idx) 0).val < 30000 from
    ⟨by show 10000 ≤ 10000 + r.val; omega, by show 10000 + r.val < 30000; omega⟩)]
  have e : (⟨((ix2 (⟨10000 + r.val, by omega⟩ : Fin 200000) f : S200000x128.Idx) 0).val - 10000,
      by show 10000 + r.val - 10000 < 20000; omega⟩ : Fin 20000) = r :=
    Fin.ext (by show 10000 + r.val - 10000 = r.val; omega)
  rw [e]

/-- Off the bucket. -/
theorem G_out (c : Dev nD) (i : S200000x128.Idx) (h : (i 0).val < 10000 ∨ 30000 ≤ (i 0).val) :
    G V c i = prevArr V c i := by
  unfold G
  rw [dif_neg (by omega)]

/-- At any index whose row is row r of the bucket. -/
theorem G_row (c : Dev nD) (i : S200000x128.Idx) (r : Fin 20000) (h : (i 0).val = 10000 + r.val) :
    G V c i = max (selfArr V c i) (nbrArr V c (ix2 r (i 1))) := by
  have hr := r.isLt
  unfold G
  rw [dif_pos (show 10000 ≤ (i 0).val ∧ (i 0).val < 30000 from ⟨by omega, by omega⟩)]
  have e : (⟨(i 0).val - 10000, by omega⟩ : Fin 20000) = r := Fin.ext (by show (i 0).val - 10000 = r.val; omega)
  rw [e]

/-! ## What one grid point computes -/

theorem zero_pair : (![0, 0] : Fin 2 → Nat) = fun _ => 0 := funext fun a => by fin_cases a <;> rfl

/-- The body's value at an entry of the block: the maximum of the row's own entry and its neighbour's. -/
theorem pay_apply (x0 : Vec Ideal S2000x128 .f32) (x1 : Vec Ideal S2000x128 .f32) (j : S2000x128.Idx) :
    k1_pay1 x0 x1 j = max (x0 j) (x1 j) := by
  unfold k1_pay1
  rw [maximumf_apply, shapeCast_self]

/-- The block indices at every grid point: the row's own block and the written block are the same one, the
    neighbour block's row index is 5 less, and the written blocks are row blocks 5 to 14 of column block 0. -/
theorem block_facts : ∀ t : Fin cfg1.N,
    win1_0.index t (0 : Fin 2) = win1_3.index t (0 : Fin 2)
    ∧ win1_0.index t (1 : Fin 2) = win1_3.index t (1 : Fin 2)
    ∧ win1_1.index t (0 : Fin 2) + 5 = win1_3.index t (0 : Fin 2)
    ∧ win1_1.index t (1 : Fin 2) = 0
    ∧ 5 ≤ win1_3.index t (0 : Fin 2) ∧ win1_3.index t (0 : Fin 2) ≤ 14
    ∧ win1_3.index t (1 : Fin 2) = 0 :=
  (by decide +kernel : ∀ t : Fin grid1.N, _)

/-- Every one of those blocks is some point's. -/
theorem block_onto : ∀ q : Fin 10, ∃ t : Fin cfg1.N, win1_3.index t = ![q.val + 5, 0] :=
  (by decide +kernel : ∀ q : Fin 10, ∃ t : Fin grid1.N, win1_3.index t = ![q.val + 5, 0])

/-- What point t writes back is its block of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero zero_pair]
  simp only [View.ld_unit_zero (S := S2000x128) zero_pair]
  obtain ⟨e0, e1, e2, e3, e4, e5, e6⟩ := block_facts t
  funext j
  have hj0 : (j 0).val < 2000 := (j 0).isLt
  have hj1 : (j 1).val < 128 := (j 1).isLt
  show k1_pay1 (iblk1 V c 0 t) (iblk1 V c 1 t) j = G V c (((cfg1.win 3).blk t).view.emb j)
  rw [pay_apply,
    G_row V c (((cfg1.win 3).blk t).view.emb j) ⟨win1_1.index t (0 : Fin 2) * 2000 + 1 * (j 0).val, by omega⟩
      (by show win1_3.index t (0 : Fin 2) * 2000 + 1 * (j 0).val = 10000 + (win1_1.index t (0 : Fin 2) * 2000 + 1 * (j 0).val); omega)]
  have h0 : iblk1 V c 0 t j = selfArr V c (((cfg1.win 3).blk t).view.emb j) := by
    show selfArr V c (((cfg1.win 0).blk t).view.emb j) = selfArr V c (((cfg1.win 3).blk t).view.emb j)
    refine congrArg (selfArr V c) ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  have h1 : iblk1 V c 1 t j
      = nbrArr V c (ix2 (⟨win1_1.index t (0 : Fin 2) * 2000 + 1 * (j 0).val, by omega⟩ : Fin 20000) ((((cfg1.win 3).blk t).view.emb j) 1)) := by
    show nbrArr V c (((cfg1.win 1).blk t).view.emb j) = nbrArr V c _
    refine congrArg (nbrArr V c) ?_
    funext a; apply Fin.ext
    match a with
    | ⟨0, _⟩ => show win1_1.index t (0 : Fin 2) * 2000 + 1 * (j 0).val = win1_1.index t (0 : Fin 2) * 2000 + 1 * (j 0).val; rfl
    | ⟨1, _⟩ => show win1_1.index t (1 : Fin 2) * 128 + 1 * (j 1).val = win1_3.index t (1 : Fin 2) * 128 + 1 * (j 1).val; omega
  rw [h0, h1]

/-- An index of the array is in point t's block iff each coordinate is in the block's range on its axis. -/
theorem mem_blk (t : Fin cfg1.N) (i : S200000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- The indices some point's block covers are the rows of the bucket. -/
theorem covered_iff (i : S200000x128.Idx) :
    (∃ t : Fin cfg1.N, (cfg1.win 3).flush t = true ∧ i ∈ ((cfg1.win 3).blk t).view.set) ↔ 10000 ≤ (i 0).val ∧ (i 0).val < 30000 := by
  have hi0 : (i 0).val < 200000 := (i 0).isLt
  have hi1 : (i 1).val < 128 := (i 1).isLt
  constructor
  · rintro ⟨t, -, hi⟩
    rw [mem_blk] at hi
    have b0 : win1_3.index t (0 : Fin 2) * 2000 ≤ (i 0).val ∧ (i 0).val < win1_3.index t (0 : Fin 2) * 2000 + 2000 := hi 0
    obtain ⟨e0, e1, e2, e3, e4, e5, e6⟩ := block_facts t
    omega
  · intro h
    obtain ⟨t, ht⟩ := block_onto ⟨(i 0).val / 2000 - 5, by omega⟩
    have q0 : win1_3.index t (0 : Fin 2) = (i 0).val / 2000 - 5 + 5 := congrFun ht 0
    have q1 : win1_3.index t (1 : Fin 2) = 0 := congrFun ht 1
    refine ⟨t, flush1_3 t, ?_⟩
    rw [mem_blk]
    intro a
    match a with
    | ⟨0, _⟩ => show win1_3.index t (0 : Fin 2) * 2000 ≤ (i 0).val ∧ (i 0).val < win1_3.index t (0 : Fin 2) * 2000 + 2000; omega
    | ⟨1, _⟩ => show win1_3.index t (1 : Fin 2) * 128 ≤ (i 1).val ∧ (i 1).val < win1_3.index t (1 : Fin 2) * 128 + 128; omega

/-- THE ARRAY after the region. -/
theorem arr_eq (c : Dev nD) : (dat1 V c).arrAt 3 cfg1.N = G V c := by
  funext i
  rw [(dat1 V c).arrAt_eq_piecewise 3 (G V c) (fun t _ => flushed_eq V c t) i, A_eq1]
  by_cases h : 10000 ≤ (i 0).val ∧ (i 0).val < 30000
  · rw [if_pos ((covered_iff i).mpr h)]
  · rw [if_neg (fun hc => h ((covered_iff i).mp hc))]
    exact (G_out V c i (by omega)).symm

end Cert.KernelIdeal.Region1

end
-- ==== Proof.Takes.lean ====
/-
  The ten gather stretches of the kernel program.  Each wraps negative indices, gathers the feature table's rows at
  the indices, and replaces by a fill value every gathered row whose wrapped index falls outside the table.  When
  every index already names a row of the table the wrap changes nothing and no row is replaced: the stretch's result
  is the plain gather.
-/
import proofs.«430485_j17085379904194_3_alg».proof.Proof.Gen.KernelIdeal.Frame
import proofs.«430485_j17085379904194_3_alg».proof.Proof.LibIndexRange
import Idealize.ShloMosaic.Lib.StableHlo.Run
import Idealize.ShloMosaic.PureOps.Ideal

set_option maxRecDepth 16384

noncomputable section

namespace Cert.KernelIdeal.Takes

open Cert.KernelIdeal Cert.KernelIdeal.Gen Cert.Lib.IndexRange
open Idealize.ShloMosaic Idealize.ShloMosaic.TcCoe Idealize.SL.Sem Idealize.ShloMosaic.StableHlo

set_option maxHeartbeats 4000000 in
/-- The degree-1 gather stretch: with every index of the bucket's neighbour table a row of the feature table, the
    stretch's result is the gather of the feature table at the (wrapped, here unchanged) indices. -/
theorem take1 (W : Valuation τ sig (Elt Ideal))
    (hadj : ∀ i, (0 : Int) ≤ ((W (Proc.devRef .tc main_arg2) : IVec S20000x1 32) i).toInt ∧ ((W (Proc.devRef .tc main_arg2) : IVec S20000x1 32) i).toInt < 200000) :
    (StableHlo.after (hostOps1 (F := Ideal)) W (Proc.devRef .tc main_v1) : FVec Ideal S20000x1x128 .f32)
      = Host.gather gather_S200000x128_S20000x1x1_S20000x1x128_2_0_n_n_0_2_1128 (W (Proc.devRef .tc main_arg0) : FVec Ideal S200000x128 .f32)
          (wrap3 bcast_S_S20000x1 bcast_S20000x1_S20000x1x1_0_1 (W (Proc.devRef .tc main_arg2) : IVec S20000x1 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S20000x1 bcast_S20000x1_S20000x1x1_0_1 bcast_S_S20000x1x1 bcast_S1_S1x1x1_2 bcast_S1x1x1_S20000x1x1_0_1_2 reducesTo_S20000x1x1_S20000x1_d2 h_S_ bcast_S20000x1_S20000x1x128_0_1 _ hadj _ _

set_option maxHeartbeats 4000000 in
/-- The degree-2 gather stretch: with every index of the bucket's neighbour table a row of the feature table, the
    stretch's result is the gather of the feature table at the (wrapped, here unchanged) indices. -/
theorem take2 (W : Valuation τ sig (Elt Ideal))
    (hadj : ∀ i, (0 : Int) ≤ ((W (Proc.devRef .tc main_arg3) : IVec S40000x2 32) i).toInt ∧ ((W (Proc.devRef .tc main_arg3) : IVec S40000x2 32) i).toInt < 200000) :
    (StableHlo.after (hostOps2 (F := Ideal)) W (Proc.devRef .tc main_v4) : FVec Ideal S40000x2x128 .f32)
      = Host.gather gather_S200000x128_S40000x2x1_S40000x2x128_2_0_n_n_0_2_1128 (W (Proc.devRef .tc main_arg0) : FVec Ideal S200000x128 .f32)
          (wrap3 bcast_S_S40000x2 bcast_S40000x2_S40000x2x1_0_1 (W (Proc.devRef .tc main_arg3) : IVec S40000x2 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S40000x2 bcast_S40000x2_S40000x2x1_0_1 bcast_S_S40000x2x1 bcast_S1_S1x1x1_2 bcast_S1x1x1_S40000x2x1_0_1_2 reducesTo_S40000x2x1_S40000x2_d2 h_S_ bcast_S40000x2_S40000x2x128_0_1 _ hadj _ _

set_option maxHeartbeats 4000000 in
/-- The degree-3 gather stretch: with every index of the bucket's neighbour table a row of the feature table, the
    stretch's result is the gather of the feature table at the (wrapped, here unchanged) indices. -/
theorem take3 (W : Valuation τ sig (Elt Ideal))
    (hadj : ∀ i, (0 : Int) ≤ ((W (Proc.devRef .tc main_arg4) : IVec S50000x3 32) i).toInt ∧ ((W (Proc.devRef .tc main_arg4) : IVec S50000x3 32) i).toInt < 200000) :
    (StableHlo.after (hostOps3 (F := Ideal)) W (Proc.devRef .tc main_v6) : FVec Ideal S50000x3x128 .f32)
      = Host.gather gather_S200000x128_S50000x3x1_S50000x3x128_2_0_n_n_0_2_1128 (W (Proc.devRef .tc main_arg0) : FVec Ideal S200000x128 .f32)
          (wrap3 bcast_S_S50000x3 bcast_S50000x3_S50000x3x1_0_1 (W (Proc.devRef .tc main_arg4) : IVec S50000x3 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S50000x3 bcast_S50000x3_S50000x3x1_0_1 bcast_S_S50000x3x1 bcast_S1_S1x1x1_2 bcast_S1x1x1_S50000x3x1_0_1_2 reducesTo_S50000x3x1_S50000x3_d2 h_S_ bcast_S50000x3_S50000x3x128_0_1 _ hadj _ _

set_option maxHeartbeats 4000000 in
/-- The degree-4 gather stretch: with every index of the bucket's neighbour table a row of the feature table, the
    stretch's result is the gather of the feature table at the (wrapped, here unchanged) indices. -/
theorem take4 (W : Valuation τ sig (Elt Ideal))
    (hadj : ∀ i, (0 : Int) ≤ ((W (Proc.devRef .tc main_arg5) : IVec S40000x4 32) i).toInt ∧ ((W (Proc.devRef .tc main_arg5) : IVec S40000x4 32) i).toInt < 200000) :
    (StableHlo.after (hostOps4 (F := Ideal)) W (Proc.devRef .tc main_v8) : FVec Ideal S40000x4x128 .f32)
      = Host.gather gather_S200000x128_S40000x4x1_S40000x4x128_2_0_n_n_0_2_1128 (W (Proc.devRef .tc main_arg0) : FVec Ideal S200000x128 .f32)
          (wrap3 bcast_S_S40000x4 bcast_S40000x4_S40000x4x1_0_1 (W (Proc.devRef .tc main_arg5) : IVec S40000x4 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S40000x4 bcast_S40000x4_S40000x4x1_0_1 bcast_S_S40000x4x1 bcast_S1_S1x1x1_2 bcast_S1x1x1_S40000x4x1_0_1_2 reducesTo_S40000x4x1_S40000x4_d2 h_S_ bcast_S40000x4_S40000x4x128_0_1 _ hadj _ _

set_option maxHeartbeats 4000000 in
/-- The degree-5 gather stretch: with every index of the bucket's neighbour table a row of the feature table, the
    stretch's result is the gather of the feature table at the (wrapped, here unchanged) indices. -/
theorem take5 (W : Valuation τ sig (Elt Ideal))
    (hadj : ∀ i, (0 : Int) ≤ ((W (Proc.devRef .tc main_arg6) : IVec S20000x5 32) i).toInt ∧ ((W (Proc.devRef .tc main_arg6) : IVec S20000x5 32) i).toInt < 200000) :
    (StableHlo.after (hostOps5 (F := Ideal)) W (Proc.devRef .tc main_v10) : FVec Ideal S20000x5x128 .f32)
      = Host.gather gather_S200000x128_S20000x5x1_S20000x5x128_2_0_n_n_0_2_1128 (W (Proc.devRef .tc main_arg0) : FVec Ideal S200000x128 .f32)
          (wrap3 bcast_S_S20000x5 bcast_S20000x5_S20000x5x1_0_1 (W (Proc.devRef .tc main_arg6) : IVec S20000x5 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S20000x5 bcast_S20000x5_S20000x5x1_0_1 bcast_S_S20000x5x1 bcast_S1_S1x1x1_2 bcast_S1x1x1_S20000x5x1_0_1_2 reducesTo_S20000x5x1_S20000x5_d2 h_S_ bcast_S20000x5_S20000x5x128_0_1 _ hadj _ _

set_option maxHeartbeats 4000000 in
/-- The degree-6 gather stretch: with every index of the bucket's neighbour table a row of the feature table, the
    stretch's result is the gather of the feature table at the (wrapped, here unchanged) indices. -/
theorem take6 (W : Valuation τ sig (Elt Ideal))
    (hadj : ∀ i, (0 : Int) ≤ ((W (Proc.devRef .tc main_arg7) : IVec S10000x6 32) i).toInt ∧ ((W (Proc.devRef .tc main_arg7) : IVec S10000x6 32) i).toInt < 200000) :
    (StableHlo.after (hostOps6 (F := Ideal)) W (Proc.devRef .tc main_v12) : FVec Ideal S10000x6x128 .f32)
      = Host.gather gather_S200000x128_S10000x6x1_S10000x6x128_2_0_n_n_0_2_1128 (W (Proc.devRef .tc main_arg0) : FVec Ideal S200000x128 .f32)
          (wrap3 bcast_S_S10000x6 bcast_S10000x6_S10000x6x1_0_1 (W (Proc.devRef .tc main_arg7) : IVec S10000x6 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S10000x6 bcast_S10000x6_S10000x6x1_0_1 bcast_S_S10000x6x1 bcast_S1_S1x1x1_2 bcast_S1x1x1_S10000x6x1_0_1_2 reducesTo_S10000x6x1_S10000x6_d2 h_S_ bcast_S10000x6_S10000x6x128_0_1 _ hadj _ _

set_option maxHeartbeats 4000000 in
/-- The degree-7 gather stretch: with every index of the bucket's neighbour table a row of the feature table, the
    stretch's result is the gather of the feature table at the (wrapped, here unchanged) indices. -/
theorem take7 (W : Valuation τ sig (Elt Ideal))
    (hadj : ∀ i, (0 : Int) ≤ ((W (Proc.devRef .tc main_arg8) : IVec S5000x7 32) i).toInt ∧ ((W (Proc.devRef .tc main_arg8) : IVec S5000x7 32) i).toInt < 200000) :
    (StableHlo.after (hostOps7 (F := Ideal)) W (Proc.devRef .tc main_v14) : FVec Ideal S5000x7x128 .f32)
      = Host.gather gather_S200000x128_S5000x7x1_S5000x7x128_2_0_n_n_0_2_1128 (W (Proc.devRef .tc main_arg0) : FVec Ideal S200000x128 .f32)
          (wrap3 bcast_S_S5000x7 bcast_S5000x7_S5000x7x1_0_1 (W (Proc.devRef .tc main_arg8) : IVec S5000x7 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S5000x7 bcast_S5000x7_S5000x7x1_0_1 bcast_S_S5000x7x1 bcast_S1_S1x1x1_2 bcast_S1x1x1_S5000x7x1_0_1_2 reducesTo_S5000x7x1_S5000x7_d2 h_S_ bcast_S5000x7_S5000x7x128_0_1 _ hadj _ _

set_option maxHeartbeats 4000000 in
/-- The degree-8 gather stretch: with every index of the bucket's neighbour table a row of the feature table, the
    stretch's result is the gather of the feature table at the (wrapped, here unchanged) indices. -/
theorem take8 (W : Valuation τ sig (Elt Ideal))
    (hadj : ∀ i, (0 : Int) ≤ ((W (Proc.devRef .tc main_arg9) : IVec S3000x8 32) i).toInt ∧ ((W (Proc.devRef .tc main_arg9) : IVec S3000x8 32) i).toInt < 200000) :
    (StableHlo.after (hostOps8 (F := Ideal)) W (Proc.devRef .tc main_v16) : FVec Ideal S3000x8x128 .f32)
      = Host.gather gather_S200000x128_S3000x8x1_S3000x8x128_2_0_n_n_0_2_1128 (W (Proc.devRef .tc main_arg0) : FVec Ideal S200000x128 .f32)
          (wrap3 bcast_S_S3000x8 bcast_S3000x8_S3000x8x1_0_1 (W (Proc.devRef .tc main_arg9) : IVec S3000x8 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S3000x8 bcast_S3000x8_S3000x8x1_0_1 bcast_S_S3000x8x1 bcast_S1_S1x1x1_2 bcast_S1x1x1_S3000x8x1_0_1_2 reducesTo_S3000x8x1_S3000x8_d2 h_S_ bcast_S3000x8_S3000x8x128_0_1 _ hadj _ _

set_option maxHeartbeats 4000000 in
/-- The degree-9 gather stretch: with every index of the bucket's neighbour table a row of the feature table, the
    stretch's result is the gather of the feature table at the (wrapped, here unchanged) indices. -/
theorem take9 (W : Valuation τ sig (Elt Ideal))
    (hadj : ∀ i, (0 : Int) ≤ ((W (Proc.devRef .tc main_arg10) : IVec S1500x9 32) i).toInt ∧ ((W (Proc.devRef .tc main_arg10) : IVec S1500x9 32) i).toInt < 200000) :
    (StableHlo.after (hostOps9 (F := Ideal)) W (Proc.devRef .tc main_v18) : FVec Ideal S1500x9x128 .f32)
      = Host.gather gather_S200000x128_S1500x9x1_S1500x9x128_2_0_n_n_0_2_1128 (W (Proc.devRef .tc main_arg0) : FVec Ideal S200000x128 .f32)
          (wrap3 bcast_S_S1500x9 bcast_S1500x9_S1500x9x1_0_1 (W (Proc.devRef .tc main_arg10) : IVec S1500x9 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S1500x9 bcast_S1500x9_S1500x9x1_0_1 bcast_S_S1500x9x1 bcast_S1_S1x1x1_2 bcast_S1x1x1_S1500x9x1_0_1_2 reducesTo_S1500x9x1_S1500x9_d2 h_S_ bcast_S1500x9_S1500x9x128_0_1 _ hadj _ _

set_option maxHeartbeats 4000000 in
/-- The degree-10 gather stretch: with every index of the bucket's neighbour table a row of the feature table, the
    stretch's result is the gather of the feature table at the (wrapped, here unchanged) indices. -/
theorem take10 (W : Valuation τ sig (Elt Ideal))
    (hadj : ∀ i, (0 : Int) ≤ ((W (Proc.devRef .tc main_arg11) : IVec S500x10 32) i).toInt ∧ ((W (Proc.devRef .tc main_arg11) : IVec S500x10 32) i).toInt < 200000) :
    (StableHlo.after (hostOps10_1 (F := Ideal)) W (Proc.devRef .tc main_v23) : FVec Ideal S500x10x128 .f32)
      = Host.gather gather_S200000x128_S500x10x1_S500x10x128_2_0_n_n_0_2_1128 (W (Proc.devRef .tc main_arg0) : FVec Ideal S200000x128 .f32)
          (wrap3 bcast_S_S500x10 bcast_S500x10_S500x10x1_0_1 (W (Proc.devRef .tc main_arg11) : IVec S500x10 32)) := by
  -- the stretch's operations, run on the valuation: the result buffer holds the selection, by the in-range mask
  -- stretched over the feature axis, between the rows gathered at the wrapped indices and the fill value
  after_results_simp
  simp only [TRef.ofBuf, TRef.toBuf, cast_eq]
  -- every index is in range, so the mask is 1 everywhere and the selection is the gathered rows
  exact fill_select_eq bcast_S_S500x10 bcast_S500x10_S500x10x1_0_1 bcast_S_S500x10x1 bcast_S1_S1x1x1_2 bcast_S1x1x1_S500x10x1_0_1_2 reducesTo_S500x10x1_S500x10_d2 h_S_ bcast_S500x10_S500x10x128_0_1 _ hadj _ _

end Cert.KernelIdeal.Takes

end
-- ==== Proof.Step1.lean ====
/-
  Region 1 of the kernel program in the run.  At the region's entry the feature table is the launch memory's, the
  single gathered neighbour row of each bucket row is the table's row at that row's neighbour index (the gather's
  three-axis result reshaped to two axes by the host; every index names a row of the table), and the output buffer is
  a copy of the buffer region 0 wrote.  So after the region the output buffer holds the pooled rows on the degree-1
  bucket's rows and, on every other row, what region 0's buffer held.
-/
import proofs.«430485_j17085379904194_3_alg».proof.Proof.Region1
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run
import Idealize.ShloMosaic.Lib.Pipeline.Value

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A three-axis array whose middle axis has one coordinate, viewed with two axes, reads at (r, f) what the
    array holds at (r, 0, f): the two indices have the same row-major position, r * 128 + f. -/
theorem dropMid_apply (x : FVec Ideal S20000x1x128 .f32) (r : Fin 20000) (f : Fin 128) :
    shapeCast S20000x128 x shapeCasts_S20000x1x128_S20000x128 (ix2 r f) = x (ix3 r 0 f) :=
  shapeCast_apply x shapeCasts_S20000x1x128_S20000x128 (ix2 r f) (ix3 r 0 f) (by
    rw [Shape.rowMajor_val_three, Shape.rowMajor_val_two]
    show (r.val * 1 + 0) * 128 + f.val = r.val * 128 + f.val
    omega)

/-- The stretch before the region, on any buffer contents: the two-axis neighbour array is the three-axis gathered
    array viewed with its unit axis dropped. -/
theorem reshape1 (W : Valuation τ sig (Elt Ideal)) :
    (StableHlo.after (hostOps1_1 (F := Ideal)) W (Proc.devRef .tc main_v2) : FVec Ideal S20000x128 .f32)
      = shapeCast S20000x128 (W (Proc.devRef .tc main_v1) : FVec Ideal S20000x1x128 .f32) shapeCasts_S20000x1x128_S20000x128 := by
  after_results
  rfl

/-- At the region's entry the neighbour array is the gather's result with its unit axis dropped. -/
theorem entry1_nbr (h : ∀ c, InRange (adj1 m c)) (c : Dev nD) (r : Fin 20000) (f : Fin 128) :
    (V3 m ρ c main_v2 : FVec Ideal S20000x128 .f32) (ix2 r f) = gk1 m c (ix3 r 0 f) := by
  have hadj : ∀ i, (0 : Int) ≤ ((W1 m ρ c (Proc.devRef .tc main_arg2) : IVec S20000x1 32) i).toInt
      ∧ ((W1 m ρ c (Proc.devRef .tc main_arg2) : IVec S20000x1 32) i).toInt < 200000 := by
    rw [at1_main_arg2 m ρ c]; exact h c
  have ht : (W2 m ρ c (Proc.devRef .tc main_v1) : FVec Ideal S20000x1x128 .f32) = gk1 m c := by
    refine (take1 (W1 m ρ c) hadj).trans ?_
    rw [at1_main_arg0 m ρ c, at1_main_arg2 m ρ c]
  have e : (V3 m ρ c main_v2 : FVec Ideal S20000x128 .f32)
      = shapeCast S20000x128 (gk1 m c) shapeCasts_S20000x1x128_S20000x128 := by
    refine (reshape1 (W2 m ρ c)).trans ?_
    rw [ht]
  rw [e]
  exact dropMid_apply (gk1 m c) r f

/-- At the region's entry the output buffer is a copy of the buffer region 0 wrote. -/
theorem entry1_prev (c : Dev nD) :
    (V3 m ρ c main_v3 : FVec Ideal S200000x128 .f32) = W1 m ρ c (Proc.devRef .tc main_v0) := by
  show StableHlo.after (hostOps1_1 (F := Ideal)) (W2 m ρ c) (Proc.devRef .tc main_v3) = _
  after_results
  exact keep2_main_v0 m ρ c

/-- The output buffer after the region is the region's array. -/
theorem out1_eq (c : Dev nD) :
    (W4 m ρ c (Proc.devRef .tc main_v3) : FVec Ideal S200000x128 .f32) = Region1.G (V3 m ρ) c :=
  (W4_arr m ρ c 3).trans (Region1.arr_eq (V3 m ρ) c)

/-- ON THE BUCKET'S ROWS the output buffer holds the pooled rows. -/
theorem rel1_in (h : ∀ c, InRange (adj1 m c)) (c : Dev nD) (r : Fin 20000) (f : Fin 128) :
    (W4 m ρ c (Proc.devRef .tc main_v3) : FVec Ideal S200000x128 .f32) (ix2 ⟨10000 + r.val, by omega⟩ f)
      = max (tab m c (ix2 ⟨10000 + r.val, by omega⟩ f)) (rowMax (gk1 m c) r f) := by
  rw [out1_eq m ρ c, Region1.G_in, rowMax_one]
  have e1 : Region1.selfArr (V3 m ρ) c = tab m c := at3_main_arg0 m ρ c
  rw [e1, show Region1.nbrArr (V3 m ρ) c (ix2 r f) = _ from entry1_nbr m ρ h c r f]

/-- OFF THE BUCKET'S ROWS it holds what region 0's buffer held. -/
theorem rel1_out (c : Dev nD) (i : S200000x128.Idx) (hi : (i 0).val < 10000 ∨ 30000 ≤ (i 0).val) :
    (W4 m ρ c (Proc.devRef .tc main_v3) : FVec Ideal S200000x128 .f32) i
      = (W1 m ρ c (Proc.devRef .tc main_v0) : FVec Ideal S200000x128 .f32) i := by
  rw [out1_eq m ρ c, Region1.G_out _ _ _ hi]
  exact congrFun (entry1_prev m ρ c) i

end Cert.KernelIdeal.Thread

end
-- ==== Proof.Region2.lean ====
/-
  Region 2 of the kernel program, as a value: the output window's array after the last grid point holds, on the rows of the degree-2 bucket,
  the maximum of the row's own features and of its 2 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region2

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S40000x2x128 .f32 := V c main_v4
/-- The output array's contents at entry. -/
abbrev prevArr (c : Dev nD) : FVec Ideal S200000x128 .f32 := V c main_v5

/-- The array every grid point writes a block of: pooled on the bucket's rows, the entry contents elsewhere. -/
def G (c : Dev nD) : FVec Ideal S200000x128 .f32 := fun i =>
  if h : 30000 ≤ (i 0).val ∧ (i 0).val < 70000 then
    max (selfArr V c i) (rowMax (nbrArr V c) ⟨(i 0).val - 30000, by omega⟩ (i 1))
  else prevArr V c i

/-- On a row of the bucket. -/
theorem G_in (c : Dev nD) (r : Fin 40000) (f : Fin 128) :
    G V c (ix2 ⟨30000 + r.val, by omega⟩ f)
      = max (selfArr V c (ix2 ⟨30000 + r.val, by omega⟩ f)) (rowMax (nbrArr V c) r f) := by
  have hr := r.isLt
  unfold G
  rw [dif_pos (show 30000 ≤ ((ix2 (⟨30000 + r.val, by omega⟩ : Fin 200000) f : S200000x128.Idx) 0).val
      ∧ ((ix2 (⟨30000 + r.val, by omega⟩ : Fin 200000) f : S200000x128.Idx) 0).val < 70000 from
    ⟨by show 30000 ≤ 30000 + r.val; omega, by show 30000 + r.val < 70000; omega⟩)]
  have e : (⟨((ix2 (⟨30000 + r.val, by omega⟩ : Fin 200000) f : S200000x128.Idx) 0).val - 30000,
      by show 30000 + r.val - 30000 < 40000; omega⟩ : Fin 40000) = r :=
    Fin.ext (by show 30000 + r.val - 30000 = r.val; omega)
  rw [e]

/-- Off the bucket. -/
theorem G_out (c : Dev nD) (i : S200000x128.Idx) (h : (i 0).val < 30000 ∨ 70000 ≤ (i 0).val) :
    G V c i = prevArr V c i := by
  unfold G
  rw [dif_neg (by omega)]

/-- At any index whose row is row r of the bucket. -/
theorem G_row (c : Dev nD) (i : S200000x128.Idx) (r : Fin 40000) (h : (i 0).val = 30000 + r.val) :
    G V c i = max (selfArr V c i) (rowMax (nbrArr V c) r (i 1)) := by
  have hr := r.isLt
  unfold G
  rw [dif_pos (show 30000 ≤ (i 0).val ∧ (i 0).val < 70000 from ⟨by omega, by omega⟩)]
  have e : (⟨(i 0).val - 30000, by omega⟩ : Fin 40000) = r := Fin.ext (by show (i 0).val - 30000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S2000x2x128 .f32) (h : S2000x2x128.Reduces [1] S2000x128)
    (hφ : FKind.Formats .f32) (hacc : (0xFF800000#32 : BitVec 32) = 0xFF800000#32) (j : S2000x128.Idx) :
    multiReduction (F := Ideal) .maximumf [1] S2000x128 x1 0xFF800000#32 h hφ hacc j
      = (Finset.univ : Finset (Fin 2)).fold max negInf (fun k => x1 (ix3 (j 0) k (j 1))) := by
  refine (Ideal.multiReduction_maximumf_single x1 0xFF800000#32 h hφ hacc j).trans ?_
  show (Finset.univ : Finset (Fin 2)).fold max negInf (fun k => x1 (h.lift j k)) = _
  refine congrArg (fun g => (Finset.univ : Finset (Fin 2)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S2000x2x128 .f32) (x0 : Vec Ideal S2000x128 .f32) (j : S2000x128.Idx) :
    k2_pay1 x1 x0 j
      = max (x0 j) ((Finset.univ : Finset (Fin 2)).fold max negInf (fun k => x1 (ix3 (j 0) k (j 1)))) := by
  unfold k2_pay1
  rw [maximumf_apply, shapeCast_self, reduce_apply]

/-- The block indices at every grid point: the row's own block and the written block are the same one, the
    neighbour block's row index is 15 less, it is the whole of the other two axes, and the written blocks are
    row blocks 15 to 34 of column block 0. -/
theorem block_facts : ∀ t : Fin cfg2.N,
    win2_0.index t (0 : Fin 2) = win2_3.index t (0 : Fin 2)
    ∧ win2_0.index t (1 : Fin 2) = win2_3.index t (1 : Fin 2)
    ∧ win2_1.index t (0 : Fin 3) + 15 = win2_3.index t (0 : Fin 2)
    ∧ win2_1.index t (1 : Fin 3) = 0
    ∧ win2_1.index t (2 : Fin 3) = 0
    ∧ 15 ≤ win2_3.index t (0 : Fin 2) ∧ win2_3.index t (0 : Fin 2) ≤ 34
    ∧ win2_3.index t (1 : Fin 2) = 0 :=
  (by decide +kernel : ∀ t : Fin grid2.N, _)

/-- Every one of those blocks is some point's. -/
theorem block_onto : ∀ q : Fin 20, ∃ t : Fin cfg2.N, win2_3.index t = ![q.val + 15, 0] :=
  (by decide +kernel : ∀ q : Fin 20, ∃ t : Fin grid2.N, win2_3.index t = ![q.val + 15, 0])

/-- What point t writes back is its block of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero zero_pair]
  simp only [View.ld_unit_zero (S := S2000x128) zero_pair, View.ld_unit_zero (S := S2000x2x128) zero_triple]
  obtain ⟨e0, e1, e2, e3, e4, e5, e6, e7⟩ := block_facts t
  funext j
  have hj0 : (j 0).val < 2000 := (j 0).isLt
  have hj1 : (j 1).val < 128 := (j 1).isLt
  show k2_pay1 (iblk2 V c 1 t) (iblk2 V c 0 t) j = G V c (((cfg2.win 3).blk t).view.emb j)
  rw [pay_apply,
    G_row V c (((cfg2.win 3).blk t).view.emb j) ⟨win2_1.index t (0 : Fin 3) * 2000 + 1 * (j 0).val, by omega⟩
      (by show win2_3.index t (0 : Fin 2) * 2000 + 1 * (j 0).val = 30000 + (win2_1.index t (0 : Fin 3) * 2000 + 1 * (j 0).val); omega)]
  unfold rowMax
  have h0 : iblk2 V c 0 t j = selfArr V c (((cfg2.win 3).blk t).view.emb j) := by
    show selfArr V c (((cfg2.win 0).blk t).view.emb j) = selfArr V c (((cfg2.win 3).blk t).view.emb j)
    refine congrArg (selfArr V c) ?_
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have h1 : ∀ k : Fin 2, iblk2 V c 1 t (ix3 (j 0) k (j 1))
      = nbrArr V c (ix3 (⟨win2_1.index t (0 : Fin 3) * 2000 + 1 * (j 0).val, by omega⟩ : Fin 40000) k ((((cfg2.win 3).blk t).view.emb j) 1)) := by
    intro k
    have hk : k.val < 2 := k.isLt
    show nbrArr V c (((cfg2.win 1).blk t).view.emb (ix3 (j 0) k (j 1))) = nbrArr V c _
    refine congrArg (nbrArr V c) ?_
    funext a; apply Fin.ext
    match a with
    | ⟨0, _⟩ => show win2_1.index t (0 : Fin 3) * 2000 + 1 * (j 0).val = win2_1.index t (0 : Fin 3) * 2000 + 1 * (j 0).val; rfl
    | ⟨1, _⟩ => show win2_1.index t (1 : Fin 3) * 2 + 1 * k.val = k.val; omega
    | ⟨2, _⟩ => show win2_1.index t (2 : Fin 3) * 128 + 1 * (j 1).val = win2_3.index t (1 : Fin 2) * 128 + 1 * (j 1).val; omega
  rw [h0]
  simp only [h1]

/-- An index of the array is in point t's block iff each coordinate is in the block's range on its axis. -/
theorem mem_blk (t : Fin cfg2.N) (i : S200000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v5).slice (win2_3.rect t)).set ↔ _
  rw [View.set_slice_whole, Rect.mem_set_unit]
  exact Iff.rfl

/-- The indices some point's block covers are the rows of the bucket. -/
theorem covered_iff (i : S200000x128.Idx) :
    (∃ t : Fin cfg2.N, (cfg2.win 3).flush t = true ∧ i ∈ ((cfg2.win 3).blk t).view.set) ↔ 30000 ≤ (i 0).val ∧ (i 0).val < 70000 := by
  have hi0 : (i 0).val < 200000 := (i 0).isLt
  have hi1 : (i 1).val < 128 := (i 1).isLt
  constructor
  · rintro ⟨t, -, hi⟩
    rw [mem_blk] at hi
    have b0 : win2_3.index t (0 : Fin 2) * 2000 ≤ (i 0).val ∧ (i 0).val < win2_3.index t (0 : Fin 2) * 2000 + 2000 := hi 0
    obtain ⟨e0, e1, e2, e3, e4, e5, e6, e7⟩ := block_facts t
    omega
  · intro h
    obtain ⟨t, ht⟩ := block_onto ⟨(i 0).val / 2000 - 15, by omega⟩
    have q0 : win2_3.index t (0 : Fin 2) = (i 0).val / 2000 - 15 + 15 := congrFun ht 0
    have q1 : win2_3.index t (1 : Fin 2) = 0 := congrFun ht 1
    refine ⟨t, flush2_3 t, ?_⟩
    rw [mem_blk]
    intro a
    match a with
    | ⟨0, _⟩ => show win2_3.index t (0 : Fin 2) * 2000 ≤ (i 0).val ∧ (i 0).val < win2_3.index t (0 : Fin 2) * 2000 + 2000; omega
    | ⟨1, _⟩ => show win2_3.index t (1 : Fin 2) * 128 ≤ (i 1).val ∧ (i 1).val < win2_3.index t (1 : Fin 2) * 128 + 128; omega

/-- THE ARRAY after the region. -/
theorem arr_eq (c : Dev nD) : (dat2 V c).arrAt 3 cfg2.N = G V c := by
  funext i
  rw [(dat2 V c).arrAt_eq_piecewise 3 (G V c) (fun t _ => flushed_eq V c t) i, A_eq2]
  by_cases h : 30000 ≤ (i 0).val ∧ (i 0).val < 70000
  · rw [if_pos ((covered_iff i).mpr h)]
  · rw [if_neg (fun hc => h ((covered_iff i).mp hc))]
    exact (G_out V c i (by omega)).symm

end Cert.KernelIdeal.Region2

end
-- ==== Proof.Step2.lean ====
/-
  Region 2 of the kernel program in the run.  At the region's entry the feature table is the launch memory's, the
  gathered rows are the table's rows at the degree-2 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region2
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry2_nbr (h : ∀ c, InRange (adj2 m c)) (c : Dev nD) :
    (V6 m ρ c main_v4 : FVec Ideal S40000x2x128 .f32) = gk2 m c := by
  show (W6 m ρ c (Proc.devRef .tc main_v4) : FVec Ideal S40000x2x128 .f32) = _
  rw [keep6_main_v4 m ρ c]
  have hadj : ∀ i, (0 : Int) ≤ ((W4 m ρ c (Proc.devRef .tc main_arg3) : IVec S40000x2 32) i).toInt
      ∧ ((W4 m ρ c (Proc.devRef .tc main_arg3) : IVec S40000x2 32) i).toInt < 200000 := by
    rw [at4_main_arg3 m ρ c]; exact h c
  refine (take2 (W4 m ρ c) hadj).trans ?_
  rw [at4_main_arg0 m ρ c, at4_main_arg3 m ρ c]

/-- At the region's entry the output buffer is a copy of the buffer the regions before it wrote. -/
theorem entry2_prev (c : Dev nD) :
    (V6 m ρ c main_v5 : FVec Ideal S200000x128 .f32) = W4 m ρ c (Proc.devRef .tc main_v3) := by
  show StableHlo.after (hostOps2_1 (F := Ideal)) (W5 m ρ c) (Proc.devRef .tc main_v5) = _
  after_results
  exact keep5_main_v3 m ρ c

/-- The output buffer after the region is the region's array. -/
theorem out2_eq (c : Dev nD) :
    (W7 m ρ c (Proc.devRef .tc main_v5) : FVec Ideal S200000x128 .f32) = Region2.G (V6 m ρ) c :=
  (W7_arr m ρ c 3).trans (Region2.arr_eq (V6 m ρ) c)

/-- ON THE BUCKET'S ROWS the output buffer holds the pooled rows. -/
theorem rel2_in (h : ∀ c, InRange (adj2 m c)) (c : Dev nD) (r : Fin 40000) (f : Fin 128) :
    (W7 m ρ c (Proc.devRef .tc main_v5) : FVec Ideal S200000x128 .f32) (ix2 ⟨30000 + r.val, by omega⟩ f)
      = max (tab m c (ix2 ⟨30000 + r.val, by omega⟩ f)) (rowMax (gk2 m c) r f) := by
  rw [out2_eq m ρ c, Region2.G_in]
  have e1 : Region2.selfArr (V6 m ρ) c = tab m c := at6_main_arg0 m ρ c
  have e2 : Region2.nbrArr (V6 m ρ) c = gk2 m c := entry2_nbr m ρ h c
  rw [e1, e2]

/-- OFF THE BUCKET'S ROWS it holds what the earlier buffer held. -/
theorem rel2_out (c : Dev nD) (i : S200000x128.Idx) (hi : (i 0).val < 30000 ∨ 70000 ≤ (i 0).val) :
    (W7 m ρ c (Proc.devRef .tc main_v5) : FVec Ideal S200000x128 .f32) i
      = (W4 m ρ c (Proc.devRef .tc main_v3) : FVec Ideal S200000x128 .f32) i := by
  rw [out2_eq m ρ c, Region2.G_out _ _ _ hi]
  exact congrFun (entry2_prev m ρ c) i

end Cert.KernelIdeal.Thread

end
-- ==== Proof.Region3.lean ====
/-
  Region 3 of the kernel program, as a value: the output window's array after the last grid point holds, on the rows of the degree-3 bucket,
  the maximum of the row's own features and of its 3 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region3

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S50000x3x128 .f32 := V c main_v6
/-- The output array's contents at entry. -/
abbrev prevArr (c : Dev nD) : FVec Ideal S200000x128 .f32 := V c main_v7

/-- The array every grid point writes a block of: pooled on the bucket's rows, the entry contents elsewhere. -/
def G (c : Dev nD) : FVec Ideal S200000x128 .f32 := fun i =>
  if h : 70000 ≤ (i 0).val ∧ (i 0).val < 120000 then
    max (selfArr V c i) (rowMax (nbrArr V c) ⟨(i 0).val - 70000, by omega⟩ (i 1))
  else prevArr V c i

/-- On a row of the bucket. -/
theorem G_in (c : Dev nD) (r : Fin 50000) (f : Fin 128) :
    G V c (ix2 ⟨70000 + r.val, by omega⟩ f)
      = max (selfArr V c (ix2 ⟨70000 + r.val, by omega⟩ f)) (rowMax (nbrArr V c) r f) := by
  have hr := r.isLt
  unfold G
  rw [dif_pos (show 70000 ≤ ((ix2 (⟨70000 + r.val, by omega⟩ : Fin 200000) f : S200000x128.Idx) 0).val
      ∧ ((ix2 (⟨70000 + r.val, by omega⟩ : Fin 200000) f : S200000x128.Idx) 0).val < 120000 from
    ⟨by show 70000 ≤ 70000 + r.val; omega, by show 70000 + r.val < 120000; omega⟩)]
  have e : (⟨((ix2 (⟨70000 + r.val, by omega⟩ : Fin 200000) f : S200000x128.Idx) 0).val - 70000,
      by show 70000 + r.val - 70000 < 50000; omega⟩ : Fin 50000) = r :=
    Fin.ext (by show 70000 + r.val - 70000 = r.val; omega)
  rw [e]

/-- Off the bucket. -/
theorem G_out (c : Dev nD) (i : S200000x128.Idx) (h : (i 0).val < 70000 ∨ 120000 ≤ (i 0).val) :
    G V c i = prevArr V c i := by
  unfold G
  rw [dif_neg (by omega)]

/-- At any index whose row is row r of the bucket. -/
theorem G_row (c : Dev nD) (i : S200000x128.Idx) (r : Fin 50000) (h : (i 0).val = 70000 + r.val) :
    G V c i = max (selfArr V c i) (rowMax (nbrArr V c) r (i 1)) := by
  have hr := r.isLt
  unfold G
  rw [dif_pos (show 70000 ≤ (i 0).val ∧ (i 0).val < 120000 from ⟨by omega, by omega⟩)]
  have e : (⟨(i 0).val - 70000, by omega⟩ : Fin 50000) = r := Fin.ext (by show (i 0).val - 70000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S2000x3x128 .f32) (h : S2000x3x128.Reduces [1] S2000x128)
    (hφ : FKind.Formats .f32) (hacc : (0xFF800000#32 : BitVec 32) = 0xFF800000#32) (j : S2000x128.Idx) :
    multiReduction (F := Ideal) .maximumf [1] S2000x128 x1 0xFF800000#32 h hφ hacc j
      = (Finset.univ : Finset (Fin 3)).fold max negInf (fun k => x1 (ix3 (j 0) k (j 1))) := by
  refine (Ideal.multiReduction_maximumf_single x1 0xFF800000#32 h hφ hacc j).trans ?_
  show (Finset.univ : Finset (Fin 3)).fold max negInf (fun k => x1 (h.lift j k)) = _
  refine congrArg (fun g => (Finset.univ : Finset (Fin 3)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S2000x3x128 .f32) (x0 : Vec Ideal S2000x128 .f32) (j : S2000x128.Idx) :
    k3_pay1 x1 x0 j
      = max (x0 j) ((Finset.univ : Finset (Fin 3)).fold max negInf (fun k => x1 (ix3 (j 0) k (j 1)))) := by
  unfold k3_pay1
  rw [maximumf_apply, shapeCast_self, reduce_apply]

/-- The block indices at every grid point: the row's own block and the written block are the same one, the
    neighbour block's row index is 35 less, it is the whole of the other two axes, and the written blocks are
    row blocks 35 to 59 of column block 0. -/
theorem block_facts : ∀ t : Fin cfg3.N,
    win3_0.index t (0 : Fin 2) = win3_3.index t (0 : Fin 2)
    ∧ win3_0.index t (1 : Fin 2) = win3_3.index t (1 : Fin 2)
    ∧ win3_1.index t (0 : Fin 3) + 35 = win3_3.index t (0 : Fin 2)
    ∧ win3_1.index t (1 : Fin 3) = 0
    ∧ win3_1.index t (2 : Fin 3) = 0
    ∧ 35 ≤ win3_3.index t (0 : Fin 2) ∧ win3_3.index t (0 : Fin 2) ≤ 59
    ∧ win3_3.index t (1 : Fin 2) = 0 :=
  (by decide +kernel : ∀ t : Fin grid3.N, _)

/-- Every one of those blocks is some point's. -/
theorem block_onto : ∀ q : Fin 25, ∃ t : Fin cfg3.N, win3_3.index t = ![q.val + 35, 0] :=
  (by decide +kernel : ∀ q : Fin 25, ∃ t : Fin grid3.N, win3_3.index t = ![q.val + 35, 0])

/-- What point t writes back is its block of G. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero zero_pair]
  simp only [View.ld_unit_zero (S := S2000x128) zero_pair, View.ld_unit_zero (S := S2000x3x128) zero_triple]
  obtain ⟨e0, e1, e2, e3, e4, e5, e6, e7⟩ := block_facts t
  funext j
  have hj0 : (j 0).val < 2000 := (j 0).isLt
  have hj1 : (j 1).val < 128 := (j 1).isLt
  show k3_pay1 (iblk3 V c 1 t) (iblk3 V c 0 t) j = G V c (((cfg3.win 3).blk t).view.emb j)
  rw [pay_apply,
    G_row V c (((cfg3.win 3).blk t).view.emb j) ⟨win3_1.index t (0 : Fin 3) * 2000 + 1 * (j 0).val, by omega⟩
      (by show win3_3.index t (0 : Fin 2) * 2000 + 1 * (j 0).val = 70000 + (win3_1.index t (0 : Fin 3) * 2000 + 1 * (j 0).val); omega)]
  unfold rowMax
  have h0 : iblk3 V c 0 t j = selfArr V c (((cfg3.win 3).blk t).view.emb j) := by
    show selfArr V c (((cfg3.win 0).blk t).view.emb j) = selfArr V c (((cfg3.win 3).blk t).view.emb j)
    refine congrArg (selfArr V c) ?_
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  have h1 : ∀ k : Fin 3, iblk3 V c 1 t (ix3 (j 0) k (j 1))
      = nbrArr V c (ix3 (⟨win3_1.index t (0 : Fin 3) * 2000 + 1 * (j 0).val, by omega⟩ : Fin 50000) k ((((cfg3.win 3).blk t).view.emb j) 1)) := by
    intro k
    have hk : k.val < 3 := k.isLt
    show nbrArr V c (((cfg3.win 1).blk t).view.emb (ix3 (j 0) k (j 1))) = nbrArr V c _
    refine congrArg (nbrArr V c) ?_
    funext a; apply Fin.ext
    match a with
    | ⟨0, _⟩ => show win3_1.index t (0 : Fin 3) * 2000 + 1 * (j 0).val = win3_1.index t (0 : Fin 3) * 2000 + 1 * (j 0).val; rfl
    | ⟨1, _⟩ => show win3_1.index t (1 : Fin 3) * 3 + 1 * k.val = k.val; omega
    | ⟨2, _⟩ => show win3_1.index t (2 : Fin 3) * 128 + 1 * (j 1).val = win3_3.index t (1 : Fin 2) * 128 + 1 * (j 1).val; omega
  rw [h0]
  simp only [h1]

/-- An index of the array is in point t's block iff each coordinate is in the block's range on its axis. -/
theorem mem_blk (t : Fin cfg3.N) (i : S200000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v7).slice (win3_3.rect t)).set ↔ _
  rw [View.set_slice_whole, Rect.mem_set_unit]
  exact Iff.rfl

/-- The indices some point's block covers are the rows of the bucket. -/
theorem covered_iff (i : S200000x128.Idx) :
    (∃ t : Fin cfg3.N, (cfg3.win 3).flush t = true ∧ i ∈ ((cfg3.win 3).blk t).view.set) ↔ 70000 ≤ (i 0).val ∧ (i 0).val < 120000 := by
  have hi0 : (i 0).val < 200000 := (i 0).isLt
  have hi1 : (i 1).val < 128 := (i 1).isLt
  constructor
  · rintro ⟨t, -, hi⟩
    rw [mem_blk] at hi
    have b0 : win3_3.index t (0 : Fin 2) * 2000 ≤ (i 0).val ∧ (i 0).val < win3_3.index t (0 : Fin 2) * 2000 + 2000 := hi 0
    obtain ⟨e0, e1, e2, e3, e4, e5, e6, e7⟩ := block_facts t
    omega
  · intro h
    obtain ⟨t, ht⟩ := block_onto ⟨(i 0).val / 2000 - 35, by omega⟩
    have q0 : win3_3.index t (0 : Fin 2) = (i 0).val / 2000 - 35 + 35 := congrFun ht 0
    have q1 : win3_3.index t (1 : Fin 2) = 0 := congrFun ht 1
    refine ⟨t, flush3_3 t, ?_⟩
    rw [mem_blk]
    intro a
    match a with
    | ⟨0, _⟩ => show win3_3.index t (0 : Fin 2) * 2000 ≤ (i 0).val ∧ (i 0).val < win3_3.index t (0 : Fin 2) * 2000 + 2000; omega
    | ⟨1, _⟩ => show win3_3.index t (1 : Fin 2) * 128 ≤ (i 1).val ∧ (i 1).val < win3_3.index t (1 : Fin 2) * 128 + 128; omega

/-- THE ARRAY after the region. -/
theorem arr_eq (c : Dev nD) : (dat3 V c).arrAt 3 cfg3.N = G V c := by
  funext i
  rw [(dat3 V c).arrAt_eq_piecewise 3 (G V c) (fun t _ => flushed_eq V c t) i, A_eq3]
  by_cases h : 70000 ≤ (i 0).val ∧ (i 0).val < 120000
  · rw [if_pos ((covered_iff i).mpr h)]
  · rw [if_neg (fun hc => h ((covered_iff i).mp hc))]
    exact (G_out V c i (by omega)).symm

end Cert.KernelIdeal.Region3

end
-- ==== Proof.Step3.lean ====
/-
  Region 3 of the kernel program in the run.  At the region's entry the feature table is the launch memory's, the
  gathered rows are the table's rows at the degree-3 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region3
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry3_nbr (h : ∀ c, InRange (adj3 m c)) (c : Dev nD) :
    (V9 m ρ c main_v6 : FVec Ideal S50000x3x128 .f32) = gk3 m c := by
  show (W9 m ρ c (Proc.devRef .tc main_v6) : FVec Ideal S50000x3x128 .f32) = _
  rw [keep9_main_v6 m ρ c]
  have hadj : ∀ i, (0 : Int) ≤ ((W7 m ρ c (Proc.devRef .tc main_arg4) : IVec S50000x3 32) i).toInt
      ∧ ((W7 m ρ c (Proc.devRef .tc main_arg4) : IVec S50000x3 32) i).toInt < 200000 := by
    rw [at7_main_arg4 m ρ c]; exact h c
  refine (take3 (W7 m ρ c) hadj).trans ?_
  rw [at7_main_arg0 m ρ c, at7_main_arg4 m ρ c]

/-- At the region's entry the output buffer is a copy of the buffer the regions before it wrote. -/
theorem entry3_prev (c : Dev nD) :
    (V9 m ρ c main_v7 : FVec Ideal S200000x128 .f32) = W7 m ρ c (Proc.devRef .tc main_v5) := by
  show StableHlo.after (hostOps3_1 (F := Ideal)) (W8 m ρ c) (Proc.devRef .tc main_v7) = _
  after_results
  exact keep8_main_v5 m ρ c

/-- The output buffer after the region is the region's array. -/
theorem out3_eq (c : Dev nD) :
    (W10 m ρ c (Proc.devRef .tc main_v7) : FVec Ideal S200000x128 .f32) = Region3.G (V9 m ρ) c :=
  (W10_arr m ρ c 3).trans (Region3.arr_eq (V9 m ρ) c)

/-- ON THE BUCKET'S ROWS the output buffer holds the pooled rows. -/
theorem rel3_in (h : ∀ c, InRange (adj3 m c)) (c : Dev nD) (r : Fin 50000) (f : Fin 128) :
    (W10 m ρ c (Proc.devRef .tc main_v7) : FVec Ideal S200000x128 .f32) (ix2 ⟨70000 + r.val, by omega⟩ f)
      = max (tab m c (ix2 ⟨70000 + r.val, by omega⟩ f)) (rowMax (gk3 m c) r f) := by
  rw [out3_eq m ρ c, Region3.G_in]
  have e1 : Region3.selfArr (V9 m ρ) c = tab m c := at9_main_arg0 m ρ c
  have e2 : Region3.nbrArr (V9 m ρ) c = gk3 m c := entry3_nbr m ρ h c
  rw [e1, e2]

/-- OFF THE BUCKET'S ROWS it holds what the earlier buffer held. -/
theorem rel3_out (c : Dev nD) (i : S200000x128.Idx) (hi : (i 0).val < 70000 ∨ 120000 ≤ (i 0).val) :
    (W10 m ρ c (Proc.devRef .tc main_v7) : FVec Ideal S200000x128 .f32) i
      = (W7 m ρ c (Proc.devRef .tc main_v5) : FVec Ideal S200000x128 .f32) i := by
  rw [out3_eq m ρ c, Region3.G_out _ _ _ hi]
  exact congrFun (entry3_prev m ρ c) i

end Cert.KernelIdeal.Thread

end
-- ==== Proof.Region4.lean ====
/-
  Region 4 of the kernel program, as a value: the output window's array after the last grid point holds, on the rows of the degree-4 bucket,
  the maximum of the row's own features and of its 4 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region4

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S40000x4x128 .f32 := V c main_v8
/-- The output array's contents at entry. -/
abbrev prevArr (c : Dev nD) : FVec Ideal S200000x128 .f32 := V c main_v9

/-- The array every grid point writes a block of: pooled on the bucket's rows, the entry contents elsewhere. -/
def G (c : Dev nD) : FVec Ideal S200000x128 .f32 := fun i =>
  if h : 120000 ≤ (i 0).val ∧ (i 0).val < 160000 then
    max (selfArr V c i) (rowMax (nbrArr V c) ⟨(i 0).val - 120000, by omega⟩ (i 1))
  else prevArr V c i

/-- On a row of the bucket. -/
theorem G_in (c : Dev nD) (r : Fin 40000) (f : Fin 128) :
    G V c (ix2 ⟨120000 + r.val, by omega⟩ f)
      = max (selfArr V c (ix2 ⟨120000 + r.val, by omega⟩ f)) (rowMax (nbrArr V c) r f) := by
  have hr := r.isLt
  unfold G
  rw [dif_pos (show 120000 ≤ ((ix2 (⟨120000 + r.val, by omega⟩ : Fin 200000) f : S200000x128.Idx) 0).val
      ∧ ((ix2 (⟨120000 + r.val, by omega⟩ : Fin 200000) f : S200000x128.Idx) 0).val < 160000 from
    ⟨by show 120000 ≤ 120000 + r.val; omega, by show 120000 + r.val < 160000; omega⟩)]
  have e : (⟨((ix2 (⟨120000 + r.val, by omega⟩ : Fin 200000) f : S200000x128.Idx) 0).val - 120000,
      by show 120000 + r.val - 120000 < 40000; omega⟩ : Fin 40000) = r :=
    Fin.ext (by show 120000 + r.val - 120000 = r.val; omega)
  rw [e]

/-- Off the bucket. -/
theorem G_out (c : Dev nD) (i : S200000x128.Idx) (h : (i 0).val < 120000 ∨ 160000 ≤ (i 0).val) :
    G V c i = prevArr V c i := by
  unfold G
  rw [dif_neg (by omega)]

/-- At any index whose row is row r of the bucket. -/
theorem G_row (c : Dev nD) (i : S200000x128.Idx) (r : Fin 40000) (h : (i 0).val = 120000 + r.val) :
    G V c i = max (selfArr V c i) (rowMax (nbrArr V c) r (i 1)) := by
  have hr := r.isLt
  unfold G
  rw [dif_pos (show 120000 ≤ (i 0).val ∧ (i 0).val < 160000 from ⟨by omega, by omega⟩)]
  have e : (⟨(i 0).val - 120000, by omega⟩ : Fin 40000) = r := Fin.ext (by show (i 0).val - 120000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S2000x4x128 .f32) (h : S2000x4x128.Reduces [1] S2000x128)
    (hφ : FKind.Formats .f32) (hacc : (0xFF800000#32 : BitVec 32) = 0xFF800000#32) (j : S2000x128.Idx) :
    multiReduction (F := Ideal) .maximumf [1] S2000x128 x1 0xFF800000#32 h hφ hacc j
      = (Finset.univ : Finset (Fin 4)).fold max negInf (fun k => x1 (ix3 (j 0) k (j 1))) := by
  refine (Ideal.multiReduction_maximumf_single x1 0xFF800000#32 h hφ hacc j).trans ?_
  show (Finset.univ : Finset (Fin 4)).fold max negInf (fun k => x1 (h.lift j k)) = _
  refine congrArg (fun g => (Finset.univ : Finset (Fin 4)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S2000x4x128 .f32) (x0 : Vec Ideal S2000x128 .f32) (j : S2000x128.Idx) :
    k4_pay1 x1 x0 j
      = max (x0 j) ((Finset.univ : Finset (Fin 4)).fold max negInf (fun k => x1 (ix3 (j 0) k (j 1)))) := by
  unfold k4_pay1
  rw [maximumf_apply, shapeCast_self, reduce_apply]

/-- The block indices at every grid point: the row's own block and the written block are the same one, the
    neighbour block's row index is 60 less, it is the whole of the other two axes, and the written blocks are
    row blocks 60 to 79 of column block 0. -/
theorem block_facts : ∀ t : Fin cfg4.N,
    win4_0.index t (0 : Fin 2) = win4_3.index t (0 : Fin 2)
    ∧ win4_0.index t (1 : Fin 2) = win4_3.index t (1 : Fin 2)
    ∧ win4_1.index t (0 : Fin 3) + 60 = win4_3.index t (0 : Fin 2)
    ∧ win4_1.index t (1 : Fin 3) = 0
    ∧ win4_1.index t (2 : Fin 3) = 0
    ∧ 60 ≤ win4_3.index t (0 : Fin 2) ∧ win4_3.index t (0 : Fin 2) ≤ 79
    ∧ win4_3.index t (1 : Fin 2) = 0 :=
  (by decide +kernel : ∀ t : Fin grid4.N, _)

/-- Every one of those blocks is some point's. -/
theorem block_onto : ∀ q : Fin 20, ∃ t : Fin cfg4.N, win4_3.index t = ![q.val + 60, 0] :=
  (by decide +kernel : ∀ q : Fin 20, ∃ t : Fin grid4.N, win4_3.index t = ![q.val + 60, 0])

/-- What point t writes back is its block of G. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero zero_pair]
  simp only [View.ld_unit_zero (S := S2000x128) zero_pair, View.ld_unit_zero (S := S2000x4x128) zero_triple]
  obtain ⟨e0, e1, e2, e3, e4, e5, e6, e7⟩ := block_facts t
  funext j
  have hj0 : (j 0).val < 2000 := (j 0).isLt
  have hj1 : (j 1).val < 128 := (j 1).isLt
  show k4_pay1 (iblk4 V c 1 t) (iblk4 V c 0 t) j = G V c (((cfg4.win 3).blk t).view.emb j)
  rw [pay_apply,
    G_row V c (((cfg4.win 3).blk t).view.emb j) ⟨win4_1.index t (0 : Fin 3) * 2000 + 1 * (j 0).val, by omega⟩
      (by show win4_3.index t (0 : Fin 2) * 2000 + 1 * (j 0).val = 120000 + (win4_1.index t (0 : Fin 3) * 2000 + 1 * (j 0).val); omega)]
  unfold rowMax
  have h0 : iblk4 V c 0 t j = selfArr V c (((cfg4.win 3).blk t).view.emb j) := by
    show selfArr V c (((cfg4.win 0).blk t).view.emb j) = selfArr V c (((cfg4.win 3).blk t).view.emb j)
    refine congrArg (selfArr V c) ?_
    funext a; apply Fin.ext
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 128 + 1 * (j 1).val = win4_3.index t (1 : Fin 2) * 128 + 1 * (j 1).val; omega
  have h1 : ∀ k : Fin 4, iblk4 V c 1 t (ix3 (j 0) k (j 1))
      = nbrArr V c (ix3 (⟨win4_1.index t (0 : Fin 3) * 2000 + 1 * (j 0).val, by omega⟩ : Fin 40000) k ((((cfg4.win 3).blk t).view.emb j) 1)) := by
    intro k
    have hk : k.val < 4 := k.isLt
    show nbrArr V c (((cfg4.win 1).blk t).view.emb (ix3 (j 0) k (j 1))) = nbrArr V c _
    refine congrArg (nbrArr V c) ?_
    funext a; apply Fin.ext
    match a with
    | ⟨0, _⟩ => show win4_1.index t (0 : Fin 3) * 2000 + 1 * (j 0).val = win4_1.index t (0 : Fin 3) * 2000 + 1 * (j 0).val; rfl
    | ⟨1, _⟩ => show win4_1.index t (1 : Fin 3) * 4 + 1 * k.val = k.val; omega
    | ⟨2, _⟩ => show win4_1.index t (2 : Fin 3) * 128 + 1 * (j 1).val = win4_3.index t (1 : Fin 2) * 128 + 1 * (j 1).val; omega
  rw [h0]
  simp only [h1]

/-- An index of the array is in point t's block iff each coordinate is in the block's range on its axis. -/
theorem mem_blk (t : Fin cfg4.N) (i : S200000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v9).slice (win4_3.rect t)).set ↔ _
  rw [View.set_slice_whole, Rect.mem_set_unit]
  exact Iff.rfl

/-- The indices some point's block covers are the rows of the bucket. -/
theorem covered_iff (i : S200000x128.Idx) :
    (∃ t : Fin cfg4.N, (cfg4.win 3).flush t = true ∧ i ∈ ((cfg4.win 3).blk t).view.set) ↔ 120000 ≤ (i 0).val ∧ (i 0).val < 160000 := by
  have hi0 : (i 0).val < 200000 := (i 0).isLt
  have hi1 : (i 1).val < 128 := (i 1).isLt
  constructor
  · rintro ⟨t, -, hi⟩
    rw [mem_blk] at hi
    have b0 : win4_3.index t (0 : Fin 2) * 2000 ≤ (i 0).val ∧ (i 0).val < win4_3.index t (0 : Fin 2) * 2000 + 2000 := hi 0
    obtain ⟨e0, e1, e2, e3, e4, e5, e6, e7⟩ := block_facts t
    omega
  · intro h
    obtain ⟨t, ht⟩ := block_onto ⟨(i 0).val / 2000 - 60, by omega⟩
    have q0 : win4_3.index t (0 : Fin 2) = (i 0).val / 2000 - 60 + 60 := congrFun ht 0
    have q1 : win4_3.index t (1 : Fin 2) = 0 := congrFun ht 1
    refine ⟨t, flush4_3 t, ?_⟩
    rw [mem_blk]
    intro a
    match a with
    | ⟨0, _⟩ => show win4_3.index t (0 : Fin 2) * 2000 ≤ (i 0).val ∧ (i 0).val < win4_3.index t (0 : Fin 2) * 2000 + 2000; omega
    | ⟨1, _⟩ => show win4_3.index t (1 : Fin 2) * 128 ≤ (i 1).val ∧ (i 1).val < win4_3.index t (1 : Fin 2) * 128 + 128; omega

/-- THE ARRAY after the region. -/
theorem arr_eq (c : Dev nD) : (dat4 V c).arrAt 3 cfg4.N = G V c := by
  funext i
  rw [(dat4 V c).arrAt_eq_piecewise 3 (G V c) (fun t _ => flushed_eq V c t) i, A_eq4]
  by_cases h : 120000 ≤ (i 0).val ∧ (i 0).val < 160000
  · rw [if_pos ((covered_iff i).mpr h)]
  · rw [if_neg (fun hc => h ((covered_iff i).mp hc))]
    exact (G_out V c i (by omega)).symm

end Cert.KernelIdeal.Region4

end
-- ==== Proof.Step4.lean ====
/-
  Region 4 of the kernel program in the run.  At the region's entry the feature table is the launch memory's, the
  gathered rows are the table's rows at the degree-4 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region4
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry4_nbr (h : ∀ c, InRange (adj4 m c)) (c : Dev nD) :
    (V12 m ρ c main_v8 : FVec Ideal S40000x4x128 .f32) = gk4 m c := by
  show (W12 m ρ c (Proc.devRef .tc main_v8) : FVec Ideal S40000x4x128 .f32) = _
  rw [keep12_main_v8 m ρ c]
  have hadj : ∀ i, (0 : Int) ≤ ((W10 m ρ c (Proc.devRef .tc main_arg5) : IVec S40000x4 32) i).toInt
      ∧ ((W10 m ρ c (Proc.devRef .tc main_arg5) : IVec S40000x4 32) i).toInt < 200000 := by
    rw [at10_main_arg5 m ρ c]; exact h c
  refine (take4 (W10 m ρ c) hadj).trans ?_
  rw [at10_main_arg0 m ρ c, at10_main_arg5 m ρ c]

/-- At the region's entry the output buffer is a copy of the buffer the regions before it wrote. -/
theorem entry4_prev (c : Dev nD) :
    (V12 m ρ c main_v9 : FVec Ideal S200000x128 .f32) = W10 m ρ c (Proc.devRef .tc main_v7) := by
  show StableHlo.after (hostOps4_1 (F := Ideal)) (W11 m ρ c) (Proc.devRef .tc main_v9) = _
  after_results
  exact keep11_main_v7 m ρ c

/-- The output buffer after the region is the region's array. -/
theorem out4_eq (c : Dev nD) :
    (W13 m ρ c (Proc.devRef .tc main_v9) : FVec Ideal S200000x128 .f32) = Region4.G (V12 m ρ) c :=
  (W13_arr m ρ c 3).trans (Region4.arr_eq (V12 m ρ) c)

/-- ON THE BUCKET'S ROWS the output buffer holds the pooled rows. -/
theorem rel4_in (h : ∀ c, InRange (adj4 m c)) (c : Dev nD) (r : Fin 40000) (f : Fin 128) :
    (W13 m ρ c (Proc.devRef .tc main_v9) : FVec Ideal S200000x128 .f32) (ix2 ⟨120000 + r.val, by omega⟩ f)
      = max (tab m c (ix2 ⟨120000 + r.val, by omega⟩ f)) (rowMax (gk4 m c) r f) := by
  rw [out4_eq m ρ c, Region4.G_in]
  have e1 : Region4.selfArr (V12 m ρ) c = tab m c := at12_main_arg0 m ρ c
  have e2 : Region4.nbrArr (V12 m ρ) c = gk4 m c := entry4_nbr m ρ h c
  rw [e1, e2]

/-- OFF THE BUCKET'S ROWS it holds what the earlier buffer held. -/
theorem rel4_out (c : Dev nD) (i : S200000x128.Idx) (hi : (i 0).val < 120000 ∨ 160000 ≤ (i 0).val) :
    (W13 m ρ c (Proc.devRef .tc main_v9) : FVec Ideal S200000x128 .f32) i
      = (W10 m ρ c (Proc.devRef .tc main_v7) : FVec Ideal S200000x128 .f32) i := by
  rw [out4_eq m ρ c, Region4.G_out _ _ _ hi]
  exact congrFun (entry4_prev m ρ c) i

end Cert.KernelIdeal.Thread

end
-- ==== Proof.Region5.lean ====
/-
  Region 5 of the kernel program, as a value: the output window's array after the last grid point holds, on the rows of the degree-5 bucket,
  the maximum of the row's own features and of its 5 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region5

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S20000x5x128 .f32 := V c main_v10
/-- The output array's contents at entry. -/
abbrev prevArr (c : Dev nD) : FVec Ideal S200000x128 .f32 := V c main_v11

/-- The array every grid point writes a block of: pooled on the bucket's rows, the entry contents elsewhere. -/
def G (c : Dev nD) : FVec Ideal S200000x128 .f32 := fun i =>
  if h : 160000 ≤ (i 0).val ∧ (i 0).val < 180000 then
    max (selfArr V c i) (rowMax (nbrArr V c) ⟨(i 0).val - 160000, by omega⟩ (i 1))
  else prevArr V c i

/-- On a row of the bucket. -/
theorem G_in (c : Dev nD) (r : Fin 20000) (f : Fin 128) :
    G V c (ix2 ⟨160000 + r.val, by omega⟩ f)
      = max (selfArr V c (ix2 ⟨160000 + r.val, by omega⟩ f)) (rowMax (nbrArr V c) r f) := by
  have hr := r.isLt
  unfold G
  rw [dif_pos (show 160000 ≤ ((ix2 (⟨160000 + r.val, by omega⟩ : Fin 200000) f : S200000x128.Idx) 0).val
      ∧ ((ix2 (⟨160000 + r.val, by omega⟩ : Fin 200000) f : S200000x128.Idx) 0).val < 180000 from
    ⟨by show 160000 ≤ 160000 + r.val; omega, by show 160000 + r.val < 180000; omega⟩)]
  have e : (⟨((ix2 (⟨160000 + r.val, by omega⟩ : Fin 200000) f : S200000x128.Idx) 0).val - 160000,
      by show 160000 + r.val - 160000 < 20000; omega⟩ : Fin 20000) = r :=
    Fin.ext (by show 160000 + r.val - 160000 = r.val; omega)
  rw [e]

/-- Off the bucket. -/
theorem G_out (c : Dev nD) (i : S200000x128.Idx) (h : (i 0).val < 160000 ∨ 180000 ≤ (i 0).val) :
    G V c i = prevArr V c i := by
  unfold G
  rw [dif_neg (by omega)]

/-- At any index whose row is row r of the bucket. -/
theorem G_row (c : Dev nD) (i : S200000x128.Idx) (r : Fin 20000) (h : (i 0).val = 160000 + r.val) :
    G V c i = max (selfArr V c i) (rowMax (nbrArr V c) r (i 1)) := by
  have hr := r.isLt
  unfold G
  rw [dif_pos (show 160000 ≤ (i 0).val ∧ (i 0).val < 180000 from ⟨by omega, by omega⟩)]
  have e : (⟨(i 0).val - 160000, by omega⟩ : Fin 20000) = r := Fin.ext (by show (i 0).val - 160000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S2000x5x128 .f32) (h : S2000x5x128.Reduces [1] S2000x128)
    (hφ : FKind.Formats .f32) (hacc : (0xFF800000#32 : BitVec 32) = 0xFF800000#32) (j : S2000x128.Idx) :
    multiReduction (F := Ideal) .maximumf [1] S2000x128 x1 0xFF800000#32 h hφ hacc j
      = (Finset.univ : Finset (Fin 5)).fold max negInf (fun k => x1 (ix3 (j 0) k (j 1))) := by
  refine (Ideal.multiReduction_maximumf_single x1 0xFF800000#32 h hφ hacc j).trans ?_
  show (Finset.univ : Finset (Fin 5)).fold max negInf (fun k => x1 (h.lift j k)) = _
  refine congrArg (fun g => (Finset.univ : Finset (Fin 5)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S2000x5x128 .f32) (x0 : Vec Ideal S2000x128 .f32) (j : S2000x128.Idx) :
    k5_pay1 x1 x0 j
      = max (x0 j) ((Finset.univ : Finset (Fin 5)).fold max negInf (fun k => x1 (ix3 (j 0) k (j 1)))) := by
  unfold k5_pay1
  rw [maximumf_apply, shapeCast_self, reduce_apply]

/-- The block indices at every grid point: the row's own block and the written block are the same one, the
    neighbour block's row index is 80 less, it is the whole of the other two axes, and the written blocks are
    row blocks 80 to 89 of column block 0. -/
theorem block_facts : ∀ t : Fin cfg5.N,
    win5_0.index t (0 : Fin 2) = win5_3.index t (0 : Fin 2)
    ∧ win5_0.index t (1 : Fin 2) = win5_3.index t (1 : Fin 2)
    ∧ win5_1.index t (0 : Fin 3) + 80 = win5_3.index t (0 : Fin 2)
    ∧ win5_1.index t (1 : Fin 3) = 0
    ∧ win5_1.index t (2 : Fin 3) = 0
    ∧ 80 ≤ win5_3.index t (0 : Fin 2) ∧ win5_3.index t (0 : Fin 2) ≤ 89
    ∧ win5_3.index t (1 : Fin 2) = 0 :=
  (by decide +kernel : ∀ t : Fin grid5.N, _)

/-- Every one of those blocks is some point's. -/
theorem block_onto : ∀ q : Fin 10, ∃ t : Fin cfg5.N, win5_3.index t = ![q.val + 80, 0] :=
  (by decide +kernel : ∀ q : Fin 10, ∃ t : Fin grid5.N, win5_3.index t = ![q.val + 80, 0])

/-- What point t writes back is its block of G. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero zero_pair]
  simp only [View.ld_unit_zero (S := S2000x128) zero_pair, View.ld_unit_zero (S := S2000x5x128) zero_triple]
  obtain ⟨e0, e1, e2, e3, e4, e5, e6, e7⟩ := block_facts t
  funext j
  have hj0 : (j 0).val < 2000 := (j 0).isLt
  have hj1 : (j 1).val < 128 := (j 1).isLt
  show k5_pay1 (iblk5 V c 1 t) (iblk5 V c 0 t) j = G V c (((cfg5.win 3).blk t).view.emb j)
  rw [pay_apply,
    G_row V c (((cfg5.win 3).blk t).view.emb j) ⟨win5_1.index t (0 : Fin 3) * 2000 + 1 * (j 0).val, by omega⟩
      (by show win5_3.index t (0 : Fin 2) * 2000 + 1 * (j 0).val = 160000 + (win5_1.index t (0 : Fin 3) * 2000 + 1 * (j 0).val); omega)]
  unfold rowMax
  have h0 : iblk5 V c 0 t j = selfArr V c (((cfg5.win 3).blk t).view.emb j) := by
    show selfArr V c (((cfg5.win 0).blk t).view.emb j) = selfArr V c (((cfg5.win 3).blk t).view.emb j)
    refine congrArg (selfArr V c) ?_
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 128 + 1 * (j 1).val = win5_3.index t (1 : Fin 2) * 128 + 1 * (j 1).val; omega
  have h1 : ∀ k : Fin 5, iblk5 V c 1 t (ix3 (j 0) k (j 1))
      = nbrArr V c (ix3 (⟨win5_1.index t (0 : Fin 3) * 2000 + 1 * (j 0).val, by omega⟩ : Fin 20000) k ((((cfg5.win 3).blk t).view.emb j) 1)) := by
    intro k
    have hk : k.val < 5 := k.isLt
    show nbrArr V c (((cfg5.win 1).blk t).view.emb (ix3 (j 0) k (j 1))) = nbrArr V c _
    refine congrArg (nbrArr V c) ?_
    funext a; apply Fin.ext
    match a with
    | ⟨0, _⟩ => show win5_1.index t (0 : Fin 3) * 2000 + 1 * (j 0).val = win5_1.index t (0 : Fin 3) * 2000 + 1 * (j 0).val; rfl
    | ⟨1, _⟩ => show win5_1.index t (1 : Fin 3) * 5 + 1 * k.val = k.val; omega
    | ⟨2, _⟩ => show win5_1.index t (2 : Fin 3) * 128 + 1 * (j 1).val = win5_3.index t (1 : Fin 2) * 128 + 1 * (j 1).val; omega
  rw [h0]
  simp only [h1]

/-- An index of the array is in point t's block iff each coordinate is in the block's range on its axis. -/
theorem mem_blk (t : Fin cfg5.N) (i : S200000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v11).slice (win5_3.rect t)).set ↔ _
  rw [View.set_slice_whole, Rect.mem_set_unit]
  exact Iff.rfl

/-- The indices some point's block covers are the rows of the bucket. -/
theorem covered_iff (i : S200000x128.Idx) :
    (∃ t : Fin cfg5.N, (cfg5.win 3).flush t = true ∧ i ∈ ((cfg5.win 3).blk t).view.set) ↔ 160000 ≤ (i 0).val ∧ (i 0).val < 180000 := by
  have hi0 : (i 0).val < 200000 := (i 0).isLt
  have hi1 : (i 1).val < 128 := (i 1).isLt
  constructor
  · rintro ⟨t, -, hi⟩
    rw [mem_blk] at hi
    have b0 : win5_3.index t (0 : Fin 2) * 2000 ≤ (i 0).val ∧ (i 0).val < win5_3.index t (0 : Fin 2) * 2000 + 2000 := hi 0
    obtain ⟨e0, e1, e2, e3, e4, e5, e6, e7⟩ := block_facts t
    omega
  · intro h
    obtain ⟨t, ht⟩ := block_onto ⟨(i 0).val / 2000 - 80, by omega⟩
    have q0 : win5_3.index t (0 : Fin 2) = (i 0).val / 2000 - 80 + 80 := congrFun ht 0
    have q1 : win5_3.index t (1 : Fin 2) = 0 := congrFun ht 1
    refine ⟨t, flush5_3 t, ?_⟩
    rw [mem_blk]
    intro a
    match a with
    | ⟨0, _⟩ => show win5_3.index t (0 : Fin 2) * 2000 ≤ (i 0).val ∧ (i 0).val < win5_3.index t (0 : Fin 2) * 2000 + 2000; omega
    | ⟨1, _⟩ => show win5_3.index t (1 : Fin 2) * 128 ≤ (i 1).val ∧ (i 1).val < win5_3.index t (1 : Fin 2) * 128 + 128; omega

/-- THE ARRAY after the region. -/
theorem arr_eq (c : Dev nD) : (dat5 V c).arrAt 3 cfg5.N = G V c := by
  funext i
  rw [(dat5 V c).arrAt_eq_piecewise 3 (G V c) (fun t _ => flushed_eq V c t) i, A_eq5]
  by_cases h : 160000 ≤ (i 0).val ∧ (i 0).val < 180000
  · rw [if_pos ((covered_iff i).mpr h)]
  · rw [if_neg (fun hc => h ((covered_iff i).mp hc))]
    exact (G_out V c i (by omega)).symm

end Cert.KernelIdeal.Region5

end
-- ==== Proof.Step5.lean ====
/-
  Region 5 of the kernel program in the run.  At the region's entry the feature table is the launch memory's, the
  gathered rows are the table's rows at the degree-5 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region5
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry5_nbr (h : ∀ c, InRange (adj5 m c)) (c : Dev nD) :
    (V15 m ρ c main_v10 : FVec Ideal S20000x5x128 .f32) = gk5 m c := by
  show (W15 m ρ c (Proc.devRef .tc main_v10) : FVec Ideal S20000x5x128 .f32) = _
  rw [keep15_main_v10 m ρ c]
  have hadj : ∀ i, (0 : Int) ≤ ((W13 m ρ c (Proc.devRef .tc main_arg6) : IVec S20000x5 32) i).toInt
      ∧ ((W13 m ρ c (Proc.devRef .tc main_arg6) : IVec S20000x5 32) i).toInt < 200000 := by
    rw [at13_main_arg6 m ρ c]; exact h c
  refine (take5 (W13 m ρ c) hadj).trans ?_
  rw [at13_main_arg0 m ρ c, at13_main_arg6 m ρ c]

/-- At the region's entry the output buffer is a copy of the buffer the regions before it wrote. -/
theorem entry5_prev (c : Dev nD) :
    (V15 m ρ c main_v11 : FVec Ideal S200000x128 .f32) = W13 m ρ c (Proc.devRef .tc main_v9) := by
  show StableHlo.after (hostOps5_1 (F := Ideal)) (W14 m ρ c) (Proc.devRef .tc main_v11) = _
  after_results
  exact keep14_main_v9 m ρ c

/-- The output buffer after the region is the region's array. -/
theorem out5_eq (c : Dev nD) :
    (W16 m ρ c (Proc.devRef .tc main_v11) : FVec Ideal S200000x128 .f32) = Region5.G (V15 m ρ) c :=
  (W16_arr m ρ c 3).trans (Region5.arr_eq (V15 m ρ) c)

/-- ON THE BUCKET'S ROWS the output buffer holds the pooled rows. -/
theorem rel5_in (h : ∀ c, InRange (adj5 m c)) (c : Dev nD) (r : Fin 20000) (f : Fin 128) :
    (W16 m ρ c (Proc.devRef .tc main_v11) : FVec Ideal S200000x128 .f32) (ix2 ⟨160000 + r.val, by omega⟩ f)
      = max (tab m c (ix2 ⟨160000 + r.val, by omega⟩ f)) (rowMax (gk5 m c) r f) := by
  rw [out5_eq m ρ c, Region5.G_in]
  have e1 : Region5.selfArr (V15 m ρ) c = tab m c := at15_main_arg0 m ρ c
  have e2 : Region5.nbrArr (V15 m ρ) c = gk5 m c := entry5_nbr m ρ h c
  rw [e1, e2]

/-- OFF THE BUCKET'S ROWS it holds what the earlier buffer held. -/
theorem rel5_out (c : Dev nD) (i : S200000x128.Idx) (hi : (i 0).val < 160000 ∨ 180000 ≤ (i 0).val) :
    (W16 m ρ c (Proc.devRef .tc main_v11) : FVec Ideal S200000x128 .f32) i
      = (W13 m ρ c (Proc.devRef .tc main_v9) : FVec Ideal S200000x128 .f32) i := by
  rw [out5_eq m ρ c, Region5.G_out _ _ _ hi]
  exact congrFun (entry5_prev m ρ c) i

end Cert.KernelIdeal.Thread

end
-- ==== Proof.Region6.lean ====
/-
  Region 6 of the kernel program, as a value: the output window's array after the last grid point holds, on the rows of the degree-6 bucket,
  the maximum of the row's own features and of its 6 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region6

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S10000x6x128 .f32 := V c main_v12
/-- The output array's contents at entry. -/
abbrev prevArr (c : Dev nD) : FVec Ideal S200000x128 .f32 := V c main_v13

/-- The array every grid point writes a block of: pooled on the bucket's rows, the entry contents elsewhere. -/
def G (c : Dev nD) : FVec Ideal S200000x128 .f32 := fun i =>
  if h : 180000 ≤ (i 0).val ∧ (i 0).val < 190000 then
    max (selfArr V c i) (rowMax (nbrArr V c) ⟨(i 0).val - 180000, by omega⟩ (i 1))
  else prevArr V c i

/-- On a row of the bucket. -/
theorem G_in (c : Dev nD) (r : Fin 10000) (f : Fin 128) :
    G V c (ix2 ⟨180000 + r.val, by omega⟩ f)
      = max (selfArr V c (ix2 ⟨180000 + r.val, by omega⟩ f)) (rowMax (nbrArr V c) r f) := by
  have hr := r.isLt
  unfold G
  rw [dif_pos (show 180000 ≤ ((ix2 (⟨180000 + r.val, by omega⟩ : Fin 200000) f : S200000x128.Idx) 0).val
      ∧ ((ix2 (⟨180000 + r.val, by omega⟩ : Fin 200000) f : S200000x128.Idx) 0).val < 190000 from
    ⟨by show 180000 ≤ 180000 + r.val; omega, by show 180000 + r.val < 190000; omega⟩)]
  have e : (⟨((ix2 (⟨180000 + r.val, by omega⟩ : Fin 200000) f : S200000x128.Idx) 0).val - 180000,
      by show 180000 + r.val - 180000 < 10000; omega⟩ : Fin 10000) = r :=
    Fin.ext (by show 180000 + r.val - 180000 = r.val; omega)
  rw [e]

/-- Off the bucket. -/
theorem G_out (c : Dev nD) (i : S200000x128.Idx) (h : (i 0).val < 180000 ∨ 190000 ≤ (i 0).val) :
    G V c i = prevArr V c i := by
  unfold G
  rw [dif_neg (by omega)]

/-- At any index whose row is row r of the bucket. -/
theorem G_row (c : Dev nD) (i : S200000x128.Idx) (r : Fin 10000) (h : (i 0).val = 180000 + r.val) :
    G V c i = max (selfArr V c i) (rowMax (nbrArr V c) r (i 1)) := by
  have hr := r.isLt
  unfold G
  rw [dif_pos (show 180000 ≤ (i 0).val ∧ (i 0).val < 190000 from ⟨by omega, by omega⟩)]
  have e : (⟨(i 0).val - 180000, by omega⟩ : Fin 10000) = r := Fin.ext (by show (i 0).val - 180000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S2000x6x128 .f32) (h : S2000x6x128.Reduces [1] S2000x128)
    (hφ : FKind.Formats .f32) (hacc : (0xFF800000#32 : BitVec 32) = 0xFF800000#32) (j : S2000x128.Idx) :
    multiReduction (F := Ideal) .maximumf [1] S2000x128 x1 0xFF800000#32 h hφ hacc j
      = (Finset.univ : Finset (Fin 6)).fold max negInf (fun k => x1 (ix3 (j 0) k (j 1))) := by
  refine (Ideal.multiReduction_maximumf_single x1 0xFF800000#32 h hφ hacc j).trans ?_
  show (Finset.univ : Finset (Fin 6)).fold max negInf (fun k => x1 (h.lift j k)) = _
  refine congrArg (fun g => (Finset.univ : Finset (Fin 6)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S2000x6x128 .f32) (x0 : Vec Ideal S2000x128 .f32) (j : S2000x128.Idx) :
    k6_pay1 x1 x0 j
      = max (x0 j) ((Finset.univ : Finset (Fin 6)).fold max negInf (fun k => x1 (ix3 (j 0) k (j 1)))) := by
  unfold k6_pay1
  rw [maximumf_apply, shapeCast_self, reduce_apply]

/-- The block indices at every grid point: the row's own block and the written block are the same one, the
    neighbour block's row index is 90 less, it is the whole of the other two axes, and the written blocks are
    row blocks 90 to 94 of column block 0. -/
theorem block_facts : ∀ t : Fin cfg6.N,
    win6_0.index t (0 : Fin 2) = win6_3.index t (0 : Fin 2)
    ∧ win6_0.index t (1 : Fin 2) = win6_3.index t (1 : Fin 2)
    ∧ win6_1.index t (0 : Fin 3) + 90 = win6_3.index t (0 : Fin 2)
    ∧ win6_1.index t (1 : Fin 3) = 0
    ∧ win6_1.index t (2 : Fin 3) = 0
    ∧ 90 ≤ win6_3.index t (0 : Fin 2) ∧ win6_3.index t (0 : Fin 2) ≤ 94
    ∧ win6_3.index t (1 : Fin 2) = 0 :=
  (by decide +kernel : ∀ t : Fin grid6.N, _)

/-- Every one of those blocks is some point's. -/
theorem block_onto : ∀ q : Fin 5, ∃ t : Fin cfg6.N, win6_3.index t = ![q.val + 90, 0] :=
  (by decide +kernel : ∀ q : Fin 5, ∃ t : Fin grid6.N, win6_3.index t = ![q.val + 90, 0])

/-- What point t writes back is its block of G. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero zero_pair]
  simp only [View.ld_unit_zero (S := S2000x128) zero_pair, View.ld_unit_zero (S := S2000x6x128) zero_triple]
  obtain ⟨e0, e1, e2, e3, e4, e5, e6, e7⟩ := block_facts t
  funext j
  have hj0 : (j 0).val < 2000 := (j 0).isLt
  have hj1 : (j 1).val < 128 := (j 1).isLt
  show k6_pay1 (iblk6 V c 1 t) (iblk6 V c 0 t) j = G V c (((cfg6.win 3).blk t).view.emb j)
  rw [pay_apply,
    G_row V c (((cfg6.win 3).blk t).view.emb j) ⟨win6_1.index t (0 : Fin 3) * 2000 + 1 * (j 0).val, by omega⟩
      (by show win6_3.index t (0 : Fin 2) * 2000 + 1 * (j 0).val = 180000 + (win6_1.index t (0 : Fin 3) * 2000 + 1 * (j 0).val); omega)]
  unfold rowMax
  have h0 : iblk6 V c 0 t j = selfArr V c (((cfg6.win 3).blk t).view.emb j) := by
    show selfArr V c (((cfg6.win 0).blk t).view.emb j) = selfArr V c (((cfg6.win 3).blk t).view.emb j)
    refine congrArg (selfArr V c) ?_
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 128 + 1 * (j 1).val = win6_3.index t (1 : Fin 2) * 128 + 1 * (j 1).val; omega
  have h1 : ∀ k : Fin 6, iblk6 V c 1 t (ix3 (j 0) k (j 1))
      = nbrArr V c (ix3 (⟨win6_1.index t (0 : Fin 3) * 2000 + 1 * (j 0).val, by omega⟩ : Fin 10000) k ((((cfg6.win 3).blk t).view.emb j) 1)) := by
    intro k
    have hk : k.val < 6 := k.isLt
    show nbrArr V c (((cfg6.win 1).blk t).view.emb (ix3 (j 0) k (j 1))) = nbrArr V c _
    refine congrArg (nbrArr V c) ?_
    funext a; apply Fin.ext
    match a with
    | ⟨0, _⟩ => show win6_1.index t (0 : Fin 3) * 2000 + 1 * (j 0).val = win6_1.index t (0 : Fin 3) * 2000 + 1 * (j 0).val; rfl
    | ⟨1, _⟩ => show win6_1.index t (1 : Fin 3) * 6 + 1 * k.val = k.val; omega
    | ⟨2, _⟩ => show win6_1.index t (2 : Fin 3) * 128 + 1 * (j 1).val = win6_3.index t (1 : Fin 2) * 128 + 1 * (j 1).val; omega
  rw [h0]
  simp only [h1]

/-- An index of the array is in point t's block iff each coordinate is in the block's range on its axis. -/
theorem mem_blk (t : Fin cfg6.N) (i : S200000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v13).slice (win6_3.rect t)).set ↔ _
  rw [View.set_slice_whole, Rect.mem_set_unit]
  exact Iff.rfl

/-- The indices some point's block covers are the rows of the bucket. -/
theorem covered_iff (i : S200000x128.Idx) :
    (∃ t : Fin cfg6.N, (cfg6.win 3).flush t = true ∧ i ∈ ((cfg6.win 3).blk t).view.set) ↔ 180000 ≤ (i 0).val ∧ (i 0).val < 190000 := by
  have hi0 : (i 0).val < 200000 := (i 0).isLt
  have hi1 : (i 1).val < 128 := (i 1).isLt
  constructor
  · rintro ⟨t, -, hi⟩
    rw [mem_blk] at hi
    have b0 : win6_3.index t (0 : Fin 2) * 2000 ≤ (i 0).val ∧ (i 0).val < win6_3.index t (0 : Fin 2) * 2000 + 2000 := hi 0
    obtain ⟨e0, e1, e2, e3, e4, e5, e6, e7⟩ := block_facts t
    omega
  · intro h
    obtain ⟨t, ht⟩ := block_onto ⟨(i 0).val / 2000 - 90, by omega⟩
    have q0 : win6_3.index t (0 : Fin 2) = (i 0).val / 2000 - 90 + 90 := congrFun ht 0
    have q1 : win6_3.index t (1 : Fin 2) = 0 := congrFun ht 1
    refine ⟨t, flush6_3 t, ?_⟩
    rw [mem_blk]
    intro a
    match a with
    | ⟨0, _⟩ => show win6_3.index t (0 : Fin 2) * 2000 ≤ (i 0).val ∧ (i 0).val < win6_3.index t (0 : Fin 2) * 2000 + 2000; omega
    | ⟨1, _⟩ => show win6_3.index t (1 : Fin 2) * 128 ≤ (i 1).val ∧ (i 1).val < win6_3.index t (1 : Fin 2) * 128 + 128; omega

/-- THE ARRAY after the region. -/
theorem arr_eq (c : Dev nD) : (dat6 V c).arrAt 3 cfg6.N = G V c := by
  funext i
  rw [(dat6 V c).arrAt_eq_piecewise 3 (G V c) (fun t _ => flushed_eq V c t) i, A_eq6]
  by_cases h : 180000 ≤ (i 0).val ∧ (i 0).val < 190000
  · rw [if_pos ((covered_iff i).mpr h)]
  · rw [if_neg (fun hc => h ((covered_iff i).mp hc))]
    exact (G_out V c i (by omega)).symm

end Cert.KernelIdeal.Region6

end
-- ==== Proof.Step6.lean ====
/-
  Region 6 of the kernel program in the run.  At the region's entry the feature table is the launch memory's, the
  gathered rows are the table's rows at the degree-6 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region6
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry6_nbr (h : ∀ c, InRange (adj6 m c)) (c : Dev nD) :
    (V18 m ρ c main_v12 : FVec Ideal S10000x6x128 .f32) = gk6 m c := by
  show (W18 m ρ c (Proc.devRef .tc main_v12) : FVec Ideal S10000x6x128 .f32) = _
  rw [keep18_main_v12 m ρ c]
  have hadj : ∀ i, (0 : Int) ≤ ((W16 m ρ c (Proc.devRef .tc main_arg7) : IVec S10000x6 32) i).toInt
      ∧ ((W16 m ρ c (Proc.devRef .tc main_arg7) : IVec S10000x6 32) i).toInt < 200000 := by
    rw [at16_main_arg7 m ρ c]; exact h c
  refine (take6 (W16 m ρ c) hadj).trans ?_
  rw [at16_main_arg0 m ρ c, at16_main_arg7 m ρ c]

/-- At the region's entry the output buffer is a copy of the buffer the regions before it wrote. -/
theorem entry6_prev (c : Dev nD) :
    (V18 m ρ c main_v13 : FVec Ideal S200000x128 .f32) = W16 m ρ c (Proc.devRef .tc main_v11) := by
  show StableHlo.after (hostOps6_1 (F := Ideal)) (W17 m ρ c) (Proc.devRef .tc main_v13) = _
  after_results
  exact keep17_main_v11 m ρ c

/-- The output buffer after the region is the region's array. -/
theorem out6_eq (c : Dev nD) :
    (W19 m ρ c (Proc.devRef .tc main_v13) : FVec Ideal S200000x128 .f32) = Region6.G (V18 m ρ) c :=
  (W19_arr m ρ c 3).trans (Region6.arr_eq (V18 m ρ) c)

/-- ON THE BUCKET'S ROWS the output buffer holds the pooled rows. -/
theorem rel6_in (h : ∀ c, InRange (adj6 m c)) (c : Dev nD) (r : Fin 10000) (f : Fin 128) :
    (W19 m ρ c (Proc.devRef .tc main_v13) : FVec Ideal S200000x128 .f32) (ix2 ⟨180000 + r.val, by omega⟩ f)
      = max (tab m c (ix2 ⟨180000 + r.val, by omega⟩ f)) (rowMax (gk6 m c) r f) := by
  rw [out6_eq m ρ c, Region6.G_in]
  have e1 : Region6.selfArr (V18 m ρ) c = tab m c := at18_main_arg0 m ρ c
  have e2 : Region6.nbrArr (V18 m ρ) c = gk6 m c := entry6_nbr m ρ h c
  rw [e1, e2]

/-- OFF THE BUCKET'S ROWS it holds what the earlier buffer held. -/
theorem rel6_out (c : Dev nD) (i : S200000x128.Idx) (hi : (i 0).val < 180000 ∨ 190000 ≤ (i 0).val) :
    (W19 m ρ c (Proc.devRef .tc main_v13) : FVec Ideal S200000x128 .f32) i
      = (W16 m ρ c (Proc.devRef .tc main_v11) : FVec Ideal S200000x128 .f32) i := by
  rw [out6_eq m ρ c, Region6.G_out _ _ _ hi]
  exact congrFun (entry6_prev m ρ c) i

end Cert.KernelIdeal.Thread

end
-- ==== Proof.Region7.lean ====
/-
  Region 7 of the kernel program, as a value: the output window's array after the last grid point holds, on the rows of the degree-7 bucket,
  the maximum of the row's own features and of its 7 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region7

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S5000x7x128 .f32 := V c main_v14
/-- The output array's contents at entry. -/
abbrev prevArr (c : Dev nD) : FVec Ideal S200000x128 .f32 := V c main_v15

/-- The array every grid point writes a block of: pooled on the bucket's rows, the entry contents elsewhere. -/
def G (c : Dev nD) : FVec Ideal S200000x128 .f32 := fun i =>
  if h : 190000 ≤ (i 0).val ∧ (i 0).val < 195000 then
    max (selfArr V c i) (rowMax (nbrArr V c) ⟨(i 0).val - 190000, by omega⟩ (i 1))
  else prevArr V c i

/-- On a row of the bucket. -/
theorem G_in (c : Dev nD) (r : Fin 5000) (f : Fin 128) :
    G V c (ix2 ⟨190000 + r.val, by omega⟩ f)
      = max (selfArr V c (ix2 ⟨190000 + r.val, by omega⟩ f)) (rowMax (nbrArr V c) r f) := by
  have hr := r.isLt
  unfold G
  rw [dif_pos (show 190000 ≤ ((ix2 (⟨190000 + r.val, by omega⟩ : Fin 200000) f : S200000x128.Idx) 0).val
      ∧ ((ix2 (⟨190000 + r.val, by omega⟩ : Fin 200000) f : S200000x128.Idx) 0).val < 195000 from
    ⟨by show 190000 ≤ 190000 + r.val; omega, by show 190000 + r.val < 195000; omega⟩)]
  have e : (⟨((ix2 (⟨190000 + r.val, by omega⟩ : Fin 200000) f : S200000x128.Idx) 0).val - 190000,
      by show 190000 + r.val - 190000 < 5000; omega⟩ : Fin 5000) = r :=
    Fin.ext (by show 190000 + r.val - 190000 = r.val; omega)
  rw [e]

/-- Off the bucket. -/
theorem G_out (c : Dev nD) (i : S200000x128.Idx) (h : (i 0).val < 190000 ∨ 195000 ≤ (i 0).val) :
    G V c i = prevArr V c i := by
  unfold G
  rw [dif_neg (by omega)]

/-- At any index whose row is row r of the bucket. -/
theorem G_row (c : Dev nD) (i : S200000x128.Idx) (r : Fin 5000) (h : (i 0).val = 190000 + r.val) :
    G V c i = max (selfArr V c i) (rowMax (nbrArr V c) r (i 1)) := by
  have hr := r.isLt
  unfold G
  rw [dif_pos (show 190000 ≤ (i 0).val ∧ (i 0).val < 195000 from ⟨by omega, by omega⟩)]
  have e : (⟨(i 0).val - 190000, by omega⟩ : Fin 5000) = r := Fin.ext (by show (i 0).val - 190000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S1000x7x128 .f32) (h : S1000x7x128.Reduces [1] S1000x128)
    (hφ : FKind.Formats .f32) (hacc : (0xFF800000#32 : BitVec 32) = 0xFF800000#32) (j : S1000x128.Idx) :
    multiReduction (F := Ideal) .maximumf [1] S1000x128 x1 0xFF800000#32 h hφ hacc j
      = (Finset.univ : Finset (Fin 7)).fold max negInf (fun k => x1 (ix3 (j 0) k (j 1))) := by
  refine (Ideal.multiReduction_maximumf_single x1 0xFF800000#32 h hφ hacc j).trans ?_
  show (Finset.univ : Finset (Fin 7)).fold max negInf (fun k => x1 (h.lift j k)) = _
  refine congrArg (fun g => (Finset.univ : Finset (Fin 7)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S1000x7x128 .f32) (x0 : Vec Ideal S1000x128 .f32) (j : S1000x128.Idx) :
    k7_pay1 x1 x0 j
      = max (x0 j) ((Finset.univ : Finset (Fin 7)).fold max negInf (fun k => x1 (ix3 (j 0) k (j 1)))) := by
  unfold k7_pay1
  rw [maximumf_apply, shapeCast_self, reduce_apply]

/-- The block indices at every grid point: the row's own block and the written block are the same one, the
    neighbour block's row index is 190 less, it is the whole of the other two axes, and the written blocks are
    row blocks 190 to 194 of column block 0. -/
theorem block_facts : ∀ t : Fin cfg7.N,
    win7_0.index t (0 : Fin 2) = win7_3.index t (0 : Fin 2)
    ∧ win7_0.index t (1 : Fin 2) = win7_3.index t (1 : Fin 2)
    ∧ win7_1.index t (0 : Fin 3) + 190 = win7_3.index t (0 : Fin 2)
    ∧ win7_1.index t (1 : Fin 3) = 0
    ∧ win7_1.index t (2 : Fin 3) = 0
    ∧ 190 ≤ win7_3.index t (0 : Fin 2) ∧ win7_3.index t (0 : Fin 2) ≤ 194
    ∧ win7_3.index t (1 : Fin 2) = 0 :=
  (by decide +kernel : ∀ t : Fin grid7.N, _)

/-- Every one of those blocks is some point's. -/
theorem block_onto : ∀ q : Fin 5, ∃ t : Fin cfg7.N, win7_3.index t = ![q.val + 190, 0] :=
  (by decide +kernel : ∀ q : Fin 5, ∃ t : Fin grid7.N, win7_3.index t = ![q.val + 190, 0])

/-- What point t writes back is its block of G. -/
theorem flushed_eq (c : Dev nD) (t : Fin cfg7.N) :
    (dat7 V c).flushed 3 t = ((cfg7.win 3).blk t).view.read (Elt Ideal) (G V c) := by
  show (cfg7.win 3).cut (grid7.coords t) ((dat7 V c).after 3 t) = _
  rw [after7_3]
  unfold out7_3
  rw [View.canon_unit_zero zero_pair]
  simp only [View.ld_unit_zero (S := S1000x128) zero_pair, View.ld_unit_zero (S := S1000x7x128) zero_triple]
  obtain ⟨e0, e1, e2, e3, e4, e5, e6, e7⟩ := block_facts t
  funext j
  have hj0 : (j 0).val < 1000 := (j 0).isLt
  have hj1 : (j 1).val < 128 := (j 1).isLt
  show k7_pay1 (iblk7 V c 1 t) (iblk7 V c 0 t) j = G V c (((cfg7.win 3).blk t).view.emb j)
  rw [pay_apply,
    G_row V c (((cfg7.win 3).blk t).view.emb j) ⟨win7_1.index t (0 : Fin 3) * 1000 + 1 * (j 0).val, by omega⟩
      (by show win7_3.index t (0 : Fin 2) * 1000 + 1 * (j 0).val = 190000 + (win7_1.index t (0 : Fin 3) * 1000 + 1 * (j 0).val); omega)]
  unfold rowMax
  have h0 : iblk7 V c 0 t j = selfArr V c (((cfg7.win 3).blk t).view.emb j) := by
    show selfArr V c (((cfg7.win 0).blk t).view.emb j) = selfArr V c (((cfg7.win 3).blk t).view.emb j)
    refine congrArg (selfArr V c) ?_
    funext a; apply Fin.ext
    match a with
    | ⟨0, _⟩ => show win7_0.index t (0 : Fin 2) * 1000 + 1 * (j 0).val = win7_3.index t (0 : Fin 2) * 1000 + 1 * (j 0).val; omega
    | ⟨1, _⟩ => show win7_0.index t (1 : Fin 2) * 128 + 1 * (j 1).val = win7_3.index t (1 : Fin 2) * 128 + 1 * (j 1).val; omega
  have h1 : ∀ k : Fin 7, iblk7 V c 1 t (ix3 (j 0) k (j 1))
      = nbrArr V c (ix3 (⟨win7_1.index t (0 : Fin 3) * 1000 + 1 * (j 0).val, by omega⟩ : Fin 5000) k ((((cfg7.win 3).blk t).view.emb j) 1)) := by
    intro k
    have hk : k.val < 7 := k.isLt
    show nbrArr V c (((cfg7.win 1).blk t).view.emb (ix3 (j 0) k (j 1))) = nbrArr V c _
    refine congrArg (nbrArr V c) ?_
    funext a; apply Fin.ext
    match a with
    | ⟨0, _⟩ => show win7_1.index t (0 : Fin 3) * 1000 + 1 * (j 0).val = win7_1.index t (0 : Fin 3) * 1000 + 1 * (j 0).val; rfl
    | ⟨1, _⟩ => show win7_1.index t (1 : Fin 3) * 7 + 1 * k.val = k.val; omega
    | ⟨2, _⟩ => show win7_1.index t (2 : Fin 3) * 128 + 1 * (j 1).val = win7_3.index t (1 : Fin 2) * 128 + 1 * (j 1).val; omega
  rw [h0]
  simp only [h1]

/-- An index of the array is in point t's block iff each coordinate is in the block's range on its axis. -/
theorem mem_blk (t : Fin cfg7.N) (i : S200000x128.Idx) :
    i ∈ ((cfg7.win 3).blk t).view.set ↔ ∀ a : Fin 2, win7_3.index t a * S1000x128.size a ≤ (i a).val ∧ (i a).val < win7_3.index t a * S1000x128.size a + S1000x128.size a := by
  show i ∈ ((View.whole main_v15).slice (win7_3.rect t)).set ↔ _
  rw [View.set_slice_whole, Rect.mem_set_unit]
  exact Iff.rfl

/-- The indices some point's block covers are the rows of the bucket. -/
theorem covered_iff (i : S200000x128.Idx) :
    (∃ t : Fin cfg7.N, (cfg7.win 3).flush t = true ∧ i ∈ ((cfg7.win 3).blk t).view.set) ↔ 190000 ≤ (i 0).val ∧ (i 0).val < 195000 := by
  have hi0 : (i 0).val < 200000 := (i 0).isLt
  have hi1 : (i 1).val < 128 := (i 1).isLt
  constructor
  · rintro ⟨t, -, hi⟩
    rw [mem_blk] at hi
    have b0 : win7_3.index t (0 : Fin 2) * 1000 ≤ (i 0).val ∧ (i 0).val < win7_3.index t (0 : Fin 2) * 1000 + 1000 := hi 0
    obtain ⟨e0, e1, e2, e3, e4, e5, e6, e7⟩ := block_facts t
    omega
  · intro h
    obtain ⟨t, ht⟩ := block_onto ⟨(i 0).val / 1000 - 190, by omega⟩
    have q0 : win7_3.index t (0 : Fin 2) = (i 0).val / 1000 - 190 + 190 := congrFun ht 0
    have q1 : win7_3.index t (1 : Fin 2) = 0 := congrFun ht 1
    refine ⟨t, flush7_3 t, ?_⟩
    rw [mem_blk]
    intro a
    match a with
    | ⟨0, _⟩ => show win7_3.index t (0 : Fin 2) * 1000 ≤ (i 0).val ∧ (i 0).val < win7_3.index t (0 : Fin 2) * 1000 + 1000; omega
    | ⟨1, _⟩ => show win7_3.index t (1 : Fin 2) * 128 ≤ (i 1).val ∧ (i 1).val < win7_3.index t (1 : Fin 2) * 128 + 128; omega

/-- THE ARRAY after the region. -/
theorem arr_eq (c : Dev nD) : (dat7 V c).arrAt 3 cfg7.N = G V c := by
  funext i
  rw [(dat7 V c).arrAt_eq_piecewise 3 (G V c) (fun t _ => flushed_eq V c t) i, A_eq7]
  by_cases h : 190000 ≤ (i 0).val ∧ (i 0).val < 195000
  · rw [if_pos ((covered_iff i).mpr h)]
  · rw [if_neg (fun hc => h ((covered_iff i).mp hc))]
    exact (G_out V c i (by omega)).symm

end Cert.KernelIdeal.Region7

end
-- ==== Proof.Step7.lean ====
/-
  Region 7 of the kernel program in the run.  At the region's entry the feature table is the launch memory's, the
  gathered rows are the table's rows at the degree-7 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region7
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry7_nbr (h : ∀ c, InRange (adj7 m c)) (c : Dev nD) :
    (V21 m ρ c main_v14 : FVec Ideal S5000x7x128 .f32) = gk7 m c := by
  show (W21 m ρ c (Proc.devRef .tc main_v14) : FVec Ideal S5000x7x128 .f32) = _
  rw [keep21_main_v14 m ρ c]
  have hadj : ∀ i, (0 : Int) ≤ ((W19 m ρ c (Proc.devRef .tc main_arg8) : IVec S5000x7 32) i).toInt
      ∧ ((W19 m ρ c (Proc.devRef .tc main_arg8) : IVec S5000x7 32) i).toInt < 200000 := by
    rw [at19_main_arg8 m ρ c]; exact h c
  refine (take7 (W19 m ρ c) hadj).trans ?_
  rw [at19_main_arg0 m ρ c, at19_main_arg8 m ρ c]

/-- At the region's entry the output buffer is a copy of the buffer the regions before it wrote. -/
theorem entry7_prev (c : Dev nD) :
    (V21 m ρ c main_v15 : FVec Ideal S200000x128 .f32) = W19 m ρ c (Proc.devRef .tc main_v13) := by
  show StableHlo.after (hostOps7_1 (F := Ideal)) (W20 m ρ c) (Proc.devRef .tc main_v15) = _
  after_results
  exact keep20_main_v13 m ρ c

/-- The output buffer after the region is the region's array. -/
theorem out7_eq (c : Dev nD) :
    (W22 m ρ c (Proc.devRef .tc main_v15) : FVec Ideal S200000x128 .f32) = Region7.G (V21 m ρ) c :=
  (W22_arr m ρ c 3).trans (Region7.arr_eq (V21 m ρ) c)

/-- ON THE BUCKET'S ROWS the output buffer holds the pooled rows. -/
theorem rel7_in (h : ∀ c, InRange (adj7 m c)) (c : Dev nD) (r : Fin 5000) (f : Fin 128) :
    (W22 m ρ c (Proc.devRef .tc main_v15) : FVec Ideal S200000x128 .f32) (ix2 ⟨190000 + r.val, by omega⟩ f)
      = max (tab m c (ix2 ⟨190000 + r.val, by omega⟩ f)) (rowMax (gk7 m c) r f) := by
  rw [out7_eq m ρ c, Region7.G_in]
  have e1 : Region7.selfArr (V21 m ρ) c = tab m c := at21_main_arg0 m ρ c
  have e2 : Region7.nbrArr (V21 m ρ) c = gk7 m c := entry7_nbr m ρ h c
  rw [e1, e2]

/-- OFF THE BUCKET'S ROWS it holds what the earlier buffer held. -/
theorem rel7_out (c : Dev nD) (i : S200000x128.Idx) (hi : (i 0).val < 190000 ∨ 195000 ≤ (i 0).val) :
    (W22 m ρ c (Proc.devRef .tc main_v15) : FVec Ideal S200000x128 .f32) i
      = (W19 m ρ c (Proc.devRef .tc main_v13) : FVec Ideal S200000x128 .f32) i := by
  rw [out7_eq m ρ c, Region7.G_out _ _ _ hi]
  exact congrFun (entry7_prev m ρ c) i

end Cert.KernelIdeal.Thread

end
-- ==== Proof.Region8.lean ====
/-
  Region 8 of the kernel program, as a value: the output window's array after the last grid point holds, on the rows of the degree-8 bucket,
  the maximum of the row's own features and of its 8 gathered neighbour rows, and its entry contents on every other row.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region8

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table as the region finds it. -/
abbrev selfArr (c : Dev nD) : FVec Ideal S200000x128 .f32 := V c main_arg0
/-- The gathered neighbour rows as the region finds them. -/
abbrev nbrArr (c : Dev nD) : FVec Ideal S3000x8x128 .f32 := V c main_v16
/-- The output array's contents at entry. -/
abbrev prevArr (c : Dev nD) : FVec Ideal S200000x128 .f32 := V c main_v17

/-- The array every grid point writes a block of: pooled on the bucket's rows, the entry contents elsewhere. -/
def G (c : Dev nD) : FVec Ideal S200000x128 .f32 := fun i =>
  if h : 195000 ≤ (i 0).val ∧ (i 0).val < 198000 then
    max (selfArr V c i) (rowMax (nbrArr V c) ⟨(i 0).val - 195000, by omega⟩ (i 1))
  else prevArr V c i

/-- On a row of the bucket. -/
theorem G_in (c : Dev nD) (r : Fin 3000) (f : Fin 128) :
    G V c (ix2 ⟨195000 + r.val, by omega⟩ f)
      = max (selfArr V c (ix2 ⟨195000 + r.val, by omega⟩ f)) (rowMax (nbrArr V c) r f) := by
  have hr := r.isLt
  unfold G
  rw [dif_pos (show 195000 ≤ ((ix2 (⟨195000 + r.val, by omega⟩ : Fin 200000) f : S200000x128.Idx) 0).val
      ∧ ((ix2 (⟨195000 + r.val, by omega⟩ : Fin 200000) f : S200000x128.Idx) 0).val < 198000 from
    ⟨by show 195000 ≤ 195000 + r.val; omega, by show 195000 + r.val < 198000; omega⟩)]
  have e : (⟨((ix2 (⟨195000 + r.val, by omega⟩ : Fin 200000) f : S200000x128.Idx) 0).val - 195000,
      by show 195000 + r.val - 195000 < 3000; omega⟩ : Fin 3000) = r :=
    Fin.ext (by show 195000 + r.val - 195000 = r.val; omega)
  rw [e]

/-- Off the bucket. -/
theorem G_out (c : Dev nD) (i : S200000x128.Idx) (h : (i 0).val < 195000 ∨ 198000 ≤ (i 0).val) :
    G V c i = prevArr V c i := by
  unfold G
  rw [dif_neg (by omega)]

/-- At any index whose row is row r of the bucket. -/
theorem G_row (c : Dev nD) (i : S200000x128.Idx) (r : Fin 3000) (h : (i 0).val = 195000 + r.val) :
    G V c i = max (selfArr V c i) (rowMax (nbrArr V c) r (i 1)) := by
  have hr := r.isLt
  unfold G
  rw [dif_pos (show 195000 ≤ (i 0).val ∧ (i 0).val < 198000 from ⟨by omega, by omega⟩)]
  have e : (⟨(i 0).val - 195000, by omega⟩ : Fin 3000) = r := Fin.ext (by show (i 0).val - 195000 = r.val; omega)
  rw [e]

/-! ## What one grid point computes -/

theorem zero_pair : (![0, 0] : Fin 2 → Nat) = fun _ => 0 := funext fun a => by fin_cases a <;> rfl
theorem zero_triple : (![0, 0, 0] : Fin 3 → Nat) = fun _ => 0 := funext fun a => by fin_cases a <;> rfl

/-- The maximum over the middle axis of a block of neighbour rows, at an entry: the fold of max over that axis's
    coordinates, started from minus infinity. -/
theorem reduce_apply (x1 : FVec Ideal S1000x8x128 .f32) (h : S1000x8x128.Reduces [1] S1000x128)
    (hφ : FKind.Formats .f32) (hacc : (0xFF800000#32 : BitVec 32) = 0xFF800000#32) (j : S1000x128.Idx) :
    multiReduction (F := Ideal) .maximumf [1] S1000x128 x1 0xFF800000#32 h hφ hacc j
      = (Finset.univ : Finset (Fin 8)).fold max negInf (fun k => x1 (ix3 (j 0) k (j 1))) := by
  refine (Ideal.multiReduction_maximumf_single x1 0xFF800000#32 h hφ hacc j).trans ?_
  show (Finset.univ : Finset (Fin 8)).fold max negInf (fun k => x1 (h.lift j k)) = _
  refine congrArg (fun g => (Finset.univ : Finset (Fin 8)).fold max negInf g) (funext fun k => congrArg x1 (funext fun a => ?_))
  match a with
  | ⟨0, _⟩ => exact Fin.ext rfl
  | ⟨1, _⟩ => exact Fin.ext rfl
  | ⟨2, _⟩ => exact Fin.ext rfl

/-- The body's value at an entry of the block: the maximum of the row's own entry and of the fold of max over the
    middle axis of the neighbour block, started from minus infinity. -/
theorem pay_apply (x1 : Vec Ideal S1000x8x128 .f32) (x0 : Vec Ideal S1000x128 .f32) (j : S1000x128.Idx) :
    k8_pay1 x1 x0 j
      = max (x0 j) ((Finset.univ : Finset (Fin 8)).fold max negInf (fun k => x1 (ix3 (j 0) k (j 1)))) := by
  unfold k8_pay1
  rw [maximumf_apply, shapeCast_self, reduce_apply]

/-- The block indices at every grid point: the row's own block and the written block are the same one, the
    neighbour block's row index is 195 less, it is the whole of the other two axes, and the written blocks are
    row blocks 195 to 197 of column block 0. -/
theorem block_facts : ∀ t : Fin cfg8.N,
    win8_0.index t (0 : Fin 2) = win8_3.index t (0 : Fin 2)
    ∧ win8_0.index t (1 : Fin 2) = win8_3.index t (1 : Fin 2)
    ∧ win8_1.index t (0 : Fin 3) + 195 = win8_3.index t (0 : Fin 2)
    ∧ win8_1.index t (1 : Fin 3) = 0
    ∧ win8_1.index t (2 : Fin 3) = 0
    ∧ 195 ≤ win8_3.index t (0 : Fin 2) ∧ win8_3.index t (0 : Fin 2) ≤ 197
    ∧ win8_3.index t (1 : Fin 2) = 0 :=
  (by decide +kernel : ∀ t : Fin grid8.N, _)

/-- Every one of those blocks is some point's. -/
theorem block_onto : ∀ q : Fin 3, ∃ t : Fin cfg8.N, win8_3.index t = ![q.val + 195, 0] :=
  (by decide +kernel : ∀ q : Fin 3, ∃ t : Fin grid8.N, win8_3.index t = ![q.val + 195, 0])

/-- What point t writes back is its block of G. -/
theorem flushed_eq (c : Dev nD) (t : Fin cfg8.N) :
    (dat8 V c).flushed 3 t = ((cfg8.win 3).blk t).view.read (Elt Ideal) (G V c) := by
  show (cfg8.win 3).cut (grid8.coords t) ((dat8 V c).after 3 t) = _
  rw [after8_3]
  unfold out8_3
  rw [View.canon_unit_zero zero_pair]
  simp only [View.ld_unit_zero (S := S1000x128) zero_pair, View.ld_unit_zero (S := S1000x8x128) zero_triple]
  obtain ⟨e0, e1, e2, e3, e4, e5, e6, e7⟩ := block_facts t
  funext j
  have hj0 : (j 0).val < 1000 := (j 0).isLt
  have hj1 : (j 1).val < 128 := (j 1).isLt
  show k8_pay1 (iblk8 V c 1 t) (iblk8 V c 0 t) j = G V c (((cfg8.win 3).blk t).view.emb j)
  rw [pay_apply,
    G_row V c (((cfg8.win 3).blk t).view.emb j) ⟨win8_1.index t (0 : Fin 3) * 1000 + 1 * (j 0).val, by omega⟩
      (by show win8_3.index t (0 : Fin 2) * 1000 + 1 * (j 0).val = 195000 + (win8_1.index t (0 : Fin 3) * 1000 + 1 * (j 0).val); omega)]
  unfold rowMax
  have h0 : iblk8 V c 0 t j = selfArr V c (((cfg8.win 3).blk t).view.emb j) := by
    show selfArr V c (((cfg8.win 0).blk t).view.emb j) = selfArr V c (((cfg8.win 3).blk t).view.emb j)
    refine congrArg (selfArr V c) ?_
    funext a; apply Fin.ext
    match a with
    | ⟨0, _⟩ => show win8_0.index t (0 : Fin 2) * 1000 + 1 * (j 0).val = win8_3.index t (0 : Fin 2) * 1000 + 1 * (j 0).val; omega
    | ⟨1, _⟩ => show win8_0.index t (1 : Fin 2) * 128 + 1 * (j 1).val = win8_3.index t (1 : Fin 2) * 128 + 1 * (j 1).val; omega
  have h1 : ∀ k : Fin 8, iblk8 V c 1 t (ix3 (j 0) k (j 1))
      = nbrArr V c (ix3 (⟨win8_1.index t (0 : Fin 3) * 1000 + 1 * (j 0).val, by omega⟩ : Fin 3000) k ((((cfg8.win 3).blk t).view.emb j) 1)) := by
    intro k
    have hk : k.val < 8 := k.isLt
    show nbrArr V c (((cfg8.win 1).blk t).view.emb (ix3 (j 0) k (j 1))) = nbrArr V c _
    refine congrArg (nbrArr V c) ?_
    funext a; apply Fin.ext
    match a with
    | ⟨0, _⟩ => show win8_1.index t (0 : Fin 3) * 1000 + 1 * (j 0).val = win8_1.index t (0 : Fin 3) * 1000 + 1 * (j 0).val; rfl
    | ⟨1, _⟩ => show win8_1.index t (1 : Fin 3) * 8 + 1 * k.val = k.val; omega
    | ⟨2, _⟩ => show win8_1.index t (2 : Fin 3) * 128 + 1 * (j 1).val = win8_3.index t (1 : Fin 2) * 128 + 1 * (j 1).val; omega
  rw [h0]
  simp only [h1]

/-- An index of the array is in point t's block iff each coordinate is in the block's range on its axis. -/
theorem mem_blk (t : Fin cfg8.N) (i : S200000x128.Idx) :
    i ∈ ((cfg8.win 3).blk t).view.set ↔ ∀ a : Fin 2, win8_3.index t a * S1000x128.size a ≤ (i a).val ∧ (i a).val < win8_3.index t a * S1000x128.size a + S1000x128.size a := by
  show i ∈ ((View.whole main_v17).slice (win8_3.rect t)).set ↔ _
  rw [View.set_slice_whole, Rect.mem_set_unit]
  exact Iff.rfl

/-- The indices some point's block covers are the rows of the bucket. -/
theorem covered_iff (i : S200000x128.Idx) :
    (∃ t : Fin cfg8.N, (cfg8.win 3).flush t = true ∧ i ∈ ((cfg8.win 3).blk t).view.set) ↔ 195000 ≤ (i 0).val ∧ (i 0).val < 198000 := by
  have hi0 : (i 0).val < 200000 := (i 0).isLt
  have hi1 : (i 1).val < 128 := (i 1).isLt
  constructor
  · rintro ⟨t, -, hi⟩
    rw [mem_blk] at hi
    have b0 : win8_3.index t (0 : Fin 2) * 1000 ≤ (i 0).val ∧ (i 0).val < win8_3.index t (0 : Fin 2) * 1000 + 1000 := hi 0
    obtain ⟨e0, e1, e2, e3, e4, e5, e6, e7⟩ := block_facts t
    omega
  · intro h
    obtain ⟨t, ht⟩ := block_onto ⟨(i 0).val / 1000 - 195, by omega⟩
    have q0 : win8_3.index t (0 : Fin 2) = (i 0).val / 1000 - 195 + 195 := congrFun ht 0
    have q1 : win8_3.index t (1 : Fin 2) = 0 := congrFun ht 1
    refine ⟨t, flush8_3 t, ?_⟩
    rw [mem_blk]
    intro a
    match a with
    | ⟨0, _⟩ => show win8_3.index t (0 : Fin 2) * 1000 ≤ (i 0).val ∧ (i 0).val < win8_3.index t (0 : Fin 2) * 1000 + 1000; omega
    | ⟨1, _⟩ => show win8_3.index t (1 : Fin 2) * 128 ≤ (i 1).val ∧ (i 1).val < win8_3.index t (1 : Fin 2) * 128 + 128; omega

/-- THE ARRAY after the region. -/
theorem arr_eq (c : Dev nD) : (dat8 V c).arrAt 3 cfg8.N = G V c := by
  funext i
  rw [(dat8 V c).arrAt_eq_piecewise 3 (G V c) (fun t _ => flushed_eq V c t) i, A_eq8]
  by_cases h : 195000 ≤ (i 0).val ∧ (i 0).val < 198000
  · rw [if_pos ((covered_iff i).mpr h)]
  · rw [if_neg (fun hc => h ((covered_iff i).mp hc))]
    exact (G_out V c i (by omega)).symm

end Cert.KernelIdeal.Region8

end
-- ==== Proof.Step8.lean ====
/-
  Region 8 of the kernel program in the run.  At the region's entry the feature table is the launch memory's, the
  gathered rows are the table's rows at the degree-8 bucket's neighbour indices (every index names a row of the
  table), and the output buffer is a copy of the buffer the regions before it wrote.  So after the region the output
  buffer holds the pooled rows on the bucket's rows and, on every other row, what that earlier buffer held.
-/
import proofs.«430485_j17085379904194_3_alg».proof.Proof.Region8
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry8_nbr (h : ∀ c, InRange (adj8 m c)) (c : Dev nD) :
    (V24 m ρ c main_v16 : FVec Ideal S3000x8x128 .f32) = gk8 m c := by
  show (W24 m ρ c (Proc.devRef .tc main_v16) : FVec Ideal S3000x8x128 .f32) = _
  rw [keep24_main_v16 m ρ c]
  have hadj : ∀ i, (0 : Int) ≤ ((W22 m ρ c (Proc.devRef .tc main_arg9) : IVec S3000x8 32) i).toInt
      ∧ ((W22 m ρ c (Proc.devRef .tc main_arg9) : IVec S3000x8 32) i).toInt < 200000 := by
    rw [at22_main_arg9 m ρ c]; exact h c
  refine (take8 (W22 m ρ c) hadj).trans ?_
  rw [at22_main_arg0 m ρ c, at22_main_arg9 m ρ c]

/-- At the region's entry the output buffer is a copy of the buffer the regions before it wrote. -/
theorem entry8_prev (c : Dev nD) :
    (V24 m ρ c main_v17 : FVec Ideal S200000x128 .f32) = W22 m ρ c (Proc.devRef .tc main_v15) := by
  show StableHlo.after (hostOps8_1 (F := Ideal)) (W23 m ρ c) (Proc.devRef .tc main_v17) = _
  after_results
  exact keep23_main_v15 m ρ c

/-- The output buffer after the region is the region's array. -/
theorem out8_eq (c : Dev nD) :
    (W25 m ρ c (Proc.devRef .tc main_v17) : FVec Ideal S200000x128 .f32) = Region8.G (V24 m ρ) c :=
  (W25_arr m ρ c 3).trans (Region8.arr_eq (V24 m ρ) c)

/-- ON THE BUCKET'S ROWS the output buffer holds the pooled rows. -/
theorem rel8_in (h : ∀ c, InRange (adj8 m c)) (c : Dev nD) (r : Fin 3000) (f : Fin 128) :
    (W25 m ρ c (Proc.devRef .tc main_v17) : FVec Ideal S200000x128 .f32) (ix2 ⟨195000 + r.val, by omega⟩ f)
      = max (tab m c (ix2 ⟨195000 + r.val, by omega⟩ f)) (rowMax (gk8 m c) r f) := by
  rw [out8_eq m ρ c, Region8.G_in]
  have e1 : Region8.selfArr (V24 m ρ) c = tab m c := at24_main_arg0 m ρ c
  have e2 : Region8.nbrArr (V24 m ρ) c = gk8 m c := entry8_nbr m ρ h c
  rw [e1, e2]

/-- OFF THE BUCKET'S ROWS it holds what the earlier buffer held. -/
theorem rel8_out (c : Dev nD) (i : S200000x128.Idx) (hi : (i 0).val < 195000 ∨ 198000 ≤ (i 0).val) :
    (W25 m ρ c (Proc.devRef .tc main_v17) : FVec Ideal S200000x128 .f32) i
      = (W22 m ρ c (Proc.devRef .tc main_v15) : FVec Ideal S200000x128 .f32) i := by
  rw [out8_eq m ρ c, Region8.G_out _ _ _ hi]
  exact congrFun (entry8_prev m ρ c) i

end Cert.KernelIdeal.Thread

end
-- ==== Proof.Region9.lean ====
/-
  Region 9 of the kernel program, as a value: the output window's array (a bucket-sized array of its own) after the one grid point holds,
  row by row, the maximum of the bucket row's own features and of its nine gathered neighbour rows.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region9

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The bucket's own rows as the region finds them. -/
abbrev selfArr (c : Dev nD) : FVec Ideal S1500x128 .f32 := V c main_v19
/-- The gathered neighbour rows as the region finds them. -/
abbrev nbrArr (c : Dev nD) : FVec Ideal S1500x9x128 .f32 := V c main_v18

/-- The pooled bucket. -/
def G (c : Dev nD) : FVec Ideal S1500x128 .f32 := fun i =>
  max (selfArr V c i) (rowMax (nbrArr V c) (i 0) (i 1))

/-! ## What the body stores, index by index -/

/-- The zero offsets of the body's whole-buffer accesses are the constant zero. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The index the reduction reads at neighbour `k` of the row and feature of `j`. -/
theorem lift_eq (j : S1500x128.Idx) (k : Fin 9) :
    reduces_S1500x9x128_S1500x128.lift j k = ix3 (j 0) k (j 1) := by
  funext a; apply Fin.ext
  match a with
  | ⟨0, _⟩ => rfl
  | ⟨1, _⟩ => rfl
  | ⟨2, _⟩ => rfl

/-- The reduction over the neighbour axis, from the word of minus infinity, is the row's neighbour maximum. -/
theorem nbrMax_apply (x1 : FVec Ideal S1500x9x128 .f32) (hφ : FKind.Formats .f32)
    (hacc : (0xFF800000#32 : BitVec 32) = 0xFF800000#32) (j : S1500x128.Idx) :
    multiReduction (F := Ideal) .maximumf [1] S1500x128 x1 0xFF800000#32 reduces_S1500x9x128_S1500x128 hφ hacc j
      = rowMax x1 (j 0) (j 1) := by
  refine (Ideal.multiReduction_maximumf_single x1 0xFF800000#32 reduces_S1500x9x128_S1500x128 hφ hacc j).trans ?_
  unfold rowMax
  have e : (x1 ∘ reduces_S1500x9x128_S1500x128.lift j) = fun k : Fin 9 => x1 (ix3 (j 0) k (j 1)) :=
    funext fun k => congrArg x1 (lift_eq j k)
  exact congrArg (fun f : Fin 9 → Ideal .f32 => Finset.fold max negInf f Finset.univ) e

/-- What the body stores, at an index: the larger of the row's own entry and its neighbour maximum. -/
theorem pay_apply (x1 : Vec Ideal S1500x9x128 .f32) (x0 : Vec Ideal S1500x128 .f32) (j : S1500x128.Idx) :
    k9_pay1 x1 x0 j = max (x0 j) (rowMax x1 (j 0) (j 1)) := by
  unfold k9_pay1
  simp only [shapeCast_self]
  rw [maximumf_apply]
  exact congrArg _ (nbrMax_apply x1 _ _ j)

/-! ## From the one block to the array -/

/-- At the one grid point every window's block index is zero on every axis. -/
theorem idx_zero : ∀ t : Fin cfg9.N, win9_0.index t (0 : Fin 2) = 0 ∧ win9_0.index t (1 : Fin 2) = 0
    ∧ win9_1.index t (0 : Fin 3) = 0 ∧ win9_1.index t (1 : Fin 3) = 0 ∧ win9_1.index t (2 : Fin 3) = 0
    ∧ win9_2.index t (0 : Fin 2) = 0 ∧ win9_2.index t (1 : Fin 2) = 0 :=
  (by decide +kernel : ∀ t : Fin grid9.N, _)

/-- What the grid point writes back is its block of the pooled bucket. -/
theorem flushed_eq (c : Dev nD) (t : Fin cfg9.N) :
    (dat9 V c).flushed 2 t = ((cfg9.win 2).blk t).view.read (Elt Ideal) (G V c) := by
  show (cfg9.win 2).cut (grid9.coords t) ((dat9 V c).after 2 t) = _
  rw [after9_2]
  unfold out9_2
  rw [View.canon_unit_zero zeros2]
  simp only [View.ld_unit_zero (S := S1500x128) zeros2, View.ld_unit_zero (S := S1500x9x128) zeros3]
  funext j
  show k9_pay1 (iblk9 V c 1 t) (iblk9 V c 0 t) j = G V c (((cfg9.win 2).blk t).view.emb j)
  refine (pay_apply _ _ j).trans ?_
  obtain ⟨e00, e01, e10, e11, e12, e20, e21⟩ := idx_zero t
  have hself : ((cfg9.win 0).blk t).view.emb j = ((cfg9.win 2).blk t).view.emb j := by
    funext a; apply Fin.ext
    match a with
    | ⟨0, _⟩ => show win9_0.index t (0 : Fin 2) * 1500 + 1 * (j 0).val = win9_2.index t (0 : Fin 2) * 1500 + 1 * (j 0).val; omega
    | ⟨1, _⟩ => show win9_0.index t (1 : Fin 2) * 128 + 1 * (j 1).val = win9_2.index t (1 : Fin 2) * 128 + 1 * (j 1).val; omega
  have hnbr : ∀ k : Fin 9, ((cfg9.win 1).blk t).view.emb (ix3 (n0 := 1500) (n1 := 9) (n2 := 128) (j 0) k (j 1))
      = ix3 (n0 := 1500) (n1 := 9) (n2 := 128) ((((cfg9.win 2).blk t).view.emb j) 0) k ((((cfg9.win 2).blk t).view.emb j) 1) := by
    intro k; funext a; apply Fin.ext
    match a with
    | ⟨0, _⟩ => show win9_1.index t (0 : Fin 3) * 1500 + 1 * (j 0).val = win9_2.index t (0 : Fin 2) * 1500 + 1 * (j 0).val; omega
    | ⟨1, _⟩ => show win9_1.index t (1 : Fin 3) * 9 + 1 * k.val = k.val; omega
    | ⟨2, _⟩ => show win9_1.index t (2 : Fin 3) * 128 + 1 * (j 1).val = win9_2.index t (1 : Fin 2) * 128 + 1 * (j 1).val; omega
  show max (selfArr V c (((cfg9.win 0).blk t).view.emb j)) (rowMax (iblk9 V c 1 t) (j 0) (j 1))
    = max (selfArr V c (((cfg9.win 2).blk t).view.emb j))
        (rowMax (nbrArr V c) ((((cfg9.win 2).blk t).view.emb j) 0) ((((cfg9.win 2).blk t).view.emb j) 1))
  rw [hself]
  refine congrArg _ ?_
  unfold rowMax
  refine congrArg (fun f : Fin 9 → Ideal .f32 => Finset.fold max negInf f Finset.univ) (funext fun k => ?_)
  show nbrArr V c (((cfg9.win 1).blk t).view.emb (ix3 (n0 := 1500) (n1 := 9) (n2 := 128) (j 0) k (j 1))) = _
  rw [hnbr k]

/-- An index of the output array is in the grid point's block iff each coordinate is in the block's range on its axis. -/
theorem mem_blk (t : Fin cfg9.N) (i : S1500x128.Idx) :
    i ∈ ((cfg9.win 2).blk t).view.set ↔ ∀ a : Fin 2, win9_2.index t a * S1500x128.size a ≤ (i a).val
      ∧ (i a).val < win9_2.index t a * S1500x128.size a + S1500x128.size a := by
  show i ∈ ((View.whole main_v20).slice (win9_2.rect t)).set ↔ _
  rw [View.set_slice_whole, Rect.mem_set_unit]
  exact Iff.rfl

/-- Every index of the output array lies in the one grid point's block, which is the whole array. -/
theorem cover (i : S1500x128.Idx) :
    ∃ t : Fin cfg9.N, (cfg9.win 2).flush t = true ∧ i ∈ ((cfg9.win 2).blk t).view.set := by
  have h0 : (i 0).val < 1500 := idx2_lt0 i
  have h1 : (i 1).val < 128 := idx2_lt1 i
  obtain ⟨-, -, -, -, -, e20, e21⟩ := idx_zero t9_0
  refine ⟨t9_0, flush9_2 t9_0, ?_⟩
  rw [mem_blk]
  intro a
  match a with
  | ⟨0, _⟩ => show win9_2.index t9_0 (0 : Fin 2) * 1500 ≤ (i 0).val ∧ (i 0).val < win9_2.index t9_0 (0 : Fin 2) * 1500 + 1500; omega
  | ⟨1, _⟩ => show win9_2.index t9_0 (1 : Fin 2) * 128 ≤ (i 1).val ∧ (i 1).val < win9_2.index t9_0 (1 : Fin 2) * 128 + 128; omega

/-- THE ARRAY after the region. -/
theorem arr_eq (c : Dev nD) : (dat9 V c).arrAt 2 cfg9.N = G V c :=
  (dat9 V c).arrAt_eq_of_cover 2 (G V c) (fun t _ => flushed_eq V c t) cover

end Cert.KernelIdeal.Region9
end
-- ==== Proof.Step9.lean ====
/-
  Region 9 of the kernel program in the run.  At its entry the bucket's own rows are rows 198000 to 199499 of the
  feature table (a slice taken by the host just before) and the gathered rows are the table's rows at the degree-9
  bucket's neighbour indices.  So after the region its output array holds the bucket's pooled rows.
-/
import proofs.«430485_j17085379904194_3_alg».proof.Proof.Region9
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run
import Idealize.ShloMosaic.Lib.Pipeline.Value

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry9_nbr (h : ∀ c, InRange (adj9 m c)) (c : Dev nD) :
    (V27 m ρ c main_v18 : FVec Ideal S1500x9x128 .f32) = gk9 m c := by
  show (W27 m ρ c (Proc.devRef .tc main_v18) : FVec Ideal S1500x9x128 .f32) = _
  rw [keep27_main_v18 m ρ c]
  have hadj : ∀ i, (0 : Int) ≤ ((W25 m ρ c (Proc.devRef .tc main_arg10) : IVec S1500x9 32) i).toInt
      ∧ ((W25 m ρ c (Proc.devRef .tc main_arg10) : IVec S1500x9 32) i).toInt < 200000 := by
    rw [at25_main_arg10 m ρ c]; exact h c
  refine (take9 (W25 m ρ c) hadj).trans ?_
  rw [at25_main_arg0 m ρ c, at25_main_arg10 m ρ c]

/-- At the region's entry the bucket's own rows are the table's rows from 198000 on. -/
theorem entry9_self (c : Dev nD) (r : Fin 1500) (f : Fin 128) :
    (V27 m ρ c main_v19 : FVec Ideal S1500x128 .f32) (ix2 r f) = tab m c (ix2 ⟨198000 + r.val, by omega⟩ f) := by
  have e : (V27 m ρ c main_v19 : FVec Ideal S1500x128 .f32)
      = extractStridedSlice S1500x128 ![198000, 0] (tab m c) slices_S200000x128_S1500x128_198000_0 := by
    have key : ∀ Wx : Valuation τ sig (Elt Ideal),
        (StableHlo.after (hostOps9_1 (F := Ideal)) Wx (Proc.devRef .tc main_v19) : FVec Ideal S1500x128 .f32)
          = extractStridedSlice S1500x128 ![198000, 0] (Wx (Proc.devRef .tc main_arg0)) slices_S200000x128_S1500x128_198000_0 := by
      intro Wx; after_results
    refine (key (W26 m ρ c)).trans ?_
    rw [at26_main_arg0 m ρ c]
  rw [e]
  exact extractStridedSlice_apply ![198000, 0] (tab m c) slices_S200000x128_S1500x128_198000_0 (ix2 r f)
    (ix2 ⟨198000 + r.val, by omega⟩ f) (fun a => match a with
      | ⟨0, _⟩ => rfl
      | ⟨1, _⟩ => by show f.val = 0 + f.val; omega)

/-- THE BUCKET'S POOLED ROWS: the region's output array after the region. -/
theorem part9 (h : ∀ c, InRange (adj9 m c)) (c : Dev nD) (r : Fin 1500) (f : Fin 128) :
    (W28 m ρ c (Proc.devRef .tc main_v20) : FVec Ideal S1500x128 .f32) (ix2 r f)
      = max (tab m c (ix2 ⟨198000 + r.val, by omega⟩ f)) (rowMax (gk9 m c) r f) := by
  have hW : (W28 m ρ c (Proc.devRef .tc main_v20) : FVec Ideal S1500x128 .f32) = Region9.G (V27 m ρ) c :=
    (W28_arr m ρ c 2).trans (Region9.arr_eq (V27 m ρ) c)
  rw [hW]
  show max (Region9.selfArr (V27 m ρ) c (ix2 r f)) (rowMax (Region9.nbrArr (V27 m ρ) c) r f) = _
  have e2 : Region9.nbrArr (V27 m ρ) c = gk9 m c := entry9_nbr m ρ h c
  rw [e2, show Region9.selfArr (V27 m ρ) c (ix2 r f) = _ from entry9_self m ρ c r f]

end Cert.KernelIdeal.Thread

end
-- ==== Proof.Region10.lean ====
/-
  Region 10 of the kernel program, as a value: the output window's array (a bucket-sized array of its own) after the one grid point holds,
  row by row, the maximum of the bucket row's own features and of its ten gathered neighbour rows.
-/
import proofs.«430485_j17085379904194_3_alg».proof.Proof.Gen.KernelIdeal.Frame
import proofs.«430485_j17085379904194_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.Region10

open Cert.KernelIdeal Cert.KernelIdeal.Gen Cert.Pool
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The bucket's own rows as the region finds them. -/
abbrev selfArr (c : Dev nD) : FVec Ideal S500x128 .f32 := V c main_v24
/-- The gathered neighbour rows as the region finds them. -/
abbrev nbrArr (c : Dev nD) : FVec Ideal S500x10x128 .f32 := V c main_v23

/-- The pooled bucket. -/
def G (c : Dev nD) : FVec Ideal S500x128 .f32 := fun i =>
  max (selfArr V c i) (rowMax (nbrArr V c) (i 0) (i 1))

/-! ## What the body stores, index by index -/

/-- The zero offsets of the body's whole-buffer accesses are the constant zero. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The index the reduction reads at neighbour `k` of the row and feature of `j`. -/
theorem lift_eq (j : S500x128.Idx) (k : Fin 10) :
    reduces_S500x10x128_S500x128.lift j k = ix3 (j 0) k (j 1) := by
  funext a; apply Fin.ext
  match a with
  | ⟨0, _⟩ => rfl
  | ⟨1, _⟩ => rfl
  | ⟨2, _⟩ => rfl

/-- The reduction over the neighbour axis, from the word of minus infinity, is the row's neighbour maximum. -/
theorem nbrMax_apply (x1 : FVec Ideal S500x10x128 .f32) (hφ : FKind.Formats .f32)
    (hacc : (0xFF800000#32 : BitVec 32) = 0xFF800000#32) (j : S500x128.Idx) :
    multiReduction (F := Ideal) .maximumf [1] S500x128 x1 0xFF800000#32 reduces_S500x10x128_S500x128 hφ hacc j
      = rowMax x1 (j 0) (j 1) := by
  refine (Ideal.multiReduction_maximumf_single x1 0xFF800000#32 reduces_S500x10x128_S500x128 hφ hacc j).trans ?_
  unfold rowMax
  have e : (x1 ∘ reduces_S500x10x128_S500x128.lift j) = fun k : Fin 10 => x1 (ix3 (j 0) k (j 1)) :=
    funext fun k => congrArg x1 (lift_eq j k)
  exact congrArg (fun f : Fin 10 → Ideal .f32 => Finset.fold max negInf f Finset.univ) e

/-- What the body stores, at an index: the larger of the row's own entry and its neighbour maximum. -/
theorem pay_apply (x1 : Vec Ideal S500x10x128 .f32) (x0 : Vec Ideal S500x128 .f32) (j : S500x128.Idx) :
    k10_pay1 x1 x0 j = max (x0 j) (rowMax x1 (j 0) (j 1)) := by
  unfold k10_pay1
  simp only [shapeCast_self]
  rw [maximumf_apply]
  exact congrArg _ (nbrMax_apply x1 _ _ j)

/-! ## From the one block to the array -/

/-- At the one grid point every window's block index is zero on every axis. -/
theorem idx_zero : ∀ t : Fin cfg10.N, win10_0.index t (0 : Fin 2) = 0 ∧ win10_0.index t (1 : Fin 2) = 0
    ∧ win10_1.index t (0 : Fin 3) = 0 ∧ win10_1.index t (1 : Fin 3) = 0 ∧ win10_1.index t (2 : Fin 3) = 0
    ∧ win10_2.index t (0 : Fin 2) = 0 ∧ win10_2.index t (1 : Fin 2) = 0 :=
  (by decide +kernel : ∀ t : Fin grid10.N, _)

/-- What the grid point writes back is its block of the pooled bucket. -/
theorem flushed_eq (c : Dev nD) (t : Fin cfg10.N) :
    (dat10 V c).flushed 2 t = ((cfg10.win 2).blk t).view.read (Elt Ideal) (G V c) := by
  show (cfg10.win 2).cut (grid10.coords t) ((dat10 V c).after 2 t) = _
  rw [after10_2]
  unfold out10_2
  rw [View.canon_unit_zero zeros2]
  simp only [View.ld_unit_zero (S := S500x128) zeros2, View.ld_unit_zero (S := S500x10x128) zeros3]
  funext j
  show k10_pay1 (iblk10 V c 1 t) (iblk10 V c 0 t) j = G V c (((cfg10.win 2).blk t).view.emb j)
  refine (pay_apply _ _ j).trans ?_
  obtain ⟨e00, e01, e10, e11, e12, e20, e21⟩ := idx_zero t
  have hself : ((cfg10.win 0).blk t).view.emb j = ((cfg10.win 2).blk t).view.emb j := by
    funext a; apply Fin.ext
    match a with
    | ⟨0, _⟩ => show win10_0.index t (0 : Fin 2) * 500 + 1 * (j 0).val = win10_2.index t (0 : Fin 2) * 500 + 1 * (j 0).val; omega
    | ⟨1, _⟩ => show win10_0.index t (1 : Fin 2) * 128 + 1 * (j 1).val = win10_2.index t (1 : Fin 2) * 128 + 1 * (j 1).val; omega
  have hnbr : ∀ k : Fin 10, ((cfg10.win 1).blk t).view.emb (ix3 (n0 := 500) (n1 := 10) (n2 := 128) (j 0) k (j 1))
      = ix3 (n0 := 500) (n1 := 10) (n2 := 128) ((((cfg10.win 2).blk t).view.emb j) 0) k ((((cfg10.win 2).blk t).view.emb j) 1) := by
    intro k; funext a; apply Fin.ext
    match a with
    | ⟨0, _⟩ => show win10_1.index t (0 : Fin 3) * 500 + 1 * (j 0).val = win10_2.index t (0 : Fin 2) * 500 + 1 * (j 0).val; omega
    | ⟨1, _⟩ => show win10_1.index t (1 : Fin 3) * 10 + 1 * k.val = k.val; omega
    | ⟨2, _⟩ => show win10_1.index t (2 : Fin 3) * 128 + 1 * (j 1).val = win10_2.index t (1 : Fin 2) * 128 + 1 * (j 1).val; omega
  show max (selfArr V c (((cfg10.win 0).blk t).view.emb j)) (rowMax (iblk10 V c 1 t) (j 0) (j 1))
    = max (selfArr V c (((cfg10.win 2).blk t).view.emb j))
        (rowMax (nbrArr V c) ((((cfg10.win 2).blk t).view.emb j) 0) ((((cfg10.win 2).blk t).view.emb j) 1))
  rw [hself]
  refine congrArg _ ?_
  unfold rowMax
  refine congrArg (fun f : Fin 10 → Ideal .f32 => Finset.fold max negInf f Finset.univ) (funext fun k => ?_)
  show nbrArr V c (((cfg10.win 1).blk t).view.emb (ix3 (n0 := 500) (n1 := 10) (n2 := 128) (j 0) k (j 1))) = _
  rw [hnbr k]

/-- An index of the output array is in the grid point's block iff each coordinate is in the block's range on its axis. -/
theorem mem_blk (t : Fin cfg10.N) (i : S500x128.Idx) :
    i ∈ ((cfg10.win 2).blk t).view.set ↔ ∀ a : Fin 2, win10_2.index t a * S500x128.size a ≤ (i a).val
      ∧ (i a).val < win10_2.index t a * S500x128.size a + S500x128.size a := by
  show i ∈ ((View.whole main_v25).slice (win10_2.rect t)).set ↔ _
  rw [View.set_slice_whole, Rect.mem_set_unit]
  exact Iff.rfl

/-- Every index of the output array lies in the one grid point's block, which is the whole array. -/
theorem cover (i : S500x128.Idx) :
    ∃ t : Fin cfg10.N, (cfg10.win 2).flush t = true ∧ i ∈ ((cfg10.win 2).blk t).view.set := by
  have h0 : (i 0).val < 500 := idx2_lt0 i
  have h1 : (i 1).val < 128 := idx2_lt1 i
  obtain ⟨-, -, -, -, -, e20, e21⟩ := idx_zero t10_0
  refine ⟨t10_0, flush10_2 t10_0, ?_⟩
  rw [mem_blk]
  intro a
  match a with
  | ⟨0, _⟩ => show win10_2.index t10_0 (0 : Fin 2) * 500 ≤ (i 0).val ∧ (i 0).val < win10_2.index t10_0 (0 : Fin 2) * 500 + 500; omega
  | ⟨1, _⟩ => show win10_2.index t10_0 (1 : Fin 2) * 128 ≤ (i 1).val ∧ (i 1).val < win10_2.index t10_0 (1 : Fin 2) * 128 + 128; omega

/-- THE ARRAY after the region. -/
theorem arr_eq (c : Dev nD) : (dat10 V c).arrAt 2 cfg10.N = G V c :=
  (dat10 V c).arrAt_eq_of_cover 2 (G V c) (fun t _ => flushed_eq V c t) cover

end Cert.KernelIdeal.Region10
end
-- ==== Proof.Step10.lean ====
/-
  Region 10 of the kernel program in the run.  At its entry the bucket's own rows are rows 199500 to 199999 of the
  feature table (a slice taken by the host just before) and the gathered rows are the table's rows at the degree-10
  bucket's neighbour indices.  So after the region its output array holds the bucket's pooled rows.
-/
import proofs.«430485_j17085379904194_3_alg».proof.Proof.Region10
import proofs.«430485_j17085379904194_3_alg».proof.Proof.Keeps
import proofs.«430485_j17085379904194_3_alg».proof.Proof.Takes
import proofs.«430485_j17085379904194_3_alg».proof.Proof.ThreadDefs
import Idealize.ShloMosaic.Lib.StableHlo.Run
import Idealize.ShloMosaic.Lib.Pipeline.Value

set_option maxRecDepth 16384

noncomputable section

namespace Cert.KernelIdeal.Thread

open Cert.KernelIdeal Cert.KernelIdeal.Gen Cert.KernelIdeal.Keeps Cert.KernelIdeal.Takes Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the region's entry the gathered rows are the table's rows at the bucket's indices. -/
theorem entry10_nbr (h : ∀ c, InRange (adj10 m c)) (c : Dev nD) :
    (V31 m ρ c main_v23 : FVec Ideal S500x10x128 .f32) = gk10 m c := by
  show (W31 m ρ c (Proc.devRef .tc main_v23) : FVec Ideal S500x10x128 .f32) = _
  rw [keep31_main_v23 m ρ c]
  have hadj : ∀ i, (0 : Int) ≤ ((W29 m ρ c (Proc.devRef .tc main_arg11) : IVec S500x10 32) i).toInt
      ∧ ((W29 m ρ c (Proc.devRef .tc main_arg11) : IVec S500x10 32) i).toInt < 200000 := by
    rw [at29_main_arg11 m ρ c]; exact h c
  refine (take10 (W29 m ρ c) hadj).trans ?_
  rw [at29_main_arg0 m ρ c, at29_main_arg11 m ρ c]

/-- At the region's entry the bucket's own rows are the table's rows from 199500 on. -/
theorem entry10_self (c : Dev nD) (r : Fin 500) (f : Fin 128) :
    (V31 m ρ c main_v24 : FVec Ideal S500x128 .f32) (ix2 r f) = tab m c (ix2 ⟨199500 + r.val, by omega⟩ f) := by
  have e : (V31 m ρ c main_v24 : FVec Ideal S500x128 .f32)
      = extractStridedSlice S500x128 ![199500, 0] (tab m c) slices_S200000x128_S500x128_199500_0 := by
    have key : ∀ Wx : Valuation τ sig (Elt Ideal),
        (StableHlo.after (hostOps10_2 (F := Ideal)) Wx (Proc.devRef .tc main_v24) : FVec Ideal S500x128 .f32)
          = extractStridedSlice S500x128 ![199500, 0] (Wx (Proc.devRef .tc main_arg0)) slices_S200000x128_S500x128_199500_0 := by
      intro Wx; after_results
    refine (key (W30 m ρ c)).trans ?_
    rw [at30_main_arg0 m ρ c]
  rw [e]
  exact extractStridedSlice_apply ![199500, 0] (tab m c) slices_S200000x128_S500x128_199500_0 (ix2 r f)
    (ix2 ⟨199500 + r.val, by omega⟩ f) (fun a => match a with
      | ⟨0, _⟩ => rfl
      | ⟨1, _⟩ => by show f.val = 0 + f.val; omega)

/-- THE BUCKET'S POOLED ROWS: the region's output array after the region. -/
theorem part10 (h : ∀ c, InRange (adj10 m c)) (c : Dev nD) (r : Fin 500) (f : Fin 128) :
    (W32 m ρ c (Proc.devRef .tc main_v25) : FVec Ideal S500x128 .f32) (ix2 r f)
      = max (tab m c (ix2 ⟨199500 + r.val, by omega⟩ f)) (rowMax (gk10 m c) r f) := by
  have hW : (W32 m ρ c (Proc.devRef .tc main_v25) : FVec Ideal S500x128 .f32) = Region10.G (V31 m ρ) c :=
    (W32_arr m ρ c 2).trans (Region10.arr_eq (V31 m ρ) c)
  rw [hW]
  show max (Region10.selfArr (V31 m ρ) c (ix2 r f)) (rowMax (Region10.nbrArr (V31 m ρ) c) r f) = _
  have e2 : Region10.nbrArr (V31 m ρ) c = gk10 m c := entry10_nbr m ρ h c
  rw [e2, show Region10.selfArr (V31 m ρ) c (ix2 r f) = _ from entry10_self m ρ c r f]

end Cert.KernelIdeal.Thread

end
-- ==== Proof.LibScatterSet.lean ====
/-
  A scatter whose body returns the update (jnp's `x.at[idx].set(v)`) is a left fold over the update positions, each step
  overwriting one element of the running array or, when its position falls outside the operand, doing nothing.
  When at most one update position lands on an element, the fold's order does not matter there: the element ends at
  that update's value; an element no update lands on keeps the operand's value.  Stated for any such fold first, then
  for `Host.scatter` with the overwriting body.
-/
import Idealize.ShloMosaic.PureOps

namespace Cert.Lib.ScatterSet

open Idealize.ShloMosaic

section Fold
variable {α ι κ : Type}

/-- The fold over update positions `l` of a step `g` that overwrites element `p n` with `v n` (and does nothing when
    `p n = none`): an element `i` that no position of `l` lands on keeps its starting value. -/
theorem foldl_miss (p : κ → Option ι) (v : κ → α) (g : (ι → α) → κ → (ι → α))
    (hsome : ∀ r n i, p n = some i → (g r n) i = v n ∧ ∀ i', i' ≠ i → (g r n) i' = r i')
    (hnone : ∀ r n, p n = none → g r n = r)
    (l : List κ) (r : ι → α) (i : ι) (h : ∀ n ∈ l, p n ≠ some i) :
    (l.foldl g r) i = r i := by
  induction l generalizing r with
  | nil => rfl
  | cons n l ih =>
    rw [List.foldl_cons, ih _ (fun n' hn' => h n' (List.mem_cons_of_mem _ hn'))]
    cases hp : p n with
    | none => rw [hnone r n hp]
    | some i0 =>
      have hne : i ≠ i0 := fun e => h n List.mem_cons_self (by rw [hp, e])
      exact (hsome r n i0 hp).2 i hne

/-- … and an element `i` on which only the position `n₀` lands ends at `v n₀`, provided `n₀` is among the positions
    (or the element already held that value). -/
theorem foldl_hit (p : κ → Option ι) (v : κ → α) (g : (ι → α) → κ → (ι → α))
    (hsome : ∀ r n i, p n = some i → (g r n) i = v n ∧ ∀ i', i' ≠ i → (g r n) i' = r i')
    (hnone : ∀ r n, p n = none → g r n = r)
    (i : ι) (n₀ : κ) (h₀ : p n₀ = some i)
    (l : List κ) (r : ι → α) (huniq : ∀ n ∈ l, p n = some i → n = n₀)
    (hstart : r i = v n₀ ∨ n₀ ∈ l) :
    (l.foldl g r) i = v n₀ := by
  induction l generalizing r with
  | nil =>
    rcases hstart with h | h
    · exact h
    · exact absurd h List.not_mem_nil
  | cons n l ih =>
    rw [List.foldl_cons]
    refine ih _ (fun n' hn' => huniq n' (List.mem_cons_of_mem _ hn')) ?_
    cases hp : p n with
    | none =>
      rw [hnone r n hp]
      rcases hstart with h | h
      · exact Or.inl h
      · rcases List.mem_cons.1 h with e | e
        · rw [e, hp] at h₀; exact absurd h₀ (by simp)
        · exact Or.inr e
    | some i0 =>
      by_cases hi : i = i0
      · subst hi
        have hn : n = n₀ := huniq n List.mem_cons_self hp
        exact Or.inl (by rw [(hsome r n i hp).1, hn])
      · rw [(hsome r n i0 hp).2 i hi]
        rcases hstart with h | h
        · exact Or.inl h
        · rcases List.mem_cons.1 h with e | e
          · rw [e, hp] at h₀; exact absurd (Option.some.inj h₀).symm hi
          · exact Or.inr e

end Fold

section Scatter
variable {α : Type} {s si u : Shape} {w : Nat}

/-- The overwriting scatter's step has the two properties the fold lemmas ask for. -/
private theorem step_some (d : ScatterDims s si u) (idx : IVec si w) (upd : u.Idx → α) (r : s.Idx → α) (n : Fin u.numel) (i : s.Idx)
    (h : d.resultIdx? (u.rowMajor.symm n) idx = some i) :
    ((match d.resultIdx? (u.rowMajor.symm n) idx with
      | some i => fun i' => if i' = i then (fun (_ : α) b => b) (r i) (upd (u.rowMajor.symm n)) else r i'
      | none => r) : s.Idx → α) i = upd (u.rowMajor.symm n)
    ∧ ∀ i', i' ≠ i → ((match d.resultIdx? (u.rowMajor.symm n) idx with
      | some i => fun i' => if i' = i then (fun (_ : α) b => b) (r i) (upd (u.rowMajor.symm n)) else r i'
      | none => r) : s.Idx → α) i' = r i' := by
  rw [h]
  exact ⟨if_pos rfl, fun i' hi' => if_neg hi'⟩

private theorem step_none (d : ScatterDims s si u) (idx : IVec si w) (upd : u.Idx → α) (r : s.Idx → α) (n : Fin u.numel)
    (h : d.resultIdx? (u.rowMajor.symm n) idx = none) :
    ((match d.resultIdx? (u.rowMajor.symm n) idx with
      | some i => fun i' => if i' = i then (fun (_ : α) b => b) (r i) (upd (u.rowMajor.symm n)) else r i'
      | none => r) : s.Idx → α) = r := by
  rw [h]

/-- AN ELEMENT NO UPDATE LANDS ON keeps the operand's value. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_miss (fun n => d.resultIdx? (u.rowMajor.symm n) idx) (fun n => upd (u.rowMajor.symm n)) _
    (fun r n i h => step_some d idx upd r n i h) (fun r n h => step_none d idx upd r n h)
    _ x i (fun n _ => h _)

/-- AN ELEMENT EXACTLY ONE UPDATE LANDS ON ends at that update's value. -/
theorem scatter_set_hit (d : ScatterDims s si u) (x : s.Idx → α) (idx : IVec si w) (upd : u.Idx → α) (j₀ : u.Idx) (i : s.Idx)
    (h₀ : d.resultIdx? j₀ idx = some i) (huniq : ∀ j, d.resultIdx? j idx = some i → j = j₀) :
    Host.scatter d (fun _ b => b) x idx upd i = upd j₀ := by
  unfold Host.scatter
  have hj : u.rowMajor.symm (u.rowMajor j₀) = j₀ := Equiv.symm_apply_apply _ _
  refine (foldl_hit (fun n => d.resultIdx? (u.rowMajor.symm n) idx) (fun n => upd (u.rowMajor.symm n)) _
    (fun r n i h => step_some d idx upd r n i h) (fun r n h => step_none d idx upd r n h)
    i (u.rowMajor j₀) (by show d.resultIdx? (u.rowMajor.symm (u.rowMajor j₀)) idx = some i; rw [hj]; exact h₀)
    (List.finRange u.numel) x ?_ (Or.inr (List.mem_finRange _))).trans ?_
  · intro n _ hn
    have := huniq _ hn
    rw [← this, Equiv.apply_symm_apply]
  · show upd (u.rowMajor.symm (u.rowMajor j₀)) = upd j₀
    rw [hj]

end Scatter

end Cert.Lib.ScatterSet
-- ==== Proof.LibSliceUpdate.lean ====
/-
  Writing a block of whole rows into a table at a fixed row offset, as an overwriting scatter.

  The table has 200000 rows of 128 entries, the block has n rows of 128 entries, and the scatter indices are a single
  word holding the offset s.  Both axes of the block are window axes, no operand axis is inserted, and the one index
  component is the start on the row axis.  So for the block position (r, c):
    * the start of the window is (s, 0): the index word read signed on the row axis, nothing on the column axis;
    * the window coordinate is (r, c) itself;
    * the position lands at (s + r, c), which is inside the table as soon as s + n ≤ 200000.
  The map (r, c) ↦ (s + r, c) is injective and its image is exactly the rows [s, s + n).  Hence every entry of those rows
  is landed on by exactly one block position and ends at the block's value there, and every entry of the other rows is
  landed on by none and keeps the table's value.
-/
import Idealize.ShloMosaic.PureOps
import Idealize.ShloMosaic.Lib.ValueIdx
import proofs.«430485_j17085379904194_3_alg».proof.Proof.LibScatterSet

namespace Cert.Lib.SliceUpdate

open Idealize.ShloMosaic Idealize.ShloMosaic.ValueIdx

section Landing
variable {n w : Nat} (d : ScatterDims ⟨2, ![200000, 128]⟩ ⟨1, ![1]⟩ ⟨2, ![n, 128]⟩)

/-- On the row axis the window starts at the one index word, read signed. -/
theorem start_row (hsd : d.scatterDimsToOperandDims = [0]) (hivd : d.indexVectorDim = 0)
    (j : (⟨2, ![n, 128]⟩ : Shape).Idx) (idx : IVec ⟨1, ![1]⟩ w) :
    d.start j idx 0 = (idx (ix1 0)).toInt := by
  obtain ⟨uw, iw, sd, ivd, wf⟩ := d
  dsimp only at hsd hivd
  subst hsd hivd
  unfold ScatterDims.start
  rw [dif_pos (show (0 : Fin 2) ∈ ([0] : List (Fin 2)) by decide)]
  congr 2
  funext b
  match b with
  | ⟨0, _⟩ =>
    unfold ScatterDims.siIdx
    rw [dif_pos rfl]
    rfl

/-- The column axis is not named by the index map: the window starts at column 0. -/
theorem start_col (hsd : d.scatterDimsToOperandDims = [0])
    (j : (⟨2, ![n, 128]⟩ : Shape).Idx) (idx : IVec ⟨1, ![1]⟩ w) :
    d.start j idx 1 = 0 := by
  obtain ⟨uw, iw, sd, ivd, wf⟩ := d
  dsimp only at hsd
  subst hsd
  unfold ScatterDims.start
  rw [dif_neg (show (1 : Fin 2) ∉ ([0] : List (Fin 2)) by decide)]

/-- With no inserted axis the row axis is the first kept axis, and the first window axis is the block's row axis:
    the window coordinate on the rows is the block position's row. -/
theorem window_row (huw : d.updateWindowDims = [0, 1]) (hiw : d.insertedWindowDims = [])
    (j : (⟨2, ![n, 128]⟩ : Shape).Idx) : d.window j 0 = (j 0).val := by
  obtain ⟨uw, iw, sd, ivd, wf⟩ := d
  dsimp only at huw hiw
  subst huw hiw
  unfold ScatterDims.window
  rw [dif_pos (show (0 : Fin 2) ∈ (⟨2, ![200000, 128]⟩ : Shape).kept [] by decide)]
  rfl

/-- Likewise the window coordinate on the columns is the block position's column. -/
theorem window_col (huw : d.updateWindowDims = [0, 1]) (hiw : d.insertedWindowDims = [])
    (j : (⟨2, ![n, 128]⟩ : Shape).Idx) : d.window j 1 = (j 1).val := by
  obtain ⟨uw, iw, sd, ivd, wf⟩ := d
  dsimp only at huw hiw
  subst huw hiw
  unfold ScatterDims.window
  rw [dif_pos (show (1 : Fin 2) ∈ (⟨2, ![200000, 128]⟩ : Shape).kept [] by decide)]
  rfl

/-- WHERE A BLOCK POSITION LANDS: (r, c) goes to (s + r, c), always inside the table when the block fits below row
    200000. -/
theorem resultIdx?_block (huw : d.updateWindowDims = [0, 1]) (hiw : d.insertedWindowDims = [])
    (hsd : d.scatterDimsToOperandDims = [0]) (hivd : d.indexVectorDim = 0)
    (s : Nat) (hs : s + n ≤ 200000) (idx : IVec ⟨1, ![1]⟩ w) (hidx : (idx (ix1 0)).toInt = (s : Int))
    (j : (⟨2, ![n, 128]⟩ : Shape).Idx) :
    d.resultIdx? j idx = some (ix2 ⟨s + (j 0).val, by have := idx2_lt0 j; omega⟩ (j 1)) := by
  have h0 : d.start j idx 0 + d.window j 0 = ((s + (j 0).val : Nat) : Int) := by
    rw [start_row d hsd hivd, window_row d huw hiw, hidx]; push_cast; rfl
  have h1 : d.start j idx 1 + d.window j 1 = (((j 1).val : Nat) : Int) := by
    rw [start_col d hsd, window_col d huw hiw]; simp
  have hj0 := idx2_lt0 j
  have hj1 := idx2_lt1 j
  have hall : ∀ a, 0 ≤ d.start j idx a + d.window j a ∧
      d.start j idx a + d.window j a < (⟨2, ![200000, 128]⟩ : Shape).size a := by
    intro a
    match a with
    | ⟨0, _⟩ =>
      show 0 ≤ d.start j idx 0 + d.window j 0 ∧ d.start j idx 0 + d.window j 0 < ((200000 : Nat) : Int)
      rw [h0]; omega
    | ⟨1, _⟩ =>
      show 0 ≤ d.start j idx 1 + d.window j 1 ∧ d.start j idx 1 + d.window j 1 < ((128 : Nat) : Int)
      rw [h1]; omega
  unfold ScatterDims.resultIdx?
  rw [dif_pos hall]
  congr 1
  funext a
  match a with
  | ⟨0, _⟩ =>
    apply Fin.ext
    show (d.start j idx 0 + d.window j 0).toNat = s + (j 0).val
    rw [h0, Int.toNat_natCast]
  | ⟨1, _⟩ =>
    apply Fin.ext
    show (d.start j idx 1 + d.window j 1).toNat = (j 1).val
    rw [h1, Int.toNat_natCast]

end Landing

section Update
variable {n : Nat} {α : Type} (d : ScatterDims ⟨2, ![200000, 128]⟩ ⟨1, ![1]⟩ ⟨2, ![n, 128]⟩)

/-- INSIDE THE ROWS [s, s + n) the result is the block: entry (s + r, c) is landed on by the block position (r, c) and
    by no other, since (s + r', c') = (s + r, c) forces r' = r and c' = c. -/
theorem update_rows_hit
    (huw : d.updateWindowDims = [0, 1]) (hiw : d.insertedWindowDims = []) (hsd : d.scatterDimsToOperandDims = [0])
    (hivd : d.indexVectorDim = 0)
    (s : Nat) (hs : s + n ≤ 200000)
    (x : (⟨2, ![200000, 128]⟩ : Shape).Idx → α) (idx : IVec ⟨1, ![1]⟩ 32) (hidx : (idx (ValueIdx.ix1 0)).toInt = (s : Int))
    (upd : (⟨2, ![n, 128]⟩ : Shape).Idx → α) (r : Fin n) (f : Fin 128) :
    Host.scatter d (fun _ b => b) x idx upd (ValueIdx.ix2 ⟨s + r.val, by omega⟩ f) = upd (ValueIdx.ix2 r f) := by
  refine Cert.Lib.ScatterSet.scatter_set_hit d x idx upd (ix2 r f) _ ?_ ?_
  · exact resultIdx?_block d huw hiw hsd hivd s hs idx hidx (ix2 r f)
  · intro j hj
    rw [resultIdx?_block d huw hiw hsd hivd s hs idx hidx] at hj
    have e := Option.some.inj hj
    have e0 : s + (j 0).val = s + r.val := congrArg (fun i => (i 0).val) e
    have e1 : j 1 = f := congrArg (fun i => i 1) e
    have h0 : j 0 = r := Fin.ext (by omega)
    funext a
    match a with
    | ⟨0, _⟩ => exact h0
    | ⟨1, _⟩ => exact e1

/-- OUTSIDE THOSE ROWS the result is the table: a block position (r, c) lands in row s + r with r < n, never in a row
    below s or from s + n on. -/
theorem update_rows_miss
    (huw : d.updateWindowDims = [0, 1]) (hiw : d.insertedWindowDims = []) (hsd : d.scatterDimsToOperandDims = [0])
    (hivd : d.indexVectorDim = 0)
    (s : Nat) (hs : s + n ≤ 200000)
    (x : (⟨2, ![200000, 128]⟩ : Shape).Idx → α) (idx : IVec ⟨1, ![1]⟩ 32) (hidx : (idx (ValueIdx.ix1 0)).toInt = (s : Int))
    (upd : (⟨2, ![n, 128]⟩ : Shape).Idx → α) (i : (⟨2, ![200000, 128]⟩ : Shape).Idx)
    (hi : (i 0).val < s ∨ s + n ≤ (i 0).val) :
    Host.scatter d (fun _ b => b) x idx upd i = x i := by
  refine Cert.Lib.ScatterSet.scatter_set_miss d x idx upd i ?_
  intro j hj
  rw [resultIdx?_block d huw hiw hsd hivd s hs idx hidx] at hj
  have e := Option.some.inj hj
  have e0 : s + (j 0).val = (i 0).val := congrArg (fun i => (i 0).val) e
  have := idx2_lt0 j
  omega

end Update

end Cert.Lib.SliceUpdate
-- ==== Proof.Tail.lean ====
/-
  The two splices at the end of the kernel program.  The degree-9 and degree-10 buckets are pooled into arrays of
  their own and written over rows 198000 to 199499 and 199500 to 199999 of the output by an overwriting scatter of
  whole rows at a constant row offset.  Each splice leaves the block's rows on its row range and the earlier output
  elsewhere; between the splices nothing writes the output.
-/
import proofs.«430485_j17085379904194_3_alg».proof.Proof.Keeps
import proofs.«430485_j17085379904194_3_alg».proof.Proof.ThreadDefs
import proofs.«430485_j17085379904194_3_alg».proof.Proof.LibSliceUpdate
import Idealize.ShloMosaic.Lib.StableHlo.Run
import Idealize.ShloMosaic.Lib.Pipeline.Value

set_option maxRecDepth 16384

noncomputable section

namespace Cert.KernelIdeal.Thread

open Cert.KernelIdeal Cert.KernelIdeal.Gen Cert.KernelIdeal.Keeps Cert.Pool Cert.Lib.IndexRange
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first splice, as the host operations compute it: the overwriting scatter of the degree-9 bucket's array into the
    output as region 8 left it, at the row offset the constant word holds. -/
theorem splice9_eq (c : Dev nD) :
    (W29 m ρ c (Proc.devRef .tc main_v22) : FVec Ideal S200000x128 .f32)
      = Host.scatter scatter_S200000x128_S1_S1500x128_01_n_0_0 (fun _ b => b)
          (W28 m ρ c (Proc.devRef .tc main_v17) : FVec Ideal S200000x128 .f32)
          (broadcastInDim S1 ![] bcast_S_S1 (constantI S_ 32 198000#32))
          (W28 m ρ c (Proc.devRef .tc main_v20) : FVec Ideal S1500x128 .f32) := by
  show StableHlo.after hostOps10 (W28 m ρ c) (Proc.devRef .tc main_v22) = _
  after_results
  rfl

/-- The second splice likewise: the degree-10 bucket's array into the output after the first splice. -/
theorem splice10_eq (c : Dev nD) :
    (W33 m ρ c (Proc.devRef .tc main_v27) : FVec Ideal S200000x128 .f32)
      = Host.scatter scatter_S200000x128_S1_S500x128_01_n_0_0 (fun _ b => b)
          (W32 m ρ c (Proc.devRef .tc main_v22) : FVec Ideal S200000x128 .f32)
          (broadcastInDim S1 ![] bcast_S_S1 (constantI S_ 32 199500#32))
          (W32 m ρ c (Proc.devRef .tc main_v25) : FVec Ideal S500x128 .f32) := by
  show StableHlo.after hostOps11 (W32 m ρ c) (Proc.devRef .tc main_v27) = _
  after_results
  rfl

/-- The first splice, on its rows: the degree-9 bucket's array. -/
theorem upd9_in (c : Dev nD) (r : Fin 1500) (f : Fin 128) :
    (W29 m ρ c (Proc.devRef .tc main_v22) : FVec Ideal S200000x128 .f32) (ix2 ⟨198000 + r.val, by omega⟩ f)
      = (W28 m ρ c (Proc.devRef .tc main_v20) : FVec Ideal S1500x128 .f32) (ix2 r f) := by
  refine (congrFun (splice9_eq m ρ c) _).trans ?_
  exact Cert.Lib.SliceUpdate.update_rows_hit scatter_S200000x128_S1_S1500x128_01_n_0_0 rfl rfl rfl rfl 198000 (by omega)
    _ _ (by decide) _ r f

/-- The first splice, off its rows: the output as region 8 left it. -/
theorem upd9_out (c : Dev nD) (i : S200000x128.Idx) (hi : (i 0).val < 198000 ∨ 199500 ≤ (i 0).val) :
    (W29 m ρ c (Proc.devRef .tc main_v22) : FVec Ideal S200000x128 .f32) i
      = (W25 m ρ c (Proc.devRef .tc main_v17) : FVec Ideal S200000x128 .f32) i := by
  refine (congrFun (splice9_eq m ρ c) i).trans ?_
  refine (Cert.Lib.SliceUpdate.update_rows_miss scatter_S200000x128_S1_S1500x128_01_n_0_0 rfl rfl rfl rfl 198000 (by omega)
    _ _ (by decide) _ i (by omega)).trans ?_
  exact congrFun ((keep28_main_v17 m ρ c).trans ((keep27_main_v17 m ρ c).trans (keep26_main_v17 m ρ c))) i

/-- The second splice, on its rows: the degree-10 bucket's array. -/
theorem upd10_in (c : Dev nD) (r : Fin 500) (f : Fin 128) :
    (W33 m ρ c (Proc.devRef .tc main_v27) : FVec Ideal S200000x128 .f32) (ix2 ⟨199500 + r.val, by omega⟩ f)
      = (W32 m ρ c (Proc.devRef .tc main_v25) : FVec Ideal S500x128 .f32) (ix2 r f) := by
  refine (congrFun (splice10_eq m ρ c) _).trans ?_
  exact Cert.Lib.SliceUpdate.update_rows_hit scatter_S200000x128_S1_S500x128_01_n_0_0 rfl rfl rfl rfl 199500 (by omega)
    _ _ (by decide) _ r f

/-- The second splice, off its rows: the output after the first splice. -/
theorem upd10_out (c : Dev nD) (i : S200000x128.Idx) (hi : (i 0).val < 199500) :
    (W33 m ρ c (Proc.devRef .tc main_v27) : FVec Ideal S200000x128 .f32) i
      = (W29 m ρ c (Proc.devRef .tc main_v22) : FVec Ideal S200000x128 .f32) i := by
  refine (congrFun (splice10_eq m ρ c) i).trans ?_
  refine (Cert.Lib.SliceUpdate.update_rows_miss scatter_S200000x128_S1_S500x128_01_n_0_0 rfl rfl rfl rfl 199500 (by omega)
    _ _ (by decide) _ i (Or.inl hi)).trans ?_
  exact congrFun ((keep32_main_v22 m ρ c).trans ((keep31_main_v22 m ρ c).trans (keep30_main_v22 m ρ c))) i

end Cert.KernelIdeal.Thread

end
-- ==== Proof.Chain.lean ====
/-
  The kernel program's result.  After region p the running output buffer holds the pooled table on every row below
  the end of bucket p: on bucket p's rows by the region itself, below them by what the regions before left (induction
  on p).  The two splices then put the last two buckets' pooled rows in place, so the result buffer ends at the
  pooled table on every row.
-/
import proofs.«430485_j17085379904194_3_alg».proof.Proof.Step0
import proofs.«430485_j17085379904194_3_alg».proof.Proof.Step1
import proofs.«430485_j17085379904194_3_alg».proof.Proof.Step2
import proofs.«430485_j17085379904194_3_alg».proof.Proof.Step3
import proofs.«430485_j17085379904194_3_alg».proof.Proof.Step4
import proofs.«430485_j17085379904194_3_alg».proof.Proof.Step5
import proofs.«430485_j17085379904194_3_alg».proof.Proof.Step6
import proofs.«430485_j17085379904194_3_alg».proof.Proof.Step7
import proofs.«430485_j17085379904194_3_alg».proof.Proof.Step8
import proofs.«430485_j17085379904194_3_alg».proof.Proof.Step9
import proofs.«430485_j17085379904194_3_alg».proof.Proof.Step10
import proofs.«430485_j17085379904194_3_alg».proof.Proof.Tail

set_option maxRecDepth 16384

noncomputable section

namespace Cert.KernelIdeal.Thread

open Cert.KernelIdeal Cert.KernelIdeal.Gen Cert.Pool Cert.Lib.IndexRange
open Idealize.ShloMosaic Idealize.ShloMosaic.TcCoe Idealize.ShloMosaic.ValueIdx Idealize.SL.Sem

variable (m : (ℓ : Loc nD τ sig) → Buf (Elt Ideal) ℓ) (ρ : Dev nD → PrngReg)

/-- A row index inside the row range [s, s + n) is s plus a row of the range. -/
theorem row_split (s n : Nat) (hs : s + n ≤ 200000) (i : S200000x128.Idx) (h1 : s ≤ (i 0).val) (h2 : (i 0).val < s + n) :
    ∃ (r : Fin n) (f : Fin 128), i = ix2 ⟨s + r.val, Nat.lt_of_lt_of_le (Nat.add_lt_add_left r.isLt s) hs⟩ f :=
  ⟨⟨(i 0).val - s, by omega⟩, i 1, by
    funext a
    match a with
    | ⟨0, _⟩ => exact Fin.ext (by show (i 0).val = s + ((i 0).val - s); omega)
    | ⟨1, _⟩ => rfl⟩

/-- After region 0: the rows of bucket 0. -/
theorem chain0 (c : Dev nD) (i : S200000x128.Idx) (hi : (i 0).val < 10000) :
    (W1 m ρ c (Proc.devRef .tc main_v0) : FVec Ideal S200000x128 .f32) i = pooledTab m c i := by
  rw [rel0_in m ρ c i hi]
  obtain ⟨r, f, rfl⟩ := row_split 0 10000 (by decide) i (by omega) (by omega)
  have e : (ix2 (⟨0 + r.val, by have := r.isLt; omega⟩ : Fin 200000) f : S200000x128.Idx) = ix2 ⟨r.val, by have := r.isLt; omega⟩ f := by
    funext a
    match a with
    | ⟨0, _⟩ => exact Fin.ext (by show 0 + r.val = r.val; omega)
    | ⟨1, _⟩ => rfl
  rw [e]
  exact (spec_deg0 (tab m c) (gk1 m c) (gk2 m c) (gk3 m c) (gk4 m c) (gk5 m c) (gk6 m c) (gk7 m c) (gk8 m c) (gk9 m c) (gk10 m c) r f).symm

/-- After region 1: every row below the end of bucket 1. -/
theorem chain1 (h1 : ∀ c, InRange (adj1 m c)) (c : Dev nD) (i : S200000x128.Idx) (hi : (i 0).val < 30000) :
    (W4 m ρ c (Proc.devRef .tc main_v3) : FVec Ideal S200000x128 .f32) i = pooledTab m c i := by
  by_cases hb : 10000 ≤ (i 0).val
  · obtain ⟨r, f, rfl⟩ := row_split 10000 20000 (by decide) i hb (by omega)
    rw [rel1_in m ρ h1 c r f]
    exact (spec_deg1 (tab m c) (gk1 m c) (gk2 m c) (gk3 m c) (gk4 m c) (gk5 m c) (gk6 m c) (gk7 m c) (gk8 m c) (gk9 m c) (gk10 m c) r f).symm
  · rw [rel1_out m ρ c i (Or.inl (by omega))]
    exact chain0 m ρ c i (by omega)

/-- After region 2: every row below the end of bucket 2. -/
theorem chain2 (h1 : ∀ c, InRange (adj1 m c)) (h2 : ∀ c, InRange (adj2 m c)) (c : Dev nD) (i : S200000x128.Idx) (hi : (i 0).val < 70000) :
    (W7 m ρ c (Proc.devRef .tc main_v5) : FVec Ideal S200000x128 .f32) i = pooledTab m c i := by
  by_cases hb : 30000 ≤ (i 0).val
  · obtain ⟨r, f, rfl⟩ := row_split 30000 40000 (by decide) i hb (by omega)
    rw [rel2_in m ρ h2 c r f]
    exact (spec_deg2 (tab m c) (gk1 m c) (gk2 m c) (gk3 m c) (gk4 m c) (gk5 m c) (gk6 m c) (gk7 m c) (gk8 m c) (gk9 m c) (gk10 m c) r f).symm
  · rw [rel2_out m ρ c i (Or.inl (by omega))]
    exact chain1 m ρ h1 c i (by omega)

/-- After region 3: every row below the end of bucket 3. -/
theorem chain3 (h1 : ∀ c, InRange (adj1 m c)) (h2 : ∀ c, InRange (adj2 m c)) (h3 : ∀ c, InRange (adj3 m c)) (c : Dev nD) (i : S200000x128.Idx) (hi : (i 0).val < 120000) :
    (W10 m ρ c (Proc.devRef .tc main_v7) : FVec Ideal S200000x128 .f32) i = pooledTab m c i := by
  by_cases hb : 70000 ≤ (i 0).val
  · obtain ⟨r, f, rfl⟩ := row_split 70000 50000 (by decide) i hb (by omega)
    rw [rel3_in m ρ h3 c r f]
    exact (spec_deg3 (tab m c) (gk1 m c) (gk2 m c) (gk3 m c) (gk4 m c) (gk5 m c) (gk6 m c) (gk7 m c) (gk8 m c) (gk9 m c) (gk10 m c) r f).symm
  · rw [rel3_out m ρ c i (Or.inl (by omega))]
    exact chain2 m ρ h1 h2 c i (by omega)

/-- After region 4: every row below the end of bucket 4. -/
theorem chain4 (h1 : ∀ c, InRange (adj1 m c)) (h2 : ∀ c, InRange (adj2 m c)) (h3 : ∀ c, InRange (adj3 m c)) (h4 : ∀ c, InRange (adj4 m c)) (c : Dev nD) (i : S200000x128.Idx) (hi : (i 0).val < 160000) :
    (W13 m ρ c (Proc.devRef .tc main_v9) : FVec Ideal S200000x128 .f32) i = pooledTab m c i := by
  by_cases hb : 120000 ≤ (i 0).val
  · obtain ⟨r, f, rfl⟩ := row_split 120000 40000 (by decide) i hb (by omega)
    rw [rel4_in m ρ h4 c r f]
    exact (spec_deg4 (tab m c) (gk1 m c) (gk2 m c) (gk3 m c) (gk4 m c) (gk5 m c) (gk6 m c) (gk7 m c) (gk8 m c) (gk9 m c) (gk10 m c) r f).symm
  · rw [rel4_out m ρ c i (Or.inl (by omega))]
    exact chain3 m ρ h1 h2 h3 c i (by omega)

/-- After region 5: every row below the end of bucket 5. -/
theorem chain5 (h1 : ∀ c, InRange (adj1 m c)) (h2 : ∀ c, InRange (adj2 m c)) (h3 : ∀ c, InRange (adj3 m c)) (h4 : ∀ c, InRange (adj4 m c)) (h5 : ∀ c, InRange (adj5 m c)) (c : Dev nD) (i : S200000x128.Idx) (hi : (i 0).val < 180000) :
    (W16 m ρ c (Proc.devRef .tc main_v11) : FVec Ideal S200000x128 .f32) i = pooledTab m c i := by
  by_cases hb : 160000 ≤ (i 0).val
  · obtain ⟨r, f, rfl⟩ := row_split 160000 20000 (by decide) i hb (by omega)
    rw [rel5_in m ρ h5 c r f]
    exact (spec_deg5 (tab m c) (gk1 m c) (gk2 m c) (gk3 m c) (gk4 m c) (gk5 m c) (gk6 m c) (gk7 m c) (gk8 m c) (gk9 m c) (gk10 m c) r f).symm
  · rw [rel5_out m ρ c i (Or.inl (by omega))]
    exact chain4 m ρ h1 h2 h3 h4 c i (by omega)

/-- After region 6: every row below the end of bucket 6. -/
theorem chain6 (h1 : ∀ c, InRange (adj1 m c)) (h2 : ∀ c, InRange (adj2 m c)) (h3 : ∀ c, InRange (adj3 m c)) (h4 : ∀ c, InRange (adj4 m c)) (h5 : ∀ c, InRange (adj5 m c)) (h6 : ∀ c, InRange (adj6 m c)) (c : Dev nD) (i : S200000x128.Idx) (hi : (i 0).val < 190000) :
    (W19 m ρ c (Proc.devRef .tc main_v13) : FVec Ideal S200000x128 .f32) i = pooledTab m c i := by
  by_cases hb : 180000 ≤ (i 0).val
  · obtain ⟨r, f, rfl⟩ := row_split 180000 10000 (by decide) i hb (by omega)
    rw [rel6_in m ρ h6 c r f]
    exact (spec_deg6 (tab m c) (gk1 m c) (gk2 m c) (gk3 m c) (gk4 m c) (gk5 m c) (gk6 m c) (gk7 m c) (gk8 m c) (gk9 m c) (gk10 m c) r f).symm
  · rw [rel6_out m ρ c i (Or.inl (by omega))]
    exact chain5 m ρ h1 h2 h3 h4 h5 c i (by omega)

/-- After region 7: every row below the end of bucket 7. -/
theorem chain7 (h1 : ∀ c, InRange (adj1 m c)) (h2 : ∀ c, InRange (adj2 m c)) (h3 : ∀ c, InRange (adj3 m c)) (h4 : ∀ c, InRange (adj4 m c)) (h5 : ∀ c, InRange (adj5 m c)) (h6 : ∀ c, InRange (adj6 m c)) (h7 : ∀ c, InRange (adj7 m c)) (c : Dev nD) (i : S200000x128.Idx) (hi : (i 0).val < 195000) :
    (W22 m ρ c (Proc.devRef .tc main_v15) : FVec Ideal S200000x128 .f32) i = pooledTab m c i := by
  by_cases hb : 190000 ≤ (i 0).val
  · obtain ⟨r, f, rfl⟩ := row_split 190000 5000 (by decide) i hb (by omega)
    rw [rel7_in m ρ h7 c r f]
    exact (spec_deg7 (tab m c) (gk1 m c) (gk2 m c) (gk3 m c) (gk4 m c) (gk5 m c) (gk6 m c) (gk7 m c) (gk8 m c) (gk9 m c) (gk10 m c) r f).symm
  · rw [rel7_out m ρ c i (Or.inl (by omega))]
    exact chain6 m ρ h1 h2 h3 h4 h5 h6 c i (by omega)

/-- After region 8: every row below the end of bucket 8. -/
theorem chain8 (h1 : ∀ c, InRange (adj1 m c)) (h2 : ∀ c, InRange (adj2 m c)) (h3 : ∀ c, InRange (adj3 m c)) (h4 : ∀ c, InRange (adj4 m c)) (h5 : ∀ c, InRange (adj5 m c)) (h6 : ∀ c, InRange (adj6 m c)) (h7 : ∀ c, InRange (adj7 m c)) (h8 : ∀ c, InRange (adj8 m c)) (c : Dev nD) (i : S200000x128.Idx) (hi : (i 0).val < 198000) :
    (W25 m ρ c (Proc.devRef .tc main_v17) : FVec Ideal S200000x128 .f32) i = pooledTab m c i := by
  by_cases hb : 195000 ≤ (i 0).val
  · obtain ⟨r, f, rfl⟩ := row_split 195000 3000 (by decide) i hb (by omega)
    rw [rel8_in m ρ h8 c r f]
    exact (spec_deg8 (tab m c) (gk1 m c) (gk2 m c) (gk3 m c) (gk4 m c) (gk5 m c) (gk6 m c) (gk7 m c) (gk8 m c) (gk9 m c) (gk10 m c) r f).symm
  · rw [rel8_out m ρ c i (Or.inl (by omega))]
    exact chain7 m ρ h1 h2 h3 h4 h5 h6 h7 c i (by omega)

/-- After the first splice: every row below the end of bucket 9. -/
theorem chain9 (h1 : ∀ c, InRange (adj1 m c)) (h2 : ∀ c, InRange (adj2 m c)) (h3 : ∀ c, InRange (adj3 m c)) (h4 : ∀ c, InRange (adj4 m c)) (h5 : ∀ c, InRange (adj5 m c)) (h6 : ∀ c, InRange (adj6 m c)) (h7 : ∀ c, InRange (adj7 m c)) (h8 : ∀ c, InRange (adj8 m c)) (h9 : ∀ c, InRange (adj9 m c)) (c : Dev nD) (i : S200000x128.Idx) (hi : (i 0).val < 199500) :
    (W29 m ρ c (Proc.devRef .tc main_v22) : FVec Ideal S200000x128 .f32) i = pooledTab m c i := by
  by_cases hb : 198000 ≤ (i 0).val
  · obtain ⟨r, f, rfl⟩ := row_split 198000 1500 (by decide) i hb (by omega)
    rw [upd9_in m ρ c r f, part9 m ρ h9 c r f]
    exact (spec_deg9 (tab m c) (gk1 m c) (gk2 m c) (gk3 m c) (gk4 m c) (gk5 m c) (gk6 m c) (gk7 m c) (gk8 m c) (gk9 m c) (gk10 m c) r f).symm
  · rw [upd9_out m ρ c i (Or.inl (by omega))]
    exact chain8 m ρ h1 h2 h3 h4 h5 h6 h7 h8 c i (by omega)

/-- THE RESULT: after the second splice the result buffer is the pooled table. -/
theorem result_eq (h1 : ∀ c, InRange (adj1 m c)) (h2 : ∀ c, InRange (adj2 m c)) (h3 : ∀ c, InRange (adj3 m c)) (h4 : ∀ c, InRange (adj4 m c)) (h5 : ∀ c, InRange (adj5 m c)) (h6 : ∀ c, InRange (adj6 m c)) (h7 : ∀ c, InRange (adj7 m c)) (h8 : ∀ c, InRange (adj8 m c)) (h9 : ∀ c, InRange (adj9 m c)) (h10 : ∀ c, InRange (adj10 m c)) (c : Dev nD) :
    (W33 m ρ c (Proc.devRef .tc main_v27) : FVec Ideal S200000x128 .f32) = pooledTab m c := by
  funext i
  by_cases hb : 199500 ≤ (i 0).val
  · obtain ⟨r, f, rfl⟩ := row_split 199500 500 (by decide) i hb (by have := idx2_lt0 i; omega)
    rw [upd10_in m ρ c r f, part10 m ρ h10 c r f]
    exact (spec_deg10 (tab m c) (gk1 m c) (gk2 m c) (gk3 m c) (gk4 m c) (gk5 m c) (gk6 m c) (gk7 m c) (gk8 m c) (gk9 m c) (gk10 m c) r f).symm
  · rw [upd10_out m ρ c i (by omega)]
    exact chain9 m ρ h1 h2 h3 h4 h5 h6 h7 h8 h9 c i (by omega)

end Cert.KernelIdeal.Thread

end
-- ==== Proof.RefValue.lean ====
/-
  The reference's result, read row by row: the concatenation's part for a degree bucket is the maximum of the
  bucket's own rows of the feature table and of the maximum over its gathered neighbour rows, so the whole result is
  the pooled table of the specification, with the reference's own gathers as the neighbour rows.

  The last operation joins eleven parts along the rows; the parts' extents are the buckets' row counts, so row
  s + r of the result, s a bucket's first row, is row r of that bucket's part.  A part is, entry by entry, the
  maximum of the table's entry in row s + r (a slice at offset s) and of the reduction of the gathered rows over
  the neighbour axis by the maximum from minus infinity, which is the fold the specification names.
-/
import proofs.«430485_j17085379904194_3_alg».proof.Proof.RefRun
import proofs.«430485_j17085379904194_3_alg».proof.Proof.Spec
import proofs.«430485_j17085379904194_3_alg».proof.Proof.LibIndexRange
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Cert.ReferenceIdeal.ValueP Cert.Pool Cert.Lib.IndexRange
open Idealize.ShloMosaic Idealize.ShloMosaic.TcCoe Idealize.ShloMosaic.ValueIdx Idealize.SL.Sem Idealize.ShloMosaic.StableHlo
/-- The reference's gathered neighbour rows of the degree-1 bucket. -/
abbrev gath1 (W : Valuation τ sig (Elt Ideal)) : FVec Ideal S20000x1x128 .f32 :=
  Host.gather gather_S200000x128_S20000x1x1_S20000x1x128_2_0_n_n_0_2_1128 (W (Proc.devRef .tc main_arg0) : FVec Ideal S200000x128 .f32)
    (wrap3 bcast_S_S20000x1 bcast_S20000x1_S20000x1x1_0_1 (W (Proc.devRef .tc main_arg2) : IVec S20000x1 32))
/-- The reference's gathered neighbour rows of the degree-2 bucket. -/
abbrev gath2 (W : Valuation τ sig (Elt Ideal)) : FVec Ideal S40000x2x128 .f32 :=
  Host.gather gather_S200000x128_S40000x2x1_S40000x2x128_2_0_n_n_0_2_1128 (W (Proc.devRef .tc main_arg0) : FVec Ideal S200000x128 .f32)
    (wrap3 bcast_S_S40000x2 bcast_S40000x2_S40000x2x1_0_1 (W (Proc.devRef .tc main_arg3) : IVec S40000x2 32))
/-- The reference's gathered neighbour rows of the degree-3 bucket. -/
abbrev gath3 (W : Valuation τ sig (Elt Ideal)) : FVec Ideal S50000x3x128 .f32 :=
  Host.gather gather_S200000x128_S50000x3x1_S50000x3x128_2_0_n_n_0_2_1128 (W (Proc.devRef .tc main_arg0) : FVec Ideal S200000x128 .f32)
    (wrap3 bcast_S_S50000x3 bcast_S50000x3_S50000x3x1_0_1 (W (Proc.devRef .tc main_arg4) : IVec S50000x3 32))
/-- The reference's gathered neighbour rows of the degree-4 bucket. -/
abbrev gath4 (W : Valuation τ sig (Elt Ideal)) : FVec Ideal S40000x4x128 .f32 :=
  Host.gather gather_S200000x128_S40000x4x1_S40000x4x128_2_0_n_n_0_2_1128 (W (Proc.devRef .tc main_arg0) : FVec Ideal S200000x128 .f32)
    (wrap3 bcast_S_S40000x4 bcast_S40000x4_S40000x4x1_0_1 (W (Proc.devRef .tc main_arg5) : IVec S40000x4 32))
/-- The reference's gathered neighbour rows of the degree-5 bucket. -/
abbrev gath5 (W : Valuation τ sig (Elt Ideal)) : FVec Ideal S20000x5x128 .f32 :=
  Host.gather gather_S200000x128_S20000x5x1_S20000x5x128_2_0_n_n_0_2_1128 (W (Proc.devRef .tc main_arg0) : FVec Ideal S200000x128 .f32)
    (wrap3 bcast_S_S20000x5 bcast_S20000x5_S20000x5x1_0_1 (W (Proc.devRef .tc main_arg6) : IVec S20000x5 32))
/-- The reference's gathered neighbour rows of the degree-6 bucket. -/
abbrev gath6 (W : Valuation τ sig (Elt Ideal)) : FVec Ideal S10000x6x128 .f32 :=
  Host.gather gather_S200000x128_S10000x6x1_S10000x6x128_2_0_n_n_0_2_1128 (W (Proc.devRef .tc main_arg0) : FVec Ideal S200000x128 .f32)
    (wrap3 bcast_S_S10000x6 bcast_S10000x6_S10000x6x1_0_1 (W (Proc.devRef .tc main_arg7) : IVec S10000x6 32))
/-- The reference's gathered neighbour rows of the degree-7 bucket. -/
abbrev gath7 (W : Valuation τ sig (Elt Ideal)) : FVec Ideal S5000x7x128 .f32 :=
  Host.gather gather_S200000x128_S5000x7x1_S5000x7x128_2_0_n_n_0_2_1128 (W (Proc.devRef .tc main_arg0) : FVec Ideal S200000x128 .f32)
    (wrap3 bcast_S_S5000x7 bcast_S5000x7_S5000x7x1_0_1 (W (Proc.devRef .tc main_arg8) : IVec S5000x7 32))
/-- The reference's gathered neighbour rows of the degree-8 bucket. -/
abbrev gath8 (W : Valuation τ sig (Elt Ideal)) : FVec Ideal S3000x8x128 .f32 :=
  Host.gather gather_S200000x128_S3000x8x1_S3000x8x128_2_0_n_n_0_2_1128 (W (Proc.devRef .tc main_arg0) : FVec Ideal S200000x128 .f32)
    (wrap3 bcast_S_S3000x8 bcast_S3000x8_S3000x8x1_0_1 (W (Proc.devRef .tc main_arg9) : IVec S3000x8 32))
/-- The reference's gathered neighbour rows of the degree-9 bucket. -/
abbrev gath9 (W : Valuation τ sig (Elt Ideal)) : FVec Ideal S1500x9x128 .f32 :=
  Host.gather gather_S200000x128_S1500x9x1_S1500x9x128_2_0_n_n_0_2_1128 (W (Proc.devRef .tc main_arg0) : FVec Ideal S200000x128 .f32)
    (wrap3 bcast_S_S1500x9 bcast_S1500x9_S1500x9x1_0_1 (W (Proc.devRef .tc main_arg10) : IVec S1500x9 32))
/-- The reference's gathered neighbour rows of the degree-10 bucket. -/
abbrev gath10 (W : Valuation τ sig (Elt Ideal)) : FVec Ideal S500x10x128 .f32 :=
  Host.gather gather_S200000x128_S500x10x1_S500x10x128_2_0_n_n_0_2_1128 (W (Proc.devRef .tc main_arg0) : FVec Ideal S200000x128 .f32)
    (wrap3 bcast_S_S500x10 bcast_S500x10_S500x10x1_0_1 (W (Proc.devRef .tc main_arg11) : IVec S500x10 32))

/-! ## Two facts about any bucket -/

/-- The reduction by the maximum over the neighbour axis, from minus infinity, at row r and feature f: the fold of
    max over the neighbours' entries. -/
theorem reduce_max_apply {c d : Nat} (g : FVec Ideal ⟨3, ![c, d, 128]⟩ .f32)
    (h' : (⟨3, ![c, d, 128]⟩ : Shape).ReducesTo [1] ⟨2, ![c, 128]⟩) (h0 : 0 < (⟨0, ![]⟩ : Shape).numel)
    (r : Fin c) (f : Fin 128) :
    Host.reduce FloatOps.maximumf g (constant ⟨0, ![]⟩ .f32 0xFF800000#32) h' h0 (ix2 r f) = rowMax g r f := by
  have h : (⟨3, ![c, d, 128]⟩ : Shape).Reduces [1] ⟨2, ![c, 128]⟩ := ⟨h'.1, Nat.zero_lt_two, h'.2⟩
  rw [Host.reduce_eq_fold_single FloatOps.maximumf g _ h' h h0 (ix2 r f)]
  unfold rowMax
  -- the index over (r, f) with the neighbour coordinate k inserted is (r, k, f)
  have e : (g ∘ h.lift (ix2 r f)) = fun k => g (ix3 r k f) := by
    funext k
    show g (h.lift (ix2 r f) k) = g (ix3 r k f)
    congr 1
    funext a
    match a with
    | ⟨0, _⟩ => exact Fin.ext rfl
    | ⟨1, _⟩ => exact Fin.ext rfl
    | ⟨2, _⟩ => exact Fin.ext rfl
  rw [e]
  rfl

/-- A row of the table inside the range [s, s + c) is row s + r for an r below c. -/
theorem row_split {c : Nat} (s : Nat) (hs : s + c ≤ 200000) (i : S200000x128.Idx) (h1 : s ≤ (i 0).val) (h2 : (i 0).val < s + c) :
    ∃ (r : Fin c) (f : Fin 128), i = ix2 ⟨s + r.val, Nat.lt_of_lt_of_le (Nat.add_lt_add_left r.isLt s) hs⟩ f :=
  ⟨⟨(i 0).val - s, by omega⟩, i 1, by
    funext a
    match a with
    | ⟨0, _⟩ => exact Fin.ext (by show (i 0).val = s + ((i 0).val - s); omega)
    | ⟨1, _⟩ => rfl⟩

/-! ## The result as the eleven parts joined -/

/-- The feature table at launch. -/
abbrev tab (W : Valuation τ sig (Elt Ideal)) : FVec Ideal S200000x128 .f32 := W (Proc.devRef .tc main_arg0)

/-- The eleven parts, in order, each with its shape: what the operations before the last leave in the last one's operands. -/
abbrev parts (W : Valuation τ sig (Elt Ideal)) : List ((s : Shape) × (s.Idx → Ideal .f32)) :=
  [⟨S10000x128, StableHlo.after (opsPre (F := Ideal)) W (Proc.devRef .tc main_v0)⟩,
   ⟨S20000x128, StableHlo.after (opsPre (F := Ideal)) W (Proc.devRef .tc main_v10)⟩,
   ⟨S40000x128, StableHlo.after (opsPre (F := Ideal)) W (Proc.devRef .tc main_v20)⟩,
   ⟨S50000x128, StableHlo.after (opsPre (F := Ideal)) W (Proc.devRef .tc main_v30)⟩,
   ⟨S40000x128, StableHlo.after (opsPre (F := Ideal)) W (Proc.devRef .tc main_v40)⟩,
   ⟨S20000x128, StableHlo.after (opsPre (F := Ideal)) W (Proc.devRef .tc main_v50)⟩,
   ⟨S10000x128, StableHlo.after (opsPre (F := Ideal)) W (Proc.devRef .tc main_v60)⟩,
   ⟨S5000x128, StableHlo.after (opsPre (F := Ideal)) W (Proc.devRef .tc main_v70)⟩,
   ⟨S3000x128, StableHlo.after (opsPre (F := Ideal)) W (Proc.devRef .tc main_v80)⟩,
   ⟨S1500x128, StableHlo.after (opsPre (F := Ideal)) W (Proc.devRef .tc main_v90)⟩,
   ⟨S500x128, StableHlo.after (opsPre (F := Ideal)) W (Proc.devRef .tc main_v100)⟩]

/-- The parts joined along the rows. -/
abbrev cat (W : Valuation τ sig (Elt Ideal)) : FVec Ideal S200000x128 .f32 :=
  concatenate S200000x128 0 (parts W) concatenates_S10000x128_S20000x128_S40000x128_S50000x128_S40000x128_S20000x128_S10000x128_S5000x128_S3000x128_S1500x128_S500x128_S200000x128_d0

/-- The result buffer holds the parts joined: the last operation reads its operands after the others have run. -/
theorem result_cat (W : Valuation τ sig (Elt Ideal)) :
    (StableHlo.after (ops (F := Ideal)) W (Proc.devRef .tc main_v101) : FVec Ideal S200000x128 .f32) = cat W := by
  rw [ops_eq, StableHlo.after_append, StableHlo.after_cons, StableHlo.after_nil, StableHlo.nary_result]
  rfl

/-! ## Each part as a function of the launch contents -/

set_option maxHeartbeats 4000000 in
/-- Part 0 is the table's first 10000 rows. -/
theorem part0 (W : Valuation τ sig (Elt Ideal)) :
    (StableHlo.after (opsPre (F := Ideal)) W (Proc.devRef .tc main_v0) : FVec Ideal S10000x128 .f32)
      = extractStridedSlice S10000x128 ![0, 0] (tab W) slices_S200000x128_S10000x128_0_0 := by
  after_results_simp
set_option maxHeartbeats 4000000 in
/-- Part 1: the bucket's own rows against the maximum over its gathered neighbour rows. -/
theorem part1 (W : Valuation τ sig (Elt Ideal)) :
    (StableHlo.after (opsPre (F := Ideal)) W (Proc.devRef .tc main_v10) : FVec Ideal S20000x128 .f32)
      = maximumf (extractStridedSlice S20000x128 ![10000, 0] (tab W) slices_S200000x128_S20000x128_10000_0)
          (Host.reduce FloatOps.maximumf (gath1 W) (constant S_ .f32 0xFF800000#32) reducesTo_S20000x1x128_S20000x128_d1 h_S_) := by
  after_results_simp
set_option maxHeartbeats 4000000 in
/-- Part 2: the bucket's own rows against the maximum over its gathered neighbour rows. -/
theorem part2 (W : Valuation τ sig (Elt Ideal)) :
    (StableHlo.after (opsPre (F := Ideal)) W (Proc.devRef .tc main_v20) : FVec Ideal S40000x128 .f32)
      = maximumf (extractStridedSlice S40000x128 ![30000, 0] (tab W) slices_S200000x128_S40000x128_30000_0)
          (Host.reduce FloatOps.maximumf (gath2 W) (constant S_ .f32 0xFF800000#32) reducesTo_S40000x2x128_S40000x128_d1 h_S_) := by
  after_results_simp
set_option maxHeartbeats 4000000 in
/-- Part 3: the bucket's own rows against the maximum over its gathered neighbour rows. -/
theorem part3 (W : Valuation τ sig (Elt Ideal)) :
    (StableHlo.after (opsPre (F := Ideal)) W (Proc.devRef .tc main_v30) : FVec Ideal S50000x128 .f32)
      = maximumf (extractStridedSlice S50000x128 ![70000, 0] (tab W) slices_S200000x128_S50000x128_70000_0)
          (Host.reduce FloatOps.maximumf (gath3 W) (constant S_ .f32 0xFF800000#32) reducesTo_S50000x3x128_S50000x128_d1 h_S_) := by
  after_results_simp
set_option maxHeartbeats 4000000 in
/-- Part 4: the bucket's own rows against the maximum over its gathered neighbour rows. -/
theorem part4 (W : Valuation τ sig (Elt Ideal)) :
    (StableHlo.after (opsPre (F := Ideal)) W (Proc.devRef .tc main_v40) : FVec Ideal S40000x128 .f32)
      = maximumf (extractStridedSlice S40000x128 ![120000, 0] (tab W) slices_S200000x128_S40000x128_120000_0)
          (Host.reduce FloatOps.maximumf (gath4 W) (constant S_ .f32 0xFF800000#32) reducesTo_S40000x4x128_S40000x128_d1 h_S_) := by
  after_results_simp
set_option maxHeartbeats 4000000 in
/-- Part 5: the bucket's own rows against the maximum over its gathered neighbour rows. -/
theorem part5 (W : Valuation τ sig (Elt Ideal)) :
    (StableHlo.after (opsPre (F := Ideal)) W (Proc.devRef .tc main_v50) : FVec Ideal S20000x128 .f32)
      = maximumf (extractStridedSlice S20000x128 ![160000, 0] (tab W) slices_S200000x128_S20000x128_160000_0)
          (Host.reduce FloatOps.maximumf (gath5 W) (constant S_ .f32 0xFF800000#32) reducesTo_S20000x5x128_S20000x128_d1 h_S_) := by
  after_results_simp
set_option maxHeartbeats 4000000 in
/-- Part 6: the bucket's own rows against the maximum over its gathered neighbour rows. -/
theorem part6 (W : Valuation τ sig (Elt Ideal)) :
    (StableHlo.after (opsPre (F := Ideal)) W (Proc.devRef .tc main_v60) : FVec Ideal S10000x128 .f32)
      = maximumf (extractStridedSlice S10000x128 ![180000, 0] (tab W) slices_S200000x128_S10000x128_180000_0)
          (Host.reduce FloatOps.maximumf (gath6 W) (constant S_ .f32 0xFF800000#32) reducesTo_S10000x6x128_S10000x128_d1 h_S_) := by
  after_results_simp
set_option maxHeartbeats 4000000 in
/-- Part 7: the bucket's own rows against the maximum over its gathered neighbour rows. -/
theorem part7 (W : Valuation τ sig (Elt Ideal)) :
    (StableHlo.after (opsPre (F := Ideal)) W (Proc.devRef .tc main_v70) : FVec Ideal S5000x128 .f32)
      = maximumf (extractStridedSlice S5000x128 ![190000, 0] (tab W) slices_S200000x128_S5000x128_190000_0)
          (Host.reduce FloatOps.maximumf (gath7 W) (constant S_ .f32 0xFF800000#32) reducesTo_S5000x7x128_S5000x128_d1 h_S_) := by
  after_results_simp
set_option maxHeartbeats 4000000 in
/-- Part 8: the bucket's own rows against the maximum over its gathered neighbour rows. -/
theorem part8 (W : Valuation τ sig (Elt Ideal)) :
    (StableHlo.after (opsPre (F := Ideal)) W (Proc.devRef .tc main_v80) : FVec Ideal S3000x128 .f32)
      = maximumf (extractStridedSlice S3000x128 ![195000, 0] (tab W) slices_S200000x128_S3000x128_195000_0)
          (Host.reduce FloatOps.maximumf (gath8 W) (constant S_ .f32 0xFF800000#32) reducesTo_S3000x8x128_S3000x128_d1 h_S_) := by
  after_results_simp
set_option maxHeartbeats 4000000 in
/-- Part 9: the bucket's own rows against the maximum over its gathered neighbour rows. -/
theorem part9 (W : Valuation τ sig (Elt Ideal)) :
    (StableHlo.after (opsPre (F := Ideal)) W (Proc.devRef .tc main_v90) : FVec Ideal S1500x128 .f32)
      = maximumf (extractStridedSlice S1500x128 ![198000, 0] (tab W) slices_S200000x128_S1500x128_198000_0)
          (Host.reduce FloatOps.maximumf (gath9 W) (constant S_ .f32 0xFF800000#32) reducesTo_S1500x9x128_S1500x128_d1 h_S_) := by
  after_results_simp
set_option maxHeartbeats 4000000 in
/-- Part 10: the bucket's own rows against the maximum over its gathered neighbour rows. -/
theorem part10 (W : Valuation τ sig (Elt Ideal)) :
    (StableHlo.after (opsPre (F := Ideal)) W (Proc.devRef .tc main_v100) : FVec Ideal S500x128 .f32)
      = maximumf (extractStridedSlice S500x128 ![199500, 0] (tab W) slices_S200000x128_S500x128_199500_0)
          (Host.reduce FloatOps.maximumf (gath10 W) (constant S_ .f32 0xFF800000#32) reducesTo_S500x10x128_S500x128_d1 h_S_) := by
  after_results_simp
/-! ## The joined parts at a row of each bucket -/

/-- A row of degree 0 holds the table's row. -/
theorem bucket0 (W : Valuation τ sig (Elt Ideal)) (r : Fin 10000) (f : Fin 128) :
    cat W (ix2 ⟨r.val, by omega⟩ f) = tab W (ix2 ⟨r.val, by omega⟩ f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨r.val, by omega⟩ f) 0 (by show (0 : Nat) < 11; decide) S10000x128
    (StableHlo.after (opsPre (F := Ideal)) W (Proc.devRef .tc main_v0)) rfl rfl 0 rfl (ix2 r f)
    (fun b hb => match b with
      | ⟨0, _⟩ => absurd rfl hb
      | ⟨1, _⟩ => rfl)
    (by show 0 + r.val = r.val; omega)
  refine hcat.trans ?_
  rw [part0]
  refine extractStridedSlice_apply ![0, 0] (tab W) slices_S200000x128_S10000x128_0_0 (ix2 r f)
    (ix2 ⟨r.val, by omega⟩ f) (fun a => ?_)
  match a with
  | ⟨0, _⟩ => show r.val = 0 + r.val; omega
  | ⟨1, _⟩ => show f.val = 0 + f.val; omega
/-- Row r of the degree-1 bucket is row r of part 1, whose rows start after 10000 rows of the parts before it. -/
theorem bucket1 (W : Valuation τ sig (Elt Ideal)) (r : Fin 20000) (f : Fin 128) :
    cat W (ix2 ⟨10000 + r.val, by omega⟩ f)
      = max (tab W (ix2 ⟨10000 + r.val, by omega⟩ f)) (rowMax (gath1 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨10000 + r.val, by omega⟩ f) 1 (by show (1 : Nat) < 11; decide) S20000x128
    (StableHlo.after (opsPre (F := Ideal)) W (Proc.devRef .tc main_v10)) rfl rfl 10000
    (by show (10000 + 0 : Nat) = 10000; decide) (ix2 r f)
    (fun b hb => match b with
      | ⟨0, _⟩ => absurd rfl hb
      | ⟨1, _⟩ => rfl)
    rfl
  refine hcat.trans ?_
  rw [part1, maximumf_apply, reduce_max_apply]
  congr 1
  refine extractStridedSlice_apply ![10000, 0] (tab W) slices_S200000x128_S20000x128_10000_0 (ix2 r f)
    (ix2 ⟨10000 + r.val, by omega⟩ f) (fun a => ?_)
  match a with
  | ⟨0, _⟩ => rfl
  | ⟨1, _⟩ => show f.val = 0 + f.val; omega
/-- Row r of the degree-2 bucket is row r of part 2, whose rows start after 30000 rows of the parts before it. -/
theorem bucket2 (W : Valuation τ sig (Elt Ideal)) (r : Fin 40000) (f : Fin 128) :
    cat W (ix2 ⟨30000 + r.val, by omega⟩ f)
      = max (tab W (ix2 ⟨30000 + r.val, by omega⟩ f)) (rowMax (gath2 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨30000 + r.val, by omega⟩ f) 2 (by show (2 : Nat) < 11; decide) S40000x128
    (StableHlo.after (opsPre (F := Ideal)) W (Proc.devRef .tc main_v20)) rfl rfl 30000
    (by show (10000 + (20000 + 0) : Nat) = 30000; decide) (ix2 r f)
    (fun b hb => match b with
      | ⟨0, _⟩ => absurd rfl hb
      | ⟨1, _⟩ => rfl)
    rfl
  refine hcat.trans ?_
  rw [part2, maximumf_apply, reduce_max_apply]
  congr 1
  refine extractStridedSlice_apply ![30000, 0] (tab W) slices_S200000x128_S40000x128_30000_0 (ix2 r f)
    (ix2 ⟨30000 + r.val, by omega⟩ f) (fun a => ?_)
  match a with
  | ⟨0, _⟩ => rfl
  | ⟨1, _⟩ => show f.val = 0 + f.val; omega
/-- Row r of the degree-3 bucket is row r of part 3, whose rows start after 70000 rows of the parts before it. -/
theorem bucket3 (W : Valuation τ sig (Elt Ideal)) (r : Fin 50000) (f : Fin 128) :
    cat W (ix2 ⟨70000 + r.val, by omega⟩ f)
      = max (tab W (ix2 ⟨70000 + r.val, by omega⟩ f)) (rowMax (gath3 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨70000 + r.val, by omega⟩ f) 3 (by show (3 : Nat) < 11; decide) S50000x128
    (StableHlo.after (opsPre (F := Ideal)) W (Proc.devRef .tc main_v30)) rfl rfl 70000
    (by show (10000 + (20000 + (40000 + 0)) : Nat) = 70000; decide) (ix2 r f)
    (fun b hb => match b with
      | ⟨0, _⟩ => absurd rfl hb
      | ⟨1, _⟩ => rfl)
    rfl
  refine hcat.trans ?_
  rw [part3, maximumf_apply, reduce_max_apply]
  congr 1
  refine extractStridedSlice_apply ![70000, 0] (tab W) slices_S200000x128_S50000x128_70000_0 (ix2 r f)
    (ix2 ⟨70000 + r.val, by omega⟩ f) (fun a => ?_)
  match a with
  | ⟨0, _⟩ => rfl
  | ⟨1, _⟩ => show f.val = 0 + f.val; omega
/-- Row r of the degree-4 bucket is row r of part 4, whose rows start after 120000 rows of the parts before it. -/
theorem bucket4 (W : Valuation τ sig (Elt Ideal)) (r : Fin 40000) (f : Fin 128) :
    cat W (ix2 ⟨120000 + r.val, by omega⟩ f)
      = max (tab W (ix2 ⟨120000 + r.val, by omega⟩ f)) (rowMax (gath4 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨120000 + r.val, by omega⟩ f) 4 (by show (4 : Nat) < 11; decide) S40000x128
    (StableHlo.after (opsPre (F := Ideal)) W (Proc.devRef .tc main_v40)) rfl rfl 120000
    (by show (10000 + (20000 + (40000 + (50000 + 0))) : Nat) = 120000; decide) (ix2 r f)
    (fun b hb => match b with
      | ⟨0, _⟩ => absurd rfl hb
      | ⟨1, _⟩ => rfl)
    rfl
  refine hcat.trans ?_
  rw [part4, maximumf_apply, reduce_max_apply]
  congr 1
  refine extractStridedSlice_apply ![120000, 0] (tab W) slices_S200000x128_S40000x128_120000_0 (ix2 r f)
    (ix2 ⟨120000 + r.val, by omega⟩ f) (fun a => ?_)
  match a with
  | ⟨0, _⟩ => rfl
  | ⟨1, _⟩ => show f.val = 0 + f.val; omega
/-- Row r of the degree-5 bucket is row r of part 5, whose rows start after 160000 rows of the parts before it. -/
theorem bucket5 (W : Valuation τ sig (Elt Ideal)) (r : Fin 20000) (f : Fin 128) :
    cat W (ix2 ⟨160000 + r.val, by omega⟩ f)
      = max (tab W (ix2 ⟨160000 + r.val, by omega⟩ f)) (rowMax (gath5 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨160000 + r.val, by omega⟩ f) 5 (by show (5 : Nat) < 11; decide) S20000x128
    (StableHlo.after (opsPre (F := Ideal)) W (Proc.devRef .tc main_v50)) rfl rfl 160000
    (by show (10000 + (20000 + (40000 + (50000 + (40000 + 0)))) : Nat) = 160000; decide) (ix2 r f)
    (fun b hb => match b with
      | ⟨0, _⟩ => absurd rfl hb
      | ⟨1, _⟩ => rfl)
    rfl
  refine hcat.trans ?_
  rw [part5, maximumf_apply, reduce_max_apply]
  congr 1
  refine extractStridedSlice_apply ![160000, 0] (tab W) slices_S200000x128_S20000x128_160000_0 (ix2 r f)
    (ix2 ⟨160000 + r.val, by omega⟩ f) (fun a => ?_)
  match a with
  | ⟨0, _⟩ => rfl
  | ⟨1, _⟩ => show f.val = 0 + f.val; omega
/-- Row r of the degree-6 bucket is row r of part 6, whose rows start after 180000 rows of the parts before it. -/
theorem bucket6 (W : Valuation τ sig (Elt Ideal)) (r : Fin 10000) (f : Fin 128) :
    cat W (ix2 ⟨180000 + r.val, by omega⟩ f)
      = max (tab W (ix2 ⟨180000 + r.val, by omega⟩ f)) (rowMax (gath6 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨180000 + r.val, by omega⟩ f) 6 (by show (6 : Nat) < 11; decide) S10000x128
    (StableHlo.after (opsPre (F := Ideal)) W (Proc.devRef .tc main_v60)) rfl rfl 180000
    (by show (10000 + (20000 + (40000 + (50000 + (40000 + (20000 + 0))))) : Nat) = 180000; decide) (ix2 r f)
    (fun b hb => match b with
      | ⟨0, _⟩ => absurd rfl hb
      | ⟨1, _⟩ => rfl)
    rfl
  refine hcat.trans ?_
  rw [part6, maximumf_apply, reduce_max_apply]
  congr 1
  refine extractStridedSlice_apply ![180000, 0] (tab W) slices_S200000x128_S10000x128_180000_0 (ix2 r f)
    (ix2 ⟨180000 + r.val, by omega⟩ f) (fun a => ?_)
  match a with
  | ⟨0, _⟩ => rfl
  | ⟨1, _⟩ => show f.val = 0 + f.val; omega
/-- Row r of the degree-7 bucket is row r of part 7, whose rows start after 190000 rows of the parts before it. -/
theorem bucket7 (W : Valuation τ sig (Elt Ideal)) (r : Fin 5000) (f : Fin 128) :
    cat W (ix2 ⟨190000 + r.val, by omega⟩ f)
      = max (tab W (ix2 ⟨190000 + r.val, by omega⟩ f)) (rowMax (gath7 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨190000 + r.val, by omega⟩ f) 7 (by show (7 : Nat) < 11; decide) S5000x128
    (StableHlo.after (opsPre (F := Ideal)) W (Proc.devRef .tc main_v70)) rfl rfl 190000
    (by show (10000 + (20000 + (40000 + (50000 + (40000 + (20000 + (10000 + 0)))))) : Nat) = 190000; decide) (ix2 r f)
    (fun b hb => match b with
      | ⟨0, _⟩ => absurd rfl hb
      | ⟨1, _⟩ => rfl)
    rfl
  refine hcat.trans ?_
  rw [part7, maximumf_apply, reduce_max_apply]
  congr 1
  refine extractStridedSlice_apply ![190000, 0] (tab W) slices_S200000x128_S5000x128_190000_0 (ix2 r f)
    (ix2 ⟨190000 + r.val, by omega⟩ f) (fun a => ?_)
  match a with
  | ⟨0, _⟩ => rfl
  | ⟨1, _⟩ => show f.val = 0 + f.val; omega
/-- Row r of the degree-8 bucket is row r of part 8, whose rows start after 195000 rows of the parts before it. -/
theorem bucket8 (W : Valuation τ sig (Elt Ideal)) (r : Fin 3000) (f : Fin 128) :
    cat W (ix2 ⟨195000 + r.val, by omega⟩ f)
      = max (tab W (ix2 ⟨195000 + r.val, by omega⟩ f)) (rowMax (gath8 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨195000 + r.val, by omega⟩ f) 8 (by show (8 : Nat) < 11; decide) S3000x128
    (StableHlo.after (opsPre (F := Ideal)) W (Proc.devRef .tc main_v80)) rfl rfl 195000
    (by show (10000 + (20000 + (40000 + (50000 + (40000 + (20000 + (10000 + (5000 + 0))))))) : Nat) = 195000; decide) (ix2 r f)
    (fun b hb => match b with
      | ⟨0, _⟩ => absurd rfl hb
      | ⟨1, _⟩ => rfl)
    rfl
  refine hcat.trans ?_
  rw [part8, maximumf_apply, reduce_max_apply]
  congr 1
  refine extractStridedSlice_apply ![195000, 0] (tab W) slices_S200000x128_S3000x128_195000_0 (ix2 r f)
    (ix2 ⟨195000 + r.val, by omega⟩ f) (fun a => ?_)
  match a with
  | ⟨0, _⟩ => rfl
  | ⟨1, _⟩ => show f.val = 0 + f.val; omega
/-- Row r of the degree-9 bucket is row r of part 9, whose rows start after 198000 rows of the parts before it. -/
theorem bucket9 (W : Valuation τ sig (Elt Ideal)) (r : Fin 1500) (f : Fin 128) :
    cat W (ix2 ⟨198000 + r.val, by omega⟩ f)
      = max (tab W (ix2 ⟨198000 + r.val, by omega⟩ f)) (rowMax (gath9 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨198000 + r.val, by omega⟩ f) 9 (by show (9 : Nat) < 11; decide) S1500x128
    (StableHlo.after (opsPre (F := Ideal)) W (Proc.devRef .tc main_v90)) rfl rfl 198000
    (by show (10000 + (20000 + (40000 + (50000 + (40000 + (20000 + (10000 + (5000 + (3000 + 0)))))))) : Nat) = 198000; decide) (ix2 r f)
    (fun b hb => match b with
      | ⟨0, _⟩ => absurd rfl hb
      | ⟨1, _⟩ => rfl)
    rfl
  refine hcat.trans ?_
  rw [part9, maximumf_apply, reduce_max_apply]
  congr 1
  refine extractStridedSlice_apply ![198000, 0] (tab W) slices_S200000x128_S1500x128_198000_0 (ix2 r f)
    (ix2 ⟨198000 + r.val, by omega⟩ f) (fun a => ?_)
  match a with
  | ⟨0, _⟩ => rfl
  | ⟨1, _⟩ => show f.val = 0 + f.val; omega
/-- Row r of the degree-10 bucket is row r of part 10, whose rows start after 199500 rows of the parts before it. -/
theorem bucket10 (W : Valuation τ sig (Elt Ideal)) (r : Fin 500) (f : Fin 128) :
    cat W (ix2 ⟨199500 + r.val, by omega⟩ f)
      = max (tab W (ix2 ⟨199500 + r.val, by omega⟩ f)) (rowMax (gath10 W) r f) := by
  have hcat := concatenate_apply_piece (t := S200000x128) 0 (parts W) concatenates_S10000x128_S20000x128_S40000x128_S50000x128_S40000x128_S20000x128_S10000x128_S5000x128_S3000x128_S1500x128_S500x128_S200000x128_d0
    (ix2 ⟨199500 + r.val, by omega⟩ f) 10 (by show (10 : Nat) < 11; decide) S500x128
    (StableHlo.after (opsPre (F := Ideal)) W (Proc.devRef .tc main_v100)) rfl rfl 199500
    (by show (10000 + (20000 + (40000 + (50000 + (40000 + (20000 + (10000 + (5000 + (3000 + (1500 + 0))))))))) : Nat) = 199500; decide) (ix2 r f)
    (fun b hb => match b with
      | ⟨0, _⟩ => absurd rfl hb
      | ⟨1, _⟩ => rfl)
    rfl
  refine hcat.trans ?_
  rw [part10, maximumf_apply, reduce_max_apply]
  congr 1
  refine extractStridedSlice_apply ![199500, 0] (tab W) slices_S200000x128_S500x128_199500_0 (ix2 r f)
    (ix2 ⟨199500 + r.val, by omega⟩ f) (fun a => ?_)
  match a with
  | ⟨0, _⟩ => rfl
  | ⟨1, _⟩ => show f.val = 0 + f.val; omega
/-! ## The result -/

/-- THE RESULT: after all of @main's operations the result buffer holds the pooled table. -/
theorem result_eq (W : Valuation τ sig (Elt Ideal)) :
    (StableHlo.after (ops (F := Ideal)) W (Proc.devRef .tc main_v101) : FVec Ideal S200000x128 .f32)
      = spec (W (Proc.devRef .tc main_arg0) : FVec Ideal S200000x128 .f32) (gath1 W) (gath2 W) (gath3 W) (gath4 W) (gath5 W) (gath6 W) (gath7 W) (gath8 W) (gath9 W) (gath10 W) := by
  rw [result_cat]
  funext i
  have hi := idx2_lt0 i
  by_cases h0 : (i 0).val < 10000
  · obtain ⟨r, f, e⟩ : ∃ (r : Fin 10000) (f : Fin 128), i = ix2 ⟨r.val, by omega⟩ f :=
      ⟨⟨(i 0).val, h0⟩, i 1, by
        funext a
        match a with
        | ⟨0, _⟩ => rfl
        | ⟨1, _⟩ => rfl⟩
    rw [e, bucket0, spec_deg0]
  by_cases h1 : (i 0).val < 30000
  · obtain ⟨r, f, e⟩ := row_split (c := 20000) 10000 (by decide) i (by omega) (by omega)
    rw [e, bucket1, spec_deg1]
  by_cases h2 : (i 0).val < 70000
  · obtain ⟨r, f, e⟩ := row_split (c := 40000) 30000 (by decide) i (by omega) (by omega)
    rw [e, bucket2, spec_deg2]
  by_cases h3 : (i 0).val < 120000
  · obtain ⟨r, f, e⟩ := row_split (c := 50000) 70000 (by decide) i (by omega) (by omega)
    rw [e, bucket3, spec_deg3]
  by_cases h4 : (i 0).val < 160000
  · obtain ⟨r, f, e⟩ := row_split (c := 40000) 120000 (by decide) i (by omega) (by omega)
    rw [e, bucket4, spec_deg4]
  by_cases h5 : (i 0).val < 180000
  · obtain ⟨r, f, e⟩ := row_split (c := 20000) 160000 (by decide) i (by omega) (by omega)
    rw [e, bucket5, spec_deg5]
  by_cases h6 : (i 0).val < 190000
  · obtain ⟨r, f, e⟩ := row_split (c := 10000) 180000 (by decide) i (by omega) (by omega)
    rw [e, bucket6, spec_deg6]
  by_cases h7 : (i 0).val < 195000
  · obtain ⟨r, f, e⟩ := row_split (c := 5000) 190000 (by decide) i (by omega) (by omega)
    rw [e, bucket7, spec_deg7]
  by_cases h8 : (i 0).val < 198000
  · obtain ⟨r, f, e⟩ := row_split (c := 3000) 195000 (by decide) i (by omega) (by omega)
    rw [e, bucket8, spec_deg8]
  by_cases h9 : (i 0).val < 199500
  · obtain ⟨r, f, e⟩ := row_split (c := 1500) 198000 (by decide) i (by omega) (by omega)
    rw [e, bucket9, spec_deg9]
  · obtain ⟨r, f, e⟩ := row_split (c := 500) 199500 (by decide) i (by omega) (by omega)
    rw [e, bucket10, spec_deg10]

/-! ## The arguments are not written -/
set_option maxHeartbeats 4000000 in
theorem arg_kept0 (W : Valuation τ sig (Elt Ideal)) :
    StableHlo.after (ops (F := Ideal)) W (Proc.devRef .tc main_arg0) = W (Proc.devRef .tc main_arg0) := by
  after_results_simp
set_option maxHeartbeats 4000000 in
theorem arg_kept1 (W : Valuation τ sig (Elt Ideal)) :
    StableHlo.after (ops (F := Ideal)) W (Proc.devRef .tc main_arg1) = W (Proc.devRef .tc main_arg1) := by
  after_results_simp
set_option maxHeartbeats 4000000 in
theorem arg_kept2 (W : Valuation τ sig (Elt Ideal)) :
    StableHlo.after (ops (F := Ideal)) W (Proc.devRef .tc main_arg2) = W (Proc.devRef .tc main_arg2) := by
  after_results_simp
set_option maxHeartbeats 4000000 in
theorem arg_kept3 (W : Valuation τ sig (Elt Ideal)) :
    StableHlo.after (ops (F := Ideal)) W (Proc.devRef .tc main_arg3) = W (Proc.devRef .tc main_arg3) := by
  after_results_simp
set_option maxHeartbeats 4000000 in
theorem arg_kept4 (W : Valuation τ sig (Elt Ideal)) :
    StableHlo.after (ops (F := Ideal)) W (Proc.devRef .tc main_arg4) = W (Proc.devRef .tc main_arg4) := by
  after_results_simp
set_option maxHeartbeats 4000000 in
theorem arg_kept5 (W : Valuation τ sig (Elt Ideal)) :
    StableHlo.after (ops (F := Ideal)) W (Proc.devRef .tc main_arg5) = W (Proc.devRef .tc main_arg5) := by
  after_results_simp
set_option maxHeartbeats 4000000 in
theorem arg_kept6 (W : Valuation τ sig (Elt Ideal)) :
    StableHlo.after (ops (F := Ideal)) W (Proc.devRef .tc main_arg6) = W (Proc.devRef .tc main_arg6) := by
  after_results_simp
set_option maxHeartbeats 4000000 in
theorem arg_kept7 (W : Valuation τ sig (Elt Ideal)) :
    StableHlo.after (ops (F := Ideal)) W (Proc.devRef .tc main_arg7) = W (Proc.devRef .tc main_arg7) := by
  after_results_simp
set_option maxHeartbeats 4000000 in
theorem arg_kept8 (W : Valuation τ sig (Elt Ideal)) :
    StableHlo.after (ops (F := Ideal)) W (Proc.devRef .tc main_arg8) = W (Proc.devRef .tc main_arg8) := by
  after_results_simp
set_option maxHeartbeats 4000000 in
theorem arg_kept9 (W : Valuation τ sig (Elt Ideal)) :
    StableHlo.after (ops (F := Ideal)) W (Proc.devRef .tc main_arg9) = W (Proc.devRef .tc main_arg9) := by
  after_results_simp
set_option maxHeartbeats 4000000 in
theorem arg_kept10 (W : Valuation τ sig (Elt Ideal)) :
    StableHlo.after (ops (F := Ideal)) W (Proc.devRef .tc main_arg10) = W (Proc.devRef .tc main_arg10) := by
  after_results_simp
set_option maxHeartbeats 4000000 in
theorem arg_kept11 (W : Valuation τ sig (Elt Ideal)) :
    StableHlo.after (ops (F := Ideal)) W (Proc.devRef .tc main_arg11) = W (Proc.devRef .tc main_arg11) := by
  after_results_simp
/-- No operation writes an argument array. -/
theorem arg_kept (W : Valuation τ sig (Elt Ideal)) (b : Ref sig .tc)
    (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    StableHlo.after (ops (F := Ideal)) W (Proc.devRef .tc b) = W (Proc.devRef .tc b) := by
  rcases hb with rfl | rfl | rfl | rfl | rfl | rfl | rfl | rfl | rfl | rfl | rfl | rfl
  · exact arg_kept0 W
  · exact arg_kept1 W
  · exact arg_kept2 W
  · exact arg_kept3 W
  · exact arg_kept4 W
  · exact arg_kept5 W
  · exact arg_kept6 W
  · exact arg_kept7 W
  · exact arg_kept8 W
  · exact arg_kept9 W
  · exact arg_kept10 W
  · exact arg_kept11 W

end Cert.ReferenceIdeal.RefValue

end
-- ==== Proof.PreRange.lean ====
/-
  The precondition, read back as ten range facts.

  The precondition is one bit: the conjunction, nested to the left, of eleven one-bit scalars. The first says that every
  entry of the float table is finite. Each of the other ten belongs to one of the ten index arrays `a`: it is the test
  `a ≥ 0` and `a < 200000`, entry by entry, reduced by `and` over both axes from the word 1. A conjunction of bits
  is 1 exactly when both bits are, so when the precondition is 1 each of the ten reductions is 1, and then every entry
  of each index array, read signed, lies in [0, 200000).
-/
import proofs.«430485_j17085379904194_3_alg».proof.Pre_finite_inputs
import proofs.«430485_j17085379904194_3_alg».proof.Proof.LibIndexRange
import Idealize.ShloMosaic.PureOps
import Idealize.ShloMosaic.Lib.ValueIdx
import Idealize.ShloMosaic.Lib.Affine

namespace Cert.PreRange

open Idealize.ShloMosaic Idealize.ShloMosaic.ValueIdx Cert.Pre_finite_inputs Cert.Pre_finite_inputs.Facts

/-- A conjunction of two one-bit scalars that reads 1 has both its operands reading 1. -/
theorem and_at {s : Shape} {x y : IVec s 1} {i : s.Idx} (h : andi x y i = 1#1) : x i = 1#1 ∧ y i = 1#1 :=
  IntOp.andi_eq_one.1 h

/-- The precondition being 1 puts every entry of each of the ten index arrays in [0, 200000). -/
theorem ranges [hP : Cert.Pre_finite_inputs.Facts] {F : FTy → Type} [FloatOps F]
    (a0 : FVec F Cert.Pre_finite_inputs.S200000x128 .f32) (a1 : IVec Cert.Pre_finite_inputs.S11x2 32) (a2 : IVec Cert.Pre_finite_inputs.S20000x1 32) (a3 : IVec Cert.Pre_finite_inputs.S40000x2 32) (a4 : IVec Cert.Pre_finite_inputs.S50000x3 32) (a5 : IVec Cert.Pre_finite_inputs.S40000x4 32) (a6 : IVec Cert.Pre_finite_inputs.S20000x5 32) (a7 : IVec Cert.Pre_finite_inputs.S10000x6 32) (a8 : IVec Cert.Pre_finite_inputs.S5000x7 32) (a9 : IVec Cert.Pre_finite_inputs.S3000x8 32) (a10 : IVec Cert.Pre_finite_inputs.S1500x9 32) (a11 : IVec Cert.Pre_finite_inputs.S500x10 32)
    (h : Cert.Pre_finite_inputs.fn (F := F) a0 a1 a2 a3 a4 a5 a6 a7 a8 a9 a10 a11 = fun _ => 1#1) :
    (∀ i, (0 : Int) ≤ (a2 i).toInt ∧ (a2 i).toInt < 200000) ∧
    (∀ i, (0 : Int) ≤ (a3 i).toInt ∧ (a3 i).toInt < 200000) ∧
    (∀ i, (0 : Int) ≤ (a4 i).toInt ∧ (a4 i).toInt < 200000) ∧
    (∀ i, (0 : Int) ≤ (a5 i).toInt ∧ (a5 i).toInt < 200000) ∧
    (∀ i, (0 : Int) ≤ (a6 i).toInt ∧ (a6 i).toInt < 200000) ∧
    (∀ i, (0 : Int) ≤ (a7 i).toInt ∧ (a7 i).toInt < 200000) ∧
    (∀ i, (0 : Int) ≤ (a8 i).toInt ∧ (a8 i).toInt < 200000) ∧
    (∀ i, (0 : Int) ≤ (a9 i).toInt ∧ (a9 i).toInt < 200000) ∧
    (∀ i, (0 : Int) ≤ (a10 i).toInt ∧ (a10 i).toInt < 200000) ∧
    (∀ i, (0 : Int) ≤ (a11 i).toInt ∧ (a11 i).toInt < 200000) := by
  -- the precondition at its one index, split from the outside in: the last conjunct first
  have e : Cert.Pre_finite_inputs.fn (F := F) a0 a1 a2 a3 a4 a5 a6 a7 a8 a9 a10 a11 ix0 = 1#1 := congrFun h ix0
  obtain ⟨e10, r11⟩ := and_at e
  obtain ⟨e9, r10⟩ := and_at e10
  obtain ⟨e8, r9⟩ := and_at e9
  obtain ⟨e7, r8⟩ := and_at e8
  obtain ⟨e6, r7⟩ := and_at e7
  obtain ⟨e5, r6⟩ := and_at e6
  obtain ⟨e4, r5⟩ := and_at e5
  obtain ⟨e3, r4⟩ := and_at e4
  obtain ⟨e2, r3⟩ := and_at e3
  obtain ⟨_, r2⟩ := and_at e2
  exact ⟨Cert.Lib.IndexRange.range_of_all bcast_S_S20000x1 reducesTo_S20000x1_S_d0_1 h_S_ a2 r2,
    Cert.Lib.IndexRange.range_of_all bcast_S_S40000x2 reducesTo_S40000x2_S_d0_1 h_S_ a3 r3,
    Cert.Lib.IndexRange.range_of_all bcast_S_S50000x3 reducesTo_S50000x3_S_d0_1 h_S_ a4 r4,
    Cert.Lib.IndexRange.range_of_all bcast_S_S40000x4 reducesTo_S40000x4_S_d0_1 h_S_ a5 r5,
    Cert.Lib.IndexRange.range_of_all bcast_S_S20000x5 reducesTo_S20000x5_S_d0_1 h_S_ a6 r6,
    Cert.Lib.IndexRange.range_of_all bcast_S_S10000x6 reducesTo_S10000x6_S_d0_1 h_S_ a7 r7,
    Cert.Lib.IndexRange.range_of_all bcast_S_S5000x7 reducesTo_S5000x7_S_d0_1 h_S_ a8 r8,
    Cert.Lib.IndexRange.range_of_all bcast_S_S3000x8 reducesTo_S3000x8_S_d0_1 h_S_ a9 r9,
    Cert.Lib.IndexRange.range_of_all bcast_S_S1500x9 reducesTo_S1500x9_S_d0_1 h_S_ a10 r10,
    Cert.Lib.IndexRange.range_of_all bcast_S_S500x10 reducesTo_S500x10_S_d0_1 h_S_ a11 r11⟩

end Cert.PreRange
-- ==== Proof.lean ====
/-
  Degree-bucketed graph pooling: a chain of eleven Pallas regions against its jnp reference, over the extended reals.

  Both programs compute, for every atom row of the 200000 x 128 feature table, the maximum of the row and of the rows
  its neighbour indices name; atoms are laid out by degree in contiguous row ranges, a degree-0 atom is kept.  The
  kernel program copies the degree-0 rows, then for each degree gathers the neighbour rows on the host and pools one
  bucket per region into the shared output (degrees 1 to 8 in place through an aliased window, degrees 9 and 10 into
  arrays of their own that two overwriting scatters of whole rows splice in).  The reference slices, gathers, reduces
  and concatenates.  The two gathers differ outside the table: the kernel's fills a row whose index is out of range
  with a value that reads as minus infinity, the reference's clamps the index; the precondition keeps every neighbour
  index inside the table, where both are the same gather.  At the exact instance a maximum over neighbours is a fold
  of max from minus infinity, on either side, so both results are one function of the arguments (Spec.lean).

  The frames of the two kernel programs are generated; the reference's frame and both runs' values are read off the
  runs: the kernel's through the boundary contents of its segments (Keeps, Takes, Region0 … Region10, Step0 … Step10,
  Tail, Chain), the reference's operation by operation (RefRun, RefValue).
-/
import proofs.«430485_j17085379904194_3_alg».proof.Defs
import proofs.«430485_j17085379904194_3_alg».proof.Proof.Gen.Kernel
import proofs.«430485_j17085379904194_3_alg».proof.Proof.Gen.Kernel.Frame
import proofs.«430485_j17085379904194_3_alg».proof.Proof.Gen.KernelIdeal
import proofs.«430485_j17085379904194_3_alg».proof.Proof.Gen.KernelIdeal.Frame
import proofs.«430485_j17085379904194_3_alg».proof.Proof.Gen.ReferenceIdeal
import proofs.«430485_j17085379904194_3_alg».proof.Proof.Gen.Pre_finite_inputs
import proofs.«430485_j17085379904194_3_alg».proof.Proof.KRun
import proofs.«430485_j17085379904194_3_alg».proof.Proof.Chain
import proofs.«430485_j17085379904194_3_alg».proof.Proof.RefValue
import proofs.«430485_j17085379904194_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, with every argument read back through the operations, none of which writes it. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.arg_kept (launchContents m c) Cert.ReferenceIdeal.main_arg0 (by simp)),
     (h c Cert.ReferenceIdeal.main_arg1).trans (Cert.ReferenceIdeal.RefValue.arg_kept (launchContents m c) Cert.ReferenceIdeal.main_arg1 (by simp)),
     (h c Cert.ReferenceIdeal.main_arg2).trans (Cert.ReferenceIdeal.RefValue.arg_kept (launchContents m c) Cert.ReferenceIdeal.main_arg2 (by simp)),
     (h c Cert.ReferenceIdeal.main_arg3).trans (Cert.ReferenceIdeal.RefValue.arg_kept (launchContents m c) Cert.ReferenceIdeal.main_arg3 (by simp)),
     (h c Cert.ReferenceIdeal.main_arg4).trans (Cert.ReferenceIdeal.RefValue.arg_kept (launchContents m c) Cert.ReferenceIdeal.main_arg4 (by simp)),
     (h c Cert.ReferenceIdeal.main_arg5).trans (Cert.ReferenceIdeal.RefValue.arg_kept (launchContents m c) Cert.ReferenceIdeal.main_arg5 (by simp)),
     (h c Cert.ReferenceIdeal.main_arg6).trans (Cert.ReferenceIdeal.RefValue.arg_kept (launchContents m c) Cert.ReferenceIdeal.main_arg6 (by simp)),
     (h c Cert.ReferenceIdeal.main_arg7).trans (Cert.ReferenceIdeal.RefValue.arg_kept (launchContents m c) Cert.ReferenceIdeal.main_arg7 (by simp)),
     (h c Cert.ReferenceIdeal.main_arg8).trans (Cert.ReferenceIdeal.RefValue.arg_kept (launchContents m c) Cert.ReferenceIdeal.main_arg8 (by simp)),
     (h c Cert.ReferenceIdeal.main_arg9).trans (Cert.ReferenceIdeal.RefValue.arg_kept (launchContents m c) Cert.ReferenceIdeal.main_arg9 (by simp)),
     (h c Cert.ReferenceIdeal.main_arg10).trans (Cert.ReferenceIdeal.RefValue.arg_kept (launchContents m c) Cert.ReferenceIdeal.main_arg10 (by simp)),
     (h c Cert.ReferenceIdeal.main_arg11).trans (Cert.ReferenceIdeal.RefValue.arg_kept (launchContents m c) Cert.ReferenceIdeal.main_arg11 (by simp))⟩)
    (Cert.ReferenceIdeal.ValueP.run_raw (F := Ideal) m ρ)

/-- The two programs end with the same result: the pooled table of the arguments. -/
theorem algebraic : Cert.algebraic_KernelIdeal_ReferenceIdeal := by
  intro m g m' g' hpre hagree
  -- every neighbour index names a row of the table, on every device
  have hr := fun c => Cert.PreRange.ranges _ _ _ _ _ _ _ _ _ _ _ _ (hpre c)
  refine ⟨fun c => Cert.KernelIdeal.Thread.pooledTab m c, ?_, ?_⟩
  · refine (θ_run Cert.KernelIdeal.defs _ _).mono (fun r h c => ?_) (Cert.KernelIdeal.Gen.run_result (F := Ideal) m g)
    obtain ⟨hv, hargs⟩ := h c
    exact ⟨hv.trans (Cert.KernelIdeal.Thread.result_eq m g
      (fun c => (hr c).1) (fun c => (hr c).2.1) (fun c => (hr c).2.2.1) (fun c => (hr c).2.2.2.1) (fun c => (hr c).2.2.2.2.1)
      (fun c => (hr c).2.2.2.2.2.1) (fun c => (hr c).2.2.2.2.2.2.1) (fun c => (hr c).2.2.2.2.2.2.2.1) (fun c => (hr c).2.2.2.2.2.2.2.2.1)
      (fun c => (hr c).2.2.2.2.2.2.2.2.2) c), hargs⟩
  · refine (θ_run Cert.ReferenceIdeal.defs _ _).mono (fun r h c => ?_) (Cert.ReferenceIdeal.ValueP.run_raw (F := Ideal) m' g')
    obtain ⟨a0, a1, a2, a3, a4, a5, a6, a7, a8, a9, a10, a11⟩ := hagree c
    refine ⟨(h c Cert.ReferenceIdeal.main_v101).trans ?_,
     (h c Cert.ReferenceIdeal.main_arg0).trans (Cert.ReferenceIdeal.RefValue.arg_kept (launchContents m' c) Cert.ReferenceIdeal.main_arg0 (by simp)),
     (h c Cert.ReferenceIdeal.main_arg1).trans (Cert.ReferenceIdeal.RefValue.arg_kept (launchContents m' c) Cert.ReferenceIdeal.main_arg1 (by simp)),
     (h c Cert.ReferenceIdeal.main_arg2).trans (Cert.ReferenceIdeal.RefValue.arg_kept (launchContents m' c) Cert.ReferenceIdeal.main_arg2 (by simp)),
     (h c Cert.ReferenceIdeal.main_arg3).trans (Cert.ReferenceIdeal.RefValue.arg_kept (launchContents m' c) Cert.ReferenceIdeal.main_arg3 (by simp)),
     (h c Cert.ReferenceIdeal.main_arg4).trans (Cert.ReferenceIdeal.RefValue.arg_kept (launchContents m' c) Cert.ReferenceIdeal.main_arg4 (by simp)),
     (h c Cert.ReferenceIdeal.main_arg5).trans (Cert.ReferenceIdeal.RefValue.arg_kept (launchContents m' c) Cert.ReferenceIdeal.main_arg5 (by simp)),
     (h c Cert.ReferenceIdeal.main_arg6).trans (Cert.ReferenceIdeal.RefValue.arg_kept (launchContents m' c) Cert.ReferenceIdeal.main_arg6 (by simp)),
     (h c Cert.ReferenceIdeal.main_arg7).trans (Cert.ReferenceIdeal.RefValue.arg_kept (launchContents m' c) Cert.ReferenceIdeal.main_arg7 (by simp)),
     (h c Cert.ReferenceIdeal.main_arg8).trans (Cert.ReferenceIdeal.RefValue.arg_kept (launchContents m' c) Cert.ReferenceIdeal.main_arg8 (by simp)),
     (h c Cert.ReferenceIdeal.main_arg9).trans (Cert.ReferenceIdeal.RefValue.arg_kept (launchContents m' c) Cert.ReferenceIdeal.main_arg9 (by simp)),
     (h c Cert.ReferenceIdeal.main_arg10).trans (Cert.ReferenceIdeal.RefValue.arg_kept (launchContents m' c) Cert.ReferenceIdeal.main_arg10 (by simp)),
     (h c Cert.ReferenceIdeal.main_arg11).trans (Cert.ReferenceIdeal.RefValue.arg_kept (launchContents m' c) Cert.ReferenceIdeal.main_arg11 (by simp))⟩
    rw [Cert.ReferenceIdeal.RefValue.result_eq (launchContents m' c)]
    have b0 : launchContents m' c (Proc.devRef .tc Cert.ReferenceIdeal.main_arg0) = m ((c.tc : Thread Cert.KernelIdeal.nD Cert.KernelIdeal.τ).loc Cert.KernelIdeal.main_arg0) := a0
    have b2 : launchContents m' c (Proc.devRef .tc Cert.ReferenceIdeal.main_arg2) = m ((c.tc : Thread Cert.KernelIdeal.nD Cert.KernelIdeal.τ).loc Cert.KernelIdeal.main_arg2) := a2
    have b3 : launchContents m' c (Proc.devRef .tc Cert.ReferenceIdeal.main_arg3) = m ((c.tc : Thread Cert.KernelIdeal.nD Cert.KernelIdeal.τ).loc Cert.KernelIdeal.main_arg3) := a3
    have b4 : launchContents m' c (Proc.devRef .tc Cert.ReferenceIdeal.main_arg4) = m ((c.tc : Thread Cert.KernelIdeal.nD Cert.KernelIdeal.τ).loc Cert.KernelIdeal.main_arg4) := a4
    have b5 : launchContents m' c (Proc.devRef .tc Cert.ReferenceIdeal.main_arg5) = m ((c.tc : Thread Cert.KernelIdeal.nD Cert.KernelIdeal.τ).loc Cert.KernelIdeal.main_arg5) := a5
    have b6 : launchContents m' c (Proc.devRef .tc Cert.ReferenceIdeal.main_arg6) = m ((c.tc : Thread Cert.KernelIdeal.nD Cert.KernelIdeal.τ).loc Cert.KernelIdeal.main_arg6) := a6
    have b7 : launchContents m' c (Proc.devRef .tc Cert.ReferenceIdeal.main_arg7) = m ((c.tc : Thread Cert.KernelIdeal.nD Cert.KernelIdeal.τ).loc Cert.KernelIdeal.main_arg7) := a7
    have b8 : launchContents m' c (Proc.devRef .tc Cert.ReferenceIdeal.main_arg8) = m ((c.tc : Thread Cert.KernelIdeal.nD Cert.KernelIdeal.τ).loc Cert.KernelIdeal.main_arg8) := a8
    have b9 : launchContents m' c (Proc.devRef .tc Cert.ReferenceIdeal.main_arg9) = m ((c.tc : Thread Cert.KernelIdeal.nD Cert.KernelIdeal.τ).loc Cert.KernelIdeal.main_arg9) := a9
    have b10 : launchContents m' c (Proc.devRef .tc Cert.ReferenceIdeal.main_arg10) = m ((c.tc : Thread Cert.KernelIdeal.nD Cert.KernelIdeal.τ).loc Cert.KernelIdeal.main_arg10) := a10
    have b11 : launchContents m' c (Proc.devRef .tc Cert.ReferenceIdeal.main_arg11) = m ((c.tc : Thread Cert.KernelIdeal.nD Cert.KernelIdeal.τ).loc Cert.KernelIdeal.main_arg11) := a11
    show Cert.Pool.spec _ _ _ _ _ _ _ _ _ _ _ = Cert.KernelIdeal.Thread.pooledTab m c
    unfold Cert.ReferenceIdeal.RefValue.gath1 Cert.ReferenceIdeal.RefValue.gath2 Cert.ReferenceIdeal.RefValue.gath3 Cert.ReferenceIdeal.RefValue.gath4 Cert.ReferenceIdeal.RefValue.gath5 Cert.ReferenceIdeal.RefValue.gath6 Cert.ReferenceIdeal.RefValue.gath7 Cert.ReferenceIdeal.RefValue.gath8 Cert.ReferenceIdeal.RefValue.gath9 Cert.ReferenceIdeal.RefValue.gath10
    rw [b0, b2, b3, b4, b5, b6, b7, b8, b9, b10, b11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
